-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x3x128 : Shape := ⟨3, ![10000, 3, 128]⟩
abbrev S2x256000 : Shape := ⟨2, ![2, 256000]⟩
abbrev S256000x20 : Shape := ⟨2, ![256000, 20]⟩
abbrev S256000x3 : Shape := ⟨2, ![256000, 3]⟩
abbrev S256000 : Shape := ⟨1, ![256000]⟩
abbrev S128x384 : Shape := ⟨2, ![128, 384]⟩
abbrev S384 : Shape := ⟨1, ![384]⟩
abbrev S384x384 : Shape := ⟨2, ![384, 384]⟩
abbrev S20x128 : Shape := ⟨2, ![20, 128]⟩
abbrev S128 : Shape := ⟨1, ![128]⟩
abbrev S128x256 : Shape := ⟨2, ![128, 256]⟩
abbrev S256x384 : Shape := ⟨2, ![256, 384]⟩
abbrev S_ : Shape := ⟨0, ![]⟩
abbrev S1x256000 : Shape := ⟨2, ![1, 256000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x3x128 : S_.BroadcastsInDim S10000x3x128 (![] : Fin 0 → Fin S10000x3x128.rank)
  reducesTo_S10000x3x128_S_d0_1_2 : S10000x3x128.ReducesTo [0, 1, 2] S_
  bcast_S_S256000x20 : S_.BroadcastsInDim S256000x20 (![] : Fin 0 → Fin S256000x20.rank)
  reducesTo_S256000x20_S_d0_1 : S256000x20.ReducesTo [0, 1] S_
  bcast_S_S256000x3 : S_.BroadcastsInDim S256000x3 (![] : Fin 0 → Fin S256000x3.rank)
  reducesTo_S256000x3_S_d0_1 : S256000x3.ReducesTo [0, 1] S_
  bcast_S_S256000 : S_.BroadcastsInDim S256000 (![] : Fin 0 → Fin S256000.rank)
  reducesTo_S256000_S_d0 : S256000.ReducesTo [0] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S384x384 : S_.BroadcastsInDim S384x384 (![] : Fin 0 → Fin S384x384.rank)
  reducesTo_S384x384_S_d0_1 : S384x384.ReducesTo [0, 1] S_
  bcast_S_S20x128 : S_.BroadcastsInDim S20x128 (![] : Fin 0 → Fin S20x128.rank)
  reducesTo_S20x128_S_d0_1 : S20x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256x384 : S_.BroadcastsInDim S256x384 (![] : Fin 0 → Fin S256x384.rank)
  reducesTo_S256x384_S_d0_1 : S256x384.ReducesTo [0, 1] S_
  slices_S2x256000_S1x256000_1_0 : S2x256000.Slices ![1, 0] S1x256000
  shapeCasts_S1x256000_S256000 : S1x256000.ShapeCasts S256000

variable [Facts]

def fn_part5 {F : FTy → Type} [FloatOps F] (main_arg2 : IVec S2x256000 32) (main_v83 : IVec S_ 1) (main_v84 : FVec F S384 .f32) (main_cst_32 : FVec F S_ .f32) : IVec S_ 1 :=
  let main_v85 : FVec F S384 .f32 := broadcastInDim S384 ![] bcast_S_S384 main_cst_32
  let main_v86 : IVec S384 1 := cmpf .olt main_v84 main_v85
  let main_c_33 : IVec S_ 1 := constantI S_ 1 1#1
  let main_v87 : IVec S_ 1 := (fun x v => Host.reduce IntOp.andi x v reducesTo_S384_S_d0 h_S_) main_v86 main_c_33
  let main_v88 : IVec S_ 1 := andi main_v83 main_v87
  let main_v89 : IVec S1x256000 32 := (extractStridedSlice S1x256000 ![1, 0] · slices_S2x256000_S1x256000_1_0) main_arg2
  let main_v90 : IVec S256000 32 := shapeCast S256000 main_v89 shapeCasts_S1x256000_S256000
  let main_c_34 : IVec S_ 32 := constantI S_ 32 0#32
  let main_v91 : IVec S256000 32 := broadcastInDim S256000 ![] bcast_S_S256000 main_c_34
  let main_v92 : IVec S256000 1 := cmpi .sge main_v90 main_v91
  let main_c_35 : IVec S_ 1 := constantI S_ 1 1#1
  let main_v93 : IVec S_ 1 := (fun x v => Host.reduce IntOp.andi x v reducesTo_S256000_S_d0 h_S_) main_v92 main_c_35
  let main_v94 : IVec S_ 1 := andi main_v88 main_v93
  main_v94

def fn_part4 {F : FTy → Type} [FloatOps F] (main_arg2 : IVec S2x256000 32) (main_arg15 : FVec F S256x384 .f32) (main_arg16 : FVec F S384 .f32) (main_arg17 : FVec F S384x384 .f32) (main_arg18 : FVec F S384 .f32) (main_v63 : IVec S_ 1) (main_v67 : IVec S_ 1) : IVec S_ 1 :=
  let main_v68 : IVec S_ 1 := andi main_v63 main_v67
  let main_v69 : FVec F S256x384 .f32 := Host.absf main_arg15
  let main_cst_26 : FVec F S_ .f32 := constant S_ .f32 0x7F800000#32
  let main_v70 : FVec F S256x384 .f32 := broadcastInDim S256x384 ![] bcast_S_S256x384 main_cst_26
  let main_v71 : IVec S256x384 1 := cmpf .olt main_v69 main_v70
  let main_c_27 : IVec S_ 1 := constantI S_ 1 1#1
  let main_v72 : IVec S_ 1 := (fun x v => Host.reduce IntOp.andi x v reducesTo_S256x384_S_d0_1 h_S_) main_v71 main_c_27
  let main_v73 : IVec S_ 1 := andi main_v68 main_v72
  let main_v74 : FVec F S384 .f32 := Host.absf main_arg16
  let main_cst_28 : FVec F S_ .f32 := constant S_ .f32 0x7F800000#32
  let main_v75 : FVec F S384 .f32 := broadcastInDim S384 ![] bcast_S_S384 main_cst_28
  let main_v76 : IVec S384 1 := cmpf .olt main_v74 main_v75
  let main_c_29 : IVec S_ 1 := constantI S_ 1 1#1
  let main_v77 : IVec S_ 1 := (fun x v => Host.reduce IntOp.andi x v reducesTo_S384_S_d0 h_S_) main_v76 main_c_29
  let main_v78 : IVec S_ 1 := andi main_v73 main_v77
  let main_v79 : FVec F S384x384 .f32 := Host.absf main_arg17
  let main_cst_30 : FVec F S_ .f32 := constant S_ .f32 0x7F800000#32
  let main_v80 : FVec F S384x384 .f32 := broadcastInDim S384x384 ![] bcast_S_S384x384 main_cst_30
  let main_v81 : IVec S384x384 1 := cmpf .olt main_v79 main_v80
  let main_c_31 : IVec S_ 1 := constantI S_ 1 1#1
  let main_v82 : IVec S_ 1 := (fun x v => Host.reduce IntOp.andi x v reducesTo_S384x384_S_d0_1 h_S_) main_v81 main_c_31
  let main_v83 : IVec S_ 1 := andi main_v78 main_v82
  let main_v84 : FVec F S384 .f32 := Host.absf main_arg18
  let main_cst_32 : FVec F S_ .f32 := constant S_ .f32 0x7F800000#32
  fn_part5 (F := F) main_arg2 main_v83 main_v84 main_cst_32

def fn_part3 {F : FTy → Type} [FloatOps F] (main_arg2 : IVec S2x256000 32) (main_arg12 : FVec F S128x384 .f32) (main_arg13 : FVec F S384 .f32) (main_arg14 : FVec F S128x256 .f32) (main_arg15 : FVec F S256x384 .f32) (main_arg16 : FVec F S384 .f32) (main_arg17 : FVec F S384x384 .f32) (main_arg18 : FVec F S384 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x384 .f32 := Host.absf main_arg12
  let main_cst_20 : FVec F S_ .f32 := constant S_ .f32 0x7F800000#32
  let main_v55 : FVec F S128x384 .f32 := broadcastInDim S128x384 ![] bcast_S_S128x384 main_cst_20
  let main_v56 : IVec S128x384 1 := cmpf .olt main_v54 main_v55
  let main_c_21 : IVec S_ 1 := constantI S_ 1 1#1
  let main_v57 : IVec S_ 1 := (fun x v => Host.reduce IntOp.andi x v reducesTo_S128x384_S_d0_1 h_S_) main_v56 main_c_21
  let main_v58 : IVec S_ 1 := andi main_v53 main_v57
  let main_v59 : FVec F S384 .f32 := Host.absf main_arg13
  let main_cst_22 : FVec F S_ .f32 := constant S_ .f32 0x7F800000#32
  let main_v60 : FVec F S384 .f32 := broadcastInDim S384 ![] bcast_S_S384 main_cst_22
  let main_v61 : IVec S384 1 := cmpf .olt main_v59 main_v60
  let main_c_23 : IVec S_ 1 := constantI S_ 1 1#1
  let main_v62 : IVec S_ 1 := (fun x v => Host.reduce IntOp.andi x v reducesTo_S384_S_d0 h_S_) main_v61 main_c_23
  let main_v63 : IVec S_ 1 := andi main_v58 main_v62
  let main_v64 : FVec F S128x256 .f32 := Host.absf main_arg14
  let main_cst_24 : FVec F S_ .f32 := constant S_ .f32 0x7F800000#32
  let main_v65 : FVec F S128x256 .f32 := broadcastInDim S128x256 ![] bcast_S_S128x256 main_cst_24
  let main_v66 : IVec S128x256 1 := cmpf .olt main_v64 main_v65
  let main_c_25 : IVec S_ 1 := constantI S_ 1 1#1
  let main_v67 : IVec S_ 1 := (fun x v => Host.reduce IntOp.andi x v reducesTo_S128x256_S_d0_1 h_S_) main_v66 main_c_25
  fn_part4 (F := F) main_arg2 main_arg15 main_arg16 main_arg17 main_arg18 main_v63 main_v67

def fn_part2 {F : FTy → Type} [FloatOps F] (main_arg2 : IVec S2x256000 32) (main_arg8 : FVec F S384x384 .f32) (main_arg9 : FVec F S384 .f32) (main_arg10 : FVec F S20x128 .f32) (main_arg11 : FVec F S128 .f32) (main_arg12 : FVec F S128x384 .f32) (main_arg13 : FVec F S384 .f32) (main_arg14 : FVec F S128x256 .f32) (main_arg15 : FVec F S256x384 .f32) (main_arg16 : FVec F S384 .f32) (main_arg17 : FVec F S384x384 .f32) (main_arg18 : FVec F S384 .f32) (main_v33 : IVec S_ 1) : IVec S_ 1 :=
  let main_v34 : FVec F S384x384 .f32 := Host.absf main_arg8
  let main_cst_12 : FVec F S_ .f32 := constant S_ .f32 0x7F800000#32
  let main_v35 : FVec F S384x384 .f32 := broadcastInDim S384x384 ![] bcast_S_S384x384 main_cst_12
  let main_v36 : IVec S384x384 1 := cmpf .olt main_v34 main_v35
  let main_c_13 : IVec S_ 1 := constantI S_ 1 1#1
  let main_v37 : IVec S_ 1 := (fun x v => Host.reduce IntOp.andi x v reducesTo_S384x384_S_d0_1 h_S_) main_v36 main_c_13
  let main_v38 : IVec S_ 1 := andi main_v33 main_v37
  let main_v39 : FVec F S384 .f32 := Host.absf main_arg9
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S20x128 .f32 := Host.absf main_arg10
  let main_cst_16 : FVec F S_ .f32 := constant S_ .f32 0x7F800000#32
  let main_v45 : FVec F S20x128 .f32 := broadcastInDim S20x128 ![] bcast_S_S20x128 main_cst_16
  let main_v46 : IVec S20x128 1 := cmpf .olt main_v44 main_v45
  let main_c_17 : IVec S_ 1 := constantI S_ 1 1#1
  let main_v47 : IVec S_ 1 := (fun x v => Host.reduce IntOp.andi x v reducesTo_S20x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg2 main_arg12 main_arg13 main_arg14 main_arg15 main_arg16 main_arg17 main_arg18 main_v48 main_v49 main_v50

def fn_part1 {F : FTy → Type} [FloatOps F] (main_arg2 : IVec S2x256000 32) (main_arg5 : FVec F S256000 .f32) (main_arg6 : FVec F S128x384 .f32) (main_arg7 : FVec F S384 .f32) (main_arg8 : FVec F S384x384 .f32) (main_arg9 : FVec F S384 .f32) (main_arg10 : FVec F S20x128 .f32) (main_arg11 : FVec F S128 .f32) (main_arg12 : FVec F S128x384 .f32) (main_arg13 : FVec F S384 .f32) (main_arg14 : FVec F S128x256 .f32) (main_arg15 : FVec F S256x384 .f32) (main_arg16 : FVec F S384 .f32) (main_arg17 : FVec F S384x384 .f32) (main_arg18 : FVec F S384 .f32) (main_v13 : IVec S_ 1) (main_v16 : IVec S256000x3 1) : IVec S_ 1 :=
  let main_c_5 : IVec S_ 1 := constantI S_ 1 1#1
  let main_v17 : IVec S_ 1 := (fun x v => Host.reduce IntOp.andi x v reducesTo_S256000x3_S_d0_1 h_S_) main_v16 main_c_5
  let main_v18 : IVec S_ 1 := andi main_v13 main_v17
  let main_v19 : FVec F S256000 .f32 := Host.absf main_arg5
  let main_cst_6 : FVec F S_ .f32 := constant S_ .f32 0x7F800000#32
  let main_v20 : FVec F S256000 .f32 := broadcastInDim S256000 ![] bcast_S_S256000 main_cst_6
  let main_v21 : IVec S256000 1 := cmpf .olt main_v19 main_v20
  let main_c_7 : IVec S_ 1 := constantI S_ 1 1#1
  let main_v22 : IVec S_ 1 := (fun x v => Host.reduce IntOp.andi x v reducesTo_S256000_S_d0 h_S_) main_v21 main_c_7
  let main_v23 : IVec S_ 1 := andi main_v18 main_v22
  let main_v24 : FVec F S128x384 .f32 := Host.absf main_arg6
  let main_cst_8 : FVec F S_ .f32 := constant S_ .f32 0x7F800000#32
  let main_v25 : FVec F S128x384 .f32 := broadcastInDim S128x384 ![] bcast_S_S128x384 main_cst_8
  let main_v26 : IVec S128x384 1 := cmpf .olt main_v24 main_v25
  let main_c_9 : IVec S_ 1 := constantI S_ 1 1#1
  let main_v27 : IVec S_ 1 := (fun x v => Host.reduce IntOp.andi x v reducesTo_S128x384_S_d0_1 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_v33

def fn {F : FTy → Type} [FloatOps F] (main_arg0 : FVec F S10000x128 .f32) (main_arg1 : FVec F S10000x3x128 .f32) (main_arg2 : IVec S2x256000 32) (main_arg3 : FVec F S256000x20 .f32) (main_arg4 : FVec F S256000x3 .f32) (main_arg5 : FVec F S256000 .f32) (main_arg6 : FVec F S128x384 .f32) (main_arg7 : FVec F S384 .f32) (main_arg8 : FVec F S384x384 .f32) (main_arg9 : FVec F S384 .f32) (main_arg10 : FVec F S20x128 .f32) (main_arg11 : FVec F S128 .f32) (main_arg12 : FVec F S128x384 .f32) (main_arg13 : FVec F S384 .f32) (main_arg14 : FVec F S128x256 .f32) (main_arg15 : FVec F S256x384 .f32) (main_arg16 : FVec F S384 .f32) (main_arg17 : FVec F S384x384 .f32) (main_arg18 : FVec F S384 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x3x128 .f32 := Host.absf main_arg1
  let main_cst_0 : FVec F S_ .f32 := constant S_ .f32 0x7F800000#32
  let main_v5 : FVec F S10000x3x128 .f32 := broadcastInDim S10000x3x128 ![] bcast_S_S10000x3x128 main_cst_0
  let main_v6 : IVec S10000x3x128 1 := cmpf .olt main_v4 main_v5
  let main_c_1 : IVec S_ 1 := constantI S_ 1 1#1
  let main_v7 : IVec S_ 1 := (fun x v => Host.reduce IntOp.andi x v reducesTo_S10000x3x128_S_d0_1_2 h_S_) main_v6 main_c_1
  let main_v8 : IVec S_ 1 := andi main_v3 main_v7
  let main_v9 : FVec F S256000x20 .f32 := Host.absf main_arg3
  let main_cst_2 : FVec F S_ .f32 := constant S_ .f32 0x7F800000#32
  let main_v10 : FVec F S256000x20 .f32 := broadcastInDim S256000x20 ![] bcast_S_S256000x20 main_cst_2
  let main_v11 : IVec S256000x20 1 := cmpf .olt main_v9 main_v10
  let main_c_3 : IVec S_ 1 := constantI S_ 1 1#1
  let main_v12 : IVec S_ 1 := (fun x v => Host.reduce IntOp.andi x v reducesTo_S256000x20_S_d0_1 h_S_) main_v11 main_c_3
  let main_v13 : IVec S_ 1 := andi main_v8 main_v12
  let main_v14 : FVec F S256000x3 .f32 := Host.absf main_arg4
  let main_cst_4 : FVec F S_ .f32 := constant S_ .f32 0x7F800000#32
  let main_v15 : FVec F S256000x3 .f32 := broadcastInDim S256000x3 ![] bcast_S_S256000x3 main_cst_4
  let main_v16 : IVec S256000x3 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_v13 main_v16
-- ==== Kernel.lean ====
abbrev S10000x128 : Shape := ⟨2, ![10000, 128]⟩
abbrev S10000x3x128 : Shape := ⟨3, ![10000, 3, 128]⟩
abbrev S2x256000 : Shape := ⟨2, ![2, 256000]⟩
abbrev S256000x20 : Shape := ⟨2, ![256000, 20]⟩
abbrev S256000x3 : Shape := ⟨2, ![256000, 3]⟩
abbrev S256000 : Shape := ⟨1, ![256000]⟩
abbrev S128x384 : Shape := ⟨2, ![128, 384]⟩
abbrev S384 : Shape := ⟨1, ![384]⟩
abbrev S384x384 : Shape := ⟨2, ![384, 384]⟩
abbrev S20x128 : Shape := ⟨2, ![20, 128]⟩
abbrev S128 : Shape := ⟨1, ![128]⟩
abbrev S128x256 : Shape := ⟨2, ![128, 256]⟩
abbrev S256x384 : Shape := ⟨2, ![256, 384]⟩
abbrev S1x256000 : Shape := ⟨2, ![1, 256000]⟩
abbrev S1x384 : Shape := ⟨2, ![1, 384]⟩
abbrev S10000x384 : Shape := ⟨2, ![10000, 384]⟩
abbrev S2000x128 : Shape := ⟨2, ![2000, 128]⟩
abbrev S2000x384 : Shape := ⟨2, ![2000, 384]⟩
abbrev S256000x1 : Shape := ⟨2, ![256000, 1]⟩
abbrev S256000x384 : Shape := ⟨2, ![256000, 384]⟩
abbrev S256000x4 : Shape := ⟨2, ![256000, 4]⟩
abbrev S1x128 : Shape := ⟨2, ![1, 128]⟩
abbrev S256000x512 : Shape := ⟨2, ![256000, 512]⟩
abbrev S1600x20 : Shape := ⟨2, ![1600, 20]⟩
abbrev S1600x4 : Shape := ⟨2, ![1600, 4]⟩
abbrev S1600x384 : Shape := ⟨2, ![1600, 384]⟩
abbrev S1600x512 : Shape := ⟨2, ![1600, 512]⟩
abbrev S1600x128 : Shape := ⟨2, ![1600, 128]⟩
abbrev S1600x1 : Shape := ⟨2, ![1600, 1]⟩
abbrev S1600x3 : Shape := ⟨2, ![1600, 3]⟩
abbrev S_ : Shape := ⟨0, ![]⟩
abbrev S10000x512 : Shape := ⟨2, ![10000, 512]⟩
abbrev S1000x128 : Shape := ⟨2, ![1000, 128]⟩
abbrev S1000x384 : Shape := ⟨2, ![1000, 384]⟩
abbrev S1000x256 : Shape := ⟨2, ![1000, 256]⟩

abbrev nBuf : Space → Nat
  | .hbm => 47
  | .vmem => 39
  | .smem => 0
  | _ => 0

abbrev bufTy : (tb : Table) → Fin (tcTables nBuf tb) → BufTy
  | .hbm, ⟨0, _⟩ => ⟨S10000x128, .f32⟩
  | .hbm, ⟨1, _⟩ => ⟨S10000x3x128, .f32⟩
  | .hbm, ⟨2, _⟩ => ⟨S2x256000, .i32⟩
  | .hbm, ⟨3, _⟩ => ⟨S256000x20, .f32⟩
  | .hbm, ⟨4, _⟩ => ⟨S256000x3, .f32⟩
  | .hbm, ⟨5, _⟩ => ⟨S256000, .f32⟩
  | .hbm, ⟨6, _⟩ => ⟨S128x384, .f32⟩
  | .hbm, ⟨7, _⟩ => ⟨S384, .f32⟩
  | .hbm, ⟨8, _⟩ => ⟨S384x384, .f32⟩
  | .hbm, ⟨9, _⟩ => ⟨S384, .f32⟩
  | .hbm, ⟨10, _⟩ => ⟨S20x128, .f32⟩
  | .hbm, ⟨11, _⟩ => ⟨S128, .f32⟩
  | .hbm, ⟨12, _⟩ => ⟨S128x384, .f32⟩
  | .hbm, ⟨13, _⟩ => ⟨S384, .f32⟩
  | .hbm, ⟨14, _⟩ => ⟨S128x256, .f32⟩
  | .hbm, ⟨15, _⟩ => ⟨S256x384, .f32⟩
  | .hbm, ⟨16, _⟩ => ⟨S384, .f32⟩
  | .hbm, ⟨17, _⟩ => ⟨S384x384, .f32⟩
  | .hbm, ⟨18, _⟩ => ⟨S384, .f32⟩
  | .hbm, ⟨19, _⟩ => ⟨S1x256000, .i32⟩
  | .hbm, ⟨20, _⟩ => ⟨S256000, .i32⟩
  | .hbm, ⟨21, _⟩ => ⟨S1x256000, .i32⟩
  | .hbm, ⟨22, _⟩ => ⟨S256000, .i32⟩
  | .hbm, ⟨23, _⟩ => ⟨S1x384, .f32⟩
  | .hbm, ⟨24, _⟩ => ⟨S1x384, .f32⟩
  | .hbm, ⟨25, _⟩ => ⟨S10000x384, .f32⟩
  | .hbm, ⟨26, _⟩ => ⟨S256000x1, .i32⟩
  | .hbm, ⟨27, _⟩ => ⟨S256000x384, .f32⟩
  | .hbm, ⟨28, _⟩ => ⟨S10000x384, .f32⟩
  | .hbm, ⟨29, _⟩ => ⟨S256000x1, .i32⟩
  | .hbm, ⟨30, _⟩ => ⟨S256000x384, .f32⟩
  | .hbm, ⟨31, _⟩ => ⟨S256000x1, .f32⟩
  | .hbm, ⟨32, _⟩ => ⟨S256000x4, .f32⟩
  | .hbm, ⟨33, _⟩ => ⟨S1x128, .f32⟩
  | .hbm, ⟨34, _⟩ => ⟨S1x384, .f32⟩
  | .hbm, ⟨35, _⟩ => ⟨S256000x512, .f32⟩
  | .hbm, ⟨36, _⟩ => ⟨S_, .f32⟩
  | .hbm, ⟨37, _⟩ => ⟨S10000x512, .f32⟩
  | .hbm, ⟨38, _⟩ => ⟨S256000x1, .i32⟩
  | .hbm, ⟨39, _⟩ => ⟨S10000x512, .f32⟩
  | .hbm, ⟨40, _⟩ => ⟨S10000x128, .f32⟩
  | .hbm, ⟨41, _⟩ => ⟨S10000x384, .f32⟩
  | .hbm, ⟨42, _⟩ => ⟨S1x384, .f32⟩
  | .hbm, ⟨43, _⟩ => ⟨S1x384, .f32⟩
  | .hbm, ⟨44, _⟩ => ⟨S10000x128, .f32⟩
  | .hbm, ⟨45, _⟩ => ⟨S10000x384, .f32⟩
  | .hbm, ⟨46, _⟩ => ⟨S10000x3x128, .f32⟩
  | .local _ .vmem, ⟨0, _⟩ => ⟨S2000x128, .f32⟩
  | .local _ .vmem, ⟨1, _⟩ => ⟨S2000x128, .f32⟩
  | .local _ .vmem, ⟨2, _⟩ => ⟨S128x384, .f32⟩
  | .local _ .vmem, ⟨3, _⟩ => ⟨S1x384, .f32⟩
  | .local _ .vmem, ⟨4, _⟩ => ⟨S384x384, .f32⟩
  | .local _ .vmem, ⟨5, _⟩ => ⟨S1x384, .f32⟩
  | .local _ .vmem, ⟨6, _⟩ => ⟨S2000x384, .f32⟩
  | .local _ .vmem, ⟨7, _⟩ => ⟨S2000x384, .f32⟩
  | .local _ .vmem, ⟨8, _⟩ => ⟨S1600x20, .f32⟩
  | .local _ .vmem, ⟨9, _⟩ => ⟨S1600x20, .f32⟩
  | .local _ .vmem, ⟨10, _⟩ => ⟨S1600x4, .f32⟩
  | .local _ .vmem, ⟨11, _⟩ => ⟨S1600x4, .f32⟩
  | .local _ .vmem, ⟨12, _⟩ => ⟨S1600x384, .f32⟩
  | .local _ .vmem, ⟨13, _⟩ => ⟨S1600x384, .f32⟩
  | .local _ .vmem, ⟨14, _⟩ => ⟨S1600x384, .f32⟩
  | .local _ .vmem, ⟨15, _⟩ => ⟨S1600x384, .f32⟩
  | .local _ .vmem, ⟨16, _⟩ => ⟨S20x128, .f32⟩
  | .local _ .vmem, ⟨17, _⟩ => ⟨S1x128, .f32⟩
  | .local _ .vmem, ⟨18, _⟩ => ⟨S128x384, .f32⟩
  | .local _ .vmem, ⟨19, _⟩ => ⟨S1x384, .f32⟩
  | .local _ .vmem, ⟨20, _⟩ => ⟨S1600x512, .f32⟩
  | .local _ .vmem, ⟨21, _⟩ => ⟨S1600x512, .f32⟩
  | .local _ .vmem, ⟨22, _⟩ => ⟨S1000x128, .f32⟩
  | .local _ .vmem, ⟨23, _⟩ => ⟨S1000x128, .f32⟩
  | .local _ .vmem, ⟨24, _⟩ => ⟨S1000x384, .f32⟩
  | .local _ .vmem, ⟨25, _⟩ => ⟨S1000x384, .f32⟩
  | .local _ .vmem, ⟨26, _⟩ => ⟨S1000x128, .f32⟩
  | .local _ .vmem, ⟨27, _⟩ => ⟨S1000x128, .f32⟩
  | .local _ .vmem, ⟨28, _⟩ => ⟨S1000x384, .f32⟩
  | .local _ .vmem, ⟨29, _⟩ => ⟨S1000x384, .f32⟩
  | .local _ .vmem, ⟨30, _⟩ => ⟨S128x256, .f32⟩
  | .local _ .vmem, ⟨31, _⟩ => ⟨S256x384, .f32⟩
  | .local _ .vmem, ⟨32, _⟩ => ⟨S1x384, .f32⟩
  | .local _ .vmem, ⟨33, _⟩ => ⟨S384x384, .f32⟩
  | .local _ .vmem, ⟨34, _⟩ => ⟨S1x384, .f32⟩
  | .local _ .vmem, ⟨35, _⟩ => ⟨S1000x128, .f32⟩
  | .local _ .vmem, ⟨36, _⟩ => ⟨S1000x128, .f32⟩
  | .local _ .vmem, ⟨37, _⟩ => ⟨S1000x384, .f32⟩
  | .local _ .vmem, ⟨38, _⟩ => ⟨S1000x384, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_call0_v0 : Ref sig .tc := ⟨.hbm, 26, rfl⟩
abbrev main_v7 : Ref sig .tc := ⟨.hbm, 27, rfl⟩
abbrev main_v8 : Ref sig .tc := ⟨.hbm, 28, rfl⟩
abbrev main_call1_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22_0 : Ref sig .tc := ⟨.hbm, 44, rfl⟩
abbrev main_v22_1 : Ref sig .tc := ⟨.hbm, 45, rfl⟩
abbrev main_v23 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg9_1 : Ref sig .tc := ⟨.vmem, 36, rfl⟩
abbrev cc2_stg10_0 : Ref sig .tc := ⟨.vmem, 37, rfl⟩
abbrev cc2_stg10_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem9_1 : DmaSem sig := 36
abbrev cc2_sem10_0 : DmaSem sig := 37
abbrev cc2_sem10_1 : DmaSem sig := 38

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1600x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1600x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1600x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1600x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S20x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1600x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x384 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x384 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x384 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S384x384 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x384 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1000x384 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x256000_S1x256000_1_0 : S2x256000.Slices ![1, 0] S1x256000
  shapeCasts_S1x256000_S256000 : S1x256000.ShapeCasts S256000
  slices_S2x256000_S1x256000_0_0 : S2x256000.Slices ![0, 0] S1x256000
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  inb_S384x384_S384x384_0_0 : ∀ a, (![0, 0] : Fin 2 → Nat) a + S384x384.size a ≤ S384x384.size a
  h_S384x384 : 0 < S384x384.numel
  inb_S2000x384_S2000x384_0_0 : ∀ a, (![0, 0] : Fin 2 → Nat) a + S2000x384.size a ≤ S2000x384.size a
  h_S2000x384 : 0 < S2000x384.numel
  bcast_S256000_S256000x1_0 : S256000.BroadcastsInDim S256000x1 (![0] : Fin 1 → Fin S256000x1.rank)
  shapeCasts_S10000x3x128_S10000x384 : S10000x3x128.ShapeCasts S10000x384
  shapeCasts_S256000_S256000x1 : S256000.ShapeCasts S256000x1
  concatenates_S256000x1_S256000x3_S256000x4_d1 : Shape.Concatenates [S256000x1, S256000x3] S256000x4 1
  shapeCasts_S128_S1x128 : S128.ShapeCasts S1x128
  inb_S1600x20_S1600x20_0_0 : ∀ a, (![0, 0] : Fin 2 → Nat) a + S1600x20.size a ≤ S1600x20.size a
  h_S1600x20 : 0 < S1600x20.numel
  inb_S20x128_S20x128_0_0 : ∀ a, (![0, 0] : Fin 2 → Nat) a + S20x128.size a ≤ S20x128.size a
  h_S20x128 : 0 < S20x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1600x128 : S1x128.Broadcasts S1600x128
  broadcasts_S1x384_S1600x384 : S1x384.Broadcasts S1600x384
  inb_S1600x4_S1600x4_0_0 : ∀ a, (![0, 0] : Fin 2 → Nat) a + S1600x4.size a ≤ S1600x4.size a
  h_S1600x4 : 0 < S1600x4.numel
  shapeCasts_S1600x4_S1600x4 : S1600x4.ShapeCasts S1600x4
  slices_S1600x4_o0_0_S1600x1 : S1600x4.Slices ![0, 0] S1600x1
  slices_S1600x4_o0_1_S1600x3 : S1600x4.Slices ![0, 1] S1600x3
  broadcasts_S1600x1_S1600x384 : S1600x1.Broadcasts S1600x384
  slices_S1600x384_o0_0_S1600x128 : S1600x384.Slices ![0, 0] S1600x128
  slices_S1600x384_o0_128_S1600x128 : S1600x384.Slices ![0, 128] S1600x128
  slices_S1600x384_o0_256_S1600x128 : S1600x384.Slices ![0, 256] S1600x128
  inb_S1600x384_S1600x384_0_0 : ∀ a, (![0, 0] : Fin 2 → Nat) a + S1600x384.size a ≤ S1600x384.size a
  h_S1600x384 : 0 < S1600x384.numel
  shapeCasts_S1600x384_S1600x384 : S1600x384.ShapeCasts S1600x384
  slices_S1600x3_o0_0_S1600x1 : S1600x3.Slices ![0, 0] S1600x1
  broadcasts_S1600x1_S1600x128 : S1600x1.Broadcasts S1600x128
  slices_S1600x3_o0_1_S1600x1 : S1600x3.Slices ![0, 1] S1600x1
  slices_S1600x3_o0_2_S1600x1 : S1600x3.Slices ![0, 2] S1600x1
  inb_S1600x512_S1600x128_0_0 : ∀ a, (![0, 0] : Fin 2 → Nat) a + S1600x128.size a ≤ S1600x512.size a
  h_S1600x128 : 0 < S1600x128.numel
  inb_S1600x512_S1600x128_0_128 : ∀ a, (![0, 128] : Fin 2 → Nat) a + S1600x128.size a ≤ S1600x512.size a
  inb_S1600x512_S1600x128_0_256 : ∀ a, (![0, 256] : Fin 2 → Nat) a + S1600x128.size a ≤ S1600x512.size a
  inb_S1600x512_S1600x128_0_384 : ∀ a, (![0, 384] : Fin 2 → Nat) a + S1600x128.size a ≤ S1600x512.size a
  bcast_S_S10000x512 : S_.BroadcastsInDim S10000x512 (![] : Fin 0 → Fin S10000x512.rank)
  slices_S10000x512_S10000x128_0_0 : S10000x512.Slices ![0, 0] S10000x128
  slices_S10000x512_S10000x384_0_128 : S10000x512.Slices ![0, 128] S10000x384
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x384_S1000x384_0_0 : ∀ a, (![0, 0] : Fin 2 → Nat) a + S1000x384.size a ≤ S1000x384.size a
  h_S1000x384 : 0 < S1000x384.numel
  shapeCasts_S1000x384_S1000x384 : S1000x384.ShapeCasts S1000x384
  slices_S1000x384_o0_0_S1000x128 : S1000x384.Slices ![0, 0] S1000x128
  slices_S1000x384_o0_128_S1000x128 : S1000x384.Slices ![0, 128] S1000x128
  slices_S1000x384_o0_256_S1000x128 : S1000x384.Slices ![0, 256] S1000x128
  inb_S128x256_S128x256_0_0 : ∀ a, (![0, 0] : Fin 2 → Nat) a + S128x256.size a ≤ S128x256.size a
  h_S128x256 : 0 < S128x256.numel
  slices_S1000x256_o0_0_S1000x128 : S1000x256.Slices ![0, 0] S1000x128
  slices_S1000x256_o0_128_S1000x128 : S1000x256.Slices ![0, 128] S1000x128
  inb_S256x384_S256x384_0_0 : ∀ a, (![0, 0] : Fin 2 → Nat) a + S256x384.size a ≤ S256x384.size a
  h_S256x384 : 0 < S256x384.numel
  slices_S256x384_o0_0_S128x384 : S256x384.Slices ![0, 0] S128x384
  slices_S256x384_o128_0_S128x384 : S256x384.Slices ![128, 0] S128x384
  broadcasts_S1x384_S1000x384 : S1x384.Broadcasts S1000x384
  inb_S1000x384_S1000x128_0_0 : ∀ a, (![0, 0] : Fin 2 → Nat) a + S1000x128.size a ≤ S1000x384.size a
  inb_S1000x384_S1000x128_0_128 : ∀ a, (![0, 128] : Fin 2 → Nat) a + S1000x128.size a ≤ S1000x384.size a
  inb_S1000x384_S1000x128_0_256 : ∀ a, (![0, 256] : Fin 2 → Nat) a + S1000x128.size a ≤ S1000x384.size a
  shapeCasts_S10000x384_S10000x3x128 : S10000x384.ShapeCasts S10000x3x128
  dot_S2000x128_S128x384_S2000x384_1_0_0_1_n_n_wf : DotDims.WF S2000x128 S128x384 S2000x384 [1] [0] [0] [1] [] []
  dot_S2000x384_S384x384_S2000x384_1_0_0_1_n_n_wf : DotDims.WF S2000x384 S384x384 S2000x384 [1] [0] [0] [1] [] []
  gather_S10000x384_S256000x1_S256000x384_1_0_n_n_0_1_1384_wf : GatherDims.WF S10000x384 S256000x1 S256000x384 [1] [0] [] [0] [] 1 ![1, 384]
  dot_S1600x20_S20x128_S1600x128_1_0_0_1_n_n_wf : DotDims.WF S1600x20 S20x128 S1600x128 [1] [0] [0] [1] [] []
  dot_S1600x128_S128x384_S1600x384_1_0_0_1_n_n_wf : DotDims.WF S1600x128 S128x384 S1600x384 [1] [0] [0] [1] [] []
  scatter_S10000x512_S256000x1_S256000x512_1_0_0_1_wf : ScatterDims.WF S10000x512 S256000x1 S256000x512 [1] [0] [0] 1
  dot_S1000x128_S128x256_S1000x256_1_0_0_1_n_n_wf : DotDims.WF S1000x128 S128x256 S1000x256 [1] [0] [0] [1] [] []
  dot_S1000x128_S128x384_S1000x384_1_0_0_1_n_n_wf : DotDims.WF S1000x128 S128x384 S1000x384 [1] [0] [0] [1] [] []
  dot_S1000x384_S384x384_S1000x384_1_0_0_1_n_n_wf : DotDims.WF S1000x384 S384x384 S1000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x384.size a ≤ S384x384.size a
  hwx0_3 : ∀ i : grid0.Coords, EltTy.bits .f32 = 32 ∨ (Rect.block (s := S384x384) S384x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x384.size a ≤ S10000x384.size a
  hwx0_5 : ∀ i : grid0.Coords, EltTy.bits .f32 = 32 ∨ (Rect.block (s := S10000x384) S2000x384.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1600x20.size a ≤ S256000x20.size a
  hwx1_0 : ∀ i : grid1.Coords, EltTy.bits .f32 = 32 ∨ (Rect.block (s := S256000x20) S1600x20.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1600x4.size a ≤ S256000x4.size a
  hwx1_1 : ∀ i : grid1.Coords, EltTy.bits .f32 = 32 ∨ (Rect.block (s := S256000x4) S1600x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1600x384.size a ≤ S256000x384.size a
  hwx1_2 : ∀ i : grid1.Coords, EltTy.bits .f32 = 32 ∨ (Rect.block (s := S256000x384) S1600x384.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1600x384.size a ≤ S256000x384.size a
  hwx1_3 : ∀ i : grid1.Coords, EltTy.bits .f32 = 32 ∨ (Rect.block (s := S256000x384) S1600x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S20x128.size a ≤ S20x128.size a
  hwx1_4 : ∀ i : grid1.Coords, EltTy.bits .f32 = 32 ∨ (Rect.block (s := S20x128) S20x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x384.size a ≤ S128x384.size a
  hwx1_6 : ∀ i : grid1.Coords, EltTy.bits .f32 = 32 ∨ (Rect.block (s := S128x384) S128x384.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x384.size a ≤ S1x384.size a
  hwx1_7 : ∀ i : grid1.Coords, EltTy.bits .f32 = 32 ∨ (Rect.block (s := S1x384) S1x384.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1600x512.size a ≤ S256000x512.size a
  hwx1_8 : ∀ i : grid1.Coords, EltTy.bits .f32 = 32 ∨ (Rect.block (s := S256000x512) S1600x512.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S10000x128.size a
  hwx2_0 : ∀ i : grid2.Coords, EltTy.bits .f32 = 32 ∨ (Rect.block (s := S10000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x384.size a ≤ S10000x384.size a
  hwx2_1 : ∀ i : grid2.Coords, EltTy.bits .f32 = 32 ∨ (Rect.block (s := S10000x384) S1000x384.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S10000x128.size a
  hwx2_2 : ∀ i : grid2.Coords, EltTy.bits .f32 = 32 ∨ (Rect.block (s := S10000x128) S1000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x384.size a ≤ S10000x384.size a
  hwx2_3 : ∀ i : grid2.Coords, EltTy.bits .f32 = 32 ∨ (Rect.block (s := S10000x384) S1000x384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x256.size a ≤ S128x256.size a
  hwx2_4 : ∀ i : grid2.Coords, EltTy.bits .f32 = 32 ∨ (Rect.block (s := S128x256) S128x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x384.size a ≤ S256x384.size a
  hwx2_5 : ∀ i : grid2.Coords, EltTy.bits .f32 = 32 ∨ (Rect.block (s := S256x384) S256x384.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x384.size a ≤ S1x384.size a
  hwx2_6 : ∀ i : grid2.Coords, EltTy.bits .f32 = 32 ∨ (Rect.block (s := S1x384) S1x384.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S384x384.size a ≤ S384x384.size a
  hwx2_7 : ∀ i : grid2.Coords, EltTy.bits .f32 = 32 ∨ (Rect.block (s := S384x384) S384x384.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x384.size a ≤ S1x384.size a
  hwx2_8 : ∀ i : grid2.Coords, EltTy.bits .f32 = 32 ∨ (Rect.block (s := S1x384) S1x384.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1000x128.size a ≤ S10000x128.size a
  hwx2_9 : ∀ i : grid2.Coords, EltTy.bits .f32 = 32 ∨ (Rect.block (s := S10000x128) S1000x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S1000x384.size a ≤ S10000x384.size a
  hwx2_10 : ∀ i : grid2.Coords, EltTy.bits .f32 = 32 ∨ (Rect.block (s := S10000x384) S1000x384.size (cc2_transform_10 i) (hinb2_10 i)).WholeWords (EltTy.packing .f32)

variable [Facts₀]

def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S2000x384_S384x384_S2000x384_1_0_0_1_n_n : DotDims S2000x384 S384x384 S2000x384 where
  lhsContracting := [1]
  rhsContracting := [0]
  lhsNonContracting := [0]
  rhsNonContracting := [1]
  lhsBatch := []
  rhsBatch := []
  wf := dot_S2000x384_S384x384_S2000x384_1_0_0_1_n_n_wf
def gather_S10000x384_S256000x1_S256000x384_1_0_n_n_0_1_1384 : GatherDims S10000x384 S256000x1 S256000x384 where
  offsetDims := [1]
  collapsedSliceDims := [0]
  operandBatchingDims := []
  startIndicesBatchingDims := []
  startIndexMap := [0]
  indexVectorDim := 1
  sliceSizes := ![1, 384]
  wf := gather_S10000x384_S256000x1_S256000x384_1_0_n_n_0_1_1384_wf
def dot_S1600x20_S20x128_S1600x128_1_0_0_1_n_n : DotDims S1600x20 S20x128 S1600x128 where
  lhsContracting := [1]
  rhsContracting := [0]
  lhsNonContracting := [0]
  rhsNonContracting := [1]
  lhsBatch := []
  rhsBatch := []
  wf := dot_S1600x20_S20x128_S1600x128_1_0_0_1_n_n_wf
def dot_S1600x128_S128x384_S1600x384_1_0_0_1_n_n : DotDims S1600x128 S128x384 S1600x384 where
  lhsContracting := [1]
  rhsContracting := [0]
  lhsNonContracting := [0]
  rhsNonContracting := [1]
  lhsBatch := []
  rhsBatch := []
  wf := dot_S1600x128_S128x384_S1600x384_1_0_0_1_n_n_wf
def scatter_S10000x512_S256000x1_S256000x512_1_0_0_1 : ScatterDims S10000x512 S256000x1 S256000x512 where
  updateWindowDims := [1]
  insertedWindowDims := [0]
  scatterDimsToOperandDims := [0]
  indexVectorDim := 1
  wf := scatter_S10000x512_S256000x1_S256000x512_1_0_0_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x128_S128x384_S1000x384_1_0_0_1_n_n : DotDims S1000x128 S128x384 S1000x384 where
  lhsContracting := [1]
  rhsContracting := [0]
  lhsNonContracting := [0]
  rhsNonContracting := [1]
  lhsBatch := []
  rhsBatch := []
  wf := dot_S1000x128_S128x384_S1000x384_1_0_0_1_n_n_wf
def dot_S1000x384_S384x384_S1000x384_1_0_0_1_n_n : DotDims S1000x384 S384x384 S1000x384 where
  lhsContracting := [1]
  rhsContracting := [0]
  lhsNonContracting := [0]
  rhsNonContracting := [1]
  lhsBatch := []
  rhsBatch := []
  wf := dot_S1000x384_S384x384_S1000x384_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S384x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2000x384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg3) S1600x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1600x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1600x384.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1600x384.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S20x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S128x384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v13) S1x384.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v14) S1600x512.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_arg0) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1000x384.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1000x384.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S256x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v20) S1x384.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg17) S384x384.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v21) S1x384.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v22_0) S1000x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v22_1) S1000x384.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x3x128 : Shape := ⟨3, ![10000, 3, 128]⟩
abbrev S2x256000 : Shape := ⟨2, ![2, 256000]⟩
abbrev S256000x20 : Shape := ⟨2, ![256000, 20]⟩
abbrev S256000x3 : Shape := ⟨2, ![256000, 3]⟩
abbrev S256000 : Shape := ⟨1, ![256000]⟩
abbrev S128x384 : Shape := ⟨2, ![128, 384]⟩
abbrev S384 : Shape := ⟨1, ![384]⟩
abbrev S384x384 : Shape := ⟨2, ![384, 384]⟩
abbrev S20x128 : Shape := ⟨2, ![20, 128]⟩
abbrev S128 : Shape := ⟨1, ![128]⟩
abbrev S128x256 : Shape := ⟨2, ![128, 256]⟩
abbrev S256x384 : Shape := ⟨2, ![256, 384]⟩
abbrev S1x256000 : Shape := ⟨2, ![1, 256000]⟩
abbrev S256000x128 : Shape := ⟨2, ![256000, 128]⟩
abbrev S1x128 : Shape := ⟨2, ![1, 128]⟩
abbrev S_ : Shape := ⟨0, ![]⟩
abbrev S256000x384 : Shape := ⟨2, ![256000, 384]⟩
abbrev S1x384 : Shape := ⟨2, ![1, 384]⟩
abbrev S256000x1 : Shape := ⟨2, ![256000, 1]⟩
abbrev S10000x384 : Shape := ⟨2, ![10000, 384]⟩
abbrev S256000x3x1 : Shape := ⟨3, ![256000, 3, 1]⟩
abbrev S256000x1x128 : Shape := ⟨3, ![256000, 1, 128]⟩
abbrev S256000x3x128 : Shape := ⟨3, ![256000, 3, 128]⟩
abbrev S10000x3x256 : Shape := ⟨3, ![10000, 3, 256]⟩
abbrev S10000x256 : Shape := ⟨2, ![10000, 256]⟩
abbrev S10000x1x128 : Shape := ⟨3, ![10000, 1, 128]⟩

abbrev nBuf : Space → Nat
  | .hbm => 165
  | .vmem => 0
  | .smem => 0
  | _ => 0

abbrev hbmTy0_0 (i : Nat) : BufTy := match i % 128 with
  | 0 => ⟨S10000x128, .f32⟩
  | 1 => ⟨S10000x3x128, .f32⟩
  | 2 => ⟨S2x256000, .i32⟩
  | 3 => ⟨S256000x20, .f32⟩
  | 4 => ⟨S256000x3, .f32⟩
  | 5 => ⟨S256000, .f32⟩
  | 6 => ⟨S128x384, .f32⟩
  | 7 => ⟨S384, .f32⟩
  | 8 => ⟨S384x384, .f32⟩
  | 9 => ⟨S384, .f32⟩
  | 10 => ⟨S20x128, .f32⟩
  | 11 => ⟨S128, .f32⟩
  | 12 => ⟨S128x384, .f32⟩
  | 13 => ⟨S384, .f32⟩
  | 14 => ⟨S128x256, .f32⟩
  | 15 => ⟨S256x384, .f32⟩
  | 16 => ⟨S384, .f32⟩
  | 17 => ⟨S384x384, .f32⟩
  | 18 => ⟨S384, .f32⟩
  | 19 => ⟨S1x256000, .i32⟩
  | 20 => ⟨S256000, .i32⟩
  | 21 => ⟨S1x256000, .i32⟩
  | 22 => ⟨S256000, .i32⟩
  | 23 => ⟨S256000x128, .f32⟩
  | 24 => ⟨S1x128, .f32⟩
  | 25 => ⟨S256000x128, .f32⟩
  | 26 => ⟨S256000x128, .f32⟩
  | 27 => ⟨S256000x128, .f32⟩
  | 28 => ⟨S256000x128, .f32⟩
  | 29 => ⟨S_, .f32⟩
  | 30 => ⟨S256000x128, .f32⟩
  | 31 => ⟨S256000x128, .f32⟩
  | 32 => ⟨S_, .f32⟩
  | 33 => ⟨S256000x128, .f32⟩
  | 34 => ⟨S256000x128, .f32⟩
  | 35 => ⟨S256000x128, .f32⟩
  | 36 => ⟨S256000x384, .f32⟩
  | 37 => ⟨S1x384, .f32⟩
  | 38 => ⟨S256000x384, .f32⟩
  | 39 => ⟨S256000x384, .f32⟩
  | 40 => ⟨S256000x1, .f32⟩
  | 41 => ⟨S256000x384, .f32⟩
  | 42 => ⟨S256000x384, .f32⟩
  | 43 => ⟨S256000x128, .f32⟩
  | 44 => ⟨S256000x128, .f32⟩
  | 45 => ⟨S256000x128, .f32⟩
  | 46 => ⟨S10000x384, .f32⟩
  | 47 => ⟨S1x384, .f32⟩
  | 48 => ⟨S10000x384, .f32⟩
  | 49 => ⟨S10000x384, .f32⟩
  | 50 => ⟨S10000x384, .f32⟩
  | 51 => ⟨S10000x384, .f32⟩
  | 52 => ⟨S_, .f32⟩
  | 53 => ⟨S10000x384, .f32⟩
  | 54 => ⟨S10000x384, .f32⟩
  | 55 => ⟨S_, .f32⟩
  | 56 => ⟨S10000x384, .f32⟩
  | 57 => ⟨S10000x384, .f32⟩
  | 58 => ⟨S10000x384, .f32⟩
  | 59 => ⟨S10000x384, .f32⟩
  | 60 => ⟨S1x384, .f32⟩
  | 61 => ⟨S10000x384, .f32⟩
  | 62 => ⟨S10000x384, .f32⟩
  | 63 => ⟨S10000x128, .f32⟩
  | 64 => ⟨S10000x128, .f32⟩
  | 65 => ⟨S10000x128, .f32⟩
  | 66 => ⟨S_, .i32⟩
  | 67 => ⟨S256000, .i32⟩
  | 68 => ⟨S256000, .i1⟩
  | 69 => ⟨S_, .i32⟩
  | 70 => ⟨S256000, .i32⟩
  | 71 => ⟨S256000, .i32⟩
  | 72 => ⟨S256000, .i32⟩
  | 73 => ⟨S256000x1, .i32⟩
  | 74 => ⟨S256000x128, .f32⟩
  | 75 => ⟨S256000x128, .f32⟩
  | 76 => ⟨S_, .f32⟩
  | 77 => ⟨S10000x128, .f32⟩
  | 78 => ⟨S256000x1, .i32⟩
  | 79 => ⟨S10000x128, .f32⟩
  | 80 => ⟨S_, .i32⟩
  | 81 => ⟨S256000, .i32⟩
  | 82 => ⟨S256000, .i1⟩
  | 83 => ⟨S_, .i32⟩
  | 84 => ⟨S256000, .i32⟩
  | 85 => ⟨S256000, .i32⟩
  | 86 => ⟨S256000, .i32⟩
  | 87 => ⟨S256000x1, .i32⟩
  | 88 => ⟨S256000x128, .f32⟩
  | 89 => ⟨S256000x128, .f32⟩
  | 90 => ⟨S_, .i32⟩
  | 91 => ⟨S256000, .i32⟩
  | 92 => ⟨S256000, .i1⟩
  | 93 => ⟨S_, .i32⟩
  | 94 => ⟨S256000, .i32⟩
  | 95 => ⟨S256000, .i32⟩
  | 96 => ⟨S256000, .i32⟩
  | 97 => ⟨S256000x1, .i32⟩
  | 98 => ⟨S256000x128, .f32⟩
  | 99 => ⟨S256000x128, .f32⟩
  | 100 => ⟨S256000x3x1, .f32⟩
  | 101 => ⟨S256000x1x128, .f32⟩
  | 102 => ⟨S256000x3x128, .f32⟩
  | 103 => ⟨S256000x3x128, .f32⟩
  | 104 => ⟨S256000x3x128, .f32⟩
  | 105 => ⟨S_, .i32⟩
  | 106 => ⟨S256000, .i32⟩
  | 107 => ⟨S256000, .i1⟩
  | 108 => ⟨S_, .i32⟩
  | 109 => ⟨S256000, .i32⟩
  | 110 => ⟨S256000, .i32⟩
  | 111 => ⟨S256000, .i32⟩
  | 112 => ⟨S256000x1, .i32⟩
  | 113 => ⟨S256000x3x128, .f32⟩
  | 114 => ⟨S256000x1x128, .f32⟩
  | 115 => ⟨S256000x3x128, .f32⟩
  | 116 => ⟨S256000x3x128, .f32⟩
  | 117 => ⟨S256000x3x128, .f32⟩
  | 118 => ⟨S_, .f32⟩
  | 119 => ⟨S10000x3x128, .f32⟩
  | 120 => ⟨S256000x1, .i32⟩
  | 121 => ⟨S10000x3x128, .f32⟩
  | 122 => ⟨S10000x128, .f32⟩
  | 123 => ⟨S10000x3x128, .f32⟩
  | 124 => ⟨S10000x3x256, .f32⟩
  | 125 => ⟨S10000x3x128, .f32⟩
  | 126 => ⟨S10000x3x128, .f32⟩
  | 127 => ⟨S10000x3x128, .f32⟩
  | _ => ⟨S10000x128, .f32⟩

abbrev hbmTy0_1 (i : Nat) : BufTy := match i % 128 with
  | 0 => ⟨S_, .f32⟩
  | 1 => ⟨S10000x128, .f32⟩
  | 2 => ⟨S_, .f32⟩
  | 3 => ⟨S10000x128, .f32⟩
  | 4 => ⟨S10000x128, .f32⟩
  | 5 => ⟨S10000x128, .f32⟩
  | 6 => ⟨S10000x256, .f32⟩
  | 7 => ⟨S10000x384, .f32⟩
  | 8 => ⟨S1x384, .f32⟩
  | 9 => ⟨S10000x384, .f32⟩
  | 10 => ⟨S10000x384, .f32⟩
  | 11 => ⟨S10000x384, .f32⟩
  | 12 => ⟨S10000x384, .f32⟩
  | 13 => ⟨S_, .f32⟩
  | 14 => ⟨S10000x384, .f32⟩
  | 15 => ⟨S10000x384, .f32⟩
  | 16 => ⟨S_, .f32⟩
  | 17 => ⟨S10000x384, .f32⟩
  | 18 => ⟨S10000x384, .f32⟩
  | 19 => ⟨S10000x384, .f32⟩
  | 20 => ⟨S10000x384, .f32⟩
  | 21 => ⟨S1x384, .f32⟩
  | 22 => ⟨S10000x384, .f32⟩
  | 23 => ⟨S10000x384, .f32⟩
  | 24 => ⟨S10000x128, .f32⟩
  | 25 => ⟨S10000x128, .f32⟩
  | 26 => ⟨S10000x128, .f32⟩
  | 27 => ⟨S10000x3x128, .f32⟩
  | 28 => ⟨S_, .f32⟩
  | 29 => ⟨S10000x128, .f32⟩
  | 30 => ⟨S10000x128, .f32⟩
  | 31 => ⟨S10000x128, .f32⟩
  | 32 => ⟨S10000x128, .f32⟩
  | 33 => ⟨S10000x1x128, .f32⟩
  | 34 => ⟨S10000x3x128, .f32⟩
  | 35 => ⟨S10000x3x128, .f32⟩
  | 36 => ⟨S10000x3x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_cst_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_1 : Ref sig .tc := ⟨.hbm, 52, rfl⟩
abbrev main_v31 : Ref sig .tc := ⟨.hbm, 53, rfl⟩
abbrev main_v32 : Ref sig .tc := ⟨.hbm, 54, rfl⟩
abbrev main_cst_2 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c : Ref sig .tc := ⟨.hbm, 66, rfl⟩
abbrev main_v43 : Ref sig .tc := ⟨.hbm, 67, rfl⟩
abbrev main_v44 : Ref sig .tc := ⟨.hbm, 68, rfl⟩
abbrev main_c_3 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_4 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_5 : Ref sig .tc := ⟨.hbm, 80, rfl⟩
abbrev main_v54 : Ref sig .tc := ⟨.hbm, 81, rfl⟩
abbrev main_v55 : Ref sig .tc := ⟨.hbm, 82, rfl⟩
abbrev main_c_6 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_7 : Ref sig .tc := ⟨.hbm, 90, rfl⟩
abbrev main_v62 : Ref sig .tc := ⟨.hbm, 91, rfl⟩
abbrev main_v63 : Ref sig .tc := ⟨.hbm, 92, rfl⟩
abbrev main_c_8 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_9 : Ref sig .tc := ⟨.hbm, 105, rfl⟩
abbrev main_v75 : Ref sig .tc := ⟨.hbm, 106, rfl⟩
abbrev main_v76 : Ref sig .tc := ⟨.hbm, 107, rfl⟩
abbrev main_c_10 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_11 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_12 : Ref sig .tc := ⟨.hbm, 128, rfl⟩
abbrev main_v95 : Ref sig .tc := ⟨.hbm, 129, rfl⟩
abbrev main_cst_13 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_14 : Ref sig .tc := ⟨.hbm, 141, rfl⟩
abbrev main_v106 : Ref sig .tc := ⟨.hbm, 142, rfl⟩
abbrev main_v107 : Ref sig .tc := ⟨.hbm, 143, rfl⟩
abbrev main_cst_15 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_16 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩

abbrev nD : Nat := 1
abbrev τ : Topo := Topo.v7x

variable {F : FTy → Type} [FloatOps F]

class Facts₀ : Prop where
  slices_S2x256000_S1x256000_1_0 : S2x256000.Slices ![1, 0] S1x256000
  shapeCasts_S1x256000_S256000 : S1x256000.ShapeCasts S256000
  slices_S2x256000_S1x256000_0_0 : S2x256000.Slices ![0, 0] S1x256000
  bcast_S128_S1x128_1 : S128.BroadcastsInDim S1x128 (![1] : Fin 1 → Fin S1x128.rank)
  bcast_S1x128_S256000x128_0_1 : S1x128.BroadcastsInDim S256000x128 (![0, 1] : Fin 2 → Fin S256000x128.rank)
  bcast_S_S256000x128 : S_.BroadcastsInDim S256000x128 (![] : Fin 0 → Fin S256000x128.rank)
  bcast_S384_S1x384_1 : S384.BroadcastsInDim S1x384 (![1] : Fin 1 → Fin S1x384.rank)
  bcast_S1x384_S256000x384_0_1 : S1x384.BroadcastsInDim S256000x384 (![0, 1] : Fin 2 → Fin S256000x384.rank)
  bcast_S256000_S256000x1_0 : S256000.BroadcastsInDim S256000x1 (![0] : Fin 1 → Fin S256000x1.rank)
  bcast_S256000x1_S256000x384_0_1 : S256000x1.BroadcastsInDim S256000x384 (![0, 1] : Fin 2 → Fin S256000x384.rank)
  slices_S256000x384_S256000x128_0_0 : S256000x384.Slices ![0, 0] S256000x128
  slices_S256000x384_S256000x128_0_128 : S256000x384.Slices ![0, 128] S256000x128
  slices_S256000x384_S256000x128_0_256 : S256000x384.Slices ![0, 256] S256000x128
  bcast_S1x384_S10000x384_0_1 : S1x384.BroadcastsInDim S10000x384 (![0, 1] : Fin 2 → Fin S10000x384.rank)
  bcast_S_S10000x384 : S_.BroadcastsInDim S10000x384 (![] : Fin 0 → Fin S10000x384.rank)
  slices_S10000x384_S10000x128_0_0 : S10000x384.Slices ![0, 0] S10000x128
  slices_S10000x384_S10000x128_0_128 : S10000x384.Slices ![0, 128] S10000x128
  slices_S10000x384_S10000x128_0_256 : S10000x384.Slices ![0, 256] S10000x128
  bcast_S_S256000 : S_.BroadcastsInDim S256000 (![] : Fin 0 → Fin S256000.rank)
  bcast_S_S10000x128 : S_.BroadcastsInDim S10000x128 (![] : Fin 0 → Fin S10000x128.rank)
  bcast_S256000x3_S256000x3x1_0_1 : S256000x3.BroadcastsInDim S256000x3x1 (![0, 1] : Fin 2 → Fin S256000x3x1.rank)
  bcast_S256000x128_S256000x1x128_0_2 : S256000x128.BroadcastsInDim S256000x1x128 (![0, 2] : Fin 2 → Fin S256000x1x128.rank)
  bcast_S256000x3x1_S256000x3x128_0_1_2 : S256000x3x1.BroadcastsInDim S256000x3x128 (![0, 1, 2] : Fin 3 → Fin S256000x3x128.rank)
  bcast_S256000x1x128_S256000x3x128_0_1_2 : S256000x1x128.BroadcastsInDim S256000x3x128 (![0, 1, 2] : Fin 3 → Fin S256000x3x128.rank)
  bcast_S_S10000x3x128 : S_.BroadcastsInDim S10000x3x128 (![] : Fin 0 → Fin S10000x3x128.rank)
  slices_S10000x3x256_S10000x3x128_0_0_0 : S10000x3x256.Slices ![0, 0, 0] S10000x3x128
  slices_S10000x3x256_S10000x3x128_0_0_128 : S10000x3x256.Slices ![0, 0, 128] S10000x3x128
  reducesTo_S10000x3x128_S10000x128_d1 : S10000x3x128.ReducesTo [1] S10000x128
  h_S_ : 0 < S_.numel
  concatenates_S10000x128_S10000x128_S10000x256_d1 : Shape.Concatenates [S10000x128, S10000x128] S10000x256 1
  bcast_S10000x128_S10000x1x128_0_2 : S10000x128.BroadcastsInDim S10000x1x128 (![0, 2] : Fin 2 → Fin S10000x1x128.rank)
  bcast_S10000x1x128_S10000x3x128_0_1_2 : S10000x1x128.BroadcastsInDim S10000x3x128 (![0, 1, 2] : Fin 3 → Fin S10000x3x128.rank)
  dot_S256000x20_S20x128_S256000x128_1_0_0_1_n_n_wf : DotDims.WF S256000x20 S20x128 S256000x128 [1] [0] [0] [1] [] []
  dot_S256000x128_S128x384_S256000x384_1_0_0_1_n_n_wf : DotDims.WF S256000x128 S128x384 S256000x384 [1] [0] [0] [1] [] []
  dot_S10000x128_S128x384_S10000x384_1_0_0_1_n_n_wf : DotDims.WF S10000x128 S128x384 S10000x384 [1] [0] [0] [1] [] []
  dot_S10000x384_S384x384_S10000x384_1_0_0_1_n_n_wf : DotDims.WF S10000x384 S384x384 S10000x384 [1] [0] [0] [1] [] []
  gather_S10000x128_S256000x1_S256000x128_1_0_n_n_0_1_1128_wf : GatherDims.WF S10000x128 S256000x1 S256000x128 [1] [0] [] [0] [] 1 ![1, 128]
  scatter_S10000x128_S256000x1_S256000x128_1_0_0_1_wf : ScatterDims.WF S10000x128 S256000x1 S256000x128 [1] [0] [0] 1
  gather_S10000x3x128_S256000x1_S256000x3x128_12_0_n_n_0_1_13128_wf : GatherDims.WF S10000x3x128 S256000x1 S256000x3x128 [1, 2] [0] [] [0] [] 1 ![1, 3, 128]
  scatter_S10000x3x128_S256000x1_S256000x3x128_12_0_0_1_wf : ScatterDims.WF S10000x3x128 S256000x1 S256000x3x128 [1, 2] [0] [0] 1
  dot_S10000x3x128_S128x256_S10000x3x256_2_0_01_1_n_n_wf : DotDims.WF S10000x3x128 S128x256 S10000x3x256 [2] [0] [0, 1] [1] [] []
  dot_S10000x256_S256x384_S10000x384_1_0_0_1_n_n_wf : DotDims.WF S10000x256 S256x384 S10000x384 [1] [0] [0] [1] [] []

variable [Facts₀]

def dot_S256000x20_S20x128_S256000x128_1_0_0_1_n_n : DotDims S256000x20 S20x128 S256000x128 where
  lhsContracting := [1]
  rhsContracting := [0]
  lhsNonContracting := [0]
  rhsNonContracting := [1]
  lhsBatch := []
  rhsBatch := []
  wf := dot_S256000x20_S20x128_S256000x128_1_0_0_1_n_n_wf
def dot_S256000x128_S128x384_S256000x384_1_0_0_1_n_n : DotDims S256000x128 S128x384 S256000x384 where
  lhsContracting := [1]
  rhsContracting := [0]
  lhsNonContracting := [0]
  rhsNonContracting := [1]
  lhsBatch := []
  rhsBatch := []
  wf := dot_S256000x128_S128x384_S256000x384_1_0_0_1_n_n_wf
def dot_S10000x128_S128x384_S10000x384_1_0_0_1_n_n : DotDims S10000x128 S128x384 S10000x384 where
  lhsContracting := [1]
  rhsContracting := [0]
  lhsNonContracting := [0]
  rhsNonContracting := [1]
  lhsBatch := []
  rhsBatch := []
  wf := dot_S10000x128_S128x384_S10000x384_1_0_0_1_n_n_wf
def dot_S10000x384_S384x384_S10000x384_1_0_0_1_n_n : DotDims S10000x384 S384x384 S10000x384 where
  lhsContracting := [1]
  rhsContracting := [0]
  lhsNonContracting := [0]
  rhsNonContracting := [1]
  lhsBatch := []
  rhsBatch := []
  wf := dot_S10000x384_S384x384_S10000x384_1_0_0_1_n_n_wf
def gather_S10000x128_S256000x1_S256000x128_1_0_n_n_0_1_1128 : GatherDims S10000x128 S256000x1 S256000x128 where
  offsetDims := [1]
  collapsedSliceDims := [0]
  operandBatchingDims := []
  startIndicesBatchingDims := []
  startIndexMap := [0]
  indexVectorDim := 1
  sliceSizes := ![1, 128]
  wf := gather_S10000x128_S256000x1_S256000x128_1_0_n_n_0_1_1128_wf
def scatter_S10000x128_S256000x1_S256000x128_1_0_0_1 : ScatterDims S10000x128 S256000x1 S256000x128 where
  updateWindowDims := [1]
  insertedWindowDims := [0]
  scatterDimsToOperandDims := [0]
  indexVectorDim := 1
  wf := scatter_S10000x128_S256000x1_S256000x128_1_0_0_1_wf
def gather_S10000x3x128_S256000x1_S256000x3x128_12_0_n_n_0_1_13128 : GatherDims S10000x3x128 S256000x1 S256000x3x128 where
  offsetDims := [1, 2]
  collapsedSliceDims := [0]
  operandBatchingDims := []
  startIndicesBatchingDims := []
  startIndexMap := [0]
  indexVectorDim := 1
  sliceSizes := ![1, 3, 128]
  wf := gather_S10000x3x128_S256000x1_S256000x3x128_12_0_n_n_0_1_13128_wf
def scatter_S10000x3x128_S256000x1_S256000x3x128_12_0_0_1 : ScatterDims S10000x3x128 S256000x1 S256000x3x128 where
  updateWindowDims := [1, 2]
  insertedWindowDims := [0]
  scatterDimsToOperandDims := [0]
  indexVectorDim := 1
  wf := scatter_S10000x3x128_S256000x1_S256000x3x128_12_0_0_1_wf
def dot_S10000x3x128_S128x256_S10000x3x256_2_0_01_1_n_n : DotDims S10000x3x128 S128x256 S10000x3x256 where
  lhsContracting := [2]
  rhsContracting := [0]
  lhsNonContracting := [0, 1]
  rhsNonContracting := [1]
  lhsBatch := []
  rhsBatch := []
  wf := dot_S10000x3x128_S128x256_S10000x3x256_2_0_01_1_n_n_wf
def dot_S10000x256_S256x384_S10000x384_1_0_0_1_n_n : DotDims S10000x256 S256x384 S10000x384 where
  lhsContracting := [1]
  rhsContracting := [0]
  lhsNonContracting := [0]
  rhsNonContracting := [1]
  lhsBatch := []
  rhsBatch := []
  wf := dot_S10000x256_S256x384_S10000x384_1_0_0_1_n_n_wf

class Facts : Prop extends Facts₀ where

variable [Facts]
-- ==== Proof.Spec.lean ====
/-
  The mathematics both programs compute, as functions of coordinates over the extended reals.

  A PaiNN message-passing block on N = 10000 nodes, E = 256000 edges, H = 128 features:
    X        = silu(q·W₁ + b₁)·W₂ + b₂                     per node, 3H columns (three H-wide parts)
    filt     = (silu(rbf·F₁ + c₁)·F₂ + c₂) · cutoff         per edge, 3H columns
    msgS e f   = X[s e, f] · filt[e, f]                      s e the edge's source node
    msgV e c f = uv[e,c] · (X[s e, H+f] · filt[e, H+f]) + mu[s e, c, f] · (X[s e, 2H+f] · filt[e, 2H+f])
    q' = q + Σ_{e lands on n} msgS e,   mu' = mu + Σ_{e lands on n} msgV e
  and then, row by row (one node at a time),
    (v, w)   = the two halves of mu'·W_vec, per spatial component c
    norm     = sqrt(v₀² + v₁² + v₂² + ε),  inner = v₀w₀ + v₁w₁ + v₂w₂
    δ        = silu([q', norm]·M₁ + d₁)·M₂ + d₂              three H-wide parts δq, δμ, δqμ
    Q = q' + δq + δqμ · inner,   MU[c] = mu'[c] + w[c] · δμ
  Sums over a finite index set are taken in the commutative monoid of the extended reals, so no order of
  summation and no finiteness enters.
-/
import Idealize.ShloMosaic.PureOps.Ideal
import Idealize.ShloMosaic.Lib.ValueIdx

noncomputable section

namespace Cert.Spec

open Idealize.ShloMosaic Idealize.ShloMosaic.ValueIdx

/-- A rank-2 array read by its two coordinates. -/
abbrev cur2 {A B : Nat} (a : (⟨2, ![A, B]⟩ : Shape).Idx → EReal) : Fin A → Fin B → EReal := fun i j => a (ix2 i j)
/-- A rank-1 array read by its coordinate. -/
abbrev cur1 {A : Nat} (a : (⟨1, ![A]⟩ : Shape).Idx → EReal) : Fin A → EReal := fun i => a (ix1 i)
/-- A rank-3 array read by its three coordinates. -/
abbrev cur3 {A B C : Nat} (a : (⟨3, ![A, B, C]⟩ : Shape).Idx → EReal) : Fin A → Fin B → Fin C → EReal :=
  fun i j k => a (ix3 i j k)
/-- A one-row matrix [1, A] read as a vector. -/
abbrev row1 {A : Nat} (a : (⟨2, ![1, A]⟩ : Shape).Idx → EReal) : Fin A → EReal := fun i => a (ix2 (0 : Fin 1) i)

/-- Column `o + f` of a wider row: the H-wide part starting at column `o`. -/
abbrev sh {n : Nat} (o : Nat) (m : Nat) (f : Fin n) (h : o + n ≤ m := by decide) : Fin m := ⟨o + f.val, by omega⟩
/-- Column `o + 128·c + f`: feature `f` of spatial component `c` in a row that lays the three components side by side
    from column `o` on. -/
abbrev sh3 (o : Nat) (m : Nat) (c : Fin 3) (f : Fin 128) (h : o + 384 ≤ m := by decide) : Fin m :=
  ⟨o + 128 * c.val + f.val, by omega⟩

/-- x · σ(x), σ the logistic function 1 / (1 + e⁻ˣ) on the extended reals. -/
def silu (x : EReal) : EReal := x * Ideal.logistic x

/-- Entry (r, j) of silu(x·W₁ + b₁)·W₂ + b₂. -/
def mlp {R I K J : Nat} (x : Fin R → Fin I → EReal) (W1 : Fin I → Fin K → EReal) (b1 : Fin K → EReal)
    (W2 : Fin K → Fin J → EReal) (b2 : Fin J → EReal) (r : Fin R) (j : Fin J) : EReal :=
  (∑ k : Fin K, silu ((∑ i : Fin I, x r i * W1 i k) + b1 k) * W2 k j) + b2 j

/-- The edge filter: the radial-basis perceptron scaled by the edge's cutoff value. -/
def filt {E : Nat} (rbf : Fin E → Fin 20 → EReal) (F1 : Fin 20 → Fin 128 → EReal) (c1 : Fin 128 → EReal)
    (F2 : Fin 128 → Fin 384 → EReal) (c2 : Fin 384 → EReal) (cutoff : Fin E → EReal)
    (e : Fin E) (j : Fin 384) : EReal :=
  mlp rbf F1 c1 F2 c2 e j * cutoff e

section Edge
variable {E : Nat} (xs : Fin E → Fin 384 → EReal) (mg : Fin E → Fin 3 → Fin 128 → EReal) (fl : Fin E → Fin 384 → EReal)
  (uv : Fin E → Fin 3 → EReal)

/-- The scalar message of edge `e`, feature `f`, from the edge's gathered node row `xs e`. -/
def edgeS (e : Fin E) (f : Fin 128) : EReal := xs e (sh 0 384 f) * fl e (sh 0 384 f)

/-- The vector message of edge `e`, spatial component `c`, feature `f`, from the edge's gathered rows `xs e` (of X) and
    `mg e` (of mu, by component). -/
def edgeV (e : Fin E) (c : Fin 3) (f : Fin 128) : EReal :=
  uv e c * (xs e (sh 128 384 f) * fl e (sh 128 384 f)) + mg e c f * (xs e (sh 256 384 f) * fl e (sh 256 384 f))
end Edge

/-- The table row a 32-bit row number reads: the number as a signed integer, clamped into [0, 9999]. -/
def srcRow (i : BitVec 32) : Fin 10000 := ⟨min i.toInt.toNat 9999, by omega⟩

/-- The edges whose 32-bit target number, read signed, is the node `n` (a number outside [0, 9999] lands nowhere). -/
def lands {E : Nat} (tgt : Fin E → BitVec 32) (n : Fin 10000) : Finset (Fin E) :=
  Finset.univ.filter fun e => (tgt e).toInt = (n.val : Int)

section Node
variable {E : Nat} (z : EReal) (tgt : Fin E → BitVec 32)

/-- The updated scalar features: q plus the scalar messages of the edges that land on the node, added onto the
    accumulator's initial value `z`. -/
def qUpd (q : Fin 10000 → Fin 128 → EReal) (mS : Fin E → Fin 128 → EReal) (n : Fin 10000) (f : Fin 128) : EReal :=
  q n f + (z + ∑ e ∈ lands tgt n, mS e f)

/-- The updated vector features. -/
def muUpd (mu : Fin 10000 → Fin 3 → Fin 128 → EReal) (mV : Fin E → Fin 3 → Fin 128 → EReal)
    (n : Fin 10000) (c : Fin 3) (f : Fin 128) : EReal :=
  mu n c f + (z + ∑ e ∈ lands tgt n, mV e c f)
end Node

section Mix
variable (q' : Fin 128 → EReal) (mu' : Fin 3 → Fin 128 → EReal)
  (Wv : Fin 128 → Fin 256 → EReal) (M1 : Fin 256 → Fin 384 → EReal) (d1 : Fin 384 → EReal)
  (M2 : Fin 384 → Fin 384 → EReal) (d2 : Fin 384 → EReal) (eps : EReal)

/-- One node's mu'·W_vec: entry (c, o). -/
def proj (c : Fin 3) (o : Fin 256) : EReal := ∑ f : Fin 128, mu' c f * Wv f o
/-- The first half of the projection. -/
def vv (c : Fin 3) (f : Fin 128) : EReal := proj mu' Wv c (sh 0 256 f)
/-- The second half of the projection. -/
def ww (c : Fin 3) (f : Fin 128) : EReal := proj mu' Wv c (sh 128 256 f)
/-- sqrt(v₀² + v₁² + v₂² + ε). -/
def norm (f : Fin 128) : EReal :=
  Ideal.sqrt (vv mu' Wv 0 f * vv mu' Wv 0 f + vv mu' Wv 1 f * vv mu' Wv 1 f + vv mu' Wv 2 f * vv mu' Wv 2 f + eps)
/-- v₀w₀ + v₁w₁ + v₂w₂. -/
def inner (f : Fin 128) : EReal :=
  vv mu' Wv 0 f * ww mu' Wv 0 f + vv mu' Wv 1 f * ww mu' Wv 1 f + vv mu' Wv 2 f * ww mu' Wv 2 f
/-- The mixing perceptron's hidden pre-activation [q', norm]·M₁ + d₁, the product split at the two halves of M₁'s rows. -/
def hid (k : Fin 384) : EReal :=
  ((∑ i : Fin 128, q' i * M1 (sh 0 256 i) k) + ∑ i : Fin 128, norm mu' Wv eps i * M1 (sh 128 256 i) k) + d1 k
/-- δ = silu(hid)·M₂ + d₂. -/
def delta (j : Fin 384) : EReal :=
  (∑ k : Fin 384, silu (hid q' mu' Wv M1 d1 eps k) * M2 k j) + d2 j
/-- One node's scalar output. -/
def outQ (f : Fin 128) : EReal :=
  q' f + delta q' mu' Wv M1 d1 M2 d2 eps (sh 0 384 f) + delta q' mu' Wv M1 d1 M2 d2 eps (sh 256 384 f) * inner mu' Wv f
/-- One node's vector output. -/
def outMU (c : Fin 3) (f : Fin 128) : EReal :=
  mu' c f + ww mu' Wv c f * delta q' mu' Wv M1 d1 M2 d2 eps (sh 128 384 f)
end Mix

end Cert.Spec

end
-- ==== Proof.Final.lean ====
/-
  The block's two results as ONE function of the nineteen argument arrays and of the table row `s e` each edge's gathers
  read. Both programs compute this function; they differ only in how they turn an edge's source number into a row:
  the kernel clamps it into [0, 9999], the reference first wraps a negative number around by 10000 and then clamps. On
  non-negative source numbers the two rows are the same.
-/
import proofs.«425667_j62663572848823_3_alg».proof.Proof.Spec

noncomputable section

namespace Cert.Final

open Idealize.ShloMosaic Idealize.ShloMosaic.ValueIdx Cert.Spec

variable (a0 : (⟨2, ![10000, 128]⟩ : Shape).Idx → EReal)
  (a1 : (⟨3, ![10000, 3, 128]⟩ : Shape).Idx → EReal)
  (a2 : (⟨2, ![2, 256000]⟩ : Shape).Idx → BitVec 32)
  (a3 : (⟨2, ![256000, 20]⟩ : Shape).Idx → EReal)
  (a4 : (⟨2, ![256000, 3]⟩ : Shape).Idx → EReal)
  (a5 : (⟨1, ![256000]⟩ : Shape).Idx → EReal)
  (a6 : (⟨2, ![128, 384]⟩ : Shape).Idx → EReal)
  (a7 : (⟨1, ![384]⟩ : Shape).Idx → EReal)
  (a8 : (⟨2, ![384, 384]⟩ : Shape).Idx → EReal)
  (a9 : (⟨1, ![384]⟩ : Shape).Idx → EReal)
  (a10 : (⟨2, ![20, 128]⟩ : Shape).Idx → EReal)
  (a11 : (⟨1, ![128]⟩ : Shape).Idx → EReal)
  (a12 : (⟨2, ![128, 384]⟩ : Shape).Idx → EReal)
  (a13 : (⟨1, ![384]⟩ : Shape).Idx → EReal)
  (a14 : (⟨2, ![128, 256]⟩ : Shape).Idx → EReal)
  (a15 : (⟨2, ![256, 384]⟩ : Shape).Idx → EReal)
  (a16 : (⟨1, ![384]⟩ : Shape).Idx → EReal)
  (a17 : (⟨2, ![384, 384]⟩ : Shape).Idx → EReal)
  (a18 : (⟨1, ![384]⟩ : Shape).Idx → EReal)
  (s : Fin 256000 → Fin 10000)

/-- The ε under the square root: the 32-bit float literal nearest 1e-8, at its exact binary value. -/
abbrev eps : EReal := Ideal.ofBits .f32 0x322BCC77#32
/-- The segment sums' initial value: the literal +0.0. -/
abbrev zero : EReal := Ideal.ofBits .f32 0x00000000#32

/-- The node perceptron of the arguments. -/
abbrev X : Fin 10000 → Fin 384 → EReal := mlp (cur2 a0) (cur2 a6) (cur1 a7) (cur2 a8) (cur1 a9)
/-- The edge filter of the arguments. -/
abbrev FL : Fin 256000 → Fin 384 → EReal := filt (cur2 a3) (cur2 a10) (cur1 a11) (cur2 a12) (cur1 a13) (cur1 a5)
/-- The target numbers: row 0 of edge_index. -/
abbrev tgt : Fin 256000 → BitVec 32 := fun e => a2 (ix2 (0 : Fin 2) e)
/-- The source numbers: row 1 of edge_index. -/
abbrev src : Fin 256000 → BitVec 32 := fun e => a2 (ix2 (1 : Fin 2) e)

/-- The scalar messages. -/
abbrev mS : Fin 256000 → Fin 128 → EReal :=
  edgeS (fun e j => X a0 a6 a7 a8 a9 (s e) j) (FL a3 a5 a10 a11 a12 a13)
/-- The vector messages. -/
abbrev mV : Fin 256000 → Fin 3 → Fin 128 → EReal :=
  edgeV (fun e j => X a0 a6 a7 a8 a9 (s e) j) (fun e k f => a1 (ix3 (s e) k f)) (FL a3 a5 a10 a11 a12 a13) (cur2 a4)

/-- Node `n`'s updated scalar features. -/
abbrev q' (n : Fin 10000) : Fin 128 → EReal :=
  qUpd zero (tgt a2) (cur2 a0) (mS a0 a3 a5 a6 a7 a8 a9 a10 a11 a12 a13 s) n
/-- Node `n`'s updated vector features. -/
abbrev mu' (n : Fin 10000) : Fin 3 → Fin 128 → EReal :=
  muUpd zero (tgt a2) (cur3 a1) (mV a0 a1 a3 a4 a5 a6 a7 a8 a9 a10 a11 a12 a13 s) n

/-- The first result, entry (n, f). -/
def resQ (n : Fin 10000) (f : Fin 128) : EReal :=
  outQ (q' a0 a2 a3 a5 a6 a7 a8 a9 a10 a11 a12 a13 s n) (mu' a0 a1 a2 a3 a4 a5 a6 a7 a8 a9 a10 a11 a12 a13 s n)
    (cur2 a14) (cur2 a15) (cur1 a16) (cur2 a17) (cur1 a18) eps f

/-- The second result, entry (n, k, f). -/
def resMU (n : Fin 10000) (k : Fin 3) (f : Fin 128) : EReal :=
  outMU (q' a0 a2 a3 a5 a6 a7 a8 a9 a10 a11 a12 a13 s n) (mu' a0 a1 a2 a3 a4 a5 a6 a7 a8 a9 a10 a11 a12 a13 s n)
    (cur2 a14) (cur2 a15) (cur1 a16) (cur2 a17) (cur1 a18) eps k f

end Cert.Final

end
-- ==== Proof.Reg0.lean ====
/-
  The node perceptron's launch: the array its output window ends holding is silu(q·W₁ + b₁)·W₂ + b₂, entry by entry,
  of the arrays the launch finds.

  The launch visits five blocks of 2000 rows. At a block the body multiplies the block's rows of q by W₁, adds b₁ along
  every row, applies x·σ(x), multiplies by W₂ and adds b₂ along every row. On the extended reals a change of float format
  does nothing and a product accumulated into zero is the plain sum of products, so an entry of the block's result is the
  perceptron of its own row of q. Row r of the array lies in block r / 2000, the weights and biases are the same whole
  arrays at every block, and so the five results are the restrictions of ONE function of the whole arrays; the blocks
  cover the array, which therefore ends holding that function.
-/
import proofs.«425667_j62663572848823_3_alg».proof.Proof.Gen.KernelIdeal.Frame
import proofs.«425667_j62663572848823_3_alg».proof.Proof.Spec
import Idealize.ShloMosaic.Lib.Pipeline.Value
import Idealize.ShloMosaic.PureOps.Ideal.Laws

set_option maxRecDepth 16384

noncomputable section

namespace Cert.KernelIdeal.Reg0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## The two matrix products, read at an entry

Both products contract the left factor's columns against the right factor's rows: entry (r, c) of the product reads row r of
the left factor and column c of the right one. -/

/-- Row coordinate of the left factor's entry the first product reads: the output's row. -/
theorem lhs1_0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide),
    dif_pos (show (0 : Fin S2000x128.rank) ∈ dot_S2000x128_S128x384_S2000x384_1_0_0_1_n_n.lhsNonContracting by decide)]
  rfl
/-- Its column coordinate: the summed position. -/
theorem lhs1_1 (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q
/-- Row coordinate of the right factor's entry: the summed position. -/
theorem rhs1_0 (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q
/-- Its column coordinate: the output's column. -/
theorem rhs1_1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide),
    dif_pos (show (1 : Fin S128x384.rank) ∈ dot_S2000x128_S128x384_S2000x384_1_0_0_1_n_n.rhsNonContracting by decide)]
  rfl

/-- The first product into a zero accumulator, at an entry: the sum over the 128 shared positions. -/
theorem mm1_apply {φ₁ φ₂ : FTy} (A : FVec Ideal S2000x128 φ₁) (B : FVec Ideal S128x384 φ₂) (i : S2000x384.Idx) :
    matmul (F := Ideal) dot_S2000x128_S128x384_S2000x384_1_0_0_1_n_n none A B (constant S2000x384 .f32 0x00000000#32) i
      = ∑ k : Fin 128, A (ix2 (i 0) k) * B (ix2 k (i 1)) := by
  show FloatOps.matmul dot_S2000x128_S128x384_S2000x384_1_0_0_1_n_n none A B (constant S2000x384 .f32 0x00000000#32) i = _
  rw [Ideal.matmul_constant_zero_apply, ← Equiv.sum_comp (contrEquiv1 dot_S2000x128_S128x384_S2000x384_1_0_0_1_n_n 128 rfl rfl).symm]
  refine Finset.sum_congr rfl fun k _ => ?_
  have hk := contrEquiv1_symm_val dot_S2000x128_S128x384_S2000x384_1_0_0_1_n_n 128 rfl rfl k
  have el : dot_S2000x128_S128x384_S2000x384_1_0_0_1_n_n.lhsIdx i ((contrEquiv1 dot_S2000x128_S128x384_S2000x384_1_0_0_1_n_n 128 rfl rfl).symm k) = ix2 (i 0) k :=
    funext fun a => Fin.ext (by
      match a with
      | ⟨0, _⟩ => exact lhs1_0 _ _
      | ⟨1, _⟩ => exact (lhs1_1 _ _).trans hk)
  have er : dot_S2000x128_S128x384_S2000x384_1_0_0_1_n_n.rhsIdx i ((contrEquiv1 dot_S2000x128_S128x384_S2000x384_1_0_0_1_n_n 128 rfl rfl).symm k) = ix2 k (i 1) :=
    funext fun a => Fin.ext (by
      match a with
      | ⟨0, _⟩ => exact (rhs1_0 _ _).trans hk
      | ⟨1, _⟩ => exact rhs1_1 _ _)
  exact congrArg₂ (· * ·) (congrArg A el) (congrArg B er)

/-- Row coordinate of the left factor's entry the second product reads: the output's row. -/
theorem lhs2_0 (i : S2000x384.Idx) (q : dot_S2000x384_S384x384_S2000x384_1_0_0_1_n_n.contr.Idx) :
    (dot_S2000x384_S384x384_S2000x384_1_0_0_1_n_n.lhsIdx i q 0).val = (i 0).val := by
  unfold DotDims.lhsIdx
  rw [dif_neg (show ¬(0 : Fin S2000x384.rank) ∈ dot_S2000x384_S384x384_S2000x384_1_0_0_1_n_n.lhsBatch by decide),
    dif_pos (show (0 : Fin S2000x384.rank) ∈ dot_S2000x384_S384x384_S2000x384_1_0_0_1_n_n.lhsNonContracting by decide)]
  rfl
/-- Its column coordinate: the summed position. -/
theorem lhs2_1 (i : S2000x384.Idx) (q : dot_S2000x384_S384x384_S2000x384_1_0_0_1_n_n.contr.Idx) :
    (dot_S2000x384_S384x384_S2000x384_1_0_0_1_n_n.lhsIdx i q 1).val = (q ⟨0, by decide⟩).val :=
  dot_S2000x384_S384x384_S2000x384_1_0_0_1_n_n.lhsIdx_val_of_single rfl i q
/-- Row coordinate of the right factor's entry: the summed position. -/
theorem rhs2_0 (i : S2000x384.Idx) (q : dot_S2000x384_S384x384_S2000x384_1_0_0_1_n_n.contr.Idx) :
    (dot_S2000x384_S384x384_S2000x384_1_0_0_1_n_n.rhsIdx i q 0).val = (q ⟨0, by decide⟩).val :=
  dot_S2000x384_S384x384_S2000x384_1_0_0_1_n_n.rhsIdx_val_of_single rfl i q
/-- Its column coordinate: the output's column. -/
theorem rhs2_1 (i : S2000x384.Idx) (q : dot_S2000x384_S384x384_S2000x384_1_0_0_1_n_n.contr.Idx) :
    (dot_S2000x384_S384x384_S2000x384_1_0_0_1_n_n.rhsIdx i q 1).val = (i 1).val := by
  unfold DotDims.rhsIdx
  rw [dif_neg (show ¬(1 : Fin S384x384.rank) ∈ dot_S2000x384_S384x384_S2000x384_1_0_0_1_n_n.rhsBatch by decide),
    dif_pos (show (1 : Fin S384x384.rank) ∈ dot_S2000x384_S384x384_S2000x384_1_0_0_1_n_n.rhsNonContracting by decide)]
  rfl

/-- The second product into a zero accumulator, at an entry: the sum over the 384 shared positions. -/
theorem mm2_apply {φ₁ φ₂ : FTy} (A : FVec Ideal S2000x384 φ₁) (B : FVec Ideal S384x384 φ₂) (i : S2000x384.Idx) :
    matmul (F := Ideal) dot_S2000x384_S384x384_S2000x384_1_0_0_1_n_n none A B (constant S2000x384 .f32 0x00000000#32) i
      = ∑ k : Fin 384, A (ix2 (i 0) k) * B (ix2 k (i 1)) := by
  show FloatOps.matmul dot_S2000x384_S384x384_S2000x384_1_0_0_1_n_n none A B (constant S2000x384 .f32 0x00000000#32) i = _
  rw [Ideal.matmul_constant_zero_apply, ← Equiv.sum_comp (contrEquiv1 dot_S2000x384_S384x384_S2000x384_1_0_0_1_n_n 384 rfl rfl).symm]
  refine Finset.sum_congr rfl fun k _ => ?_
  have hk := contrEquiv1_symm_val dot_S2000x384_S384x384_S2000x384_1_0_0_1_n_n 384 rfl rfl k
  have el : dot_S2000x384_S384x384_S2000x384_1_0_0_1_n_n.lhsIdx i ((contrEquiv1 dot_S2000x384_S384x384_S2000x384_1_0_0_1_n_n 384 rfl rfl).symm k) = ix2 (i 0) k :=
    funext fun a => Fin.ext (by
      match a with
      | ⟨0, _⟩ => exact lhs2_0 _ _
      | ⟨1, _⟩ => exact (lhs2_1 _ _).trans hk)
  have er : dot_S2000x384_S384x384_S2000x384_1_0_0_1_n_n.rhsIdx i ((contrEquiv1 dot_S2000x384_S384x384_S2000x384_1_0_0_1_n_n 384 rfl rfl).symm k) = ix2 k (i 1) :=
    funext fun a => Fin.ext (by
      match a with
      | ⟨0, _⟩ => exact (rhs2_0 _ _).trans hk
      | ⟨1, _⟩ => exact rhs2_1 _ _)
  exact congrArg₂ (· * ·) (congrArg A el) (congrArg B er)

/-! ## The bias rows and the activation -/

/-- A one-row matrix laid along every row of the block reads, at any row, that column's entry of the one row. -/
theorem bias_apply (b : FVec Ideal S1x384 .f32) (i : S2000x384.Idx) :
    broadcastTo S2000x384 (shapeCast S1x384 b shapeCasts_S1x384_S1x384) broadcasts_S1x384_S2000x384 i
      = b (ix2 (0 : Fin 1) (i 1)) := by
  rw [shapeCast_self]
  exact broadcastTo_apply b broadcasts_S1x384_S2000x384 i (ix2 (0 : Fin 1) (i 1)) (by
    intro a
    match a with
    | ⟨0, _⟩ => rfl
    | ⟨1, _⟩ => rfl)

/-- The logistic function applied entry by entry. -/
theorem logistic_apply {s : Shape} {φ : FTy} (a : FVec Ideal s φ) (i : s.Idx) : logistic a i = Ideal.logistic (a i) := rfl

/-! ## The body's result at an entry -/

/-- Entry `y` of what the body stores is the perceptron of row `y 0` of its first block, at column `y 1`. -/
theorem pay_at (x0 : Vec Ideal S2000x128 .f32) (x1 : Vec Ideal S128x384 .f32) (x2 : Vec Ideal S1x384 .f32)
    (x3 : Vec Ideal S384x384 .f32) (x4 : Vec Ideal S1x384 .f32) (y : S2000x384.Idx) :
    (k0_pay1 (F := Ideal) x0 x1 x2 x3 x4) y
      = Spec.mlp (Spec.cur2 x0) (Spec.cur2 x1) (Spec.row1 x2) (Spec.cur2 x3) (Spec.row1 x4) (y 0) (y 1) := by
  unfold k0_pay1
  simp only [addf_apply, mulf_apply, truncf_apply, logistic_apply, mm1_apply, mm2_apply, bias_apply]
  rfl

/-- The perceptron's entry depends on its own row of the first factor only: two first factors that agree on the two rows
    read, the other four arrays equal, the same column. -/
theorem mlp_eq (B0 : Vec Ideal S2000x128 .f32) (B1 : Vec Ideal S128x384 .f32) (B2 : Vec Ideal S1x384 .f32)
    (B3 : Vec Ideal S384x384 .f32) (B4 : Vec Ideal S1x384 .f32)
    (A0 : S10000x128.Idx → EReal) (A1 : S128x384.Idx → EReal) (A2 : S1x384.Idx → EReal) (A3 : S384x384.Idx → EReal)
    (A4 : S1x384.Idx → EReal) (y : S2000x384.Idx) (i : S10000x384.Idx)
    (h0 : ∀ k : Fin 128, B0 (ix2 (y 0) k) = A0 (ix2 (i 0) k)) (h1 : B1 = A1) (h2 : B2 = A2) (h3 : B3 = A3) (h4 : B4 = A4)
    (hc : (y 1 : Fin 384) = i 1) :
    Spec.mlp (Spec.cur2 B0) (Spec.cur2 B1) (Spec.row1 B2) (Spec.cur2 B3) (Spec.row1 B4) (y 0) (y 1)
      = Spec.mlp (Spec.cur2 A0) (Spec.cur2 A1) (Spec.row1 A2) (Spec.cur2 A3) (Spec.row1 A4) (i 0) (i 1) := by
  subst h1 h2 h3 h4
  simp only [Spec.mlp, Spec.cur2, Spec.row1, h0, hc]

/-! ## The blocks, as parts of the arrays -/

theorem hz : (![0, 0] : Fin 2 → Nat) = fun _ => 0 := funext fun a => by fin_cases a <;> rfl

/-- The index maps over the grid: the rows of q and of the output move with the point, block `t` at point `t`; the weights
    and the biases stay at block (0, 0), which is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry `y` of the block of q at point `t` is entry (2000·t + y 0, y 1) of q. -/
theorem blk0 (c : Dev nD) (t : Fin cfg0.N) (y : S2000x128.Idx) (i : S10000x128.Idx)
    (h0 : (i 0).val = t.val * 2000 + (y 0).val) (h1 : (i 1).val = (y 1).val) :
    (iblk0 (F := Ideal) V c 0 t : Vec Ideal S2000x128 .f32) y = V c main_arg0 i := by
  obtain ⟨e0, e1, -⟩ := idx_facts t
  show V c main_arg0 (((cfg0.win 0).blk t).view.emb y) = V c main_arg0 i
  refine congrArg (V c main_arg0) (funext fun a => Fin.ext ?_)
  match a with
  | ⟨0, _⟩ => show win0_0.index t (0 : Fin 2) * 2000 + 1 * (y 0).val = (i 0).val; omega
  | ⟨1, _⟩ => show win0_0.index t (1 : Fin 2) * 128 + 1 * (y 1).val = (i 1).val; omega

/-- The block of W₁ at every point is W₁. -/
theorem blk1 (c : Dev nD) (t : Fin cfg0.N) : (iblk0 (F := Ideal) V c 1 t : Vec Ideal S128x384 .f32) = V c main_arg6 := by
  obtain ⟨-, -, e0, e1, -⟩ := idx_facts t
  funext y
  show V c main_arg6 (((cfg0.win 1).blk t).view.emb y) = V c main_arg6 y
  refine congrArg (V c main_arg6) (funext fun a => Fin.ext ?_)
  match a with
  | ⟨0, _⟩ => show win0_1.index t (0 : Fin 2) * 128 + 1 * (y 0).val = (y 0).val; omega
  | ⟨1, _⟩ => show win0_1.index t (1 : Fin 2) * 384 + 1 * (y 1).val = (y 1).val; omega

/-- The block of b₁ at every point is b₁. -/
theorem blk2 (c : Dev nD) (t : Fin cfg0.N) : (iblk0 (F := Ideal) V c 2 t : Vec Ideal S1x384 .f32) = V c main_v4 := by
  obtain ⟨-, -, -, -, e0, e1, -⟩ := idx_facts t
  funext y
  show V c main_v4 (((cfg0.win 2).blk t).view.emb y) = V c main_v4 y
  refine congrArg (V c main_v4) (funext fun a => Fin.ext ?_)
  match a with
  | ⟨0, _⟩ => show win0_2.index t (0 : Fin 2) * 1 + 1 * (y 0).val = (y 0).val; omega
  | ⟨1, _⟩ => show win0_2.index t (1 : Fin 2) * 384 + 1 * (y 1).val = (y 1).val; omega

/-- The block of W₂ at every point is W₂. -/
theorem blk3 (c : Dev nD) (t : Fin cfg0.N) : (iblk0 (F := Ideal) V c 3 t : Vec Ideal S384x384 .f32) = V c main_arg8 := by
  obtain ⟨-, -, -, -, -, -, e0, e1, -⟩ := idx_facts t
  funext y
  show V c main_arg8 (((cfg0.win 3).blk t).view.emb y) = V c main_arg8 y
  refine congrArg (V c main_arg8) (funext fun a => Fin.ext ?_)
  match a with
  | ⟨0, _⟩ => show win0_3.index t (0 : Fin 2) * 384 + 1 * (y 0).val = (y 0).val; omega
  | ⟨1, _⟩ => show win0_3.index t (1 : Fin 2) * 384 + 1 * (y 1).val = (y 1).val; omega

/-- The block of b₂ at every point is b₂. -/
theorem blk4 (c : Dev nD) (t : Fin cfg0.N) : (iblk0 (F := Ideal) V c 4 t : Vec Ideal S1x384 .f32) = V c main_v5 := by
  obtain ⟨-, -, -, -, -, -, -, -, e0, e1, -⟩ := idx_facts t
  funext y
  show V c main_v5 (((cfg0.win 4).blk t).view.emb y) = V c main_v5 y
  refine congrArg (V c main_v5) (funext fun a => Fin.ext ?_)
  match a with
  | ⟨0, _⟩ => show win0_4.index t (0 : Fin 2) * 1 + 1 * (y 0).val = (y 0).val; omega
  | ⟨1, _⟩ => show win0_4.index t (1 : Fin 2) * 384 + 1 * (y 1).val = (y 1).val; omega

/-! ## From the blocks to the array -/

/-- The perceptron of the whole arrays the launch finds, as one function of the output array's index. -/
abbrev G (c : Dev nD) : S10000x384.Idx → EReal := fun i =>
  Spec.mlp (Spec.cur2 (V c main_arg0)) (Spec.cur2 (V c main_arg6)) (Spec.row1 (V c main_v4))
    (Spec.cur2 (V c main_arg8)) (Spec.row1 (V c main_v5)) (i 0) (i 1)

/-- Entry `y` of the body's result at point `t` is `G` at the place of the array that entry is written back to. -/
theorem point (c : Dev nD) (t : Fin cfg0.N) (y : S2000x384.Idx) :
    k0_pay1 (F := Ideal) (iblk0 V c 0 t) (iblk0 V c 1 t) (iblk0 V c 2 t) (iblk0 V c 3 t) (iblk0 V c 4 t) y
      = G V c (((cfg0.win 5).blk t).view.emb y) := by
  obtain ⟨-, -, -, -, -, -, -, -, -, -, e0, e1⟩ := idx_facts t
  have hr : ((((cfg0.win 5).blk t).view.emb y) 0).val = t.val * 2000 + (y 0).val := by
    show win0_5.index t (0 : Fin 2) * 2000 + 1 * (y 0).val = _
    omega
  have hcol : ((((cfg0.win 5).blk t).view.emb y) 1).val = (y 1).val := by
    show win0_5.index t (1 : Fin 2) * 384 + 1 * (y 1).val = _
    omega
  refine (pay_at (iblk0 V c 0 t) (iblk0 V c 1 t) (iblk0 V c 2 t) (iblk0 V c 3 t) (iblk0 V c 4 t) y).trans ?_
  exact mlp_eq (iblk0 V c 0 t) (iblk0 V c 1 t) (iblk0 V c 2 t) (iblk0 V c 3 t) (iblk0 V c 4 t)
    (V c main_arg0) (V c main_arg6) (V c main_v4) (V c main_arg8) (V c main_v5) y (((cfg0.win 5).blk t).view.emb y)
    (fun k => blk0 V c t (ix2 (y 0) k) (ix2 ((((cfg0.win 5).blk t).view.emb y) 0) k) hr rfl)
    (blk1 V c t) (blk2 V c t) (blk3 V c t) (blk4 V c t) (Fin.ext hcol.symm)

/-- What point `t` writes back is block `t` of `G`. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 (F := Ideal) V c).after 5 t) = _
  rw [after0_5]
  unfold out0_5
  rw [View.canon_unit_zero hz]
  simp only [View.ld_unit_zero (S := S2000x128) hz, View.ld_unit_zero (S := S128x384) hz,
    View.ld_unit_zero (S := S1x384) hz, View.ld_unit_zero (S := S384x384) hz]
  funext y
  exact point V c t y

/-- An index of the array is in point `t`'s block iff each coordinate is in the block's range on its axis. -/
theorem mem_blk (t : Fin cfg0.N) (i : S10000x384.Idx) :
    i ∈ ((cfg0.win 5).blk t).view.set ↔ ∀ a : Fin 2, win0_5.index t a * S2000x384.size a ≤ (i a).val
      ∧ (i a).val < win0_5.index t a * S2000x384.size a + S2000x384.size a := by
  show i ∈ ((View.whole main_v6).slice (win0_5.rect t)).set ↔ _
  rw [View.set_slice_whole, Rect.mem_set_unit]
  exact Iff.rfl

/-- The five row blocks cover the array: row `r` lies in block `r / 2000`. -/
theorem cover (i : S10000x384.Idx) :
    ∃ t : Fin cfg0.N, (cfg0.win 5).flush t = true ∧ i ∈ ((cfg0.win 5).blk t).view.set := by
  have hi0 : (i 0).val < 10000 := (i 0).isLt
  have hi1 : (i 1).val < 384 := (i 1).isLt
  have hN : grid0.N = 5 := N_0
  obtain ⟨t, ht⟩ : ∃ t : Fin cfg0.N, t.val = (i 0).val / 2000 := ⟨⟨(i 0).val / 2000, by show _ < grid0.N; rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 384 ≤ (i 1).val ∧ (i 1).val < win0_5.index t (1 : Fin 2) * 384 + 384
    omega

/-- After the launch over its five row blocks, the output array holds the perceptron of the input arrays, entry by entry. -/
theorem arr (c : Dev nD) (n : Fin 10000) (j : Fin 384) :
    (dat0 (F := Ideal) V c).arrAt 5 cfg0.N (ix2 n j)
      = Spec.mlp (Spec.cur2 (V c main_arg0)) (Spec.cur2 (V c main_arg6)) (Spec.row1 (V c main_v4))
          (Spec.cur2 (V c main_arg8)) (Spec.row1 (V c main_v5)) n j := by
  have h := (dat0 (F := Ideal) V c).arrAt_eq_of_cover 5 (G V c) (fun t _ => flushed_eq V c t) cover
  exact congrFun h (ix2 n j)

end Cert.KernelIdeal.Reg0

end
-- ==== Proof.Reg1.lean ====
/-
  The edge launch: the merged message array [E, 4H] it leaves holds, per edge, the scalar message in columns [0, H) and the
  three components of the vector message in columns [H, 4H), as functions of the arrays the launch finds.

  The body works on 1600 edges at a time. From the block of radial-basis rows it forms the filter (two products with a
  logistic gate between them, the biases added row by row, the whole scaled by the edge's cutoff value), multiplies it
  into the gathered node rows, and stores four 128-column parts side by side. Read entry by entry the stored block is a
  function of the edge's own rows of the edge arrays and of the weights, so the 160 blocks are the row blocks of ONE
  function of the arrays, and that function is the array the launch leaves.
-/
import proofs.«425667_j62663572848823_3_alg».proof.Proof.Gen.KernelIdeal.Frame
import proofs.«425667_j62663572848823_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Reg1

open Idealize.ShloMosaic Idealize.ShloMosaic.TcCoe Idealize.ShloMosaic.ValueIdx Idealize.SL.Sem
open Cert.KernelIdeal Cert.KernelIdeal.Gen
open Idealize.ShloMosaic.Pipeline (Dat)

/-! ## Two layout facts -/

/-- A column [a, 1] broadcast along the lanes to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products of the filter, read at an entry -/

/-- Left operand of The product of the radial-basis rows with the first weight matrix: its row is the result's row. -/
theorem lhs_in_0 (i : S1600x128.Idx) (q : dot_S1600x20_S20x128_S1600x128_1_0_0_1_n_n.contr.Idx) :
    (dot_S1600x20_S20x128_S1600x128_1_0_0_1_n_n.lhsIdx i q 0).val = (i 0).val := by
  unfold DotDims.lhsIdx
  rw [dif_neg (show ¬(0 : Fin S1600x20.rank) ∈ dot_S1600x20_S20x128_S1600x128_1_0_0_1_n_n.lhsBatch by decide), dif_pos (show (0 : Fin S1600x20.rank) ∈ dot_S1600x20_S20x128_S1600x128_1_0_0_1_n_n.lhsNonContracting by decide)]
  rfl
/-- Its column is the summation index. -/
theorem lhs_in_1 (i : S1600x128.Idx) (q : dot_S1600x20_S20x128_S1600x128_1_0_0_1_n_n.contr.Idx) :
    (dot_S1600x20_S20x128_S1600x128_1_0_0_1_n_n.lhsIdx i q 1).val = (q ⟨0, by decide⟩).val :=
  dot_S1600x20_S20x128_S1600x128_1_0_0_1_n_n.lhsIdx_val_of_single rfl i q
/-- Right operand: its row is the summation index. -/
theorem rhs_in_0 (i : S1600x128.Idx) (q : dot_S1600x20_S20x128_S1600x128_1_0_0_1_n_n.contr.Idx) :
    (dot_S1600x20_S20x128_S1600x128_1_0_0_1_n_n.rhsIdx i q 0).val = (q ⟨0, by decide⟩).val :=
  dot_S1600x20_S20x128_S1600x128_1_0_0_1_n_n.rhsIdx_val_of_single rfl i q
/-- Its column is the result's column. -/
theorem rhs_in_1 (i : S1600x128.Idx) (q : dot_S1600x20_S20x128_S1600x128_1_0_0_1_n_n.contr.Idx) :
    (dot_S1600x20_S20x128_S1600x128_1_0_0_1_n_n.rhsIdx i q 1).val = (i 1).val := by
  unfold DotDims.rhsIdx
  rw [dif_neg (show ¬(1 : Fin S20x128.rank) ∈ dot_S1600x20_S20x128_S1600x128_1_0_0_1_n_n.rhsBatch by decide), dif_pos (show (1 : Fin S20x128.rank) ∈ dot_S1600x20_S20x128_S1600x128_1_0_0_1_n_n.rhsNonContracting by decide)]
  rfl

/-- The product of the radial-basis rows with the first weight matrix into a zero accumulator, entry (r, c): the sum over the 20 inner positions of the products. -/
theorem mm_in_apply {φ₁ φ₂ : FTy} (a : FVec Ideal S1600x20 φ₁) (b : FVec Ideal S20x128 φ₂) (r : Fin 1600) (c : Fin 128) :
    matmul (F := Ideal) dot_S1600x20_S20x128_S1600x128_1_0_0_1_n_n none a b (constant (F := Ideal) S1600x128 .f32 0x00000000#32) (ix2 r c)
      = ∑ k : Fin 20, a (ix2 r k) * b (ix2 k c) := by
  simp only [matmul]
  rw [Ideal.matmul_constant_zero_apply, ← Equiv.sum_comp (contrEquiv1 dot_S1600x20_S20x128_S1600x128_1_0_0_1_n_n 20 rfl rfl).symm]
  refine Finset.sum_congr rfl fun k _ => ?_
  have hk := contrEquiv1_symm_val dot_S1600x20_S20x128_S1600x128_1_0_0_1_n_n 20 rfl rfl k
  have el : dot_S1600x20_S20x128_S1600x128_1_0_0_1_n_n.lhsIdx (ix2 r c) ((contrEquiv1 dot_S1600x20_S20x128_S1600x128_1_0_0_1_n_n 20 rfl rfl).symm k) = ix2 r k := funext fun ax => Fin.ext (by
    match ax with
    | ⟨0, _⟩ => exact lhs_in_0 _ _
    | ⟨1, _⟩ => exact (lhs_in_1 _ _).trans hk)
  have er : dot_S1600x20_S20x128_S1600x128_1_0_0_1_n_n.rhsIdx (ix2 r c) ((contrEquiv1 dot_S1600x20_S20x128_S1600x128_1_0_0_1_n_n 20 rfl rfl).symm k) = ix2 k c := funext fun ax => Fin.ext (by
    match ax with
    | ⟨0, _⟩ => exact (rhs_in_0 _ _).trans hk
    | ⟨1, _⟩ => exact rhs_in_1 _ _)
  rw [el, er]

/-- Left operand of The product of the gated hidden rows with the second weight matrix: its row is the result's row. -/
theorem lhs_out_0 (i : S1600x384.Idx) (q : dot_S1600x128_S128x384_S1600x384_1_0_0_1_n_n.contr.Idx) :
    (dot_S1600x128_S128x384_S1600x384_1_0_0_1_n_n.lhsIdx i q 0).val = (i 0).val := by
  unfold DotDims.lhsIdx
  rw [dif_neg (show ¬(0 : Fin S1600x128.rank) ∈ dot_S1600x128_S128x384_S1600x384_1_0_0_1_n_n.lhsBatch by decide), dif_pos (show (0 : Fin S1600x128.rank) ∈ dot_S1600x128_S128x384_S1600x384_1_0_0_1_n_n.lhsNonContracting by decide)]
  rfl
/-- Its column is the summation index. -/
theorem lhs_out_1 (i : S1600x384.Idx) (q : dot_S1600x128_S128x384_S1600x384_1_0_0_1_n_n.contr.Idx) :
    (dot_S1600x128_S128x384_S1600x384_1_0_0_1_n_n.lhsIdx i q 1).val = (q ⟨0, by decide⟩).val :=
  dot_S1600x128_S128x384_S1600x384_1_0_0_1_n_n.lhsIdx_val_of_single rfl i q
/-- Right operand: its row is the summation index. -/
theorem rhs_out_0 (i : S1600x384.Idx) (q : dot_S1600x128_S128x384_S1600x384_1_0_0_1_n_n.contr.Idx) :
    (dot_S1600x128_S128x384_S1600x384_1_0_0_1_n_n.rhsIdx i q 0).val = (q ⟨0, by decide⟩).val :=
  dot_S1600x128_S128x384_S1600x384_1_0_0_1_n_n.rhsIdx_val_of_single rfl i q
/-- Its column is the result's column. -/
theorem rhs_out_1 (i : S1600x384.Idx) (q : dot_S1600x128_S128x384_S1600x384_1_0_0_1_n_n.contr.Idx) :
    (dot_S1600x128_S128x384_S1600x384_1_0_0_1_n_n.rhsIdx i q 1).val = (i 1).val := by
  unfold DotDims.rhsIdx
  rw [dif_neg (show ¬(1 : Fin S128x384.rank) ∈ dot_S1600x128_S128x384_S1600x384_1_0_0_1_n_n.rhsBatch by decide), dif_pos (show (1 : Fin S128x384.rank) ∈ dot_S1600x128_S128x384_S1600x384_1_0_0_1_n_n.rhsNonContracting by decide)]
  rfl

/-- The product of the gated hidden rows with the second weight matrix into a zero accumulator, entry (r, c): the sum over the 128 inner positions of the products. -/
theorem mm_out_apply {φ₁ φ₂ : FTy} (a : FVec Ideal S1600x128 φ₁) (b : FVec Ideal S128x384 φ₂) (r : Fin 1600) (c : Fin 384) :
    matmul (F := Ideal) dot_S1600x128_S128x384_S1600x384_1_0_0_1_n_n none a b (constant (F := Ideal) S1600x384 .f32 0x00000000#32) (ix2 r c)
      = ∑ k : Fin 128, a (ix2 r k) * b (ix2 k c) := by
  simp only [matmul]
  rw [Ideal.matmul_constant_zero_apply, ← Equiv.sum_comp (contrEquiv1 dot_S1600x128_S128x384_S1600x384_1_0_0_1_n_n 128 rfl rfl).symm]
  refine Finset.sum_congr rfl fun k _ => ?_
  have hk := contrEquiv1_symm_val dot_S1600x128_S128x384_S1600x384_1_0_0_1_n_n 128 rfl rfl k
  have el : dot_S1600x128_S128x384_S1600x384_1_0_0_1_n_n.lhsIdx (ix2 r c) ((contrEquiv1 dot_S1600x128_S128x384_S1600x384_1_0_0_1_n_n 128 rfl rfl).symm k) = ix2 r k := funext fun ax => Fin.ext (by
    match ax with
    | ⟨0, _⟩ => exact lhs_out_0 _ _
    | ⟨1, _⟩ => exact (lhs_out_1 _ _).trans hk)
  have er : dot_S1600x128_S128x384_S1600x384_1_0_0_1_n_n.rhsIdx (ix2 r c) ((contrEquiv1 dot_S1600x128_S128x384_S1600x384_1_0_0_1_n_n 128 rfl rfl).symm k) = ix2 k c := funext fun ax => Fin.ext (by
    match ax with
    | ⟨0, _⟩ => exact (rhs_out_0 _ _).trans hk
    | ⟨1, _⟩ => exact rhs_out_1 _ _)
  rw [el, er]

/-! ## The merged row: a 128-wide scalar part, then three 128-wide components -/

/-- Column q of the merged row of edge e: the scalar part S for q below 128, otherwise component (q − 128) / 128 of
    the vector part W at feature (q − 128) mod 128. -/
def merged {E : Nat} (S : Fin E → Fin 128 → EReal) (W : Fin E → Fin 3 → Fin 128 → EReal) (e : Fin E) (q : Fin 512) : EReal :=
  if h : q.val < 128 then S e ⟨q.val, h⟩
  else W e ⟨(q.val - 128) / 128, by have := q.isLt; omega⟩ ⟨(q.val - 128) % 128, Nat.mod_lt _ (by decide)⟩

/-- Its first 128 columns are the scalar part. -/
theorem merged_S {E : Nat} (S : Fin E → Fin 128 → EReal) (W : Fin E → Fin 3 → Fin 128 → EReal) (e : Fin E) (f : Fin 128) :
    merged S W e (Spec.sh 0 512 f) = S e f := by
  unfold merged
  rw [dif_pos (show (Spec.sh 0 512 f).val < 128 by show 0 + f.val < 128; omega)]
  exact congrArg (S e) (Fin.ext (by show 0 + f.val = f.val; omega))

/-- Column 128 + 128·k + f is feature f of component k of the vector part. -/
theorem merged_V {E : Nat} (S : Fin E → Fin 128 → EReal) (W : Fin E → Fin 3 → Fin 128 → EReal) (e : Fin E) (k : Fin 3) (f : Fin 128) :
    merged S W e (Spec.sh3 128 512 k f) = W e k f := by
  unfold merged
  have hk := k.isLt
  have hf := f.isLt
  rw [dif_neg (show ¬(Spec.sh3 128 512 k f).val < 128 by show ¬(128 + 128 * k.val + f.val < 128); omega)]
  exact congrArg₂ (W e) (Fin.ext (by show (128 + 128 * k.val + f.val - 128) / 128 = k.val; omega))
    (Fin.ext (by show (128 + 128 * k.val + f.val - 128) % 128 = f.val; omega))

/-- The merged row depends on the two parts only at the edge it is read at. -/
theorem merged_congr {E E' : Nat} (S : Fin E → Fin 128 → EReal) (W : Fin E → Fin 3 → Fin 128 → EReal)
    (S' : Fin E' → Fin 128 → EReal) (W' : Fin E' → Fin 3 → Fin 128 → EReal) (e : Fin E) (e' : Fin E')
    (hS : ∀ f, S e f = S' e' f) (hW : ∀ k f, W e k f = W' e' k f) (q : Fin 512) :
    merged S W e q = merged S' W' e' q := by
  unfold merged
  split
  · exact hS _
  · exact hW _ _

/-! ## The body's values at an entry, over any blocks -/

/-- The logistic gate at an entry is the gate of the entry. -/
theorem logistic_apply {s : Shape} {φ : FTy} (x : FVec Ideal s φ) (i : s.Idx) : logistic x i = Ideal.logistic (x i) := rfl

section Blocks
variable (x0 : Vec Ideal S1600x20 .f32) (x1 : Vec Ideal S1600x4 .f32) (x2 : Vec Ideal S1600x384 .f32)
  (x3 : Vec Ideal S1600x384 .f32) (x4 : Vec Ideal S20x128 .f32) (x5 : Vec Ideal S1x128 .f32)
  (x6 : Vec Ideal S128x384 .f32) (x7 : Vec Ideal S1x384 .f32)

/-- The filter of a block of 1600 edges: the radial-basis perceptron of the block's rows, scaled by column 0 of the
    block of packed cutoff and direction values. -/
abbrev bfl : Fin 1600 → Fin 384 → EReal :=
  Spec.filt (Spec.cur2 x0) (Spec.cur2 x4) (Spec.row1 x5) (Spec.cur2 x6) (Spec.row1 x7) (fun r => x1 (ix2 r (0 : Fin 4)))

/-- The unit vectors of a block: columns 1..3 of the packed block. -/
abbrev buv : Fin 1600 → Fin 3 → EReal := fun r k => x1 (ix2 r (Spec.sh 1 4 k))

/-- The filter as the body forms it, at row r and column j. -/
theorem pay6_apply (r : Fin 1600) (j : Fin 384) :
    k1_pay6 (F := Ideal) x0 x4 x5 x6 x7 x1 (ix2 r j) = bfl x0 x1 x4 x5 x6 x7 r j := by
  unfold k1_pay6 k1_pay4 bfl Spec.filt Spec.mlp
  dsimp only
  simp only [shapeCast_self]
  rw [mulf_apply, addf_apply, mm_out_apply, broadcastTo_1b_ab_apply, broadcastTo_a1_ab_apply,
    slice2_axis1_apply 0 _ _ r (0 : Fin 1) (0 : Fin 4) rfl]
  refine congrArg₂ (· * ·) (congrArg₂ (· + ·) (Finset.sum_congr rfl fun k _ => ?_) rfl) rfl
  refine congrArg₂ (· * ·) ?_ rfl
  rw [truncf_apply, mulf_apply, logistic_apply, addf_apply, mm_in_apply, broadcastTo_1b_ab_apply]
  rfl

/-- Column k of the block's unit vectors, as the body slices it out of the packed block. -/
theorem pay5_apply (r : Fin 1600) (k : Fin 3) : k1_pay5 (F := Ideal) x1 (ix2 r k) = buv x1 r k := by
  unfold k1_pay5 k1_pay4
  try dsimp only
  simp only [shapeCast_self]
  exact slice2_axis1_apply 1 x1 _ r k (Spec.sh 1 4 k) rfl

/-- Part 0 of the gathered node row times part 0 of the filter: columns [0, 0+128). -/
theorem pay9_apply (r : Fin 1600) (f : Fin 128) :
    k1_pay9 (F := Ideal) x0 x4 x5 x6 x7 x1 x2 (ix2 r f)
      = Spec.cur2 x2 r (Spec.sh 0 384 f) * bfl x0 x1 x4 x5 x6 x7 r (Spec.sh 0 384 f) := by
  unfold k1_pay9 k1_pay7
  try dsimp only
  simp only [shapeCast_self]
  rw [mulf_apply, slice2_axis1_apply 0 _ _ r f (Spec.sh 0 384 f) rfl, slice2_axis1_apply 0 _ _ r f (Spec.sh 0 384 f) rfl,
    pay6_apply]

/-- Part 1 of the gathered node row times part 1 of the filter: columns [128, 128+128). -/
theorem pay10_apply (r : Fin 1600) (f : Fin 128) :
    k1_pay10 (F := Ideal) x0 x4 x5 x6 x7 x1 x2 (ix2 r f)
      = Spec.cur2 x2 r (Spec.sh 128 384 f) * bfl x0 x1 x4 x5 x6 x7 r (Spec.sh 128 384 f) := by
  unfold k1_pay10 k1_pay7
  try dsimp only
  simp only [shapeCast_self]
  rw [mulf_apply, slice2_axis1_apply 128 _ _ r f (Spec.sh 128 384 f) rfl, slice2_axis1_apply 128 _ _ r f (Spec.sh 128 384 f) rfl,
    pay6_apply]

/-- Part 2 of the gathered node row times part 2 of the filter: columns [256, 256+128). -/
theorem pay11_apply (r : Fin 1600) (f : Fin 128) :
    k1_pay11 (F := Ideal) x0 x4 x5 x6 x7 x1 x2 (ix2 r f)
      = Spec.cur2 x2 r (Spec.sh 256 384 f) * bfl x0 x1 x4 x5 x6 x7 r (Spec.sh 256 384 f) := by
  unfold k1_pay11 k1_pay7
  try dsimp only
  simp only [shapeCast_self]
  rw [mulf_apply, slice2_axis1_apply 256 _ _ r f (Spec.sh 256 384 f) rfl, slice2_axis1_apply 256 _ _ r f (Spec.sh 256 384 f) rfl,
    pay6_apply]

/-- The first unit-vector component times the middle product. -/
theorem pay12_apply (r : Fin 1600) (f : Fin 128) :
    k1_pay12 (F := Ideal) x0 x4 x5 x6 x7 x1 x2 (ix2 r f)
      = buv x1 r 0 * (Spec.cur2 x2 r (Spec.sh 128 384 f) * bfl x0 x1 x4 x5 x6 x7 r (Spec.sh 128 384 f)) := by
  unfold k1_pay12
  try dsimp only
  rw [mulf_apply, broadcastTo_a1_ab_apply, slice2_axis1_apply 0 _ _ r (0 : Fin 1) (0 : Fin 3) rfl, pay5_apply, pay10_apply]

/-- The stored part of component 0, over any middle and last products. -/
theorem pay1_apply (v37 v40 : FVec Ideal S1600x128 .f32) (r : Fin 1600) (f : Fin 128) :
    k1_pay1 (F := Ideal) (k1_pay8 x3) v37 v40 (ix2 r f)
      = v40 (ix2 r f) + x3 (ix2 r (Spec.sh3 0 384 0 f)) * v37 (ix2 r f) := by
  unfold k1_pay1 k1_pay8
  try dsimp only
  simp only [shapeCast_self]
  rw [addf_apply, mulf_apply, slice2_axis1_apply 0 _ _ r f (Spec.sh3 0 384 0 f) (by show 0 + 128 * 0 + f.val = 0 + f.val; omega)]

/-- The stored part of component 1. -/
theorem pay2_apply (v36 v37 : FVec Ideal S1600x128 .f32) (r : Fin 1600) (f : Fin 128) :
    k1_pay2 (F := Ideal) (k1_pay5 x1) (k1_pay8 x3) v36 v37 (ix2 r f)
      = buv x1 r 1 * v36 (ix2 r f) + x3 (ix2 r (Spec.sh3 0 384 1 f)) * v37 (ix2 r f) := by
  unfold k1_pay2 k1_pay8
  try dsimp only
  simp only [shapeCast_self]
  rw [addf_apply, mulf_apply, mulf_apply, broadcastTo_a1_ab_apply, slice2_axis1_apply 1 _ _ r (0 : Fin 1) (1 : Fin 3) rfl, pay5_apply,
    slice2_axis1_apply 128 _ _ r f (Spec.sh3 0 384 1 f) (by show 0 + 128 * 1 + f.val = 128 + f.val; omega)]

/-- The stored part of component 2. -/
theorem pay3_apply (v36 v37 : FVec Ideal S1600x128 .f32) (r : Fin 1600) (f : Fin 128) :
    k1_pay3 (F := Ideal) (k1_pay5 x1) (k1_pay8 x3) v36 v37 (ix2 r f)
      = buv x1 r 2 * v36 (ix2 r f) + x3 (ix2 r (Spec.sh3 0 384 2 f)) * v37 (ix2 r f) := by
  unfold k1_pay3 k1_pay8
  try dsimp only
  simp only [shapeCast_self]
  rw [addf_apply, mulf_apply, mulf_apply, broadcastTo_a1_ab_apply, slice2_axis1_apply 2 _ _ r (0 : Fin 1) (2 : Fin 3) rfl, pay5_apply,
    slice2_axis1_apply 256 _ _ r f (Spec.sh3 0 384 2 f) (by show 0 + 128 * 2 + f.val = 256 + f.val; omega)]

/-! ## The block the four stores leave -/

theorem hz : (![0, 0] : Fin 2 → Nat) = fun _ => 0 := funext fun a => by fin_cases a <;> rfl

/-- The scalar message of the block's edges. -/
abbrev bS : Fin 1600 → Fin 128 → EReal := Spec.edgeS (Spec.cur2 x2) (bfl x0 x1 x4 x5 x6 x7)
/-- The vector message of the block's edges. -/
abbrev bV : Fin 1600 → Fin 3 → Fin 128 → EReal :=
  Spec.edgeV (Spec.cur2 x2) (fun e k f => x3 (ix2 e (Spec.sh3 0 384 k f))) (bfl x0 x1 x4 x5 x6 x7) (buv x1)

/-- Where the four stored column slices sit in the [1600, 512] block. -/
theorem emb_S (r : Fin 1600) (f : Fin 128) : r1_7.emb (ix2 r f) = ix2 r (Spec.sh 0 512 f) :=
  funext fun a => Fin.ext (by
    match a with
    | ⟨0, _⟩ => show 0 + 1 * r.val = r.val; omega
    | ⟨1, _⟩ => show 0 + 1 * f.val = 0 + f.val; omega)
theorem emb_V0 (r : Fin 1600) (f : Fin 128) : r1_8.emb (ix2 r f) = ix2 r (Spec.sh3 128 512 0 f) :=
  funext fun a => Fin.ext (by
    match a with
    | ⟨0, _⟩ => show 0 + 1 * r.val = r.val; omega
    | ⟨1, _⟩ => show 128 + 1 * f.val = 128 + 128 * 0 + f.val; omega)
theorem emb_V1 (r : Fin 1600) (f : Fin 128) : r1_9.emb (ix2 r f) = ix2 r (Spec.sh3 128 512 1 f) :=
  funext fun a => Fin.ext (by
    match a with
    | ⟨0, _⟩ => show 0 + 1 * r.val = r.val; omega
    | ⟨1, _⟩ => show 256 + 1 * f.val = 128 + 128 * 1 + f.val; omega)
theorem emb_V2 (r : Fin 1600) (f : Fin 128) : r1_10.emb (ix2 r f) = ix2 r (Spec.sh3 128 512 2 f) :=
  funext fun a => Fin.ext (by
    match a with
    | ⟨0, _⟩ => show 0 + 1 * r.val = r.val; omega
    | ⟨1, _⟩ => show 384 + 1 * f.val = 128 + 128 * 2 + f.val; omega)

/-- The block as one function of its index: row r holds the merged row of the block's edge r. -/
abbrev blockFn : S1600x512.Idx → EReal := fun y =>
  merged (bS x0 x1 x2 x4 x5 x6 x7) (bV x0 x1 x2 x3 x4 x5 x6 x7) (y 0) (y 1)

/-- The store of columns [0, 128) is that function on its rectangle. -/
theorem piece_S (r : Fin 1600) (f : Fin 128) :
    k1_pay9 (F := Ideal) x0 x4 x5 x6 x7 x1 x2 (ix2 r f) = blockFn x0 x1 x2 x3 x4 x5 x6 x7 (r1_7.emb (ix2 r f)) := by
  rw [emb_S]
  show _ = merged _ _ r (Spec.sh 0 512 f)
  rw [merged_S, pay9_apply]
  rfl
/-- The store of columns [128, 256). -/
theorem piece_V0 (r : Fin 1600) (f : Fin 128) :
    k1_pay1 (F := Ideal) (k1_pay8 x3) (k1_pay11 x0 x4 x5 x6 x7 x1 x2) (k1_pay12 x0 x4 x5 x6 x7 x1 x2) (ix2 r f)
      = blockFn x0 x1 x2 x3 x4 x5 x6 x7 (r1_8.emb (ix2 r f)) := by
  rw [emb_V0]
  show _ = merged _ _ r (Spec.sh3 128 512 0 f)
  rw [merged_V, pay1_apply, pay12_apply, pay11_apply]
  rfl
/-- The store of columns [256, 384). -/
theorem piece_V1 (r : Fin 1600) (f : Fin 128) :
    k1_pay2 (F := Ideal) (k1_pay5 x1) (k1_pay8 x3) (k1_pay10 x0 x4 x5 x6 x7 x1 x2) (k1_pay11 x0 x4 x5 x6 x7 x1 x2) (ix2 r f)
      = blockFn x0 x1 x2 x3 x4 x5 x6 x7 (r1_9.emb (ix2 r f)) := by
  rw [emb_V1]
  show _ = merged _ _ r (Spec.sh3 128 512 1 f)
  rw [merged_V, pay2_apply, pay10_apply, pay11_apply]
  rfl
/-- The store of columns [384, 512). -/
theorem piece_V2 (r : Fin 1600) (f : Fin 128) :
    k1_pay3 (F := Ideal) (k1_pay5 x1) (k1_pay8 x3) (k1_pay10 x0 x4 x5 x6 x7 x1 x2) (k1_pay11 x0 x4 x5 x6 x7 x1 x2) (ix2 r f)
      = blockFn x0 x1 x2 x3 x4 x5 x6 x7 (r1_10.emb (ix2 r f)) := by
  rw [emb_V2]
  show _ = merged _ _ r (Spec.sh3 128 512 2 f)
  rw [merged_V, pay3_apply, pay10_apply, pay11_apply]
  rfl

/-- What the body leaves in the output block: the four stores tile it, each a rectangle of ONE function of the block's
    index, so the block is that function. -/
theorem out_eq : out1_8 (F := Ideal) x0 x1 x2 x3 x4 x5 x6 x7 = blockFn x0 x1 x2 x3 x4 x5 x6 x7 := by
  funext y
  unfold out1_8
  simp only [View.ld_unit_zero (S := S1600x20) hz, View.ld_unit_zero (S := S20x128) hz, View.ld_unit_zero (S := S1x128) hz,
    View.ld_unit_zero (S := S128x384) hz, View.ld_unit_zero (S := S1x384) hz, View.ld_unit_zero (S := S1600x4) hz,
    View.ld_unit_zero (S := S1600x384) hz]
  refine View.canon_apply_of_pieces (Val := Elt Ideal) (blockFn x0 x1 x2 x3 x4 x5 x6 x7) _ ?_ y (cover1_8 _ _ _ _ y)
  intro p hp x
  simp only [List.mem_cons, List.not_mem_nil, or_false] at hp
  rcases hp with rfl | rfl | rfl | rfl
  · obtain ⟨r, f, rfl⟩ : ∃ (r : Fin 1600) (f : Fin 128), x = ix2 r f := ⟨x 0, x 1, eq_ix2 x⟩
    exact piece_V2 x0 x1 x2 x3 x4 x5 x6 x7 r f
  · obtain ⟨r, f, rfl⟩ : ∃ (r : Fin 1600) (f : Fin 128), x = ix2 r f := ⟨x 0, x 1, eq_ix2 x⟩
    exact piece_V1 x0 x1 x2 x3 x4 x5 x6 x7 r f
  · obtain ⟨r, f, rfl⟩ : ∃ (r : Fin 1600) (f : Fin 128), x = ix2 r f := ⟨x 0, x 1, eq_ix2 x⟩
    exact piece_V0 x0 x1 x2 x3 x4 x5 x6 x7 r f
  · obtain ⟨r, f, rfl⟩ : ∃ (r : Fin 1600) (f : Fin 128), x = ix2 r f := ⟨x 0, x 1, eq_ix2 x⟩
    exact piece_S x0 x1 x2 x3 x4 x5 x6 x7 r f

end Blocks

/-! ## A block's rows are the arrays' rows -/

/-- The filter at an edge depends on the radial-basis array and on the cutoff only at that edge. -/
theorem filt_congr {E E' : Nat} (rbf : Fin E → Fin 20 → EReal) (rbf' : Fin E' → Fin 20 → EReal) (F1 : Fin 20 → Fin 128 → EReal)
    (c1 : Fin 128 → EReal) (F2 : Fin 128 → Fin 384 → EReal) (c2 : Fin 384 → EReal) (cut : Fin E → EReal) (cut' : Fin E' → EReal)
    (e : Fin E) (e' : Fin E') (h : ∀ i, rbf e i = rbf' e' i) (hc : cut e = cut' e') (j : Fin 384) :
    Spec.filt rbf F1 c1 F2 c2 cut e j = Spec.filt rbf' F1 c1 F2 c2 cut' e' j := by
  unfold Spec.filt Spec.mlp
  rw [hc]
  simp only [h]

section Rows
variable {E E' : Nat} (rbf : Fin E → Fin 20 → EReal) (rbf' : Fin E' → Fin 20 → EReal)
  (aux : Fin E → Fin 4 → EReal) (aux' : Fin E' → Fin 4 → EReal)
  (xs : Fin E → Fin 384 → EReal) (xs' : Fin E' → Fin 384 → EReal) (mg : Fin E → Fin 384 → EReal) (mg' : Fin E' → Fin 384 → EReal)
  (F1 : Fin 20 → Fin 128 → EReal) (c1 : Fin 128 → EReal) (F2 : Fin 128 → Fin 384 → EReal) (c2 : Fin 384 → EReal)
  (e : Fin E) (e' : Fin E') (h0 : ∀ i, rbf e i = rbf' e' i) (h1 : ∀ i, aux e i = aux' e' i)
  (h2 : ∀ i, xs e i = xs' e' i) (h3 : ∀ i, mg e i = mg' e' i)
include h0 h1 h2 h3

/-- Edge e of one family of edge arrays and edge e' of another that agree on that edge's rows have the same scalar message … -/
theorem edgeS_rows (f : Fin 128) :
    Spec.edgeS xs (Spec.filt rbf F1 c1 F2 c2 (fun r => aux r 0)) e f
      = Spec.edgeS xs' (Spec.filt rbf' F1 c1 F2 c2 (fun r => aux' r 0)) e' f := by
  unfold Spec.edgeS
  exact congrArg₂ (· * ·) (h2 _) (filt_congr rbf rbf' F1 c1 F2 c2 _ _ e e' h0 (h1 0) _)

/-- … and the same vector message. -/
theorem edgeV_rows (k : Fin 3) (f : Fin 128) :
    Spec.edgeV xs (fun r k f => mg r (Spec.sh3 0 384 k f)) (Spec.filt rbf F1 c1 F2 c2 (fun r => aux r 0))
        (fun r k => aux r (Spec.sh 1 4 k)) e k f
      = Spec.edgeV xs' (fun r k f => mg' r (Spec.sh3 0 384 k f)) (Spec.filt rbf' F1 c1 F2 c2 (fun r => aux' r 0))
        (fun r k => aux' r (Spec.sh 1 4 k)) e' k f := by
  unfold Spec.edgeV
  exact congrArg₂ (· + ·)
    (congrArg₂ (· * ·) (h1 _) (congrArg₂ (· * ·) (h2 _) (filt_congr rbf rbf' F1 c1 F2 c2 _ _ e e' h0 (h1 0) _)))
    (congrArg₂ (· * ·) (h3 _) (congrArg₂ (· * ·) (h2 _) (filt_congr rbf rbf' F1 c1 F2 c2 _ _ e e' h0 (h1 0) _)))

end Rows

/-! ## From the blocks to the array -/

variable (V : (c : Dev nD) → (b : Ref sig .tc) → Buf (Elt Ideal) ((c : Thread nD τ).loc b))

/-- The edge filter of the arrays the launch finds (the cutoff value is column 0 of the packed [E, 4] array). -/
abbrev FL (c : Dev nD) : Fin 256000 → Fin 384 → EReal :=
  Spec.filt (Spec.cur2 (V c main_arg3)) (Spec.cur2 (V c main_arg10)) (Spec.row1 (V c main_v12))
    (Spec.cur2 (V c main_arg12)) (Spec.row1 (V c main_v13)) (fun e => V c main_v11 (ix2 e (0 : Fin 4)))

/-- The unit vectors: columns 1..3 of the packed [E, 4] array. -/
abbrev UV (c : Dev nD) : Fin 256000 → Fin 3 → EReal := fun e k => V c main_v11 (ix2 e (Spec.sh 1 4 k))

/-- The merged message array as one function of the arrays the launch finds: row e is the merged row of edge e. -/
abbrev arrFn (c : Dev nD) : S256000x512.Idx → EReal := fun i =>
  merged (Spec.edgeS (Spec.cur2 (V c main_v7)) (FL V c))
    (Spec.edgeV (Spec.cur2 (V c main_v7)) (fun e k f => V c main_v9 (ix2 e (Spec.sh3 0 384 k f))) (FL V c) (UV V c)) (i 0) (i 1)

/-- The index maps of the four edge windows and of the output, over the grid: block t is rows [1600·t, 1600·t + 1600), full width. -/
theorem idx_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_8.index t (0 : Fin 2) = t.val ∧ win1_8.index t (1 : Fin 2) = 0 :=
  (by decide +kernel : ∀ t : Fin grid1.N, _)

/-- The index maps of the four weight windows: the whole array at every point. -/
theorem idx_whole : ∀ t : Fin cfg1.N,
    win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Row r of window 0's block at point t is row 1600·t + r of its array. -/
theorem blk0_row (c : Dev nD) (t : Fin cfg1.N) (r : Fin 1600) (k : Fin 20) (e : Fin 256000) (he : e.val = 1600 * t.val + r.val) :
    (iblk1 V c 0 t : Vec Ideal S1600x20 .f32) (ix2 r k) = (V c main_arg3 : S256000x20.Idx → EReal) (ix2 e k) := by
  have h0 := (idx_rows t).1
  have h1 := (idx_rows t).2.1
  show (V c main_arg3 : S256000x20.Idx → EReal) (((cfg1.win 0).blk t).view.emb (ix2 r k)) = _
  refine congrArg _ (funext fun a => Fin.ext ?_)
  match a with
  | ⟨0, _⟩ => show win1_0.index t (0 : Fin 2) * 1600 + 1 * r.val = e.val; rw [h0, he]; omega
  | ⟨1, _⟩ => show win1_0.index t (1 : Fin 2) * 20 + 1 * k.val = k.val; rw [h1]; omega

/-- Row r of window 1's block at point t is row 1600·t + r of its array. -/
theorem blk1_row (c : Dev nD) (t : Fin cfg1.N) (r : Fin 1600) (k : Fin 4) (e : Fin 256000) (he : e.val = 1600 * t.val + r.val) :
    (iblk1 V c 1 t : Vec Ideal S1600x4 .f32) (ix2 r k) = (V c main_v11 : S256000x4.Idx → EReal) (ix2 e k) := by
  have h0 := (idx_rows t).2.2.1
  have h1 := (idx_rows t).2.2.2.1
  show (V c main_v11 : S256000x4.Idx → EReal) (((cfg1.win 1).blk t).view.emb (ix2 r k)) = _
  refine congrArg _ (funext fun a => Fin.ext ?_)
  match a with
  | ⟨0, _⟩ => show win1_1.index t (0 : Fin 2) * 1600 + 1 * r.val = e.val; rw [h0, he]; omega
  | ⟨1, _⟩ => show win1_1.index t (1 : Fin 2) * 4 + 1 * k.val = k.val; rw [h1]; omega

/-- Row r of window 2's block at point t is row 1600·t + r of its array. -/
theorem blk2_row (c : Dev nD) (t : Fin cfg1.N) (r : Fin 1600) (k : Fin 384) (e : Fin 256000) (he : e.val = 1600 * t.val + r.val) :
    (iblk1 V c 2 t : Vec Ideal S1600x384 .f32) (ix2 r k) = (V c main_v7 : S256000x384.Idx → EReal) (ix2 e k) := by
  have h0 := (idx_rows t).2.2.2.2.1
  have h1 := (idx_rows t).2.2.2.2.2.1
  show (V c main_v7 : S256000x384.Idx → EReal) (((cfg1.win 2).blk t).view.emb (ix2 r k)) = _
  refine congrArg _ (funext fun a => Fin.ext ?_)
  match a with
  | ⟨0, _⟩ => show win1_2.index t (0 : Fin 2) * 1600 + 1 * r.val = e.val; rw [h0, he]; omega
  | ⟨1, _⟩ => show win1_2.index t (1 : Fin 2) * 384 + 1 * k.val = k.val; rw [h1]; omega

/-- Row r of window 3's block at point t is row 1600·t + r of its array. -/
theorem blk3_row (c : Dev nD) (t : Fin cfg1.N) (r : Fin 1600) (k : Fin 384) (e : Fin 256000) (he : e.val = 1600 * t.val + r.val) :
    (iblk1 V c 3 t : Vec Ideal S1600x384 .f32) (ix2 r k) = (V c main_v9 : S256000x384.Idx → EReal) (ix2 e k) := by
  have h0 := (idx_rows t).2.2.2.2.2.2.1
  have h1 := (idx_rows t).2.2.2.2.2.2.2.1
  show (V c main_v9 : S256000x384.Idx → EReal) (((cfg1.win 3).blk t).view.emb (ix2 r k)) = _
  refine congrArg _ (funext fun a => Fin.ext ?_)
  match a with
  | ⟨0, _⟩ => show win1_3.index t (0 : Fin 2) * 1600 + 1 * r.val = e.val; rw [h0, he]; omega
  | ⟨1, _⟩ => show win1_3.index t (1 : Fin 2) * 384 + 1 * k.val = k.val; rw [h1]; omega

/-- Window 4's block is its whole array at every point. -/
theorem blk4_whole (c : Dev nD) (t : Fin cfg1.N) :
    (iblk1 V c 4 t : Vec Ideal S20x128 .f32) = (V c main_arg10 : S20x128.Idx → EReal) := by
  have h0 := (idx_whole t).1
  have h1 := (idx_whole t).2.1
  funext y
  show (V c main_arg10 : S20x128.Idx → EReal) (((cfg1.win 4).blk t).view.emb y) = _
  refine congrArg _ (funext fun a => Fin.ext ?_)
  match a with
  | ⟨0, _⟩ => show win1_4.index t (0 : Fin 2) * 20 + 1 * (y 0).val = (y 0).val; rw [h0]; omega
  | ⟨1, _⟩ => show win1_4.index t (1 : Fin 2) * 128 + 1 * (y 1).val = (y 1).val; rw [h1]; omega

/-- Window 5's block is its whole array at every point. -/
theorem blk5_whole (c : Dev nD) (t : Fin cfg1.N) :
    (iblk1 V c 5 t : Vec Ideal S1x128 .f32) = (V c main_v12 : S1x128.Idx → EReal) := by
  have h0 := (idx_whole t).2.2.1
  have h1 := (idx_whole t).2.2.2.1
  funext y
  show (V c main_v12 : S1x128.Idx → EReal) (((cfg1.win 5).blk t).view.emb y) = _
  refine congrArg _ (funext fun a => Fin.ext ?_)
  match a with
  | ⟨0, _⟩ => show win1_5.index t (0 : Fin 2) * 1 + 1 * (y 0).val = (y 0).val; rw [h0]; omega
  | ⟨1, _⟩ => show win1_5.index t (1 : Fin 2) * 128 + 1 * (y 1).val = (y 1).val; rw [h1]; omega

/-- Window 6's block is its whole array at every point. -/
theorem blk6_whole (c : Dev nD) (t : Fin cfg1.N) :
    (iblk1 V c 6 t : Vec Ideal S128x384 .f32) = (V c main_arg12 : S128x384.Idx → EReal) := by
  have h0 := (idx_whole t).2.2.2.2.1
  have h1 := (idx_whole t).2.2.2.2.2.1
  funext y
  show (V c main_arg12 : S128x384.Idx → EReal) (((cfg1.win 6).blk t).view.emb y) = _
  refine congrArg _ (funext fun a => Fin.ext ?_)
  match a with
  | ⟨0, _⟩ => show win1_6.index t (0 : Fin 2) * 128 + 1 * (y 0).val = (y 0).val; rw [h0]; omega
  | ⟨1, _⟩ => show win1_6.index t (1 : Fin 2) * 384 + 1 * (y 1).val = (y 1).val; rw [h1]; omega

/-- Window 7's block is its whole array at every point. -/
theorem blk7_whole (c : Dev nD) (t : Fin cfg1.N) :
    (iblk1 V c 7 t : Vec Ideal S1x384 .f32) = (V c main_v13 : S1x384.Idx → EReal) := by
  have h0 := (idx_whole t).2.2.2.2.2.2.1
  have h1 := (idx_whole t).2.2.2.2.2.2.2
  funext y
  show (V c main_v13 : S1x384.Idx → EReal) (((cfg1.win 7).blk t).view.emb y) = _
  refine congrArg _ (funext fun a => Fin.ext ?_)
  match a with
  | ⟨0, _⟩ => show win1_7.index t (0 : Fin 2) * 1 + 1 * (y 0).val = (y 0).val; rw [h0]; omega
  | ⟨1, _⟩ => show win1_7.index t (1 : Fin 2) * 384 + 1 * (y 1).val = (y 1).val; rw [h1]; omega

/-- Entry (r, q) of what the body leaves at point t is the array function at row 1600·t + r, column q. -/
theorem block_at (c : Dev nD) (t : Fin cfg1.N) (r : Fin 1600) (q : Fin 512) :
    blockFn (iblk1 V c 0 t) (iblk1 V c 1 t) (iblk1 V c 2 t) (iblk1 V c 3 t) (iblk1 V c 4 t) (iblk1 V c 5 t) (iblk1 V c 6 t)
        (iblk1 V c 7 t) (ix2 r q)
      = arrFn V c (((cfg1.win 8).blk t).view.emb (ix2 r q)) := by
  have hN : cfg1.N = 160 := N_1
  have ht : t.val < 160 := Nat.lt_of_lt_of_eq t.isLt hN
  have hr := r.isLt
  obtain ⟨e, he⟩ : ∃ e : Fin 256000, e.val = 1600 * t.val + r.val := ⟨⟨1600 * t.val + r.val, by omega⟩, rfl⟩
  have h80 := (idx_rows t).2.2.2.2.2.2.2.2.1
  have h81 := (idx_rows t).2.2.2.2.2.2.2.2.2
  have hemb : ((cfg1.win 8).blk t).view.emb (ix2 r q) = (ix2 e q : S256000x512.Idx) := funext fun a => Fin.ext (by
    match a with
    | ⟨0, _⟩ => show win1_8.index t (0 : Fin 2) * 1600 + 1 * r.val = e.val; rw [h80, he]; omega
    | ⟨1, _⟩ => show win1_8.index t (1 : Fin 2) * 512 + 1 * q.val = q.val; rw [h81]; omega)
  rw [hemb, blk4_whole V c t, blk5_whole V c t, blk6_whole V c t, blk7_whole V c t]
  show merged _ _ r q = merged _ _ e q
  refine merged_congr _ _ _ _ r e (fun f => ?_) (fun k f => ?_) q
  · exact edgeS_rows (Spec.cur2 (A := 1600) (B := 20) (iblk1 V c 0 t)) (Spec.cur2 (V c main_arg3))
      (Spec.cur2 (A := 1600) (B := 4) (iblk1 V c 1 t)) (Spec.cur2 (V c main_v11))
      (Spec.cur2 (A := 1600) (B := 384) (iblk1 V c 2 t)) (Spec.cur2 (V c main_v7))
      (Spec.cur2 (A := 1600) (B := 384) (iblk1 V c 3 t)) (Spec.cur2 (V c main_v9))
      _ _ _ _ r e (fun i => blk0_row V c t r i e he) (fun i => blk1_row V c t r i e he)
      (fun i => blk2_row V c t r i e he) (fun i => blk3_row V c t r i e he) f
  · exact edgeV_rows (Spec.cur2 (A := 1600) (B := 20) (iblk1 V c 0 t)) (Spec.cur2 (V c main_arg3))
      (Spec.cur2 (A := 1600) (B := 4) (iblk1 V c 1 t)) (Spec.cur2 (V c main_v11))
      (Spec.cur2 (A := 1600) (B := 384) (iblk1 V c 2 t)) (Spec.cur2 (V c main_v7))
      (Spec.cur2 (A := 1600) (B := 384) (iblk1 V c 3 t)) (Spec.cur2 (V c main_v9))
      _ _ _ _ r e (fun i => blk0_row V c t r i e he) (fun i => blk1_row V c t r i e he)
      (fun i => blk2_row V c t r i e he) (fun i => blk3_row V c t r i e he) k f

/-- What point t writes back is block t of the array function. -/
theorem flushed_eq (c : Dev nD) (t : Fin cfg1.N) :
    (dat1 (F := Ideal) V c).flushed 8 t = ((cfg1.win 8).blk t).view.read (Elt Ideal) (arrFn V c) := by
  show (cfg1.win 8).cut (grid1.coords t) ((dat1 (F := Ideal) V c).after 8 t) = _
  rw [after1_8, out_eq (iblk1 V c 0 t) (iblk1 V c 1 t) (iblk1 V c 2 t) (iblk1 V c 3 t) (iblk1 V c 4 t) (iblk1 V c 5 t)
    (iblk1 V c 6 t) (iblk1 V c 7 t)]
  funext j
  obtain ⟨r, q, rfl⟩ : ∃ (r : Fin 1600) (q : Fin 512), j = ix2 r q := ⟨j 0, j 1, eq_ix2 j⟩
  exact block_at V c t r q

/-- An index of the array is in point t's block iff each coordinate is in the block's range on its axis. -/
theorem mem_blk (t : Fin cfg1.N) (i : S256000x512.Idx) :
    i ∈ ((cfg1.win 8).blk t).view.set ↔ ∀ a : Fin 2, win1_8.index t a * S1600x512.size a ≤ (i a).val
      ∧ (i a).val < win1_8.index t a * S1600x512.size a + S1600x512.size a := by
  show i ∈ ((View.whole main_v14).slice (win1_8.rect t)).set ↔ _
  rw [View.set_slice_whole, Rect.mem_set_unit]
  exact Iff.rfl

/-- Row e lies in the block of point e / 1600: the 160 blocks cover the array. -/
theorem cover (i : S256000x512.Idx) :
    ∃ t : Fin cfg1.N, (cfg1.win 8).flush t = true ∧ i ∈ ((cfg1.win 8).blk t).view.set := by
  have hN : cfg1.N = 160 := N_1
  have hi0 : (i 0).val < 256000 := (i 0).isLt
  have hi1 : (i 1).val < 512 := (i 1).isLt
  have hlt : (i 0).val / 1600 < cfg1.N := by rw [hN]; omega
  refine ⟨⟨(i 0).val / 1600, hlt⟩, flush1_8 _, ?_⟩
  have h80 : win1_8.index ⟨(i 0).val / 1600, hlt⟩ (0 : Fin 2) = (i 0).val / 1600 := (idx_rows ⟨(i 0).val / 1600, hlt⟩).2.2.2.2.2.2.2.2.1
  have h81 : win1_8.index ⟨(i 0).val / 1600, hlt⟩ (1 : Fin 2) = 0 := (idx_rows ⟨(i 0).val / 1600, hlt⟩).2.2.2.2.2.2.2.2.2
  rw [mem_blk]
  intro a
  match a with
  | ⟨0, _⟩ =>
    show win1_8.index ⟨(i 0).val / 1600, hlt⟩ (0 : Fin 2) * 1600 ≤ (i 0).val
      ∧ (i 0).val < win1_8.index ⟨(i 0).val / 1600, hlt⟩ (0 : Fin 2) * 1600 + 1600
    rw [h80]; omega
  | ⟨1, _⟩ =>
    show win1_8.index ⟨(i 0).val / 1600, hlt⟩ (1 : Fin 2) * 512 ≤ (i 1).val
      ∧ (i 1).val < win1_8.index ⟨(i 0).val / 1600, hlt⟩ (1 : Fin 2) * 512 + 512
    rw [h81]; omega

/-- The array the launch leaves is the array function. -/
theorem final (c : Dev nD) : (dat1 (F := Ideal) V c).arrAt 8 cfg1.N = arrFn V c :=
  (dat1 (F := Ideal) V c).arrAt_eq_of_cover 8 (arrFn V c) (fun t _ => flushed_eq V c t) cover

/-- Columns [0, H) of the merged array: the scalar message. -/
theorem arrS (c : Dev nD) (e : Fin 256000) (f : Fin 128) :
    (dat1 (F := Ideal) V c).arrAt 8 cfg1.N (ix2 e (Spec.sh 0 512 f))
      = Spec.edgeS (Spec.cur2 (V c main_v7)) (FL V c) e f := by
  rw [final V c]
  exact merged_S _ _ e f

/-- Columns [H, 4H) of the merged array: the vector message, its three components side by side. -/
theorem arrV (c : Dev nD) (e : Fin 256000) (k : Fin 3) (f : Fin 128) :
    (dat1 (F := Ideal) V c).arrAt 8 cfg1.N (ix2 e (Spec.sh3 128 512 k f))
      = Spec.edgeV (Spec.cur2 (V c main_v7)) (fun e k f => V c main_v9 (ix2 e (Spec.sh3 0 384 k f))) (FL V c) (UV V c) e k f := by
  rw [final V c]
  exact merged_V _ _ e k f

end Cert.KernelIdeal.Reg1

end
-- ==== Proof.Reg2Pay.lean ====
/-
  The mixing kernel's body, one block of 1000 nodes: what it stores in its two output blocks is, row by row, the mixing
  step of the row's updated features q' = q + scalar message, mu' = mu + vector message.

  The road: each value the body computes is read at an index (r, ·) of its block, in the body's order — the two sums
  q' and mu', the three column parts of mu', their products with W_vec (a sum over the 128 features), the halves v and w
  of each product, the norm and the inner product, the two products with the halves of the first mixing matrix, the
  bias row broadcast down the block, x·σ(x), the product with the second mixing matrix, the three column parts of δ and
  the final combinations. A change of float format is the identity on the extended reals, and a product into a zero
  accumulator is the plain sum of products. The scalar output is one store of the whole block; the vector output is
  three stores, one per 128-column part, so an entry (r, 128·k + f) reads the k-th store at (r, f).
-/
import proofs.«425667_j62663572848823_3_alg».proof.Proof.Gen.KernelIdeal.Frame
import proofs.«425667_j62663572848823_3_alg».proof.Proof.Spec
import Idealize.ShloMosaic.PureOps.Ideal.Laws
import Idealize.ShloMosaic.Lib.Pipeline.Value
import Idealize.ShloMosaic.Lib.ValueLayout

set_option maxRecDepth 16384

noncomputable section

namespace Cert.KernelIdeal.Reg2Pay

open Idealize.ShloMosaic Idealize.ShloMosaic.TcCoe Idealize.ShloMosaic.ValueIdx
open Cert.KernelIdeal Cert.KernelIdeal.Gen

/-- The ε under the square root, as the body's literal. -/
abbrev eps : EReal := Ideal.ofBits .f32 0x322BCC77#32

/-- Row `r` of the block's updated scalar features. -/
abbrev q' (x0 x2 : Vec Ideal S1000x128 .f32) (r : Fin 1000) : Fin 128 → EReal := fun i => x0 (ix2 r i) + x2 (ix2 r i)
/-- Row `r` of the block's updated vector features, component by component. -/
abbrev mu' (x1 x3 : Vec Ideal S1000x384 .f32) (r : Fin 1000) : Fin 3 → Fin 128 → EReal :=
  fun k i => x1 (ix2 r (Spec.sh3 0 384 k i)) + x3 (ix2 r (Spec.sh3 0 384 k i))

/-! ## The three block products read at an index

Each product contracts the left operand's columns with the right operand's rows; its entry (r, o) is the sum over the
inner position k of left (r, k) times right (k, o). The four coordinate facts say which coordinate of which operand an
output index and an inner position give. -/

/-! ### A row block times W_vec: [1000,128]·[128,256] -/

theorem lhsV_0 (i : S1000x256.Idx) (q : dot_S1000x128_S128x256_S1000x256_1_0_0_1_n_n.contr.Idx) :
    (dot_S1000x128_S128x256_S1000x256_1_0_0_1_n_n.lhsIdx i q 0).val = (i 0).val := by
  unfold DotDims.lhsIdx
  rw [dif_neg (show ¬(0 : Fin S1000x128.rank) ∈ dot_S1000x128_S128x256_S1000x256_1_0_0_1_n_n.lhsBatch by decide),
    dif_pos (show (0 : Fin S1000x128.rank) ∈ dot_S1000x128_S128x256_S1000x256_1_0_0_1_n_n.lhsNonContracting by decide)]
  rfl
theorem lhsV_1 (i : S1000x256.Idx) (q : dot_S1000x128_S128x256_S1000x256_1_0_0_1_n_n.contr.Idx) :
    (dot_S1000x128_S128x256_S1000x256_1_0_0_1_n_n.lhsIdx i q 1).val = (q ⟨0, by decide⟩).val :=
  dot_S1000x128_S128x256_S1000x256_1_0_0_1_n_n.lhsIdx_val_of_single rfl i q
theorem rhsV_0 (i : S1000x256.Idx) (q : dot_S1000x128_S128x256_S1000x256_1_0_0_1_n_n.contr.Idx) :
    (dot_S1000x128_S128x256_S1000x256_1_0_0_1_n_n.rhsIdx i q 0).val = (q ⟨0, by decide⟩).val :=
  dot_S1000x128_S128x256_S1000x256_1_0_0_1_n_n.rhsIdx_val_of_single rfl i q
theorem rhsV_1 (i : S1000x256.Idx) (q : dot_S1000x128_S128x256_S1000x256_1_0_0_1_n_n.contr.Idx) :
    (dot_S1000x128_S128x256_S1000x256_1_0_0_1_n_n.rhsIdx i q 1).val = (i 1).val := by
  unfold DotDims.rhsIdx
  rw [dif_neg (show ¬(1 : Fin S128x256.rank) ∈ dot_S1000x128_S128x256_S1000x256_1_0_0_1_n_n.rhsBatch by decide),
    dif_pos (show (1 : Fin S128x256.rank) ∈ dot_S1000x128_S128x256_S1000x256_1_0_0_1_n_n.rhsNonContracting by decide)]
  rfl

/-- Entry (r, o) of the product into a zero accumulator: the sum over the 128 inner positions of the operands' products. -/
theorem mmV (L : FVec Ideal S1000x128 .bf16) (R : FVec Ideal S128x256 .bf16) (r : Fin 1000) (o : Fin 256) :
    matmul dot_S1000x128_S128x256_S1000x256_1_0_0_1_n_n none L R (constant (F := Ideal) S1000x256 .f32 0x00000000#32) (ix2 r o)
      = ∑ k : Fin 128, L (ix2 r k) * R (ix2 k o) := by
  simp only [matmul]
  rw [Ideal.matmul_constant_zero_apply, ← Equiv.sum_comp (contrEquiv1 dot_S1000x128_S128x256_S1000x256_1_0_0_1_n_n 128 rfl rfl).symm]
  refine Finset.sum_congr rfl fun k _ => ?_
  have hk := contrEquiv1_symm_val dot_S1000x128_S128x256_S1000x256_1_0_0_1_n_n 128 rfl rfl k
  have el : dot_S1000x128_S128x256_S1000x256_1_0_0_1_n_n.lhsIdx (ix2 r o) ((contrEquiv1 dot_S1000x128_S128x256_S1000x256_1_0_0_1_n_n 128 rfl rfl).symm k) = ix2 r k :=
    funext fun a => Fin.ext (by
      match a with
      | ⟨0, _⟩ => exact lhsV_0 _ _
      | ⟨1, _⟩ => exact (lhsV_1 _ _).trans hk)
  have er : dot_S1000x128_S128x256_S1000x256_1_0_0_1_n_n.rhsIdx (ix2 r o) ((contrEquiv1 dot_S1000x128_S128x256_S1000x256_1_0_0_1_n_n 128 rfl rfl).symm k) = ix2 k o :=
    funext fun a => Fin.ext (by
      match a with
      | ⟨0, _⟩ => exact (rhsV_0 _ _).trans hk
      | ⟨1, _⟩ => exact rhsV_1 _ _)
  rw [el, er]

/-! ### A row block times a half of the first mixing matrix: [1000,128]·[128,384] -/

theorem lhsH_0 (i : S1000x384.Idx) (q : dot_S1000x128_S128x384_S1000x384_1_0_0_1_n_n.contr.Idx) :
    (dot_S1000x128_S128x384_S1000x384_1_0_0_1_n_n.lhsIdx i q 0).val = (i 0).val := by
  unfold DotDims.lhsIdx
  rw [dif_neg (show ¬(0 : Fin S1000x128.rank) ∈ dot_S1000x128_S128x384_S1000x384_1_0_0_1_n_n.lhsBatch by decide),
    dif_pos (show (0 : Fin S1000x128.rank) ∈ dot_S1000x128_S128x384_S1000x384_1_0_0_1_n_n.lhsNonContracting by decide)]
  rfl
theorem lhsH_1 (i : S1000x384.Idx) (q : dot_S1000x128_S128x384_S1000x384_1_0_0_1_n_n.contr.Idx) :
    (dot_S1000x128_S128x384_S1000x384_1_0_0_1_n_n.lhsIdx i q 1).val = (q ⟨0, by decide⟩).val :=
  dot_S1000x128_S128x384_S1000x384_1_0_0_1_n_n.lhsIdx_val_of_single rfl i q
theorem rhsH_0 (i : S1000x384.Idx) (q : dot_S1000x128_S128x384_S1000x384_1_0_0_1_n_n.contr.Idx) :
    (dot_S1000x128_S128x384_S1000x384_1_0_0_1_n_n.rhsIdx i q 0).val = (q ⟨0, by decide⟩).val :=
  dot_S1000x128_S128x384_S1000x384_1_0_0_1_n_n.rhsIdx_val_of_single rfl i q
theorem rhsH_1 (i : S1000x384.Idx) (q : dot_S1000x128_S128x384_S1000x384_1_0_0_1_n_n.contr.Idx) :
    (dot_S1000x128_S128x384_S1000x384_1_0_0_1_n_n.rhsIdx i q 1).val = (i 1).val := by
  unfold DotDims.rhsIdx
  rw [dif_neg (show ¬(1 : Fin S128x384.rank) ∈ dot_S1000x128_S128x384_S1000x384_1_0_0_1_n_n.rhsBatch by decide),
    dif_pos (show (1 : Fin S128x384.rank) ∈ dot_S1000x128_S128x384_S1000x384_1_0_0_1_n_n.rhsNonContracting by decide)]
  rfl

/-- Entry (r, o) of the product into a zero accumulator: the sum over the 128 inner positions of the operands' products. -/
theorem mmH (L : FVec Ideal S1000x128 .bf16) (R : FVec Ideal S128x384 .bf16) (r : Fin 1000) (o : Fin 384) :
    matmul dot_S1000x128_S128x384_S1000x384_1_0_0_1_n_n none L R (constant (F := Ideal) S1000x384 .f32 0x00000000#32) (ix2 r o)
      = ∑ k : Fin 128, L (ix2 r k) * R (ix2 k o) := by
  simp only [matmul]
  rw [Ideal.matmul_constant_zero_apply, ← Equiv.sum_comp (contrEquiv1 dot_S1000x128_S128x384_S1000x384_1_0_0_1_n_n 128 rfl rfl).symm]
  refine Finset.sum_congr rfl fun k _ => ?_
  have hk := contrEquiv1_symm_val dot_S1000x128_S128x384_S1000x384_1_0_0_1_n_n 128 rfl rfl k
  have el : dot_S1000x128_S128x384_S1000x384_1_0_0_1_n_n.lhsIdx (ix2 r o) ((contrEquiv1 dot_S1000x128_S128x384_S1000x384_1_0_0_1_n_n 128 rfl rfl).symm k) = ix2 r k :=
    funext fun a => Fin.ext (by
      match a with
      | ⟨0, _⟩ => exact lhsH_0 _ _
      | ⟨1, _⟩ => exact (lhsH_1 _ _).trans hk)
  have er : dot_S1000x128_S128x384_S1000x384_1_0_0_1_n_n.rhsIdx (ix2 r o) ((contrEquiv1 dot_S1000x128_S128x384_S1000x384_1_0_0_1_n_n 128 rfl rfl).symm k) = ix2 k o :=
    funext fun a => Fin.ext (by
      match a with
      | ⟨0, _⟩ => exact (rhsH_0 _ _).trans hk
      | ⟨1, _⟩ => exact rhsH_1 _ _)
  rw [el, er]

/-! ### The hidden block times the second mixing matrix: [1000,384]·[384,384] -/

theorem lhsO_0 (i : S1000x384.Idx) (q : dot_S1000x384_S384x384_S1000x384_1_0_0_1_n_n.contr.Idx) :
    (dot_S1000x384_S384x384_S1000x384_1_0_0_1_n_n.lhsIdx i q 0).val = (i 0).val := by
  unfold DotDims.lhsIdx
  rw [dif_neg (show ¬(0 : Fin S1000x384.rank) ∈ dot_S1000x384_S384x384_S1000x384_1_0_0_1_n_n.lhsBatch by decide),
    dif_pos (show (0 : Fin S1000x384.rank) ∈ dot_S1000x384_S384x384_S1000x384_1_0_0_1_n_n.lhsNonContracting by decide)]
  rfl
theorem lhsO_1 (i : S1000x384.Idx) (q : dot_S1000x384_S384x384_S1000x384_1_0_0_1_n_n.contr.Idx) :
    (dot_S1000x384_S384x384_S1000x384_1_0_0_1_n_n.lhsIdx i q 1).val = (q ⟨0, by decide⟩).val :=
  dot_S1000x384_S384x384_S1000x384_1_0_0_1_n_n.lhsIdx_val_of_single rfl i q
theorem rhsO_0 (i : S1000x384.Idx) (q : dot_S1000x384_S384x384_S1000x384_1_0_0_1_n_n.contr.Idx) :
    (dot_S1000x384_S384x384_S1000x384_1_0_0_1_n_n.rhsIdx i q 0).val = (q ⟨0, by decide⟩).val :=
  dot_S1000x384_S384x384_S1000x384_1_0_0_1_n_n.rhsIdx_val_of_single rfl i q
theorem rhsO_1 (i : S1000x384.Idx) (q : dot_S1000x384_S384x384_S1000x384_1_0_0_1_n_n.contr.Idx) :
    (dot_S1000x384_S384x384_S1000x384_1_0_0_1_n_n.rhsIdx i q 1).val = (i 1).val := by
  unfold DotDims.rhsIdx
  rw [dif_neg (show ¬(1 : Fin S384x384.rank) ∈ dot_S1000x384_S384x384_S1000x384_1_0_0_1_n_n.rhsBatch by decide),
    dif_pos (show (1 : Fin S384x384.rank) ∈ dot_S1000x384_S384x384_S1000x384_1_0_0_1_n_n.rhsNonContracting by decide)]
  rfl

/-- Entry (r, o) of the product into a zero accumulator: the sum over the 384 inner positions of the operands' products. -/
theorem mmO (L : FVec Ideal S1000x384 .bf16) (R : FVec Ideal S384x384 .bf16) (r : Fin 1000) (o : Fin 384) :
    matmul dot_S1000x384_S384x384_S1000x384_1_0_0_1_n_n none L R (constant (F := Ideal) S1000x384 .f32 0x00000000#32) (ix2 r o)
      = ∑ k : Fin 384, L (ix2 r k) * R (ix2 k o) := by
  simp only [matmul]
  rw [Ideal.matmul_constant_zero_apply, ← Equiv.sum_comp (contrEquiv1 dot_S1000x384_S384x384_S1000x384_1_0_0_1_n_n 384 rfl rfl).symm]
  refine Finset.sum_congr rfl fun k _ => ?_
  have hk := contrEquiv1_symm_val dot_S1000x384_S384x384_S1000x384_1_0_0_1_n_n 384 rfl rfl k
  have el : dot_S1000x384_S384x384_S1000x384_1_0_0_1_n_n.lhsIdx (ix2 r o) ((contrEquiv1 dot_S1000x384_S384x384_S1000x384_1_0_0_1_n_n 384 rfl rfl).symm k) = ix2 r k :=
    funext fun a => Fin.ext (by
      match a with
      | ⟨0, _⟩ => exact lhsO_0 _ _
      | ⟨1, _⟩ => exact (lhsO_1 _ _).trans hk)
  have er : dot_S1000x384_S384x384_S1000x384_1_0_0_1_n_n.rhsIdx (ix2 r o) ((contrEquiv1 dot_S1000x384_S384x384_S1000x384_1_0_0_1_n_n 384 rfl rfl).symm k) = ix2 k o :=
    funext fun a => Fin.ext (by
      match a with
      | ⟨0, _⟩ => exact (rhsO_0 _ _).trans hk
      | ⟨1, _⟩ => exact rhsO_1 _ _)
  rw [el, er]

/-! ## The body's values, each read at an index of its block -/

/-- q' = q + scalar message. -/
theorem pay7_apply (v0 v1 : Vec Ideal S1000x128 .f32) (r : Fin 1000) (f : Fin 128) :
    k2_pay7 v0 v1 (ix2 r f) = q' v0 v1 r f := by
  unfold k2_pay7
  rw [shapeCast_self]
  rfl

/-- mu' = mu + vector message, the three components still side by side. -/
theorem pay8_apply (v4 v6 : Vec Ideal S1000x384 .f32) (r : Fin 1000) (c : Fin 384) :
    k2_pay8 v4 v6 (ix2 r c) = v4 (ix2 r c) + v6 (ix2 r c) := by
  unfold k2_pay8
  rw [shapeCast_self, shapeCast_self]
  rfl

/-- Component 0 of mu': columns 0 … 127. -/
theorem pay9_apply (v4 v6 : Vec Ideal S1000x384 .f32) (r : Fin 1000) (f : Fin 128) :
    k2_pay9 v4 v6 (ix2 r f) = mu' v4 v6 r 0 f := by
  unfold k2_pay9
  exact (slice2_axis1_apply 0 (k2_pay8 v4 v6) _ r f (Spec.sh3 0 384 0 f)
    (by show 0 + 128 * 0 + f.val = 0 + f.val; omega)).trans (pay8_apply v4 v6 r _)
/-- Component 1 of mu': columns 128 … 255. -/
theorem pay10_apply (v4 v6 : Vec Ideal S1000x384 .f32) (r : Fin 1000) (f : Fin 128) :
    k2_pay10 v4 v6 (ix2 r f) = mu' v4 v6 r 1 f := by
  unfold k2_pay10
  exact (slice2_axis1_apply 128 (k2_pay8 v4 v6) _ r f (Spec.sh3 0 384 1 f)
    (by show 0 + 128 * 1 + f.val = 128 + f.val; omega)).trans (pay8_apply v4 v6 r _)
/-- Component 2 of mu': columns 256 … 383. -/
theorem pay11_apply (v4 v6 : Vec Ideal S1000x384 .f32) (r : Fin 1000) (f : Fin 128) :
    k2_pay11 v4 v6 (ix2 r f) = mu' v4 v6 r 2 f := by
  unfold k2_pay11
  exact (slice2_axis1_apply 256 (k2_pay8 v4 v6) _ r f (Spec.sh3 0 384 2 f)
    (by show 0 + 128 * 2 + f.val = 256 + f.val; omega)).trans (pay8_apply v4 v6 r _)

/-- Component 0 of mu' times W_vec. -/
theorem pay13_apply (v4 v6 : Vec Ideal S1000x384 .f32) (v12 : Vec Ideal S128x256 .f32) (r : Fin 1000) (o : Fin 256) :
    k2_pay13 v4 v6 v12 (ix2 r o) = Spec.proj (mu' v4 v6 r) (Spec.cur2 v12) 0 o := by
  unfold k2_pay13 Spec.proj
  refine (mmV _ _ r o).trans (Finset.sum_congr rfl fun k _ => ?_)
  exact congrArg (· * v12 (ix2 k o)) (pay9_apply v4 v6 r k)
/-- Component 1 of mu' times W_vec. -/
theorem pay14_apply (v4 v6 : Vec Ideal S1000x384 .f32) (v12 : Vec Ideal S128x256 .f32) (r : Fin 1000) (o : Fin 256) :
    k2_pay14 v4 v6 v12 (ix2 r o) = Spec.proj (mu' v4 v6 r) (Spec.cur2 v12) 1 o := by
  unfold k2_pay14 Spec.proj
  refine (mmV _ _ r o).trans (Finset.sum_congr rfl fun k _ => ?_)
  exact congrArg (· * v12 (ix2 k o)) (pay10_apply v4 v6 r k)
/-- Component 2 of mu' times W_vec. -/
theorem pay15_apply (v4 v6 : Vec Ideal S1000x384 .f32) (v12 : Vec Ideal S128x256 .f32) (r : Fin 1000) (o : Fin 256) :
    k2_pay15 v4 v6 v12 (ix2 r o) = Spec.proj (mu' v4 v6 r) (Spec.cur2 v12) 2 o := by
  unfold k2_pay15 Spec.proj
  refine (mmV _ _ r o).trans (Finset.sum_congr rfl fun k _ => ?_)
  exact congrArg (· * v12 (ix2 k o)) (pay11_apply v4 v6 r k)

/-- v₀: the first half of component 0's product. -/
theorem pay16_apply (v4 v6 : Vec Ideal S1000x384 .f32) (v12 : Vec Ideal S128x256 .f32) (r : Fin 1000) (f : Fin 128) :
    k2_pay16 v4 v6 v12 (ix2 r f) = Spec.vv (mu' v4 v6 r) (Spec.cur2 v12) 0 f := by
  unfold k2_pay16
  exact (slice2_axis1_apply 0 (k2_pay13 v4 v6 v12) _ r f (Spec.sh 0 256 f) rfl).trans (pay13_apply v4 v6 v12 r _)
/-- w₀: the second half of component 0's product. -/
theorem pay17_apply (v4 v6 : Vec Ideal S1000x384 .f32) (v12 : Vec Ideal S128x256 .f32) (r : Fin 1000) (f : Fin 128) :
    k2_pay17 v4 v6 v12 (ix2 r f) = Spec.ww (mu' v4 v6 r) (Spec.cur2 v12) 0 f := by
  unfold k2_pay17
  exact (slice2_axis1_apply 128 (k2_pay13 v4 v6 v12) _ r f (Spec.sh 128 256 f) rfl).trans (pay13_apply v4 v6 v12 r _)
/-- v₁. -/
theorem pay18_apply (v4 v6 : Vec Ideal S1000x384 .f32) (v12 : Vec Ideal S128x256 .f32) (r : Fin 1000) (f : Fin 128) :
    k2_pay18 v4 v6 v12 (ix2 r f) = Spec.vv (mu' v4 v6 r) (Spec.cur2 v12) 1 f := by
  unfold k2_pay18
  exact (slice2_axis1_apply 0 (k2_pay14 v4 v6 v12) _ r f (Spec.sh 0 256 f) rfl).trans (pay14_apply v4 v6 v12 r _)
/-- w₁. -/
theorem pay19_apply (v4 v6 : Vec Ideal S1000x384 .f32) (v12 : Vec Ideal S128x256 .f32) (r : Fin 1000) (f : Fin 128) :
    k2_pay19 v4 v6 v12 (ix2 r f) = Spec.ww (mu' v4 v6 r) (Spec.cur2 v12) 1 f := by
  unfold k2_pay19
  exact (slice2_axis1_apply 128 (k2_pay14 v4 v6 v12) _ r f (Spec.sh 128 256 f) rfl).trans (pay14_apply v4 v6 v12 r _)
/-- v₂. -/
theorem pay20_apply (v4 v6 : Vec Ideal S1000x384 .f32) (v12 : Vec Ideal S128x256 .f32) (r : Fin 1000) (f : Fin 128) :
    k2_pay20 v4 v6 v12 (ix2 r f) = Spec.vv (mu' v4 v6 r) (Spec.cur2 v12) 2 f := by
  unfold k2_pay20
  exact (slice2_axis1_apply 0 (k2_pay15 v4 v6 v12) _ r f (Spec.sh 0 256 f) rfl).trans (pay15_apply v4 v6 v12 r _)
/-- w₂. -/
theorem pay21_apply (v4 v6 : Vec Ideal S1000x384 .f32) (v12 : Vec Ideal S128x256 .f32) (r : Fin 1000) (f : Fin 128) :
    k2_pay21 v4 v6 v12 (ix2 r f) = Spec.ww (mu' v4 v6 r) (Spec.cur2 v12) 2 f := by
  unfold k2_pay21
  exact (slice2_axis1_apply 128 (k2_pay15 v4 v6 v12) _ r f (Spec.sh 128 256 f) rfl).trans (pay15_apply v4 v6 v12 r _)

/-- sqrt(v₀² + v₁² + v₂² + ε). -/
theorem pay22_apply (v4 v6 : Vec Ideal S1000x384 .f32) (v12 : Vec Ideal S128x256 .f32) (r : Fin 1000) (f : Fin 128) :
    k2_pay22 v4 v6 v12 (ix2 r f) = Spec.norm (mu' v4 v6 r) (Spec.cur2 v12) eps f := by
  unfold k2_pay22 Spec.norm
  show Ideal.sqrt (k2_pay16 v4 v6 v12 (ix2 r f) * k2_pay16 v4 v6 v12 (ix2 r f)
      + k2_pay18 v4 v6 v12 (ix2 r f) * k2_pay18 v4 v6 v12 (ix2 r f)
      + k2_pay20 v4 v6 v12 (ix2 r f) * k2_pay20 v4 v6 v12 (ix2 r f) + eps) = _
  rw [pay16_apply, pay18_apply, pay20_apply]

/-- v₀w₀ + v₁w₁ + v₂w₂. -/
theorem pay23_apply (v4 v6 : Vec Ideal S1000x384 .f32) (v12 : Vec Ideal S128x256 .f32) (r : Fin 1000) (f : Fin 128) :
    k2_pay23 v4 v6 v12 (ix2 r f) = Spec.inner (mu' v4 v6 r) (Spec.cur2 v12) f := by
  unfold k2_pay23 Spec.inner
  show k2_pay16 v4 v6 v12 (ix2 r f) * k2_pay17 v4 v6 v12 (ix2 r f)
      + k2_pay18 v4 v6 v12 (ix2 r f) * k2_pay19 v4 v6 v12 (ix2 r f)
      + k2_pay20 v4 v6 v12 (ix2 r f) * k2_pay21 v4 v6 v12 (ix2 r f) = _
  rw [pay16_apply, pay17_apply, pay18_apply, pay19_apply, pay20_apply, pay21_apply]

/-- Rows 0 … 127 of the first mixing matrix. -/
theorem pay25_apply (v39 : Vec Ideal S256x384 .f32) (i : Fin 128) (k : Fin 384) :
    k2_pay25 v39 (ix2 i k) = v39 (ix2 (Spec.sh 0 256 i) k) := by
  unfold k2_pay25
  exact slice2_axis0_apply 0 (k2_pay24 v39) _ i k (Spec.sh 0 256 i) rfl
/-- Rows 128 … 255 of the first mixing matrix. -/
theorem pay26_apply (v39 : Vec Ideal S256x384 .f32) (i : Fin 128) (k : Fin 384) :
    k2_pay26 v39 (ix2 i k) = v39 (ix2 (Spec.sh 128 256 i) k) := by
  unfold k2_pay26
  exact slice2_axis0_apply 128 (k2_pay24 v39) _ i k (Spec.sh 128 256 i) rfl

/-- The hidden pre-activation at (r, k): the two half products plus the bias row. -/
theorem hid_apply (v3 v33 : FVec Ideal S1000x128 .f32) (v41 v42 : FVec Ideal S128x384 .bf16) (v48 : Vec Ideal S1x384 .f32)
    (h1 : FTy.bits .bf16 < FTy.bits .f32) (hs : S1x384.ShapeCasts S1x384) (hb : S1x384.Broadcasts S1000x384)
    (r : Fin 1000) (k : Fin 384) :
    addf (addf (matmul dot_S1000x128_S128x384_S1000x384_1_0_0_1_n_n none (truncf .bf16 v3 h1) v41 (constant (F := Ideal) S1000x384 .f32 0x00000000#32))
        (matmul dot_S1000x128_S128x384_S1000x384_1_0_0_1_n_n none (truncf .bf16 v33 h1) v42 (constant (F := Ideal) S1000x384 .f32 0x00000000#32)))
      (broadcastTo S1000x384 (shapeCast S1x384 v48 hs) hb) (ix2 r k)
      = ((∑ i : Fin 128, v3 (ix2 r i) * v41 (ix2 i k)) + ∑ i : Fin 128, v33 (ix2 r i) * v42 (ix2 i k))
        + v48 (ix2 (0 : Fin 1) k) := by
  rw [addf_apply, addf_apply, mmH, mmH, shapeCast_self, broadcastTo_1b_ab_apply]
  rfl

/-- δ at (r, j) from a hidden block `V`: x·σ(x) of the hidden row times the second mixing matrix, plus the bias row. -/
theorem out_apply (V : FVec Ideal S1000x384 .f32) (v54 : Vec Ideal S384x384 .f32) (v58 : Vec Ideal S1x384 .f32)
    (h1 : FTy.bits .bf16 < FTy.bits .f32) (hs : S1x384.ShapeCasts S1x384) (hb : S1x384.Broadcasts S1000x384)
    (r : Fin 1000) (j : Fin 384) :
    addf (matmul dot_S1000x384_S384x384_S1000x384_1_0_0_1_n_n none (truncf .bf16 (mulf V (logistic V)) h1) (truncf .bf16 v54 h1)
        (constant (F := Ideal) S1000x384 .f32 0x00000000#32))
      (broadcastTo S1000x384 (shapeCast S1x384 v58 hs) hb) (ix2 r j)
      = (∑ k : Fin 384, Spec.silu (V (ix2 r k)) * v54 (ix2 k j)) + v58 (ix2 (0 : Fin 1) j) := by
  rw [addf_apply, mmO, shapeCast_self, broadcastTo_1b_ab_apply]
  rfl

/-- δ at (r, j), over the body's own operands: the updated scalar block `v3`, the norm block `v33`, the two halves
    `v41`, `v42` of the first mixing matrix, its bias row, the second mixing matrix and its bias row. -/
theorem pay1_apply (v3 v33 : FVec Ideal S1000x128 .f32) (v41 v42 : FVec Ideal S128x384 .bf16) (v48 : Vec Ideal S1x384 .f32)
    (v54 : Vec Ideal S384x384 .f32) (v58 : Vec Ideal S1x384 .f32) (r : Fin 1000) (j : Fin 384) :
    k2_pay1 v3 v33 v41 v42 v48 v54 v58 (ix2 r j)
      = (∑ k : Fin 384, Spec.silu (((∑ i : Fin 128, v3 (ix2 r i) * v41 (ix2 i k))
            + ∑ i : Fin 128, v33 (ix2 r i) * v42 (ix2 i k)) + v48 (ix2 (0 : Fin 1) k)) * v54 (ix2 k j))
        + v58 (ix2 (0 : Fin 1) j) := by
  unfold k2_pay1
  refine (out_apply _ v54 v58 _ _ _ r j).trans ?_
  refine congrArg (· + v58 (ix2 (0 : Fin 1) j)) (Finset.sum_congr rfl fun k _ => ?_)
  exact congrArg (fun t => Spec.silu t * v54 (ix2 k j)) (hid_apply v3 v33 v41 v42 v48 _ _ _ r k)

/-- The middle part of δ: columns 128 … 255. -/
theorem pay2_apply (v3 v33 : FVec Ideal S1000x128 .f32) (v41 v42 : FVec Ideal S128x384 .bf16) (v48 : Vec Ideal S1x384 .f32)
    (v54 : Vec Ideal S384x384 .f32) (v58 : Vec Ideal S1x384 .f32) (r : Fin 1000) (f : Fin 128) :
    k2_pay2 v3 v33 v41 v42 v48 v54 v58 (ix2 r f) = k2_pay1 v3 v33 v41 v42 v48 v54 v58 (ix2 r (Spec.sh 128 384 f)) := by
  unfold k2_pay2
  exact slice2_axis1_apply 128 (k2_pay1 v3 v33 v41 v42 v48 v54 v58) _ r f (Spec.sh 128 384 f) rfl

/-- The scalar output: q' + δq + δqμ · inner. -/
theorem pay3_apply (v3 v33 v38 : FVec Ideal S1000x128 .f32) (v41 v42 : FVec Ideal S128x384 .bf16) (v48 : Vec Ideal S1x384 .f32)
    (v54 : Vec Ideal S384x384 .f32) (v58 : Vec Ideal S1x384 .f32) (r : Fin 1000) (f : Fin 128) :
    k2_pay3 v3 v33 v38 v41 v42 v48 v54 v58 (ix2 r f)
      = v3 (ix2 r f) + k2_pay1 v3 v33 v41 v42 v48 v54 v58 (ix2 r (Spec.sh 0 384 f))
        + k2_pay1 v3 v33 v41 v42 v48 v54 v58 (ix2 r (Spec.sh 256 384 f)) * v38 (ix2 r f) := by
  unfold k2_pay3
  exact congrArg₂ (· + ·)
    (congrArg (v3 (ix2 r f) + ·)
      (slice2_axis1_apply 0 (k2_pay1 v3 v33 v41 v42 v48 v54 v58) _ r f (Spec.sh 0 384 f) rfl))
    (congrArg (· * v38 (ix2 r f))
      (slice2_axis1_apply 256 (k2_pay1 v3 v33 v41 v42 v48 v54 v58) _ r f (Spec.sh 256 384 f) rfl))

/-- One component of the vector output: mu'[c] + w[c] · δμ (the same tree for the three components). -/
theorem pay4_apply (v3 v9 v21 v33 : FVec Ideal S1000x128 .f32) (v41 v42 : FVec Ideal S128x384 .bf16)
    (v48 : Vec Ideal S1x384 .f32) (v54 : Vec Ideal S384x384 .f32) (v58 : Vec Ideal S1x384 .f32) (r : Fin 1000) (f : Fin 128) :
    k2_pay4 v3 v9 v21 v33 v41 v42 v48 v54 v58 (ix2 r f)
      = v9 (ix2 r f) + v21 (ix2 r f) * k2_pay1 v3 v33 v41 v42 v48 v54 v58 (ix2 r (Spec.sh 128 384 f)) := by
  unfold k2_pay4
  exact congrArg (fun t => v9 (ix2 r f) + v21 (ix2 r f) * t) (pay2_apply v3 v33 v41 v42 v48 v54 v58 r f)
theorem pay5_apply (v3 v10 v23 v33 : FVec Ideal S1000x128 .f32) (v41 v42 : FVec Ideal S128x384 .bf16)
    (v48 : Vec Ideal S1x384 .f32) (v54 : Vec Ideal S384x384 .f32) (v58 : Vec Ideal S1x384 .f32) (r : Fin 1000) (f : Fin 128) :
    k2_pay5 v3 v10 v23 v33 v41 v42 v48 v54 v58 (ix2 r f)
      = v10 (ix2 r f) + v23 (ix2 r f) * k2_pay1 v3 v33 v41 v42 v48 v54 v58 (ix2 r (Spec.sh 128 384 f)) := by
  unfold k2_pay5
  exact congrArg (fun t => v10 (ix2 r f) + v23 (ix2 r f) * t) (pay2_apply v3 v33 v41 v42 v48 v54 v58 r f)
theorem pay6_apply (v3 v11 v25 v33 : FVec Ideal S1000x128 .f32) (v41 v42 : FVec Ideal S128x384 .bf16)
    (v48 : Vec Ideal S1x384 .f32) (v54 : Vec Ideal S384x384 .f32) (v58 : Vec Ideal S1x384 .f32) (r : Fin 1000) (f : Fin 128) :
    k2_pay6 v3 v11 v25 v33 v41 v42 v48 v54 v58 (ix2 r f)
      = v11 (ix2 r f) + v25 (ix2 r f) * k2_pay1 v3 v33 v41 v42 v48 v54 v58 (ix2 r (Spec.sh 128 384 f)) := by
  unfold k2_pay6
  exact congrArg (fun t => v11 (ix2 r f) + v25 (ix2 r f) * t) (pay2_apply v3 v33 v41 v42 v48 v54 v58 r f)

/-! ## δ over the block arguments -/

/-- δ at (r, j) is the specification's δ of row r's updated features. -/
theorem delta_eq (x0 : Vec Ideal S1000x128 .f32) (x1 : Vec Ideal S1000x384 .f32) (x2 : Vec Ideal S1000x128 .f32)
    (x3 : Vec Ideal S1000x384 .f32) (x4 : Vec Ideal S128x256 .f32) (x5 : Vec Ideal S256x384 .f32) (x6 : Vec Ideal S1x384 .f32)
    (x7 : Vec Ideal S384x384 .f32) (x8 : Vec Ideal S1x384 .f32) (r : Fin 1000) (j : Fin 384) :
    k2_pay1 (k2_pay7 x0 x2) (k2_pay22 x1 x3 x4) (k2_pay25 x5) (k2_pay26 x5) x6 x7 x8 (ix2 r j)
      = Spec.delta (q' x0 x2 r) (mu' x1 x3 r) (Spec.cur2 x4) (Spec.cur2 x5) (Spec.row1 x6) (Spec.cur2 x7) (Spec.row1 x8) eps j := by
  unfold Spec.delta Spec.hid
  refine (pay1_apply _ _ _ _ x6 x7 x8 r j).trans ?_
  refine congrArg (· + x8 (ix2 (0 : Fin 1) j)) (Finset.sum_congr rfl fun k _ => ?_)
  refine congrArg (fun t => Spec.silu (t + x6 (ix2 (0 : Fin 1) k)) * x7 (ix2 k j)) ?_
  refine congrArg₂ (· + ·) (Finset.sum_congr rfl fun i _ => ?_) (Finset.sum_congr rfl fun i _ => ?_)
  · exact congrArg₂ (· * ·) (pay7_apply x0 x2 r i) (pay25_apply x5 i k)
  · exact congrArg₂ (· * ·) (pay22_apply x1 x3 x4 r i) (pay26_apply x5 i k)

/-! ## The stores -/

theorem hz : (![0, 0] : Fin 2 → Nat) = fun _ => 0 := funext fun a => by fin_cases a <;> rfl

/-- The scalar output block, entry (r, f). -/
theorem payQ (x0 : Vec Ideal S1000x128 .f32) (x1 : Vec Ideal S1000x384 .f32) (x2 : Vec Ideal S1000x128 .f32)
    (x3 : Vec Ideal S1000x384 .f32) (x4 : Vec Ideal S128x256 .f32) (x5 : Vec Ideal S256x384 .f32) (x6 : Vec Ideal S1x384 .f32)
    (x7 : Vec Ideal S384x384 .f32) (x8 : Vec Ideal S1x384 .f32) (r : Fin 1000) (f : Fin 128) :
    out2_9 x0 x1 x2 x3 x4 x5 x6 x7 x8 (ix2 r f)
      = Spec.outQ (q' x0 x2 r) (mu' x1 x3 r) (Spec.cur2 x4) (Spec.cur2 x5) (Spec.row1 x6) (Spec.cur2 x7) (Spec.row1 x8) eps f := by
  unfold out2_9
  rw [View.canon_unit_zero hz]
  simp only [View.ld_unit_zero (S := S1000x128) hz, View.ld_unit_zero (S := S1000x384) hz,
    View.ld_unit_zero (S := S128x256) hz, View.ld_unit_zero (S := S256x384) hz, View.ld_unit_zero (S := S1x384) hz,
    View.ld_unit_zero (S := S384x384) hz]
  refine (pay3_apply _ _ _ _ _ x6 x7 x8 r f).trans ?_
  exact congrArg₂ (· + ·)
    (congrArg₂ (· + ·) (pay7_apply x0 x2 r f) (delta_eq x0 x1 x2 x3 x4 x5 x6 x7 x8 r _))
    (congrArg₂ (· * ·) (delta_eq x0 x1 x2 x3 x4 x5 x6 x7 x8 r _) (pay23_apply x1 x3 x4 r f))

/-! ### The vector output's three column parts

The block [1000, 384] is written by three stores, the last one first in the list: columns 256 … 383, then 128 … 255,
then 0 … 127. An entry in the k-th part is the k-th store's value at (r, f); the later stores do not reach it. -/

theorem emb6 (r : Fin 1000) (f : Fin 128) : r2_6.emb (ix2 r f) = ix2 r (Spec.sh3 0 384 0 f) := by
  funext a
  refine Fin.ext ?_
  rw [Rect.emb_apply]
  match a with
  | ⟨0, _⟩ => show 0 + 1 * r.val = r.val; omega
  | ⟨1, _⟩ => show 0 + 1 * f.val = 0 + 128 * 0 + f.val; omega
theorem emb7 (r : Fin 1000) (f : Fin 128) : r2_7.emb (ix2 r f) = ix2 r (Spec.sh3 0 384 1 f) := by
  funext a
  refine Fin.ext ?_
  rw [Rect.emb_apply]
  match a with
  | ⟨0, _⟩ => show 0 + 1 * r.val = r.val; omega
  | ⟨1, _⟩ => show 128 + 1 * f.val = 0 + 128 * 1 + f.val; omega
theorem emb8 (r : Fin 1000) (f : Fin 128) : r2_8.emb (ix2 r f) = ix2 r (Spec.sh3 0 384 2 f) := by
  funext a
  refine Fin.ext ?_
  rw [Rect.emb_apply]
  match a with
  | ⟨0, _⟩ => show 0 + 1 * r.val = r.val; omega
  | ⟨1, _⟩ => show 256 + 1 * f.val = 0 + 128 * 2 + f.val; omega

/-- A column below 256 is not in the last part. -/
theorem nmem8 (r : Fin 1000) (c : Fin 384) (h : c.val < 256) : ix2 r c ∉ r2_8.set := by
  rw [Rect.mem_set_unit]
  intro hm
  have h1 : 256 ≤ c.val := (hm 1).1
  omega
/-- A column below 128 is not in the middle part. -/
theorem nmem7 (r : Fin 1000) (c : Fin 384) (h : c.val < 128) : ix2 r c ∉ r2_7.set := by
  rw [Rect.mem_set_unit]
  intro hm
  have h1 : 128 ≤ c.val := (hm 1).1
  omega

section Parts
variable (P8 P7 P6 : Vec Ideal S1000x128 .f32) (r : Fin 1000) (f : Fin 128)

/-- The last part reads the first piece of the list. -/
theorem canon_part2 :
    View.canon [(⟨r2_8, P8⟩ : View.Piece (Elt Ideal) S1000x384 .f32), ⟨r2_7, P7⟩, ⟨r2_6, P6⟩]
      (ix2 r (Spec.sh3 0 384 2 f)) = P8 (ix2 r f) := by
  rw [← emb8 r f]
  exact View.canon_cons_emb r2_8 P8 _ (ix2 r f)
/-- The middle part passes the first piece and reads the second. -/
theorem canon_part1 :
    View.canon [(⟨r2_8, P8⟩ : View.Piece (Elt Ideal) S1000x384 .f32), ⟨r2_7, P7⟩, ⟨r2_6, P6⟩]
      (ix2 r (Spec.sh3 0 384 1 f)) = P7 (ix2 r f) := by
  rw [View.canon_cons_of_not_mem (⟨r2_8, P8⟩ : View.Piece (Elt Ideal) S1000x384 .f32) _
    (nmem8 r _ (by show 0 + 128 * 1 + f.val < 256; omega)), ← emb7 r f]
  exact View.canon_cons_emb r2_7 P7 _ (ix2 r f)
/-- The first part passes two pieces and reads the third. -/
theorem canon_part0 :
    View.canon [(⟨r2_8, P8⟩ : View.Piece (Elt Ideal) S1000x384 .f32), ⟨r2_7, P7⟩, ⟨r2_6, P6⟩]
      (ix2 r (Spec.sh3 0 384 0 f)) = P6 (ix2 r f) := by
  rw [View.canon_cons_of_not_mem (⟨r2_8, P8⟩ : View.Piece (Elt Ideal) S1000x384 .f32) _
    (nmem8 r _ (by show 0 + 128 * 0 + f.val < 256; omega)),
    View.canon_cons_of_not_mem (⟨r2_7, P7⟩ : View.Piece (Elt Ideal) S1000x384 .f32) _
    (nmem7 r _ (by show 0 + 128 * 0 + f.val < 128; omega)), ← emb6 r f]
  exact View.canon_cons_emb r2_6 P6 _ (ix2 r f)
end Parts

section MU
variable (x0 : Vec Ideal S1000x128 .f32) (x1 : Vec Ideal S1000x384 .f32) (x2 : Vec Ideal S1000x128 .f32)
  (x3 : Vec Ideal S1000x384 .f32) (x4 : Vec Ideal S128x256 .f32) (x5 : Vec Ideal S256x384 .f32) (x6 : Vec Ideal S1x384 .f32)
  (x7 : Vec Ideal S384x384 .f32) (x8 : Vec Ideal S1x384 .f32) (r : Fin 1000) (f : Fin 128)

/-- Component 0 of the vector output block. -/
theorem payMU0 :
    out2_10 x0 x1 x2 x3 x4 x5 x6 x7 x8 (ix2 r (Spec.sh3 0 384 0 f))
      = Spec.outMU (q' x0 x2 r) (mu' x1 x3 r) (Spec.cur2 x4) (Spec.cur2 x5) (Spec.row1 x6) (Spec.cur2 x7) (Spec.row1 x8) eps 0 f := by
  unfold out2_10
  simp only [View.ld_unit_zero (S := S1000x128) hz, View.ld_unit_zero (S := S1000x384) hz,
    View.ld_unit_zero (S := S128x256) hz, View.ld_unit_zero (S := S256x384) hz, View.ld_unit_zero (S := S1x384) hz,
    View.ld_unit_zero (S := S384x384) hz]
  refine (canon_part0 _ _ _ r f).trans ?_
  refine (pay4_apply _ _ _ _ _ _ x6 x7 x8 r f).trans ?_
  exact congrArg₂ (· + ·) (pay9_apply x1 x3 r f)
    (congrArg₂ (· * ·) (pay17_apply x1 x3 x4 r f) (delta_eq x0 x1 x2 x3 x4 x5 x6 x7 x8 r _))
/-- Component 1 of the vector output block. -/
theorem payMU1 :
    out2_10 x0 x1 x2 x3 x4 x5 x6 x7 x8 (ix2 r (Spec.sh3 0 384 1 f))
      = Spec.outMU (q' x0 x2 r) (mu' x1 x3 r) (Spec.cur2 x4) (Spec.cur2 x5) (Spec.row1 x6) (Spec.cur2 x7) (Spec.row1 x8) eps 1 f := by
  unfold out2_10
  simp only [View.ld_unit_zero (S := S1000x128) hz, View.ld_unit_zero (S := S1000x384) hz,
    View.ld_unit_zero (S := S128x256) hz, View.ld_unit_zero (S := S256x384) hz, View.ld_unit_zero (S := S1x384) hz,
    View.ld_unit_zero (S := S384x384) hz]
  refine (canon_part1 _ _ _ r f).trans ?_
  refine (pay5_apply _ _ _ _ _ _ x6 x7 x8 r f).trans ?_
  exact congrArg₂ (· + ·) (pay10_apply x1 x3 r f)
    (congrArg₂ (· * ·) (pay19_apply x1 x3 x4 r f) (delta_eq x0 x1 x2 x3 x4 x5 x6 x7 x8 r _))
/-- Component 2 of the vector output block. -/
theorem payMU2 :
    out2_10 x0 x1 x2 x3 x4 x5 x6 x7 x8 (ix2 r (Spec.sh3 0 384 2 f))
      = Spec.outMU (q' x0 x2 r) (mu' x1 x3 r) (Spec.cur2 x4) (Spec.cur2 x5) (Spec.row1 x6) (Spec.cur2 x7) (Spec.row1 x8) eps 2 f := by
  unfold out2_10
  simp only [View.ld_unit_zero (S := S1000x128) hz, View.ld_unit_zero (S := S1000x384) hz,
    View.ld_unit_zero (S := S128x256) hz, View.ld_unit_zero (S := S256x384) hz, View.ld_unit_zero (S := S1x384) hz,
    View.ld_unit_zero (S := S384x384) hz]
  refine (canon_part2 _ _ _ r f).trans ?_
  refine (pay6_apply _ _ _ _ _ _ x6 x7 x8 r f).trans ?_
  exact congrArg₂ (· + ·) (pay11_apply x1 x3 r f)
    (congrArg₂ (· * ·) (pay21_apply x1 x3 x4 r f) (delta_eq x0 x1 x2 x3 x4 x5 x6 x7 x8 r _))
end MU

/-- The vector output block, entry (r, 128·k + f). -/
theorem payMU (x0 : Vec Ideal S1000x128 .f32) (x1 : Vec Ideal S1000x384 .f32) (x2 : Vec Ideal S1000x128 .f32)
    (x3 : Vec Ideal S1000x384 .f32) (x4 : Vec Ideal S128x256 .f32) (x5 : Vec Ideal S256x384 .f32) (x6 : Vec Ideal S1x384 .f32)
    (x7 : Vec Ideal S384x384 .f32) (x8 : Vec Ideal S1x384 .f32) (r : Fin 1000) (k : Fin 3) (f : Fin 128) :
    out2_10 x0 x1 x2 x3 x4 x5 x6 x7 x8 (ix2 r (Spec.sh3 0 384 k f))
      = Spec.outMU (q' x0 x2 r) (mu' x1 x3 r) (Spec.cur2 x4) (Spec.cur2 x5) (Spec.row1 x6) (Spec.cur2 x7) (Spec.row1 x8) eps k f := by
  match k with
  | ⟨0, _⟩ => exact payMU0 x0 x1 x2 x3 x4 x5 x6 x7 x8 r f
  | ⟨1, _⟩ => exact payMU1 x0 x1 x2 x3 x4 x5 x6 x7 x8 r f
  | ⟨2, _⟩ => exact payMU2 x0 x1 x2 x3 x4 x5 x6 x7 x8 r f

end Cert.KernelIdeal.Reg2Pay

end
-- ==== Proof.Reg2.lean ====
/-
  The mixing launch: the two arrays its output windows end holding are, node by node, the mixing step of the node's
  updated features, as functions of the arrays the launch finds.

  The launch runs over ten points; point t stages rows 1000·t … 1000·t + 999 of the four node arrays (block index (t, 0))
  and the five weight arrays whole (block index (0, 0)), and writes back rows 1000·t … 1000·t + 999 of the two output
  arrays. A row of an output block depends on the same row of the input blocks only, so every block written back is
  the block of ONE function of the array index, and the ten row blocks cover the 10000 rows.
-/
import proofs.«425667_j62663572848823_3_alg».proof.Proof.Gen.KernelIdeal.Frame
import proofs.«425667_j62663572848823_3_alg».proof.Proof.Spec
import proofs.«425667_j62663572848823_3_alg».proof.Proof.Reg2Pay
import Idealize.ShloMosaic.Lib.Pipeline.Value

set_option maxRecDepth 16384

noncomputable section

namespace Cert.KernelIdeal.Reg2

open Idealize.ShloMosaic Idealize.ShloMosaic.TcCoe Idealize.ShloMosaic.ValueIdx Idealize.SL.Sem
open Cert.KernelIdeal Cert.KernelIdeal.Gen

/-! ## The index maps over the ten points -/

/-- The four node windows and the two output windows move down the rows: at point t their block index is (t, 0). -/
theorem rowIndex : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_9.index t (0 : Fin 2) = t.val ∧ win2_9.index t (1 : Fin 2) = 0)
    ∧ (win2_10.index t (0 : Fin 2) = t.val ∧ win2_10.index t (1 : Fin 2) = 0) :=
  (by decide +kernel : ∀ t : Fin grid2.N, _)

/-- The five weight windows stay put: their block index is (0, 0) at every point. -/
theorem wholeIndex : ∀ t : Fin cfg2.N,
    (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0) :=
  (by decide +kernel : ∀ t : Fin grid2.N, _)

/-! ## A column of the three-part row -/

/-- The spatial component a column of a 384-wide row belongs to. -/
abbrev colK (j : Fin 384) : Fin 3 := ⟨j.val / 128, by have := j.isLt; omega⟩
/-- The feature a column of a 384-wide row carries. -/
abbrev colF (j : Fin 384) : Fin 128 := ⟨j.val % 128, by omega⟩

/-- A column is feature colF of component colK. -/
theorem col_eq (j : Fin 384) : j = Spec.sh3 0 384 (colK j) (colF j) :=
  Fin.ext (by show j.val = 0 + 128 * (j.val / 128) + j.val % 128; omega)

theorem colK_sh3 (k : Fin 3) (f : Fin 128) : colK (Spec.sh3 0 384 k f) = k :=
  Fin.ext (by show (0 + 128 * k.val + f.val) / 128 = k.val; have := f.isLt; omega)

theorem colF_sh3 (k : Fin 3) (f : Fin 128) : colF (Spec.sh3 0 384 k f) = f :=
  Fin.ext (by show (0 + 128 * k.val + f.val) % 128 = f.val; have := f.isLt; omega)

/-! ## The body's two output blocks at any index of the block -/

/-- The scalar output block at an index y: the mixing step's scalar output of row y 0 of the blocks, feature y 1. -/
theorem outQ_at (x0 : Vec Ideal S1000x128 .f32) (x1 : Vec Ideal S1000x384 .f32) (x2 : Vec Ideal S1000x128 .f32)
    (x3 : Vec Ideal S1000x384 .f32) (x4 : Vec Ideal S128x256 .f32) (x5 : Vec Ideal S256x384 .f32) (x6 : Vec Ideal S1x384 .f32)
    (x7 : Vec Ideal S384x384 .f32) (x8 : Vec Ideal S1x384 .f32) (y : S1000x128.Idx) :
    out2_9 x0 x1 x2 x3 x4 x5 x6 x7 x8 y
      = Spec.outQ (Reg2Pay.q' x0 x2 (y 0)) (Reg2Pay.mu' x1 x3 (y 0)) (Spec.cur2 x4) (Spec.cur2 x5) (Spec.row1 x6) (Spec.cur2 x7)
          (Spec.row1 x8) Reg2Pay.eps (y 1) := by
  obtain ⟨r, f, rfl⟩ : ∃ (r : Fin 1000) (f : Fin 128), y = ix2 r f := ⟨y 0, y 1, eq_ix2 y⟩
  exact Reg2Pay.payQ x0 x1 x2 x3 x4 x5 x6 x7 x8 r f

/-- The vector output block at an index y: the mixing step's vector output of row y 0 of the blocks, at the component
    and feature of column y 1. -/
theorem outMU_at (x0 : Vec Ideal S1000x128 .f32) (x1 : Vec Ideal S1000x384 .f32) (x2 : Vec Ideal S1000x128 .f32)
    (x3 : Vec Ideal S1000x384 .f32) (x4 : Vec Ideal S128x256 .f32) (x5 : Vec Ideal S256x384 .f32) (x6 : Vec Ideal S1x384 .f32)
    (x7 : Vec Ideal S384x384 .f32) (x8 : Vec Ideal S1x384 .f32) (y : S1000x384.Idx) :
    out2_10 x0 x1 x2 x3 x4 x5 x6 x7 x8 y
      = Spec.outMU (Reg2Pay.q' x0 x2 (y 0)) (Reg2Pay.mu' x1 x3 (y 0)) (Spec.cur2 x4) (Spec.cur2 x5) (Spec.row1 x6) (Spec.cur2 x7)
          (Spec.row1 x8) Reg2Pay.eps (colK (y 1)) (colF (y 1)) := by
  obtain ⟨r, j, rfl⟩ : ∃ (r : Fin 1000) (j : Fin 384), y = ix2 r j := ⟨y 0, y 1, eq_ix2 y⟩
  refine (congrArg (fun j' : Fin 384 => out2_10 x0 x1 x2 x3 x4 x5 x6 x7 x8 (ix2 r j')) (col_eq j)).trans ?_
  exact Reg2Pay.payMU x0 x1 x2 x3 x4 x5 x6 x7 x8 r (colK j) (colF j)

/-- The mixing step's scalar output depends on its arguments only. -/
theorem outQ_congr {q q₂ : Fin 128 → EReal} {mu mu₂ : Fin 3 → Fin 128 → EReal} {Wv Wv₂ : Fin 128 → Fin 256 → EReal}
    {M1 M1₂ : Fin 256 → Fin 384 → EReal} {d1 d1₂ : Fin 384 → EReal} {M2 M2₂ : Fin 384 → Fin 384 → EReal}
    {d2 d2₂ : Fin 384 → EReal} (eps : EReal) {f f₂ : Fin 128}
    (hq : q = q₂) (hmu : mu = mu₂) (hWv : Wv = Wv₂) (hM1 : M1 = M1₂) (hd1 : d1 = d1₂) (hM2 : M2 = M2₂) (hd2 : d2 = d2₂)
    (hf : f = f₂) :
    Spec.outQ q mu Wv M1 d1 M2 d2 eps f = Spec.outQ q₂ mu₂ Wv₂ M1₂ d1₂ M2₂ d2₂ eps f₂ := by
  rw [hq, hmu, hWv, hM1, hd1, hM2, hd2, hf]

/-- The mixing step's vector output depends on its arguments only. -/
theorem outMU_congr {q q₂ : Fin 128 → EReal} {mu mu₂ : Fin 3 → Fin 128 → EReal} {Wv Wv₂ : Fin 128 → Fin 256 → EReal}
    {M1 M1₂ : Fin 256 → Fin 384 → EReal} {d1 d1₂ : Fin 384 → EReal} {M2 M2₂ : Fin 384 → Fin 384 → EReal}
    {d2 d2₂ : Fin 384 → EReal} (eps : EReal) {k k₂ : Fin 3} {f f₂ : Fin 128}
    (hq : q = q₂) (hmu : mu = mu₂) (hWv : Wv = Wv₂) (hM1 : M1 = M1₂) (hd1 : d1 = d1₂) (hM2 : M2 = M2₂) (hd2 : d2 = d2₂)
    (hk : k = k₂) (hf : f = f₂) :
    Spec.outMU q mu Wv M1 d1 M2 d2 eps k f = Spec.outMU q₂ mu₂ Wv₂ M1₂ d1₂ M2₂ d2₂ eps k₂ f₂ := by
  rw [hq, hmu, hWv, hM1, hd1, hM2, hd2, hk, hf]

/-! ## Which rows of an output array a point's block is, and that the ten blocks cover it -/

/-- An index of the scalar output array is in point t's block iff each coordinate is in the block's range. -/
theorem mem_rowsQ (t : Fin cfg2.N) (i : S10000x128.Idx) :
    i ∈ ((cfg2.win 9).blk t).view.set ↔ ∀ a : Fin 2, win2_9.index t a * S1000x128.size a ≤ (i a).val
      ∧ (i a).val < win2_9.index t a * S1000x128.size a + S1000x128.size a := by
  show i ∈ ((View.whole main_v22_0).slice (win2_9.rect t)).set ↔ _
  rw [View.set_slice_whole, Rect.mem_set_unit]
  exact Iff.rfl

/-- Row n of the scalar output array is in the block of point n / 1000. -/
theorem rowsQ_cover (i : S10000x128.Idx) :
    ∃ t : Fin cfg2.N, (cfg2.win 9).flush t = true ∧ i ∈ ((cfg2.win 9).blk t).view.set := by
  have hi0 : (i 0).val < 10000 := idx2_lt0 i
  have hi1 : (i 1).val < 128 := idx2_lt1 i
  have hN : cfg2.N = 10 := N_2
  obtain ⟨t, ht⟩ : ∃ t : Fin cfg2.N, t.val = (i 0).val / 1000 := ⟨⟨(i 0).val / 1000, by rw [hN]; omega⟩, rfl⟩
  obtain ⟨-, -, -, -, ⟨e0, e1⟩, -⟩ := rowIndex t
  refine ⟨t, flush2_9 t, ?_⟩
  rw [mem_rowsQ]
  intro a
  match a with
  | ⟨0, _⟩ =>
    show win2_9.index t (0 : Fin 2) * 1000 ≤ (i 0).val ∧ (i 0).val < win2_9.index t (0 : Fin 2) * 1000 + 1000
    omega
  | ⟨1, _⟩ =>
    show win2_9.index t (1 : Fin 2) * 128 ≤ (i 1).val ∧ (i 1).val < win2_9.index t (1 : Fin 2) * 128 + 128
    omega

/-- An index of the vector output array is in point t's block iff each coordinate is in the block's range. -/
theorem mem_rowsMU (t : Fin cfg2.N) (i : S10000x384.Idx) :
    i ∈ ((cfg2.win 10).blk t).view.set ↔ ∀ a : Fin 2, win2_10.index t a * S1000x384.size a ≤ (i a).val
      ∧ (i a).val < win2_10.index t a * S1000x384.size a + S1000x384.size a := by
  show i ∈ ((View.whole main_v22_1).slice (win2_10.rect t)).set ↔ _
  rw [View.set_slice_whole, Rect.mem_set_unit]
  exact Iff.rfl

/-- Row n of the vector output array is in the block of point n / 1000. -/
theorem rowsMU_cover (i : S10000x384.Idx) :
    ∃ t : Fin cfg2.N, (cfg2.win 10).flush t = true ∧ i ∈ ((cfg2.win 10).blk t).view.set := by
  have hi0 : (i 0).val < 10000 := idx2_lt0 i
  have hi1 : (i 1).val < 384 := idx2_lt1 i
  have hN : cfg2.N = 10 := N_2
  obtain ⟨t, ht⟩ : ∃ t : Fin cfg2.N, t.val = (i 0).val / 1000 := ⟨⟨(i 0).val / 1000, by rw [hN]; omega⟩, rfl⟩
  obtain ⟨-, -, -, -, -, e0, e1⟩ := rowIndex t
  refine ⟨t, flush2_10 t, ?_⟩
  rw [mem_rowsMU]
  intro a
  match a with
  | ⟨0, _⟩ =>
    show win2_10.index t (0 : Fin 2) * 1000 ≤ (i 0).val ∧ (i 0).val < win2_10.index t (0 : Fin 2) * 1000 + 1000
    omega
  | ⟨1, _⟩ =>
    show win2_10.index t (1 : Fin 2) * 384 ≤ (i 1).val ∧ (i 1).val < win2_10.index t (1 : Fin 2) * 384 + 384
    omega

variable (V : (c : Dev nD) → (b : Ref sig .tc) → Buf (Elt Ideal) ((c : Thread nD τ).loc b))

/-- Node `n`'s updated scalar features, from the arrays the launch finds. -/
abbrev q' (c : Dev nD) (n : Fin 10000) : Fin 128 → EReal := fun i => Spec.cur2 (V c main_arg0) n i + Spec.cur2 (V c main_v18) n i
/-- Node `n`'s updated vector features. -/
abbrev mu' (c : Dev nD) (n : Fin 10000) : Fin 3 → Fin 128 → EReal :=
  fun k i => Spec.cur2 (V c main_v8) n (Spec.sh3 0 384 k i) + Spec.cur2 (V c main_v19) n (Spec.sh3 0 384 k i)

/-! ## Each input block read where the output's rows say -/

/-- Row r of the scalar features' block at point t is row 1000·t + r of the array. -/
theorem scalarIn_row (c : Dev nD) (t : Fin cfg2.N) (r : Fin 1000) (i : Fin 128) (n : Fin 10000)
    (hn : n.val = 1000 * t.val + r.val) :
    (iblk2 V c 0 t : Vec Ideal S1000x128 .f32) (ix2 r i) = (V c main_arg0 : S10000x128.Idx → EReal) (ix2 n i) := by
  obtain ⟨⟨e0, e1⟩, -⟩ := rowIndex t
  have h : ((cfg2.win 0).blk t).view.emb (ix2 r i) = (ix2 n i : S10000x128.Idx) := by
    funext a; apply Fin.ext
    match a with
    | ⟨0, _⟩ => show win2_0.index t (0 : Fin 2) * 1000 + 1 * r.val = n.val; omega
    | ⟨1, _⟩ => show win2_0.index t (1 : Fin 2) * 128 + 1 * i.val = i.val; omega
  show V c main_arg0 (((cfg2.win 0).blk t).view.emb (ix2 r i)) = V c main_arg0 (ix2 n i)
  rw [h]

/-- Row r of the vector features' block at point t is row 1000·t + r of the array. -/
theorem vectorIn_row (c : Dev nD) (t : Fin cfg2.N) (r : Fin 1000) (i : Fin 384) (n : Fin 10000)
    (hn : n.val = 1000 * t.val + r.val) :
    (iblk2 V c 1 t : Vec Ideal S1000x384 .f32) (ix2 r i) = (V c main_v8 : S10000x384.Idx → EReal) (ix2 n i) := by
  obtain ⟨-, ⟨e0, e1⟩, -⟩ := rowIndex t
  have h : ((cfg2.win 1).blk t).view.emb (ix2 r i) = (ix2 n i : S10000x384.Idx) := by
    funext a; apply Fin.ext
    match a with
    | ⟨0, _⟩ => show win2_1.index t (0 : Fin 2) * 1000 + 1 * r.val = n.val; omega
    | ⟨1, _⟩ => show win2_1.index t (1 : Fin 2) * 384 + 1 * i.val = i.val; omega
  show V c main_v8 (((cfg2.win 1).blk t).view.emb (ix2 r i)) = V c main_v8 (ix2 n i)
  rw [h]

/-- Row r of the scalar messages' block at point t is row 1000·t + r of the array. -/
theorem scalarMsg_row (c : Dev nD) (t : Fin cfg2.N) (r : Fin 1000) (i : Fin 128) (n : Fin 10000)
    (hn : n.val = 1000 * t.val + r.val) :
    (iblk2 V c 2 t : Vec Ideal S1000x128 .f32) (ix2 r i) = (V c main_v18 : S10000x128.Idx → EReal) (ix2 n i) := by
  obtain ⟨-, -, ⟨e0, e1⟩, -⟩ := rowIndex t
  have h : ((cfg2.win 2).blk t).view.emb (ix2 r i) = (ix2 n i : S10000x128.Idx) := by
    funext a; apply Fin.ext
    match a with
    | ⟨0, _⟩ => show win2_2.index t (0 : Fin 2) * 1000 + 1 * r.val = n.val; omega
    | ⟨1, _⟩ => show win2_2.index t (1 : Fin 2) * 128 + 1 * i.val = i.val; omega
  show V c main_v18 (((cfg2.win 2).blk t).view.emb (ix2 r i)) = V c main_v18 (ix2 n i)
  rw [h]

/-- Row r of the vector messages' block at point t is row 1000·t + r of the array. -/
theorem vectorMsg_row (c : Dev nD) (t : Fin cfg2.N) (r : Fin 1000) (i : Fin 384) (n : Fin 10000)
    (hn : n.val = 1000 * t.val + r.val) :
    (iblk2 V c 3 t : Vec Ideal S1000x384 .f32) (ix2 r i) = (V c main_v19 : S10000x384.Idx → EReal) (ix2 n i) := by
  obtain ⟨-, -, -, ⟨e0, e1⟩, -⟩ := rowIndex t
  have h : ((cfg2.win 3).blk t).view.emb (ix2 r i) = (ix2 n i : S10000x384.Idx) := by
    funext a; apply Fin.ext
    match a with
    | ⟨0, _⟩ => show win2_3.index t (0 : Fin 2) * 1000 + 1 * r.val = n.val; omega
    | ⟨1, _⟩ => show win2_3.index t (1 : Fin 2) * 384 + 1 * i.val = i.val; omega
  show V c main_v19 (((cfg2.win 3).blk t).view.emb (ix2 r i)) = V c main_v19 (ix2 n i)
  rw [h]

/-- The projection weights' block is the whole array at every point. -/
theorem Wvec_whole (c : Dev nD) (t : Fin cfg2.N) :
    (iblk2 V c 4 t : Vec Ideal S128x256 .f32) = (V c main_arg14 : S128x256.Idx → EReal) := by
  obtain ⟨⟨e0, e1⟩, -⟩ := wholeIndex t
  funext y
  have h : ((cfg2.win 4).blk t).view.emb y = y := by
    funext a; apply Fin.ext
    match a with
    | ⟨0, _⟩ => show win2_4.index t (0 : Fin 2) * 128 + 1 * (y 0).val = (y 0).val; omega
    | ⟨1, _⟩ => show win2_4.index t (1 : Fin 2) * 256 + 1 * (y 1).val = (y 1).val; omega
  show V c main_arg14 (((cfg2.win 4).blk t).view.emb y) = V c main_arg14 y
  rw [h]

/-- The first mixing weights' block is the whole array at every point. -/
theorem M1_whole (c : Dev nD) (t : Fin cfg2.N) :
    (iblk2 V c 5 t : Vec Ideal S256x384 .f32) = (V c main_arg15 : S256x384.Idx → EReal) := by
  obtain ⟨-, ⟨e0, e1⟩, -⟩ := wholeIndex t
  funext y
  have h : ((cfg2.win 5).blk t).view.emb y = y := by
    funext a; apply Fin.ext
    match a with
    | ⟨0, _⟩ => show win2_5.index t (0 : Fin 2) * 256 + 1 * (y 0).val = (y 0).val; omega
    | ⟨1, _⟩ => show win2_5.index t (1 : Fin 2) * 384 + 1 * (y 1).val = (y 1).val; omega
  show V c main_arg15 (((cfg2.win 5).blk t).view.emb y) = V c main_arg15 y
  rw [h]

/-- The first mixing bias's block is the whole one-row array at every point. -/
theorem d1_whole (c : Dev nD) (t : Fin cfg2.N) :
    (iblk2 V c 6 t : Vec Ideal S1x384 .f32) = (V c main_v20 : S1x384.Idx → EReal) := by
  obtain ⟨-, -, ⟨e0, e1⟩, -⟩ := wholeIndex t
  funext y
  have h : ((cfg2.win 6).blk t).view.emb y = y := by
    funext a; apply Fin.ext
    match a with
    | ⟨0, _⟩ => show win2_6.index t (0 : Fin 2) * 1 + 1 * (y 0).val = (y 0).val; omega
    | ⟨1, _⟩ => show win2_6.index t (1 : Fin 2) * 384 + 1 * (y 1).val = (y 1).val; omega
  show V c main_v20 (((cfg2.win 6).blk t).view.emb y) = V c main_v20 y
  rw [h]

/-- The second mixing weights' block is the whole array at every point. -/
theorem M2_whole (c : Dev nD) (t : Fin cfg2.N) :
    (iblk2 V c 7 t : Vec Ideal S384x384 .f32) = (V c main_arg17 : S384x384.Idx → EReal) := by
  obtain ⟨-, -, -, ⟨e0, e1⟩, -⟩ := wholeIndex t
  funext y
  have h : ((cfg2.win 7).blk t).view.emb y = y := by
    funext a; apply Fin.ext
    match a with
    | ⟨0, _⟩ => show win2_7.index t (0 : Fin 2) * 384 + 1 * (y 0).val = (y 0).val; omega
    | ⟨1, _⟩ => show win2_7.index t (1 : Fin 2) * 384 + 1 * (y 1).val = (y 1).val; omega
  show V c main_arg17 (((cfg2.win 7).blk t).view.emb y) = V c main_arg17 y
  rw [h]

/-- The second mixing bias's block is the whole one-row array at every point. -/
theorem d2_whole (c : Dev nD) (t : Fin cfg2.N) :
    (iblk2 V c 8 t : Vec Ideal S1x384 .f32) = (V c main_v21 : S1x384.Idx → EReal) := by
  obtain ⟨-, -, -, -, e0, e1⟩ := wholeIndex t
  funext y
  have h : ((cfg2.win 8).blk t).view.emb y = y := by
    funext a; apply Fin.ext
    match a with
    | ⟨0, _⟩ => show win2_8.index t (0 : Fin 2) * 1 + 1 * (y 0).val = (y 0).val; omega
    | ⟨1, _⟩ => show win2_8.index t (1 : Fin 2) * 384 + 1 * (y 1).val = (y 1).val; omega
  show V c main_v21 (((cfg2.win 8).blk t).view.emb y) = V c main_v21 y
  rw [h]

/-- Row r of the blocks' updated scalar features at point t is node 1000·t + r's. -/
theorem q_row (c : Dev nD) (t : Fin cfg2.N) (r : Fin 1000) (n : Fin 10000) (hn : n.val = 1000 * t.val + r.val) :
    Reg2Pay.q' (iblk2 V c 0 t) (iblk2 V c 2 t) r = q' V c n := by
  funext i
  exact congrArg₂ (fun a b : EReal => a + b) (scalarIn_row V c t r i n hn) (scalarMsg_row V c t r i n hn)

/-- Row r of the blocks' updated vector features at point t is node 1000·t + r's. -/
theorem mu_row (c : Dev nD) (t : Fin cfg2.N) (r : Fin 1000) (n : Fin 10000) (hn : n.val = 1000 * t.val + r.val) :
    Reg2Pay.mu' (iblk2 V c 1 t) (iblk2 V c 3 t) r = mu' V c n := by
  funext k i
  exact congrArg₂ (fun a b : EReal => a + b) (vectorIn_row V c t r (Spec.sh3 0 384 k i) n hn)
    (vectorMsg_row V c t r (Spec.sh3 0 384 k i) n hn)

/-! ## The two output arrays as functions of the array index -/

/-- The scalar output array: at (n, f) the mixing step's scalar output of node n, feature f. -/
abbrev mixQ (c : Dev nD) : S10000x128.Idx → EReal := fun i =>
  Spec.outQ (q' V c (i 0)) (mu' V c (i 0)) (Spec.cur2 (V c main_arg14)) (Spec.cur2 (V c main_arg15)) (Spec.row1 (V c main_v20))
    (Spec.cur2 (V c main_arg17)) (Spec.row1 (V c main_v21)) Reg2Pay.eps (i 1)

/-- The vector output array: at (n, j) the mixing step's vector output of node n at column j's component and feature. -/
abbrev mixMU (c : Dev nD) : S10000x384.Idx → EReal := fun i =>
  Spec.outMU (q' V c (i 0)) (mu' V c (i 0)) (Spec.cur2 (V c main_arg14)) (Spec.cur2 (V c main_arg15)) (Spec.row1 (V c main_v20))
    (Spec.cur2 (V c main_arg17)) (Spec.row1 (V c main_v21)) Reg2Pay.eps (colK (i 1)) (colF (i 1))

/-- What point t writes back to the scalar output array is block t of mixQ. -/
theorem mixQ_block (c : Dev nD) (t : Fin cfg2.N) :
    (dat2 (F := Ideal) V c).flushed 9 t = ((cfg2.win 9).blk t).view.read (Elt Ideal) (mixQ V c) := by
  show (cfg2.win 9).cut (grid2.coords t) ((dat2 (F := Ideal) V c).after 9 t) = _
  rw [after2_9]
  obtain ⟨-, -, -, -, ⟨e0, e1⟩, -⟩ := rowIndex t
  funext j
  have hj0 : (j 0).val < 1000 := (j 0).isLt
  have hj1 : (j 1).val < 128 := (j 1).isLt
  have hn : ((((cfg2.win 9).blk t).view.emb j) 0).val = 1000 * t.val + (j 0).val := by
    show win2_9.index t (0 : Fin 2) * 1000 + 1 * (j 0).val = 1000 * t.val + (j 0).val; omega
  have hf : (⟨(j 1).val, hj1⟩ : Fin 128) = (((cfg2.win 9).blk t).view.emb j) 1 := by
    apply Fin.ext
    show (j 1).val = win2_9.index t (1 : Fin 2) * 128 + 1 * (j 1).val; omega
  refine (outQ_at (iblk2 V c 0 t) (iblk2 V c 1 t) (iblk2 V c 2 t) (iblk2 V c 3 t) (iblk2 V c 4 t) (iblk2 V c 5 t)
    (iblk2 V c 6 t) (iblk2 V c 7 t) (iblk2 V c 8 t) ((cfg2.win 9).xinj (grid2.coords t) j)).trans ?_
  show _ = mixQ V c (((cfg2.win 9).blk t).view.emb j)
  exact outQ_congr Reg2Pay.eps (q_row V c t ⟨(j 0).val, hj0⟩ ((((cfg2.win 9).blk t).view.emb j) 0) hn)
    (mu_row V c t ⟨(j 0).val, hj0⟩ ((((cfg2.win 9).blk t).view.emb j) 0) hn)
    (congrArg Spec.cur2 (Wvec_whole V c t)) (congrArg Spec.cur2 (M1_whole V c t)) (congrArg Spec.row1 (d1_whole V c t))
    (congrArg Spec.cur2 (M2_whole V c t)) (congrArg Spec.row1 (d2_whole V c t)) hf

/-- What point t writes back to the vector output array is block t of mixMU. -/
theorem mixMU_block (c : Dev nD) (t : Fin cfg2.N) :
    (dat2 (F := Ideal) V c).flushed 10 t = ((cfg2.win 10).blk t).view.read (Elt Ideal) (mixMU V c) := by
  show (cfg2.win 10).cut (grid2.coords t) ((dat2 (F := Ideal) V c).after 10 t) = _
  rw [after2_10]
  obtain ⟨-, -, -, -, -, e0, e1⟩ := rowIndex t
  funext j
  have hj0 : (j 0).val < 1000 := (j 0).isLt
  have hj1 : (j 1).val < 384 := (j 1).isLt
  have hn : ((((cfg2.win 10).blk t).view.emb j) 0).val = 1000 * t.val + (j 0).val := by
    show win2_10.index t (0 : Fin 2) * 1000 + 1 * (j 0).val = 1000 * t.val + (j 0).val; omega
  have hcol : (⟨(j 1).val, hj1⟩ : Fin 384) = (((cfg2.win 10).blk t).view.emb j) 1 := by
    apply Fin.ext
    show (j 1).val = win2_10.index t (1 : Fin 2) * 384 + 1 * (j 1).val; omega
  refine (outMU_at (iblk2 V c 0 t) (iblk2 V c 1 t) (iblk2 V c 2 t) (iblk2 V c 3 t) (iblk2 V c 4 t) (iblk2 V c 5 t)
    (iblk2 V c 6 t) (iblk2 V c 7 t) (iblk2 V c 8 t) ((cfg2.win 10).xinj (grid2.coords t) j)).trans ?_
  show _ = mixMU V c (((cfg2.win 10).blk t).view.emb j)
  exact outMU_congr Reg2Pay.eps (q_row V c t ⟨(j 0).val, hj0⟩ ((((cfg2.win 10).blk t).view.emb j) 0) hn)
    (mu_row V c t ⟨(j 0).val, hj0⟩ ((((cfg2.win 10).blk t).view.emb j) 0) hn)
    (congrArg Spec.cur2 (Wvec_whole V c t)) (congrArg Spec.cur2 (M1_whole V c t)) (congrArg Spec.row1 (d1_whole V c t))
    (congrArg Spec.cur2 (M2_whole V c t)) (congrArg Spec.row1 (d2_whole V c t)) (congrArg colK hcol) (congrArg colF hcol)

/-- The scalar output array after the ten points is mixQ. -/
theorem arrQ_eq (c : Dev nD) : ((dat2 (F := Ideal) V c).arrAt 9 cfg2.N : S10000x128.Idx → EReal) = mixQ V c :=
  (dat2 (F := Ideal) V c).arrAt_eq_of_cover 9 (mixQ V c) (fun t _ => mixQ_block V c t) rowsQ_cover

/-- The vector output array after the ten points is mixMU. -/
theorem arrMU_eq (c : Dev nD) : ((dat2 (F := Ideal) V c).arrAt 10 cfg2.N : S10000x384.Idx → EReal) = mixMU V c :=
  (dat2 (F := Ideal) V c).arrAt_eq_of_cover 10 (mixMU V c) (fun t _ => mixMU_block V c t) rowsMU_cover

/-- The scalar output array after the launch over its ten row blocks. -/
theorem arrQ (c : Dev nD) (n : Fin 10000) (f : Fin 128) :
    (dat2 (F := Ideal) V c).arrAt 9 cfg2.N (ix2 n f)
      = Spec.outQ (q' V c n) (mu' V c n) (Spec.cur2 (V c main_arg14)) (Spec.cur2 (V c main_arg15)) (Spec.row1 (V c main_v20))
          (Spec.cur2 (V c main_arg17)) (Spec.row1 (V c main_v21)) Reg2Pay.eps f := by
  exact congrFun (arrQ_eq V c) (ix2 n f)

/-- The vector output array after the launch. -/
theorem arrMU (c : Dev nD) (n : Fin 10000) (k : Fin 3) (f : Fin 128) :
    (dat2 (F := Ideal) V c).arrAt 10 cfg2.N (ix2 n (Spec.sh3 0 384 k f))
      = Spec.outMU (q' V c n) (mu' V c n) (Spec.cur2 (V c main_arg14)) (Spec.cur2 (V c main_arg15)) (Spec.row1 (V c main_v20))
          (Spec.cur2 (V c main_arg17)) (Spec.row1 (V c main_v21)) Reg2Pay.eps k f := by
  refine (congrFun (arrMU_eq V c) (ix2 n (Spec.sh3 0 384 k f))).trans ?_
  exact outMU_congr Reg2Pay.eps rfl rfl rfl rfl rfl rfl rfl (colK_sh3 k f) (colF_sh3 k f)

end Cert.KernelIdeal.Reg2

end
-- ==== Proof.LibGatherRows.lean ====
/-
  General lemma: jnp's `table[idx]` for a matrix `table : [N, D]` and a vector of row numbers, as StableHLO prints it.
  The gather takes whole rows: offset_dims [1], collapsed_slice_dims [0], start_index_map [0], slice_sizes [1, D], with the
  row numbers laid out as a column [R, 1] (index_vector_dim 1). Result entry (r, c) is the table at row `idx[r, 0]`, read as
  a signed integer and clamped into [0, N − 1], and column c.
-/
import Idealize.ShloMosaic.Lib.ValueIdx

open Idealize.ShloMosaic Idealize.ShloMosaic.ValueIdx

namespace Cert.Lib.GatherRows

variable {α : Type}

/-- The dimension numbers of a whole-row gather from `[N, D]` by a column `[R, 1]` of row numbers into `[R, D]`. -/
abbrev rowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section
variable {N D R w : Nat}
  (wf : GatherDims.WF ⟨2, ![N, D]⟩ ⟨2, ![R, 1]⟩ ⟨2, ![R, D]⟩ [1] [0] [] [0] [] 1 ![1, D])
  (idx : IVec ⟨2, ![R, 1]⟩ w) (r : Fin R) (c : Fin D)

/-- On the table's row axis the operand index is the clamped row number (the axis is collapsed: no offset). -/
theorem operandIdx_row :
    ((rowDims N D R wf).operandIdx (ix2 r c) idx (0 : Fin 2)).val = min (idx (ix2 r (0 : Fin 1))).toInt.toNat (N - 1) := by
  show (rowDims N D R wf).start (ix2 r c) idx 0 + (rowDims N D R wf).batchCoord (ix2 r c) 0
    + (rowDims N D R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N D R wf).startIndexMap from List.mem_singleton.mpr rfl)]
  have hsi : (rowDims N D R wf).siIdx (ix2 r c) ⟨List.idxOf (0 : Fin 2) (rowDims N D R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis the operand index is the result's column (the axis is not in the start index map). -/
theorem operandIdx_col :
    ((rowDims N D R wf).operandIdx (ix2 r c) idx (1 : Fin 2)).val = c.val := by
  show (rowDims N D R wf).start (ix2 r c) idx 1 + (rowDims N D R wf).batchCoord (ix2 r c) 1
    + (rowDims N D R wf).offCoord (ix2 r c) 1 = _
  have h1 : (1 : Fin 2) ∈ (rowDims N D R wf).sKept := by
    rw [GatherDims.mem_sKept]
    exact ⟨fun h => absurd (congrArg Fin.val (List.mem_singleton.mp h)) Nat.one_ne_zero, List.not_mem_nil⟩
  rw [GatherDims.batchCoord_eq_zero _ _ _ List.not_mem_nil]
  unfold GatherDims.start
  rw [dif_neg (show (1 : Fin 2) ∉ (rowDims N D R wf).startIndexMap from
    fun h => absurd (congrArg Fin.val (List.mem_singleton.mp h)) Nat.one_ne_zero)]
  unfold GatherDims.offCoord
  rw [dif_pos h1]
  simp only [Nat.zero_add, Nat.add_zero]
  rfl

end

/-- The whole-row gather read at `(r, c)`: the table at the clamped row number `idx[r, 0]` and column `c`. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (c : Fin D) :
    Host.gather (rowDims N D R wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ => exact operandIdx_row wf idx r c
  | ⟨1, _⟩ => exact operandIdx_col wf idx r c

end Cert.Lib.GatherRows
-- ==== Proof.LibScatterRows.lean ====
/-
  General lemma: the host's accumulating float scatter of whole rows (a segment sum: every update row is added into the operand
  row its index names), read at an entry, over the extended reals. The operand is [N, C] (or [N, A, B]); the updates are [E, C]
  (or [E, A, B]), one row per scatter index; the scatter indices are a column [E, 1] of row numbers (update_window_dims the trailing axes, inserted_window_dims [0],
  scatter_dims_to_operand_dims [0], index_vector_dim 1). Entry (n, j) of the result is the operand's entry plus the sum, over the
  updates e whose row number read as a signed integer is n, of the update's entry (e, j); a row number outside [0, N) lands nowhere.

  The road: an update index lands at a given operand index exactly when, on every operand axis, the window's start plus the
  window coordinate is that index's coordinate (the in-range test is then automatic). For these dimension numbers the start is
  the row number on axis 0 and zero elsewhere, and the window coordinate is zero on axis 0 and the update's own trailing
  coordinate elsewhere. So update (e, j') lands at (n, j) exactly when row number e is n and j' = j, and the sum over the landing
  update indices is re-indexed by e alone.
-/
import Idealize.ShloMosaic.PureOps.Ideal
import Idealize.ShloMosaic.PureOps.Contract
import Idealize.ShloMosaic.Lib.ValueIdx

open Idealize.ShloMosaic Idealize.ShloMosaic.ValueIdx

noncomputable section

namespace Cert.Lib.ScatterRows

/-- An update index lands at the operand index `i` exactly when, on every operand axis, the window's start (a signed integer)
    plus the window coordinate is `i`'s coordinate: the test that the sum lies inside the operand is then met by itself. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  by_cases h : ∀ a, 0 ≤ d.start j idx a + d.window j a ∧ d.start j idx a + d.window j a < s.size a
  · rw [dif_pos h]
    constructor
    · intro heq a
      have ha : (d.start j idx a + d.window j a).toNat = (i a).val :=
        congrArg Fin.val (congrFun (Option.some.inj heq) a)
      have h0 := (h a).1
      omega
    · intro hall
      refine congrArg some (funext fun a => Fin.ext ?_)
      show (d.start j idx a + d.window j a).toNat = (i a).val
      have := hall a
      omega
  · rw [dif_neg h]
    constructor
    · intro heq
      cases heq
    · intro hall
      refine absurd (fun a => ?_) h
      have h1 := hall a
      have h2 : (i a).val < s.size a := (i a).isLt
      constructor <;> omega

/-- The dimension numbers of a whole-row scatter into `[N, C]` by a column `[E, 1]` of row numbers from `[E, C]`. -/
abbrev rowDims2 (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a whole-row scatter into `[N, A, B]` by a column `[E, 1]` of row numbers from `[E, A, B]`. -/
abbrev rowDims3 (N E A B : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

/-! ## Rank 2 -/

section Rank2
variable {N E C w : Nat}
  (wf : ScatterDims.WF ⟨2, ![N, C]⟩ ⟨2, ![E, 1]⟩ ⟨2, ![E, C]⟩ [1] [0] [0] 1)
  (idx : IVec ⟨2, ![E, 1]⟩ w) (e : Fin E) (j' : Fin C)

/-- On the row axis the window of update (e, j') starts at the row number `idx[e, 0]`, read signed. -/
theorem start2_row :
    (rowDims2 N E C wf).start (ix2 e j') idx (0 : Fin 2) = (idx (ix2 e (0 : Fin 1))).toInt := by
  unfold ScatterDims.start
  rw [dif_pos (show (0 : Fin 2) ∈ (rowDims2 N E C wf).scatterDimsToOperandDims from List.mem_singleton.mpr rfl)]
  have hsi : (rowDims2 N E C wf).siIdx (ix2 e j') ⟨List.idxOf (0 : Fin 2) (rowDims2 N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter indices do not address, the window starts at 0. -/
theorem start2_col :
    (rowDims2 N E C wf).start (ix2 e j') idx (1 : Fin 2) = 0 := by
  unfold ScatterDims.start
  rw [dif_neg (show (1 : Fin 2) ∉ (rowDims2 N E C wf).scatterDimsToOperandDims from
    fun h => absurd (congrArg Fin.val (List.mem_singleton.mp h)) Nat.one_ne_zero)]

/-- The row axis is an inserted window axis: the window coordinate there is 0. -/
theorem window2_row :
    (rowDims2 N E C wf).window (ix2 e j') (0 : Fin 2) = 0 := by
  unfold ScatterDims.window
  rw [dif_neg (show (0 : Fin 2) ∉ (rowDims2 N E C wf).sKept from (by decide : (0 : Fin 2) ∉ ([1] : List (Fin 2))))]

/-- The column axis carries the update's column unchanged. -/
theorem window2_col :
    (rowDims2 N E C wf).window (ix2 e j') (1 : Fin 2) = j'.val := by
  unfold ScatterDims.window
  rw [dif_pos (show (1 : Fin 2) ∈ (rowDims2 N E C wf).sKept from (by decide : (1 : Fin 2) ∈ ([1] : List (Fin 2))))]
  rfl

/-- Update (e, j') lands at (n, j) exactly when its row number, read signed, is n and its column is j. -/
theorem resultIdx2_eq_some_iff (n : Fin N) (j : Fin C) :
    (rowDims2 N E C wf).resultIdx? (ix2 e j') idx = some (ix2 n j)
      ↔ (idx (ix2 e (0 : Fin 1))).toInt = (n.val : Int) ∧ j' = j := by
  rw [resultIdx?_eq_some_iff]
  constructor
  · intro h
    have h0 : (rowDims2 N E C wf).start (ix2 e j') idx (0 : Fin 2)
        + ((rowDims2 N E C wf).window (ix2 e j') (0 : Fin 2) : Int) = (n.val : Int) := h 0
    have h1 : (rowDims2 N E C wf).start (ix2 e j') idx (1 : Fin 2)
        + ((rowDims2 N E C wf).window (ix2 e j') (1 : Fin 2) : Int) = (j.val : Int) := h 1
    rw [start2_row, window2_row] at h0
    rw [start2_col, window2_col] at h1
    exact ⟨by omega, Fin.ext (by omega)⟩
  · rintro ⟨hz, rfl⟩ a
    match a with
    | ⟨0, _⟩ =>
      show (rowDims2 N E C wf).start (ix2 e j') idx (0 : Fin 2)
        + ((rowDims2 N E C wf).window (ix2 e j') (0 : Fin 2) : Int) = (n.val : Int)
      rw [start2_row, window2_row]; omega
    | ⟨1, _⟩ =>
      show (rowDims2 N E C wf).start (ix2 e j') idx (1 : Fin 2)
        + ((rowDims2 N E C wf).window (ix2 e j') (1 : Fin 2) : Int) = (j'.val : Int)
      rw [start2_col, window2_col]; omega

end Rank2

/-- The row scatter-add into a matrix, read at (n, j). -/
theorem scatterAdd_rows2_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (j : Fin C) :
    Host.scatterAdd (rowDims2 N E C wf) x idx upd (ix2 n j)
      = x (ix2 n j) + ∑ e ∈ Finset.univ.filter (fun e : Fin E => (idx (ix2 e (0 : Fin 1))).toInt = (n.val : Int)), upd (ix2 e j) := by
  unfold Host.scatterAdd
  rw [Ideal.hostScatterAdd_def]
  unfold Ideal.hostScatterAdd
  refine congrArg (x (ix2 n j) + ·) ?_
  refine Finset.sum_nbij' (fun p => (p 0 : Fin E)) (fun e => ix2 e j) ?_ ?_ ?_ ?_ ?_
  · intro p hp
    obtain ⟨e, j', rfl⟩ : ∃ (e : Fin E) (j' : Fin C), p = ix2 e j' := ⟨p 0, p 1, eq_ix2 p⟩
    exact Finset.mem_filter.mpr ⟨Finset.mem_univ _,
      ((resultIdx2_eq_some_iff wf idx e j' n j).mp (Finset.mem_filter.mp hp).2).1⟩
  · intro e he
    exact Finset.mem_filter.mpr ⟨Finset.mem_univ _,
      (resultIdx2_eq_some_iff wf idx e j n j).mpr ⟨(Finset.mem_filter.mp he).2, rfl⟩⟩
  · intro p hp
    obtain ⟨e, j', rfl⟩ : ∃ (e : Fin E) (j' : Fin C), p = ix2 e j' := ⟨p 0, p 1, eq_ix2 p⟩
    obtain rfl : j' = j := ((resultIdx2_eq_some_iff wf idx e j' n j).mp (Finset.mem_filter.mp hp).2).2
    rfl
  · intro e _
    rfl
  · intro p hp
    obtain ⟨e, j', rfl⟩ : ∃ (e : Fin E) (j' : Fin C), p = ix2 e j' := ⟨p 0, p 1, eq_ix2 p⟩
    obtain rfl : j' = j := ((resultIdx2_eq_some_iff wf idx e j' n j).mp (Finset.mem_filter.mp hp).2).2
    rfl

/-! ## Rank 3 -/

section Rank3
variable {N E A B w : Nat}
  (wf : ScatterDims.WF ⟨3, ![N, A, B]⟩ ⟨2, ![E, 1]⟩ ⟨3, ![E, A, B]⟩ [1, 2] [0] [0] 1)
  (idx : IVec ⟨2, ![E, 1]⟩ w) (e : Fin E) (a' : Fin A) (b' : Fin B)

/-- On the row axis the window of update (e, a', b') starts at the row number `idx[e, 0]`, read signed. -/
theorem start3_row :
    (rowDims3 N E A B wf).start (ix3 e a' b') idx (0 : Fin 3) = (idx (ix2 e (0 : Fin 1))).toInt := by
  unfold ScatterDims.start
  rw [dif_pos (show (0 : Fin 3) ∈ (rowDims3 N E A B wf).scatterDimsToOperandDims from List.mem_singleton.mpr rfl)]
  have hsi : (rowDims3 N E A B wf).siIdx (ix3 e a' b') ⟨List.idxOf (0 : Fin 3) (rowDims3 N E A B wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the second axis, which the scatter indices do not address, the window starts at 0. -/
theorem start3_mid :
    (rowDims3 N E A B wf).start (ix3 e a' b') idx (1 : Fin 3) = 0 := by
  unfold ScatterDims.start
  rw [dif_neg (show (1 : Fin 3) ∉ (rowDims3 N E A B wf).scatterDimsToOperandDims from
    fun h => absurd (congrArg Fin.val (List.mem_singleton.mp h)) Nat.one_ne_zero)]

/-- On the third axis, which the scatter indices do not address, the window starts at 0. -/
theorem start3_last :
    (rowDims3 N E A B wf).start (ix3 e a' b') idx (2 : Fin 3) = 0 := by
  unfold ScatterDims.start
  rw [dif_neg (show (2 : Fin 3) ∉ (rowDims3 N E A B wf).scatterDimsToOperandDims from
    fun h => absurd (congrArg Fin.val (List.mem_singleton.mp h)) (Nat.succ_ne_zero 1))]

/-- The row axis is an inserted window axis: the window coordinate there is 0. -/
theorem window3_row :
    (rowDims3 N E A B wf).window (ix3 e a' b') (0 : Fin 3) = 0 := by
  unfold ScatterDims.window
  rw [dif_neg (show (0 : Fin 3) ∉ (rowDims3 N E A B wf).sKept from (by decide : (0 : Fin 3) ∉ ([1, 2] : List (Fin 3))))]

/-- The second axis carries the update's second coordinate unchanged. -/
theorem window3_mid :
    (rowDims3 N E A B wf).window (ix3 e a' b') (1 : Fin 3) = a'.val := by
  unfold ScatterDims.window
  rw [dif_pos (show (1 : Fin 3) ∈ (rowDims3 N E A B wf).sKept from (by decide : (1 : Fin 3) ∈ ([1, 2] : List (Fin 3))))]
  rfl

/-- The third axis carries the update's third coordinate unchanged. -/
theorem window3_last :
    (rowDims3 N E A B wf).window (ix3 e a' b') (2 : Fin 3) = b'.val := by
  unfold ScatterDims.window
  rw [dif_pos (show (2 : Fin 3) ∈ (rowDims3 N E A B wf).sKept from (by decide : (2 : Fin 3) ∈ ([1, 2] : List (Fin 3))))]
  rfl

/-- Update (e, a', b') lands at (n, a, b) exactly when its row number, read signed, is n and its trailing coordinates are
    (a, b). -/
theorem resultIdx3_eq_some_iff (n : Fin N) (a : Fin A) (b : Fin B) :
    (rowDims3 N E A B wf).resultIdx? (ix3 e a' b') idx = some (ix3 n a b)
      ↔ (idx (ix2 e (0 : Fin 1))).toInt = (n.val : Int) ∧ a' = a ∧ b' = b := by
  rw [resultIdx?_eq_some_iff]
  constructor
  · intro h
    have h0 : (rowDims3 N E A B wf).start (ix3 e a' b') idx (0 : Fin 3)
        + ((rowDims3 N E A B wf).window (ix3 e a' b') (0 : Fin 3) : Int) = (n.val : Int) := h 0
    have h1 : (rowDims3 N E A B wf).start (ix3 e a' b') idx (1 : Fin 3)
        + ((rowDims3 N E A B wf).window (ix3 e a' b') (1 : Fin 3) : Int) = (a.val : Int) := h 1
    have h2 : (rowDims3 N E A B wf).start (ix3 e a' b') idx (2 : Fin 3)
        + ((rowDims3 N E A B wf).window (ix3 e a' b') (2 : Fin 3) : Int) = (b.val : Int) := h 2
    rw [start3_row, window3_row] at h0
    rw [start3_mid, window3_mid] at h1
    rw [start3_last, window3_last] at h2
    exact ⟨by omega, Fin.ext (by omega), Fin.ext (by omega)⟩
  · rintro ⟨hz, rfl, rfl⟩ c
    match c with
    | ⟨0, _⟩ =>
      show (rowDims3 N E A B wf).start (ix3 e a' b') idx (0 : Fin 3)
        + ((rowDims3 N E A B wf).window (ix3 e a' b') (0 : Fin 3) : Int) = (n.val : Int)
      rw [start3_row, window3_row]; omega
    | ⟨1, _⟩ =>
      show (rowDims3 N E A B wf).start (ix3 e a' b') idx (1 : Fin 3)
        + ((rowDims3 N E A B wf).window (ix3 e a' b') (1 : Fin 3) : Int) = (a'.val : Int)
      rw [start3_mid, window3_mid]; omega
    | ⟨2, _⟩ =>
      show (rowDims3 N E A B wf).start (ix3 e a' b') idx (2 : Fin 3)
        + ((rowDims3 N E A B wf).window (ix3 e a' b') (2 : Fin 3) : Int) = (b'.val : Int)
      rw [start3_last, window3_last]; omega

end Rank3

/-- The row scatter-add into a rank-3 array, read at (n, a, b). -/
theorem scatterAdd_rows3_apply {N E A B w : Nat} {φ : FTy}
    (wf : ScatterDims.WF ⟨3, ![N, A, B]⟩ ⟨2, ![E, 1]⟩ ⟨3, ![E, A, B]⟩ [1, 2] [0] [0] 1)
    (x : FVec Ideal ⟨3, ![N, A, B]⟩ φ) (idx : IVec ⟨2, ![E, 1]⟩ w) (upd : FVec Ideal ⟨3, ![E, A, B]⟩ φ)
    (n : Fin N) (a : Fin A) (b : Fin B) :
    Host.scatterAdd (rowDims3 N E A B wf) x idx upd (ix3 n a b)
      = x (ix3 n a b) + ∑ e ∈ Finset.univ.filter (fun e : Fin E => (idx (ix2 e (0 : Fin 1))).toInt = (n.val : Int)), upd (ix3 e a b) := by
  unfold Host.scatterAdd
  rw [Ideal.hostScatterAdd_def]
  unfold Ideal.hostScatterAdd
  refine congrArg (x (ix3 n a b) + ·) ?_
  refine Finset.sum_nbij' (fun p => (p 0 : Fin E)) (fun e => ix3 e a b) ?_ ?_ ?_ ?_ ?_
  · intro p hp
    obtain ⟨e, a', b', rfl⟩ : ∃ (e : Fin E) (a' : Fin A) (b' : Fin B), p = ix3 e a' b' := ⟨p 0, p 1, p 2, eq_ix3 p⟩
    exact Finset.mem_filter.mpr ⟨Finset.mem_univ _,
      ((resultIdx3_eq_some_iff wf idx e a' b' n a b).mp (Finset.mem_filter.mp hp).2).1⟩
  · intro e he
    exact Finset.mem_filter.mpr ⟨Finset.mem_univ _,
      (resultIdx3_eq_some_iff wf idx e a b n a b).mpr ⟨(Finset.mem_filter.mp he).2, rfl, rfl⟩⟩
  · intro p hp
    obtain ⟨e, a', b', rfl⟩ : ∃ (e : Fin E) (a' : Fin A) (b' : Fin B), p = ix3 e a' b' := ⟨p 0, p 1, p 2, eq_ix3 p⟩
    obtain ⟨-, rfl, rfl⟩ := (resultIdx3_eq_some_iff wf idx e a' b' n a b).mp (Finset.mem_filter.mp hp).2
    rfl
  · intro e _
    rfl
  · intro p hp
    obtain ⟨e, a', b', rfl⟩ : ∃ (e : Fin E) (a' : Fin A) (b' : Fin B), p = ix3 e a' b' := ⟨p 0, p 1, p 2, eq_ix3 p⟩
    obtain ⟨-, rfl, rfl⟩ := (resultIdx3_eq_some_iff wf idx e a' b' n a b).mp (Finset.mem_filter.mp hp).2
    rfl

end Cert.Lib.ScatterRows

end
-- ==== Proof.LibIdx.lean ====
/-
  Layout operations of this program's host side, each read at a coordinate: a row of the [2, E] edge list turned into a
  column of row numbers; a vector as a one-row matrix or as a column; the three spatial components of a [N, 3, H] array laid
  side by side in a [N, 3H] row and back; a scalar broadcast.
-/
import Idealize.ShloMosaic.Lib.ValueIdx
import Idealize.ShloMosaic.Lib.ValueLayout
import Idealize.ShloMosaic.Lib.Pipeline.Value

open Idealize.ShloMosaic Idealize.ShloMosaic.ValueIdx

namespace Cert.Lib.Idx

variable {α : Type}

/-- A vector as a column [E, 1] reads, at (e, 0), the vector at e. -/
theorem col_apply {E : Nat} (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply _ h x _ (ix1 e) (fun a => by
    match a with
    | ⟨0, _⟩ =>
      show e.val = if E = 1 then 0 else e.val
      split
      · have := e.isLt; omega
      · rfl)

/-- Row r of a [2, E] array, cut out, flattened and stood up as a column [E, 1], reads at (e, 0) the array at (r, e). -/
theorem rowAsCol_apply {E : Nat} (r : Nat) (hr : r < 2) (a : (⟨2, ![2, E]⟩ : Shape).Idx → α)
    (hs : (⟨2, ![2, E]⟩ : Shape).Slices ![r, 0] ⟨2, ![1, E]⟩)
    (hc : (⟨2, ![1, E]⟩ : Shape).ShapeCasts ⟨1, ![E]⟩)
    (hb : (⟨1, ![E]⟩ : Shape).BroadcastsInDim ⟨2, ![E, 1]⟩ ![0]) (e : Fin E) (u : Fin 1) :
    broadcastInDim ⟨2, ![E, 1]⟩ ![0] hb (shapeCast ⟨1, ![E]⟩ (extractStridedSlice ⟨2, ![1, E]⟩ ![r, 0] a hs) hc) (ix2 e u)
      = a (ix2 ⟨r, hr⟩ e) := by
  rw [col_apply, shapeCast_1a_a_apply]
  exact slice2_axis0_apply r a hs (0 : Fin 1) e ⟨r, hr⟩ rfl

/-- Row r of a [2, E] array, cut out and flattened, reads at e the array at (r, e). -/
theorem rowFlat_apply {E : Nat} (r : Nat) (hr : r < 2) (a : (⟨2, ![2, E]⟩ : Shape).Idx → α)
    (hs : (⟨2, ![2, E]⟩ : Shape).Slices ![r, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![r, 0] a hs) hc (ix1 e) = a (ix2 ⟨r, hr⟩ e) := by
  rw [shapeCast_1a_a_apply]
  exact slice2_axis0_apply r a hs (0 : Fin 1) e ⟨r, hr⟩ rfl

/-- A vector reshaped to a column [E, 1] reads, at (e, 0), the vector at e. -/
theorem reshapeCol_apply {E : Nat} (x : (⟨1, ![E]⟩ : Shape).Idx → α)
    (h : (⟨1, ![E]⟩ : Shape).ShapeCasts ⟨2, ![E, 1]⟩) (e : Fin E) (u : Fin 1) :
    shapeCast ⟨2, ![E, 1]⟩ x h (ix2 e u) = x (ix1 e) :=
  shapeCast_apply x h _ _ (by
    have hu : u.val = 0 := by omega
    rw [Shape.rowMajor_val_two, Shape.rowMajor_val_one]
    show e.val = e.val * 1 + u.val
    omega)

/-- [N, 3, H] flattened to [N, 3H] reads, at (n, H·k + f), the array at (n, k, f). -/
theorem flat3_apply {N : Nat} (x : (⟨3, ![N, 3, 128]⟩ : Shape).Idx → α)
    (h : (⟨3, ![N, 3, 128]⟩ : Shape).ShapeCasts ⟨2, ![N, 384]⟩) (n : Fin N) (k : Fin 3) (f : Fin 128)
    (j : Fin 384) (hj : j.val = 128 * k.val + f.val) :
    shapeCast ⟨2, ![N, 384]⟩ x h (ix2 n j) = x (ix3 n k f) :=
  shapeCast_apply x h _ _ (by
    rw [Shape.rowMajor_val_three, Shape.rowMajor_val_two]
    show (n.val * 3 + k.val) * 128 + f.val = n.val * 384 + j.val
    omega)

/-- [N, 3H] unflattened to [N, 3, H] reads, at (n, k, f), the array at (n, H·k + f). -/
theorem unflat3_apply {N : Nat} (x : (⟨2, ![N, 384]⟩ : Shape).Idx → α)
    (h : (⟨2, ![N, 384]⟩ : Shape).ShapeCasts ⟨3, ![N, 3, 128]⟩) (n : Fin N) (k : Fin 3) (f : Fin 128)
    (j : Fin 384) (hj : j.val = 128 * k.val + f.val) :
    shapeCast ⟨3, ![N, 3, 128]⟩ x h (ix3 n k f) = x (ix2 n j) :=
  shapeCast_apply x h _ _ (by
    rw [Shape.rowMajor_val_three, Shape.rowMajor_val_two]
    show n.val * 384 + j.val = (n.val * 3 + k.val) * 128 + f.val
    omega)

/-- A scalar broadcast to any shape reads the scalar everywhere. -/
theorem scalar_apply {t : Shape} (h : (⟨0, ![]⟩ : Shape).BroadcastsInDim t ![]) (v : (⟨0, ![]⟩ : Shape).Idx → α) (j : t.Idx) :
    broadcastInDim t ![] h v j = v ix0 :=
  broadcastInDim_apply _ h v j ix0 (fun a => a.elim0)

end Cert.Lib.Idx
-- ==== Proof.KHost.lean ====
/-
  The idealized kernel program's host side: what each launch's arrays hold when the launch is entered, and what the two
  result buffers hold at the end, as the specification's functions of the launch contents of the nineteen arguments.
  Three launches: the node perceptron X; the edge kernel on the gathered rows of X and of mu (the gather reads row
  clamp(source) of its table); the mixing kernel on q, mu and the segment sums of the merged edge messages.
-/
import proofs.«425667_j62663572848823_3_alg».proof.Proof.Gen.KernelIdeal.Frame
import proofs.«425667_j62663572848823_3_alg».proof.Proof.Spec
import proofs.«425667_j62663572848823_3_alg».proof.Proof.Final
import proofs.«425667_j62663572848823_3_alg».proof.Proof.Reg0
import proofs.«425667_j62663572848823_3_alg».proof.Proof.Reg1
import proofs.«425667_j62663572848823_3_alg».proof.Proof.Reg2
import proofs.«425667_j62663572848823_3_alg».proof.Proof.LibGatherRows
import proofs.«425667_j62663572848823_3_alg».proof.Proof.LibScatterRows
import proofs.«425667_j62663572848823_3_alg».proof.Proof.LibIdx
import Idealize.ShloMosaic.Lib.StableHlo.Run
import Idealize.ShloMosaic.Lib.Pipeline.Value
import Idealize.ShloMosaic.Lib.ValueLayout

set_option maxRecDepth 16384

noncomputable section

namespace Cert.KernelIdeal.KHost

open Idealize.ShloMosaic Idealize.ShloMosaic.TcCoe Idealize.ShloMosaic.ValueIdx Idealize.SL.Sem
open Cert.KernelIdeal Cert.KernelIdeal.Gen Cert.Lib.Idx

variable (m : (ℓ : Loc nD τ sig) → Buf (Elt Ideal) ℓ) (ρ : Dev nD → PrngReg) (c : Dev nD)

/-- The launch contents of a buffer on core `c`. -/
abbrev A (b : Ref sig .tc) : Buf (Elt Ideal) ((c : Thread nD τ).loc b) := m ((c : Thread nD τ).loc b)

/-- The table row edge `e`'s gathers read: its source number clamped into [0, 9999]. -/
abbrev sK (e : Fin 256000) : Fin 10000 := Spec.srcRow (A m c main_arg2 (ix2 (1 : Fin 2) e))

/-! ## Before the first launch: the two rows of the edge list flattened, two biases as rows; every argument as launched -/

theorem W1_arg0 : W1 m ρ c (Proc.devRef .tc main_arg0) = A m c main_arg0 := by
  show StableHlo.after hostOps0 (W0 m ρ c) (Proc.devRef .tc main_arg0) = _
  after_results

theorem W1_arg6 : W1 m ρ c (Proc.devRef .tc main_arg6) = A m c main_arg6 := by
  show StableHlo.after hostOps0 (W0 m ρ c) (Proc.devRef .tc main_arg6) = _
  after_results

theorem W1_arg8 : W1 m ρ c (Proc.devRef .tc main_arg8) = A m c main_arg8 := by
  show StableHlo.after hostOps0 (W0 m ρ c) (Proc.devRef .tc main_arg8) = _
  after_results

theorem W1_arg1 : W1 m ρ c (Proc.devRef .tc main_arg1) = A m c main_arg1 := by
  show StableHlo.after hostOps0 (W0 m ρ c) (Proc.devRef .tc main_arg1) = _
  after_results

theorem W1_arg2 : W1 m ρ c (Proc.devRef .tc main_arg2) = A m c main_arg2 := by
  show StableHlo.after hostOps0 (W0 m ρ c) (Proc.devRef .tc main_arg2) = _
  after_results

theorem W1_arg3 : W1 m ρ c (Proc.devRef .tc main_arg3) = A m c main_arg3 := by
  show StableHlo.after hostOps0 (W0 m ρ c) (Proc.devRef .tc main_arg3) = _
  after_results

theorem W1_arg4 : W1 m ρ c (Proc.devRef .tc main_arg4) = A m c main_arg4 := by
  show StableHlo.after hostOps0 (W0 m ρ c) (Proc.devRef .tc main_arg4) = _
  after_results

theorem W1_arg5 : W1 m ρ c (Proc.devRef .tc main_arg5) = A m c main_arg5 := by
  show StableHlo.after hostOps0 (W0 m ρ c) (Proc.devRef .tc main_arg5) = _
  after_results

theorem W1_arg10 : W1 m ρ c (Proc.devRef .tc main_arg10) = A m c main_arg10 := by
  show StableHlo.after hostOps0 (W0 m ρ c) (Proc.devRef .tc main_arg10) = _
  after_results

theorem W1_arg11 : W1 m ρ c (Proc.devRef .tc main_arg11) = A m c main_arg11 := by
  show StableHlo.after hostOps0 (W0 m ρ c) (Proc.devRef .tc main_arg11) = _
  after_results

theorem W1_arg12 : W1 m ρ c (Proc.devRef .tc main_arg12) = A m c main_arg12 := by
  show StableHlo.after hostOps0 (W0 m ρ c) (Proc.devRef .tc main_arg12) = _
  after_results

theorem W1_arg13 : W1 m ρ c (Proc.devRef .tc main_arg13) = A m c main_arg13 := by
  show StableHlo.after hostOps0 (W0 m ρ c) (Proc.devRef .tc main_arg13) = _
  after_results

theorem W1_arg14 : W1 m ρ c (Proc.devRef .tc main_arg14) = A m c main_arg14 := by
  show StableHlo.after hostOps0 (W0 m ρ c) (Proc.devRef .tc main_arg14) = _
  after_results

theorem W1_arg15 : W1 m ρ c (Proc.devRef .tc main_arg15) = A m c main_arg15 := by
  show StableHlo.after hostOps0 (W0 m ρ c) (Proc.devRef .tc main_arg15) = _
  after_results

theorem W1_arg16 : W1 m ρ c (Proc.devRef .tc main_arg16) = A m c main_arg16 := by
  show StableHlo.after hostOps0 (W0 m ρ c) (Proc.devRef .tc main_arg16) = _
  after_results

theorem W1_arg17 : W1 m ρ c (Proc.devRef .tc main_arg17) = A m c main_arg17 := by
  show StableHlo.after hostOps0 (W0 m ρ c) (Proc.devRef .tc main_arg17) = _
  after_results

theorem W1_arg18 : W1 m ρ c (Proc.devRef .tc main_arg18) = A m c main_arg18 := by
  show StableHlo.after hostOps0 (W0 m ρ c) (Proc.devRef .tc main_arg18) = _
  after_results

theorem W1_v4 : W1 m ρ c (Proc.devRef .tc main_v4) = shapeCast S1x384 (A m c main_arg7) shapeCasts_S384_S1x384 := by
  show StableHlo.after hostOps0 (W0 m ρ c) (Proc.devRef .tc main_v4) = _
  after_results <;> rfl

theorem W1_v5 : W1 m ρ c (Proc.devRef .tc main_v5) = shapeCast S1x384 (A m c main_arg9) shapeCasts_S384_S1x384 := by
  show StableHlo.after hostOps0 (W0 m ρ c) (Proc.devRef .tc main_v5) = _
  after_results <;> rfl

theorem W1_v1 : W1 m ρ c (Proc.devRef .tc main_v1) = shapeCast S256000 (extractStridedSlice S1x256000 ![1, 0] (A m c main_arg2) slices_S2x256000_S1x256000_1_0) shapeCasts_S1x256000_S256000 := by
  show StableHlo.after hostOps0 (W0 m ρ c) (Proc.devRef .tc main_v1) = _
  after_results <;> rfl

theorem W1_v3 : W1 m ρ c (Proc.devRef .tc main_v3) = shapeCast S256000 (extractStridedSlice S1x256000 ![0, 0] (A m c main_arg2) slices_S2x256000_S1x256000_0_0) shapeCasts_S1x256000_S256000 := by
  show StableHlo.after hostOps0 (W0 m ρ c) (Proc.devRef .tc main_v3) = _
  after_results <;> rfl

/-! ## The first launch leaves the node perceptron X -/

/-- The node perceptron's output array, entry by entry. -/
theorem W2_v6 (n : Fin 10000) (j : Fin 384) :
    W2 m ρ c (Proc.devRef .tc main_v6) (ix2 n j)
      = Final.X (A m c main_arg0) (A m c main_arg6) (A m c main_arg7) (A m c main_arg8) (A m c main_arg9) n j := by
  rw [show W2 m ρ c (Proc.devRef .tc main_v6) = (dat0 (V1 m ρ) c).arrAt 5 cfg0.N from W2_arr m ρ c 5]
  rw [Reg0.arr (V1 m ρ) c n j]
  show Spec.mlp (Spec.cur2 (W1 m ρ c (Proc.devRef .tc main_arg0))) (Spec.cur2 (W1 m ρ c (Proc.devRef .tc main_arg6)))
    (Spec.row1 (W1 m ρ c (Proc.devRef .tc main_v4))) (Spec.cur2 (W1 m ρ c (Proc.devRef .tc main_arg8)))
    (Spec.row1 (W1 m ρ c (Proc.devRef .tc main_v5))) n j = _
  rw [W1_arg0, W1_arg6, W1_arg8, W1_v4, W1_v5]
  have h4 : Spec.row1 (shapeCast S1x384 (A m c main_arg7) shapeCasts_S384_S1x384) = Spec.cur1 (A m c main_arg7) :=
    funext fun i => shapeCast_a_1a_apply _ _ _ _
  have h5 : Spec.row1 (shapeCast S1x384 (A m c main_arg9) shapeCasts_S384_S1x384) = Spec.cur1 (A m c main_arg9) :=
    funext fun i => shapeCast_a_1a_apply _ _ _ _
  rw [h4, h5]

/-! ## Between the first two launches: the two gathers, mu flattened, cutoff and unit vectors packed, two biases as rows -/

theorem W2_v1 : W2 m ρ c (Proc.devRef .tc main_v1) = W1 m ρ c (Proc.devRef .tc main_v1) := W2_of_ne m ρ c main_v1 (by decide)

theorem W2_v3 : W2 m ρ c (Proc.devRef .tc main_v3) = W1 m ρ c (Proc.devRef .tc main_v3) := W2_of_ne m ρ c main_v3 (by decide)

theorem W2_arg1 : W2 m ρ c (Proc.devRef .tc main_arg1) = W1 m ρ c (Proc.devRef .tc main_arg1) := W2_of_ne m ρ c main_arg1 (by decide)

theorem W2_arg3 : W2 m ρ c (Proc.devRef .tc main_arg3) = W1 m ρ c (Proc.devRef .tc main_arg3) := W2_of_ne m ρ c main_arg3 (by decide)

theorem W2_arg4 : W2 m ρ c (Proc.devRef .tc main_arg4) = W1 m ρ c (Proc.devRef .tc main_arg4) := W2_of_ne m ρ c main_arg4 (by decide)

theorem W2_arg5 : W2 m ρ c (Proc.devRef .tc main_arg5) = W1 m ρ c (Proc.devRef .tc main_arg5) := W2_of_ne m ρ c main_arg5 (by decide)

theorem W2_arg10 : W2 m ρ c (Proc.devRef .tc main_arg10) = W1 m ρ c (Proc.devRef .tc main_arg10) := W2_of_ne m ρ c main_arg10 (by decide)

theorem W2_arg11 : W2 m ρ c (Proc.devRef .tc main_arg11) = W1 m ρ c (Proc.devRef .tc main_arg11) := W2_of_ne m ρ c main_arg11 (by decide)

theorem W2_arg12 : W2 m ρ c (Proc.devRef .tc main_arg12) = W1 m ρ c (Proc.devRef .tc main_arg12) := W2_of_ne m ρ c main_arg12 (by decide)

theorem W2_arg13 : W2 m ρ c (Proc.devRef .tc main_arg13) = W1 m ρ c (Proc.devRef .tc main_arg13) := W2_of_ne m ρ c main_arg13 (by decide)

theorem W2_arg14 : W2 m ρ c (Proc.devRef .tc main_arg14) = W1 m ρ c (Proc.devRef .tc main_arg14) := W2_of_ne m ρ c main_arg14 (by decide)

theorem W2_arg15 : W2 m ρ c (Proc.devRef .tc main_arg15) = W1 m ρ c (Proc.devRef .tc main_arg15) := W2_of_ne m ρ c main_arg15 (by decide)

theorem W2_arg16 : W2 m ρ c (Proc.devRef .tc main_arg16) = W1 m ρ c (Proc.devRef .tc main_arg16) := W2_of_ne m ρ c main_arg16 (by decide)

theorem W2_arg17 : W2 m ρ c (Proc.devRef .tc main_arg17) = W1 m ρ c (Proc.devRef .tc main_arg17) := W2_of_ne m ρ c main_arg17 (by decide)

theorem W2_arg18 : W2 m ρ c (Proc.devRef .tc main_arg18) = W1 m ρ c (Proc.devRef .tc main_arg18) := W2_of_ne m ρ c main_arg18 (by decide)

theorem W2_arg0 : W2 m ρ c (Proc.devRef .tc main_arg0) = A m c main_arg0 :=
  ((W2_arr m ρ c 0).trans (((dat0 (V1 m ρ) c).arrAt_in 0 rfl _).trans (A_eq0 (V1 m ρ) c 0))).trans (W1_arg0 m ρ c)

theorem W6_arg3 : W6 m ρ c (Proc.devRef .tc main_arg3) = W2 m ρ c (Proc.devRef .tc main_arg3) := by
  show StableHlo.after hostOps1_3 (StableHlo.after hostOps1_2 (StableHlo.after hostOps1_1 (StableHlo.after hostOps1 (W2 m ρ c)))) (Proc.devRef .tc main_arg3) = _
  after_results

theorem W6_arg10 : W6 m ρ c (Proc.devRef .tc main_arg10) = W2 m ρ c (Proc.devRef .tc main_arg10) := by
  show StableHlo.after hostOps1_3 (StableHlo.after hostOps1_2 (StableHlo.after hostOps1_1 (StableHlo.after hostOps1 (W2 m ρ c)))) (Proc.devRef .tc main_arg10) = _
  after_results

theorem W6_arg12 : W6 m ρ c (Proc.devRef .tc main_arg12) = W2 m ρ c (Proc.devRef .tc main_arg12) := by
  show StableHlo.after hostOps1_3 (StableHlo.after hostOps1_2 (StableHlo.after hostOps1_1 (StableHlo.after hostOps1 (W2 m ρ c)))) (Proc.devRef .tc main_arg12) = _
  after_results

theorem W6_v3 : W6 m ρ c (Proc.devRef .tc main_v3) = W2 m ρ c (Proc.devRef .tc main_v3) := by
  show StableHlo.after hostOps1_3 (StableHlo.after hostOps1_2 (StableHlo.after hostOps1_1 (StableHlo.after hostOps1 (W2 m ρ c)))) (Proc.devRef .tc main_v3) = _
  after_results

theorem W6_arg0 : W6 m ρ c (Proc.devRef .tc main_arg0) = W2 m ρ c (Proc.devRef .tc main_arg0) := by
  show StableHlo.after hostOps1_3 (StableHlo.after hostOps1_2 (StableHlo.after hostOps1_1 (StableHlo.after hostOps1 (W2 m ρ c)))) (Proc.devRef .tc main_arg0) = _
  after_results

theorem W6_arg14 : W6 m ρ c (Proc.devRef .tc main_arg14) = W2 m ρ c (Proc.devRef .tc main_arg14) := by
  show StableHlo.after hostOps1_3 (StableHlo.after hostOps1_2 (StableHlo.after hostOps1_1 (StableHlo.after hostOps1 (W2 m ρ c)))) (Proc.devRef .tc main_arg14) = _
  after_results

theorem W6_arg15 : W6 m ρ c (Proc.devRef .tc main_arg15) = W2 m ρ c (Proc.devRef .tc main_arg15) := by
  show StableHlo.after hostOps1_3 (StableHlo.after hostOps1_2 (StableHlo.after hostOps1_1 (StableHlo.after hostOps1 (W2 m ρ c)))) (Proc.devRef .tc main_arg15) = _
  after_results

theorem W6_arg16 : W6 m ρ c (Proc.devRef .tc main_arg16) = W2 m ρ c (Proc.devRef .tc main_arg16) := by
  show StableHlo.after hostOps1_3 (StableHlo.after hostOps1_2 (StableHlo.after hostOps1_1 (StableHlo.after hostOps1 (W2 m ρ c)))) (Proc.devRef .tc main_arg16) = _
  after_results

theorem W6_arg17 : W6 m ρ c (Proc.devRef .tc main_arg17) = W2 m ρ c (Proc.devRef .tc main_arg17) := by
  show StableHlo.after hostOps1_3 (StableHlo.after hostOps1_2 (StableHlo.after hostOps1_1 (StableHlo.after hostOps1 (W2 m ρ c)))) (Proc.devRef .tc main_arg17) = _
  after_results

theorem W6_arg18 : W6 m ρ c (Proc.devRef .tc main_arg18) = W2 m ρ c (Proc.devRef .tc main_arg18) := by
  show StableHlo.after hostOps1_3 (StableHlo.after hostOps1_2 (StableHlo.after hostOps1_1 (StableHlo.after hostOps1 (W2 m ρ c)))) (Proc.devRef .tc main_arg18) = _
  after_results

theorem W6_v7 : W6 m ρ c (Proc.devRef .tc main_v7) = Host.gather gather_S10000x384_S256000x1_S256000x384_1_0_n_n_0_1_1384 (W2 m ρ c (Proc.devRef .tc main_v6)) (broadcastInDim S256000x1 ![0] bcast_S256000_S256000x1_0 (W2 m ρ c (Proc.devRef .tc main_v1))) := by
  show StableHlo.after hostOps1_3 (StableHlo.after hostOps1_2 (StableHlo.after hostOps1_1 (StableHlo.after hostOps1 (W2 m ρ c)))) (Proc.devRef .tc main_v7) = _
  after_results <;> rfl

theorem W6_v8 : W6 m ρ c (Proc.devRef .tc main_v8) = shapeCast S10000x384 (W2 m ρ c (Proc.devRef .tc main_arg1)) shapeCasts_S10000x3x128_S10000x384 := by
  show StableHlo.after hostOps1_3 (StableHlo.after hostOps1_2 (StableHlo.after hostOps1_1 (StableHlo.after hostOps1 (W2 m ρ c)))) (Proc.devRef .tc main_v8) = _
  after_results <;> rfl

theorem W6_v9 : W6 m ρ c (Proc.devRef .tc main_v9) = Host.gather gather_S10000x384_S256000x1_S256000x384_1_0_n_n_0_1_1384 (shapeCast S10000x384 (W2 m ρ c (Proc.devRef .tc main_arg1)) shapeCasts_S10000x3x128_S10000x384) (broadcastInDim S256000x1 ![0] bcast_S256000_S256000x1_0 (W2 m ρ c (Proc.devRef .tc main_v1))) := by
  show StableHlo.after hostOps1_3 (StableHlo.after hostOps1_2 (StableHlo.after hostOps1_1 (StableHlo.after hostOps1 (W2 m ρ c)))) (Proc.devRef .tc main_v9) = _
  after_results <;> rfl

theorem W6_v11 : W6 m ρ c (Proc.devRef .tc main_v11) = concatenate S256000x4 1 [⟨S256000x1, shapeCast S256000x1 (W2 m ρ c (Proc.devRef .tc main_arg5)) shapeCasts_S256000_S256000x1⟩, ⟨S256000x3, W2 m ρ c (Proc.devRef .tc main_arg4)⟩] concatenates_S256000x1_S256000x3_S256000x4_d1 := by
  show StableHlo.after hostOps1_3 (StableHlo.after hostOps1_2 (StableHlo.after hostOps1_1 (StableHlo.after hostOps1 (W2 m ρ c)))) (Proc.devRef .tc main_v11) = _
  after_results <;> rfl

theorem W6_v12 : W6 m ρ c (Proc.devRef .tc main_v12) = shapeCast S1x128 (W2 m ρ c (Proc.devRef .tc main_arg11)) shapeCasts_S128_S1x128 := by
  show StableHlo.after hostOps1_3 (StableHlo.after hostOps1_2 (StableHlo.after hostOps1_1 (StableHlo.after hostOps1 (W2 m ρ c)))) (Proc.devRef .tc main_v12) = _
  after_results <;> rfl

theorem W6_v13 : W6 m ρ c (Proc.devRef .tc main_v13) = shapeCast S1x384 (W2 m ρ c (Proc.devRef .tc main_arg13)) shapeCasts_S384_S1x384 := by
  show StableHlo.after hostOps1_3 (StableHlo.after hostOps1_2 (StableHlo.after hostOps1_1 (StableHlo.after hostOps1 (W2 m ρ c)))) (Proc.devRef .tc main_v13) = _
  after_results <;> rfl

/-- The source column the two gathers read, at (e, 0): row 1 of the edge list at e. -/
theorem srcCol_apply (e : Fin 256000) (u : Fin 1) :
    broadcastInDim S256000x1 ![0] bcast_S256000_S256000x1_0 (W2 m ρ c (Proc.devRef .tc main_v1)) (ix2 e u) = A m c main_arg2 (ix2 (1 : Fin 2) e) := by
  rw [W2_v1, W1_v1]
  exact rowAsCol_apply 1 (by decide) _ _ _ _ e u

/-- A whole-row gather from a [10000, 384] table by a column of 32-bit row numbers reads, at (e, j), the table at the
    clamped row number and column j. -/
theorem gatherRow_apply (wf : GatherDims.WF ⟨2, ![10000, 384]⟩ ⟨2, ![256000, 1]⟩ ⟨2, ![256000, 384]⟩ [1] [0] [] [0] [] 1 ![1, 384])
    (T : FVec Ideal ⟨2, ![10000, 384]⟩ .f32) (idx : IVec ⟨2, ![256000, 1]⟩ 32) (e : Fin 256000) (j : Fin 384) :
    Host.gather (Cert.Lib.GatherRows.rowDims 10000 384 256000 wf) T idx (ix2 e j) = T (ix2 (Spec.srcRow (idx (ix2 e (0 : Fin 1)))) j) :=
  Cert.Lib.GatherRows.gather_rows_apply (by decide) wf T idx e j

/-- The gathered rows of X: edge e's row is X at the clamped source number. -/
theorem W6_v7_apply (e : Fin 256000) (j : Fin 384) :
    W6 m ρ c (Proc.devRef .tc main_v7) (ix2 e j)
      = Final.X (A m c main_arg0) (A m c main_arg6) (A m c main_arg7) (A m c main_arg8) (A m c main_arg9) (sK m c e) j := by
  rw [W6_v7]
  refine (gatherRow_apply _ _ _ e j).trans ?_
  rw [srcCol_apply]
  exact W2_v6 m ρ c _ j

/-- The gathered rows of mu, its three components side by side: entry (e, 128·k + f) is mu at (clamped source, k, f). -/
theorem W6_v9_apply (e : Fin 256000) (k : Fin 3) (f : Fin 128) :
    W6 m ρ c (Proc.devRef .tc main_v9) (ix2 e (Spec.sh3 0 384 k f)) = A m c main_arg1 (ix3 (sK m c e) k f) := by
  rw [W6_v9]
  refine (gatherRow_apply _ _ _ e (Spec.sh3 0 384 k f)).trans ?_
  rw [srcCol_apply, W2_arg1, W1_arg1]
  exact flat3_apply _ _ _ k f _ (by show 0 + 128 * k.val + f.val = _; omega)

/-- Column 0 of the packed array is the cutoff value. -/
theorem W6_v11_cut (e : Fin 256000) : W6 m ρ c (Proc.devRef .tc main_v11) (ix2 e (0 : Fin 4)) = A m c main_arg5 (ix1 e) := by
  rw [W6_v11, W2_arg5, W2_arg4, W1_arg5, W1_arg4]
  rw [concatenate_pair_apply_left (t := S256000x4) (s₁ := S256000x1) (s₂ := S256000x3) (1 : Fin 2) _ _ _ (ix2 e (0 : Fin 4)) rfl (ix2 e (0 : Fin 1)) (fun b => by
    match b with
    | ⟨0, _⟩ => rfl
    | ⟨1, _⟩ => rfl)]
  exact reshapeCol_apply _ _ e 0

/-- Columns 1..3 of the packed array are the unit vector. -/
theorem W6_v11_uv (e : Fin 256000) (k : Fin 3) : W6 m ρ c (Proc.devRef .tc main_v11) (ix2 e (Spec.sh 1 4 k)) = A m c main_arg4 (ix2 e k) := by
  rw [W6_v11, W2_arg5, W2_arg4, W1_arg5, W1_arg4]
  exact concatenate_pair_apply_right (t := S256000x4) (s₁ := S256000x1) (s₂ := S256000x3) (1 : Fin 2) _ _ _ (ix2 e (Spec.sh 1 4 k)) rfl rfl (ix2 e k) (fun b hb => by
    match b with
    | ⟨0, _⟩ => rfl
    | ⟨1, _⟩ => exact absurd rfl hb) (by show k.val + 1 = 1 + k.val; omega)

/-! ## The second launch leaves the merged messages -/

theorem xs_eq : Spec.cur2 (W6 m ρ c (Proc.devRef .tc main_v7)) = fun e j => Final.X (A m c main_arg0) (A m c main_arg6) (A m c main_arg7) (A m c main_arg8) (A m c main_arg9) (sK m c e) j :=
  funext fun e => funext fun j => W6_v7_apply m ρ c e j

theorem mg_eq : (fun (e : Fin 256000) (k : Fin 3) (f : Fin 128) => W6 m ρ c (Proc.devRef .tc main_v9) (ix2 e (Spec.sh3 0 384 k f)))
    = fun e k f => A m c main_arg1 (ix3 (sK m c e) k f) :=
  funext fun e => funext fun k => funext fun f => W6_v9_apply m ρ c e k f

theorem fl_eq : Spec.filt (Spec.cur2 (W6 m ρ c (Proc.devRef .tc main_arg3))) (Spec.cur2 (W6 m ρ c (Proc.devRef .tc main_arg10))) (Spec.row1 (W6 m ρ c (Proc.devRef .tc main_v12)))
      (Spec.cur2 (W6 m ρ c (Proc.devRef .tc main_arg12))) (Spec.row1 (W6 m ρ c (Proc.devRef .tc main_v13))) (fun e => W6 m ρ c (Proc.devRef .tc main_v11) (ix2 e (0 : Fin 4)))
    = Final.FL (A m c main_arg3) (A m c main_arg5) (A m c main_arg10) (A m c main_arg11) (A m c main_arg12) (A m c main_arg13) := by
  have h12 : Spec.row1 (W6 m ρ c (Proc.devRef .tc main_v12)) = Spec.cur1 (A m c main_arg11) := by
    rw [W6_v12, W2_arg11, W1_arg11]; exact funext fun i => shapeCast_a_1a_apply _ _ _ _
  have h13 : Spec.row1 (W6 m ρ c (Proc.devRef .tc main_v13)) = Spec.cur1 (A m c main_arg13) := by
    rw [W6_v13, W2_arg13, W1_arg13]; exact funext fun i => shapeCast_a_1a_apply _ _ _ _
  have hc : (fun e => W6 m ρ c (Proc.devRef .tc main_v11) (ix2 e (0 : Fin 4))) = Spec.cur1 (A m c main_arg5) :=
    funext fun e => W6_v11_cut m ρ c e
  rw [h12, h13, hc, W6_arg3, W6_arg10, W6_arg12, W2_arg3, W2_arg10, W2_arg12, W1_arg3, W1_arg10, W1_arg12]

theorem uv_eq : (fun (e : Fin 256000) (k : Fin 3) => W6 m ρ c (Proc.devRef .tc main_v11) (ix2 e (Spec.sh 1 4 k))) = Spec.cur2 (A m c main_arg4) :=
  funext fun e => funext fun k => W6_v11_uv m ρ c e k

/-- Columns [0, H) of the merged array are the scalar messages. -/
theorem W7_v14S (e : Fin 256000) (f : Fin 128) :
    W7 m ρ c (Proc.devRef .tc main_v14) (ix2 e (Spec.sh 0 512 f)) = Final.mS (A m c main_arg0) (A m c main_arg3) (A m c main_arg5) (A m c main_arg6) (A m c main_arg7) (A m c main_arg8) (A m c main_arg9) (A m c main_arg10) (A m c main_arg11) (A m c main_arg12) (A m c main_arg13) (sK m c) e f := by
  rw [show W7 m ρ c (Proc.devRef .tc main_v14) = (dat1 (V6 m ρ) c).arrAt 8 cfg1.N from W7_arr m ρ c 8]
  rw [Reg1.arrS (V6 m ρ) c e f]
  show Spec.edgeS (Spec.cur2 (W6 m ρ c (Proc.devRef .tc main_v7))) (Spec.filt (Spec.cur2 (W6 m ρ c (Proc.devRef .tc main_arg3))) (Spec.cur2 (W6 m ρ c (Proc.devRef .tc main_arg10))) (Spec.row1 (W6 m ρ c (Proc.devRef .tc main_v12)))
      (Spec.cur2 (W6 m ρ c (Proc.devRef .tc main_arg12))) (Spec.row1 (W6 m ρ c (Proc.devRef .tc main_v13))) (fun e => W6 m ρ c (Proc.devRef .tc main_v11) (ix2 e (0 : Fin 4)))) e f = _
  rw [xs_eq, fl_eq]

/-- Columns [H, 4H) of the merged array are the vector messages, component by component. -/
theorem W7_v14V (e : Fin 256000) (k : Fin 3) (f : Fin 128) :
    W7 m ρ c (Proc.devRef .tc main_v14) (ix2 e (Spec.sh3 128 512 k f)) = Final.mV (A m c main_arg0) (A m c main_arg1) (A m c main_arg3) (A m c main_arg4) (A m c main_arg5) (A m c main_arg6) (A m c main_arg7) (A m c main_arg8) (A m c main_arg9) (A m c main_arg10) (A m c main_arg11) (A m c main_arg12) (A m c main_arg13) (sK m c) e k f := by
  rw [show W7 m ρ c (Proc.devRef .tc main_v14) = (dat1 (V6 m ρ) c).arrAt 8 cfg1.N from W7_arr m ρ c 8]
  rw [Reg1.arrV (V6 m ρ) c e k f]
  show Spec.edgeV (Spec.cur2 (W6 m ρ c (Proc.devRef .tc main_v7))) (fun e k f => W6 m ρ c (Proc.devRef .tc main_v9) (ix2 e (Spec.sh3 0 384 k f)))
      (Spec.filt (Spec.cur2 (W6 m ρ c (Proc.devRef .tc main_arg3))) (Spec.cur2 (W6 m ρ c (Proc.devRef .tc main_arg10))) (Spec.row1 (W6 m ρ c (Proc.devRef .tc main_v12)))
      (Spec.cur2 (W6 m ρ c (Proc.devRef .tc main_arg12))) (Spec.row1 (W6 m ρ c (Proc.devRef .tc main_v13))) (fun e => W6 m ρ c (Proc.devRef .tc main_v11) (ix2 e (0 : Fin 4))))
      (fun e k => W6 m ρ c (Proc.devRef .tc main_v11) (ix2 e (Spec.sh 1 4 k))) e k f = _
  rw [xs_eq, mg_eq, fl_eq, uv_eq]

/-! ## Between the last two launches: the one segment sum of the merged messages, cut into its scalar and vector parts -/

theorem W7_v3 : W7 m ρ c (Proc.devRef .tc main_v3) = W6 m ρ c (Proc.devRef .tc main_v3) := W7_of_ne m ρ c main_v3 (by decide)

theorem W7_arg0 : W7 m ρ c (Proc.devRef .tc main_arg0) = W6 m ρ c (Proc.devRef .tc main_arg0) := W7_of_ne m ρ c main_arg0 (by decide)

theorem W7_v8 : W7 m ρ c (Proc.devRef .tc main_v8) = W6 m ρ c (Proc.devRef .tc main_v8) := W7_of_ne m ρ c main_v8 (by decide)

theorem W7_arg14 : W7 m ρ c (Proc.devRef .tc main_arg14) = W6 m ρ c (Proc.devRef .tc main_arg14) := W7_of_ne m ρ c main_arg14 (by decide)

theorem W7_arg15 : W7 m ρ c (Proc.devRef .tc main_arg15) = W6 m ρ c (Proc.devRef .tc main_arg15) := W7_of_ne m ρ c main_arg15 (by decide)

theorem W7_arg16 : W7 m ρ c (Proc.devRef .tc main_arg16) = W6 m ρ c (Proc.devRef .tc main_arg16) := W7_of_ne m ρ c main_arg16 (by decide)

theorem W7_arg17 : W7 m ρ c (Proc.devRef .tc main_arg17) = W6 m ρ c (Proc.devRef .tc main_arg17) := W7_of_ne m ρ c main_arg17 (by decide)

theorem W7_arg18 : W7 m ρ c (Proc.devRef .tc main_arg18) = W6 m ρ c (Proc.devRef .tc main_arg18) := W7_of_ne m ρ c main_arg18 (by decide)

theorem W8_arg0 : W8 m ρ c (Proc.devRef .tc main_arg0) = W7 m ρ c (Proc.devRef .tc main_arg0) := by
  show StableHlo.after hostOps2 (W7 m ρ c) (Proc.devRef .tc main_arg0) = _
  after_results

theorem W8_v8 : W8 m ρ c (Proc.devRef .tc main_v8) = W7 m ρ c (Proc.devRef .tc main_v8) := by
  show StableHlo.after hostOps2 (W7 m ρ c) (Proc.devRef .tc main_v8) = _
  after_results

theorem W8_arg14 : W8 m ρ c (Proc.devRef .tc main_arg14) = W7 m ρ c (Proc.devRef .tc main_arg14) := by
  show StableHlo.after hostOps2 (W7 m ρ c) (Proc.devRef .tc main_arg14) = _
  after_results

theorem W8_arg15 : W8 m ρ c (Proc.devRef .tc main_arg15) = W7 m ρ c (Proc.devRef .tc main_arg15) := by
  show StableHlo.after hostOps2 (W7 m ρ c) (Proc.devRef .tc main_arg15) = _
  after_results

theorem W8_arg17 : W8 m ρ c (Proc.devRef .tc main_arg17) = W7 m ρ c (Proc.devRef .tc main_arg17) := by
  show StableHlo.after hostOps2 (W7 m ρ c) (Proc.devRef .tc main_arg17) = _
  after_results

theorem W8_v18 : W8 m ρ c (Proc.devRef .tc main_v18) = extractStridedSlice S10000x128 ![0, 0] (Host.scatterAdd (F := Ideal) scatter_S10000x512_S256000x1_S256000x512_1_0_0_1 (broadcastInDim S10000x512 ![] bcast_S_S10000x512 (constant (F := Ideal) S_ .f32 0x00000000#32)) (broadcastInDim S256000x1 ![0] bcast_S256000_S256000x1_0 (W7 m ρ c (Proc.devRef .tc main_v3))) (W7 m ρ c (Proc.devRef .tc main_v14))) slices_S10000x512_S10000x128_0_0 := by
  show StableHlo.after hostOps2 (W7 m ρ c) (Proc.devRef .tc main_v18) = _
  after_results <;> rfl

theorem W8_v19 : W8 m ρ c (Proc.devRef .tc main_v19) = extractStridedSlice S10000x384 ![0, 128] (Host.scatterAdd (F := Ideal) scatter_S10000x512_S256000x1_S256000x512_1_0_0_1 (broadcastInDim S10000x512 ![] bcast_S_S10000x512 (constant (F := Ideal) S_ .f32 0x00000000#32)) (broadcastInDim S256000x1 ![0] bcast_S256000_S256000x1_0 (W7 m ρ c (Proc.devRef .tc main_v3))) (W7 m ρ c (Proc.devRef .tc main_v14))) slices_S10000x512_S10000x384_0_128 := by
  show StableHlo.after hostOps2 (W7 m ρ c) (Proc.devRef .tc main_v19) = _
  after_results <;> rfl

theorem W8_v20 : W8 m ρ c (Proc.devRef .tc main_v20) = shapeCast S1x384 (W7 m ρ c (Proc.devRef .tc main_arg16)) shapeCasts_S384_S1x384 := by
  show StableHlo.after hostOps2 (W7 m ρ c) (Proc.devRef .tc main_v20) = _
  after_results <;> rfl

theorem W8_v21 : W8 m ρ c (Proc.devRef .tc main_v21) = shapeCast S1x384 (W7 m ρ c (Proc.devRef .tc main_arg18)) shapeCasts_S384_S1x384 := by
  show StableHlo.after hostOps2 (W7 m ρ c) (Proc.devRef .tc main_v21) = _
  after_results <;> rfl

/-- The target column the segment sum reads, at (e, 0): row 0 of the edge list at e. -/
theorem tgtCol_apply (e : Fin 256000) (u : Fin 1) :
    broadcastInDim S256000x1 ![0] bcast_S256000_S256000x1_0 (W7 m ρ c (Proc.devRef .tc main_v3)) (ix2 e u) = A m c main_arg2 (ix2 (0 : Fin 2) e) := by
  rw [W7_v3, W6_v3, W2_v3, W1_v3]
  exact rowAsCol_apply 0 (by decide) _ _ _ _ e u

/-- A segment sum of [256000, 512] rows from zeros, read at (n, j): the zero plus the rows of the edges landing on n. -/
theorem segsum_apply (wf : ScatterDims.WF ⟨2, ![10000, 512]⟩ ⟨2, ![256000, 1]⟩ ⟨2, ![256000, 512]⟩ [1] [0] [0] 1)
    (hb : (⟨0, ![]⟩ : Shape).BroadcastsInDim ⟨2, ![10000, 512]⟩ ![])
    (idx : IVec ⟨2, ![256000, 1]⟩ 32) (U : FVec Ideal ⟨2, ![256000, 512]⟩ .f32) (n : Fin 10000) (j : Fin 512) :
    Host.scatterAdd (Cert.Lib.ScatterRows.rowDims2 10000 256000 512 wf)
        (broadcastInDim ⟨2, ![10000, 512]⟩ ![] hb (constant (F := Ideal) ⟨0, ![]⟩ .f32 0x00000000#32)) idx U (ix2 n j)
      = Final.zero + ∑ e ∈ Spec.lands (fun e => idx (ix2 e (0 : Fin 1))) n, U (ix2 e j) := by
  rw [Cert.Lib.ScatterRows.scatterAdd_rows2_apply, scalar_apply]
  rfl

/-- The scalar part of the segment sum. -/
theorem W8_v18_apply (n : Fin 10000) (i : Fin 128) :
    W8 m ρ c (Proc.devRef .tc main_v18) (ix2 n i) = Final.zero + ∑ e ∈ Spec.lands (Final.tgt (A m c main_arg2)) n, Final.mS (A m c main_arg0) (A m c main_arg3) (A m c main_arg5) (A m c main_arg6) (A m c main_arg7) (A m c main_arg8) (A m c main_arg9) (A m c main_arg10) (A m c main_arg11) (A m c main_arg12) (A m c main_arg13) (sK m c) e i := by
  rw [W8_v18, slice2_axis1_apply 0 _ _ n i (Spec.sh 0 512 i) rfl]
  refine (segsum_apply _ _ _ _ n _).trans ?_
  have ht : (fun e : Fin 256000 => broadcastInDim S256000x1 ![0] bcast_S256000_S256000x1_0 (W7 m ρ c (Proc.devRef .tc main_v3)) (ix2 e (0 : Fin 1)))
      = Final.tgt (A m c main_arg2) := funext fun e => tgtCol_apply m ρ c e 0
  rw [ht]
  exact congrArg (Final.zero + ·) (Finset.sum_congr rfl fun e _ => W7_v14S m ρ c e i)

/-- The vector part of the segment sum, its three components side by side. -/
theorem W8_v19_apply (n : Fin 10000) (k : Fin 3) (i : Fin 128) :
    W8 m ρ c (Proc.devRef .tc main_v19) (ix2 n (Spec.sh3 0 384 k i)) = Final.zero + ∑ e ∈ Spec.lands (Final.tgt (A m c main_arg2)) n, Final.mV (A m c main_arg0) (A m c main_arg1) (A m c main_arg3) (A m c main_arg4) (A m c main_arg5) (A m c main_arg6) (A m c main_arg7) (A m c main_arg8) (A m c main_arg9) (A m c main_arg10) (A m c main_arg11) (A m c main_arg12) (A m c main_arg13) (sK m c) e k i := by
  rw [W8_v19, slice2_axis1_apply 128 _ _ n (Spec.sh3 0 384 k i) (Spec.sh3 128 512 k i) (by show 128 + 128 * k.val + i.val = 128 + (0 + 128 * k.val + i.val); omega)]
  refine (segsum_apply _ _ _ _ n _).trans ?_
  have ht : (fun e : Fin 256000 => broadcastInDim S256000x1 ![0] bcast_S256000_S256000x1_0 (W7 m ρ c (Proc.devRef .tc main_v3)) (ix2 e (0 : Fin 1)))
      = Final.tgt (A m c main_arg2) := funext fun e => tgtCol_apply m ρ c e 0
  rw [ht]
  exact congrArg (Final.zero + ·) (Finset.sum_congr rfl fun e _ => W7_v14V m ρ c e k i)

/-- mu flattened, as the last launch finds it: entry (n, 128·k + f) is mu at (n, k, f). -/
theorem W8_v8_apply (n : Fin 10000) (k : Fin 3) (f : Fin 128) :
    W8 m ρ c (Proc.devRef .tc main_v8) (ix2 n (Spec.sh3 0 384 k f)) = A m c main_arg1 (ix3 n k f) := by
  rw [W8_v8, W7_v8, W6_v8, W2_arg1, W1_arg1]
  exact flat3_apply _ _ n k f _ (by show 0 + 128 * k.val + f.val = _; omega)

/-! ## The last launch, and the vector result unflattened -/

theorem W10_v22_0 : W10 m ρ c (Proc.devRef .tc main_v22_0) = W9 m ρ c (Proc.devRef .tc main_v22_0) := by
  show StableHlo.after hostOps3 (W9 m ρ c) (Proc.devRef .tc main_v22_0) = _
  after_results

theorem W10_v23 : W10 m ρ c (Proc.devRef .tc main_v23) = shapeCast S10000x3x128 (W9 m ρ c (Proc.devRef .tc main_v22_1)) shapeCasts_S10000x384_S10000x3x128 := by
  show StableHlo.after hostOps3 (W9 m ρ c) (Proc.devRef .tc main_v23) = _
  after_results <;> rfl

/-- Node n's updated scalar features, as the last launch reads them. -/
theorem q'_eq (n : Fin 10000) : Reg2.q' (V8 m ρ) c n = Final.q' (A m c main_arg0) (A m c main_arg2) (A m c main_arg3) (A m c main_arg5) (A m c main_arg6) (A m c main_arg7) (A m c main_arg8) (A m c main_arg9) (A m c main_arg10) (A m c main_arg11) (A m c main_arg12) (A m c main_arg13) (sK m c) n := by
  funext i
  have h1 : Spec.cur2 (W8 m ρ c (Proc.devRef .tc main_arg0)) n i = Spec.cur2 (A m c main_arg0) n i := by
    rw [W8_arg0, W7_arg0, W6_arg0, W2_arg0]
  have h2 : Spec.cur2 (W8 m ρ c (Proc.devRef .tc main_v18)) n i = _ := W8_v18_apply m ρ c n i
  show Spec.cur2 (W8 m ρ c (Proc.devRef .tc main_arg0)) n i + Spec.cur2 (W8 m ρ c (Proc.devRef .tc main_v18)) n i = _
  rw [h1, h2]
  rfl

/-- Node n's updated vector features, as the last launch reads them. -/
theorem mu'_eq (n : Fin 10000) : Reg2.mu' (V8 m ρ) c n = Final.mu' (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (sK m c) n := by
  funext k i
  have h1 : Spec.cur2 (W8 m ρ c (Proc.devRef .tc main_v8)) n (Spec.sh3 0 384 k i) = _ := W8_v8_apply m ρ c n k i
  have h2 : Spec.cur2 (W8 m ρ c (Proc.devRef .tc main_v19)) n (Spec.sh3 0 384 k i) = _ := W8_v19_apply m ρ c n k i
  show Spec.cur2 (W8 m ρ c (Proc.devRef .tc main_v8)) n (Spec.sh3 0 384 k i) + Spec.cur2 (W8 m ρ c (Proc.devRef .tc main_v19)) n (Spec.sh3 0 384 k i) = _
  rw [h1, h2]
  rfl

theorem wv_eq : Spec.cur2 (W8 m ρ c (Proc.devRef .tc main_arg14)) = Spec.cur2 (A m c main_arg14) := by
  rw [W8_arg14, W7_arg14, W6_arg14, W2_arg14, W1_arg14]
theorem m1_eq : Spec.cur2 (W8 m ρ c (Proc.devRef .tc main_arg15)) = Spec.cur2 (A m c main_arg15) := by
  rw [W8_arg15, W7_arg15, W6_arg15, W2_arg15, W1_arg15]
theorem m2_eq : Spec.cur2 (W8 m ρ c (Proc.devRef .tc main_arg17)) = Spec.cur2 (A m c main_arg17) := by
  rw [W8_arg17, W7_arg17, W6_arg17, W2_arg17, W1_arg17]
theorem d1_eq : Spec.row1 (W8 m ρ c (Proc.devRef .tc main_v20)) = Spec.cur1 (A m c main_arg16) := by
  rw [W8_v20, W7_arg16, W6_arg16, W2_arg16, W1_arg16]; exact funext fun i => shapeCast_a_1a_apply _ _ _ _
theorem d2_eq : Spec.row1 (W8 m ρ c (Proc.devRef .tc main_v21)) = Spec.cur1 (A m c main_arg18) := by
  rw [W8_v21, W7_arg18, W6_arg18, W2_arg18, W1_arg18]; exact funext fun i => shapeCast_a_1a_apply _ _ _ _

/-- The first result buffer at the end, entry by entry. -/
theorem resQ_apply (n : Fin 10000) (f : Fin 128) :
    W10 m ρ c (Proc.devRef .tc main_v22_0) (ix2 n f) = Final.resQ (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (sK m c) n f := by
  rw [W10_v22_0, show W9 m ρ c (Proc.devRef .tc main_v22_0) = (dat2 (V8 m ρ) c).arrAt 9 cfg2.N from W9_arr m ρ c 9]
  rw [Reg2.arrQ (V8 m ρ) c n f, q'_eq, mu'_eq]
  show Spec.outQ _ _ (Spec.cur2 (W8 m ρ c (Proc.devRef .tc main_arg14))) (Spec.cur2 (W8 m ρ c (Proc.devRef .tc main_arg15))) (Spec.row1 (W8 m ρ c (Proc.devRef .tc main_v20)))
    (Spec.cur2 (W8 m ρ c (Proc.devRef .tc main_arg17))) (Spec.row1 (W8 m ρ c (Proc.devRef .tc main_v21))) _ f = _
  rw [wv_eq, m1_eq, m2_eq, d1_eq, d2_eq]
  rfl

/-- The second result buffer at the end, entry by entry. -/
theorem resMU_apply (n : Fin 10000) (k : Fin 3) (f : Fin 128) :
    W10 m ρ c (Proc.devRef .tc main_v23) (ix3 n k f) = Final.resMU (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (sK m c) n k f := by
  rw [W10_v23, unflat3_apply _ _ n k f (Spec.sh3 0 384 k f) (by show 0 + 128 * k.val + f.val = _; omega)]
  rw [show W9 m ρ c (Proc.devRef .tc main_v22_1) = (dat2 (V8 m ρ) c).arrAt 10 cfg2.N from W9_arr m ρ c 10]
  rw [Reg2.arrMU (V8 m ρ) c n k f, q'_eq, mu'_eq]
  show Spec.outMU _ _ (Spec.cur2 (W8 m ρ c (Proc.devRef .tc main_arg14))) (Spec.cur2 (W8 m ρ c (Proc.devRef .tc main_arg15))) (Spec.row1 (W8 m ρ c (Proc.devRef .tc main_v20)))
    (Spec.cur2 (W8 m ρ c (Proc.devRef .tc main_arg17))) (Spec.row1 (W8 m ρ c (Proc.devRef .tc main_v21))) _ k f = _
  rw [wv_eq, m1_eq, m2_eq, d1_eq, d2_eq]
  rfl

end Cert.KernelIdeal.KHost

end
-- ==== Proof.RefEdge.lean ====
/-
  The reference's per-node perceptron X, its per-edge filter, and the two per-edge message arrays its segment sums add up,
  each read at a coordinate.

  First the operations the reference is built from, read at an index over arrays of any extents: a vector broadcast in two
  steps along the rows, down the columns, or along a new last or middle axis of a rank-3 array; the gather of whole [C, D]
  slabs of a rank-3 table by a column of slab numbers; the plain matrix product as the sum over the contracted coordinate;
  x · (1 / (1 + e⁻ˣ)) as x · σ(x); the two-layer perceptron assembled from these; and one H-wide part of a message (a
  gathered band of the node table times the same band of the filter). Then the reference's own arrays are these at its
  argument arrays.
-/
import proofs.«425667_j62663572848823_3_alg».proof.Proof.Gen.ReferenceIdeal.Run
import proofs.«425667_j62663572848823_3_alg».proof.Proof.Spec
import proofs.«425667_j62663572848823_3_alg».proof.Proof.LibGatherRows
import Idealize.ShloMosaic.Lib.ValueIdx
import Idealize.ShloMosaic.Lib.ValueLayout
import Idealize.ShloMosaic.Lib.IdealHost
import Idealize.ShloMosaic.Lib.StackMember

set_option maxRecDepth 16384

noncomputable section

namespace Cert.ReferenceIdeal.RefEdge

open Idealize.ShloMosaic Idealize.ShloMosaic.TcCoe Idealize.ShloMosaic.ValueIdx Idealize.SL.Sem
open Cert.ReferenceIdeal Cert.ReferenceIdeal.Gen Cert.ReferenceIdeal.Value

section Layout
variable {α : Type}

/-- The coordinate a broadcast reads on an axis of the operand: the result's coordinate, which on an axis of extent 1 is 0. -/
theorem val_eq_ite {n : Nat} (i : Fin n) : i.val = if n = 1 then 0 else i.val := by
  split
  · have := i.isLt; omega
  · rfl

/-- A vector laid along the columns, [K] → [1, K] → [R, K], reads at (r, k) the vector at k. -/
theorem bcast_row_apply {R K : Nat}
    (h1 : (⟨1, ![K]⟩ : Shape).BroadcastsInDim ⟨2, ![1, K]⟩ ![1])
    (h2 : (⟨2, ![1, K]⟩ : Shape).BroadcastsInDim ⟨2, ![R, K]⟩ ![0, 1])
    (b : (⟨1, ![K]⟩ : Shape).Idx → α) (r : Fin R) (k : Fin K) :
    broadcastInDim ⟨2, ![R, K]⟩ ![0, 1] h2 (broadcastInDim ⟨2, ![1, K]⟩ ![1] h1 b) (ix2 r k) = b (ix1 k) := by
  refine (broadcastInDim_apply _ h2 _ (ix2 r k) (ix2 (0 : Fin 1) k) fun a => ?_).trans
    (broadcastInDim_apply _ h1 b (ix2 (0 : Fin 1) k) (ix1 k) fun a => ?_)
  · match a with
    | ⟨0, _⟩ => rfl
    | ⟨1, _⟩ => exact val_eq_ite k
  · match a with
    | ⟨0, _⟩ => exact val_eq_ite k

/-- A vector as a column, [R] → [R, 1], reads at (r, 0) the vector at r. -/
theorem bcast_col1_apply {R : Nat}
    (h1 : (⟨1, ![R]⟩ : Shape).BroadcastsInDim ⟨2, ![R, 1]⟩ ![0])
    (b : (⟨1, ![R]⟩ : Shape).Idx → α) (r : Fin R) :
    broadcastInDim ⟨2, ![R, 1]⟩ ![0] h1 b (ix2 r (0 : Fin 1)) = b (ix1 r) := by
  refine broadcastInDim_apply _ h1 b (ix2 r (0 : Fin 1)) (ix1 r) fun a => ?_
  match a with
  | ⟨0, _⟩ => exact val_eq_ite r

/-- A vector laid down the rows, [R] → [R, 1] → [R, K], reads at (r, k) the vector at r. -/
theorem bcast_col_apply {R K : Nat}
    (h1 : (⟨1, ![R]⟩ : Shape).BroadcastsInDim ⟨2, ![R, 1]⟩ ![0])
    (h2 : (⟨2, ![R, 1]⟩ : Shape).BroadcastsInDim ⟨2, ![R, K]⟩ ![0, 1])
    (b : (⟨1, ![R]⟩ : Shape).Idx → α) (r : Fin R) (k : Fin K) :
    broadcastInDim ⟨2, ![R, K]⟩ ![0, 1] h2 (broadcastInDim ⟨2, ![R, 1]⟩ ![0] h1 b) (ix2 r k) = b (ix1 r) := by
  refine (broadcastInDim_apply _ h2 _ (ix2 r k) (ix2 r (0 : Fin 1)) fun a => ?_).trans (bcast_col1_apply h1 b r)
  match a with
  | ⟨0, _⟩ => exact val_eq_ite r
  | ⟨1, _⟩ => rfl

/-- A matrix [E, C] repeated along a new last axis, [E, C] → [E, C, 1] → [E, C, H], reads at (e, c, f) the matrix at
    (e, c). -/
theorem bcast_last_apply {E C H : Nat}
    (h1 : (⟨2, ![E, C]⟩ : Shape).BroadcastsInDim ⟨3, ![E, C, 1]⟩ ![0, 1])
    (h2 : (⟨3, ![E, C, 1]⟩ : Shape).BroadcastsInDim ⟨3, ![E, C, H]⟩ ![0, 1, 2])
    (u : (⟨2, ![E, C]⟩ : Shape).Idx → α) (e : Fin E) (c : Fin C) (f : Fin H) :
    broadcastInDim ⟨3, ![E, C, H]⟩ ![0, 1, 2] h2 (broadcastInDim ⟨3, ![E, C, 1]⟩ ![0, 1] h1 u) (ix3 e c f) = u (ix2 e c) := by
  refine (broadcastInDim_apply _ h2 _ (ix3 e c f) (ix3 e c (0 : Fin 1)) fun a => ?_).trans
    (broadcastInDim_apply _ h1 u (ix3 e c (0 : Fin 1)) (ix2 e c) fun a => ?_)
  · match a with
    | ⟨0, _⟩ => exact val_eq_ite e
    | ⟨1, _⟩ => exact val_eq_ite c
    | ⟨2, _⟩ => rfl
  · match a with
    | ⟨0, _⟩ => exact val_eq_ite e
    | ⟨1, _⟩ => exact val_eq_ite c

/-- A matrix [E, H] repeated along a new middle axis, [E, H] → [E, 1, H] → [E, C, H], reads at (e, c, f) the matrix at
    (e, f). -/
theorem bcast_mid_apply {E C H : Nat}
    (h1 : (⟨2, ![E, H]⟩ : Shape).BroadcastsInDim ⟨3, ![E, 1, H]⟩ ![0, 2])
    (h2 : (⟨3, ![E, 1, H]⟩ : Shape).BroadcastsInDim ⟨3, ![E, C, H]⟩ ![0, 1, 2])
    (u : (⟨2, ![E, H]⟩ : Shape).Idx → α) (e : Fin E) (c : Fin C) (f : Fin H) :
    broadcastInDim ⟨3, ![E, C, H]⟩ ![0, 1, 2] h2 (broadcastInDim ⟨3, ![E, 1, H]⟩ ![0, 2] h1 u) (ix3 e c f) = u (ix2 e f) := by
  refine (broadcastInDim_apply _ h2 _ (ix3 e c f) (ix3 e (0 : Fin 1) f) fun a => ?_).trans
    (broadcastInDim_apply _ h1 u (ix3 e (0 : Fin 1) f) (ix2 e f) fun a => ?_)
  · match a with
    | ⟨0, _⟩ => exact val_eq_ite e
    | ⟨1, _⟩ => rfl
    | ⟨2, _⟩ => exact val_eq_ite f
  · match a with
    | ⟨0, _⟩ => exact val_eq_ite e
    | ⟨1, _⟩ => exact val_eq_ite f

end Layout

section GatherSlabs
variable {α : Type}

/-- The dimension numbers of a gather of whole [C, D] slabs from [N, C, D] by a column [R, 1] of slab numbers into
    [R, C, D]: offset axes 1 and 2, the slab axis collapsed, the slab number the one start index. -/
abbrev slabDims (N C D R : Nat)
    (wf : GatherDims.WF ⟨3, ![N, C, D]⟩ ⟨2, ![R, 1]⟩ ⟨3, ![R, C, D]⟩ [1, 2] [0] [] [0] [] 1 ![1, C, D]) :
    GatherDims ⟨3, ![N, C, D]⟩ ⟨2, ![R, 1]⟩ ⟨3, ![R, C, D]⟩ where
  offsetDims := [1, 2]
  collapsedSliceDims := [0]
  operandBatchingDims := []
  startIndicesBatchingDims := []
  startIndexMap := [0]
  indexVectorDim := 1
  sliceSizes := ![1, C, D]
  wf := wf

variable {N C D R w : Nat}
  (wf : GatherDims.WF ⟨3, ![N, C, D]⟩ ⟨2, ![R, 1]⟩ ⟨3, ![R, C, D]⟩ [1, 2] [0] [] [0] [] 1 ![1, C, D])
  (idx : IVec ⟨2, ![R, 1]⟩ w) (r : Fin R) (c : Fin C) (f : Fin D)

/-- On the slab axis the operand index is the clamped slab number: the axis is collapsed, so nothing is added to it. -/
theorem slab_axis0 :
    ((slabDims N C D R wf).operandIdx (ix3 r c f) idx (0 : Fin 3)).val = min (idx (ix2 r (0 : Fin 1))).toInt.toNat (N - 1) := by
  show (slabDims N C D R wf).start (ix3 r c f) idx 0 + (slabDims N C D R wf).batchCoord (ix3 r c f) 0
    + (slabDims N C D R wf).offCoord (ix3 r c f) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ (slabDims N C D R wf).startIndexMap from List.mem_singleton.mpr rfl)]
  have hsi : (slabDims N C D R wf).siIdx (ix3 r c f) ⟨List.idxOf (0 : Fin 3) (slabDims N C D R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- An axis inside the slab is neither in the start index map nor a batching axis: the operand index there is the offset
    coordinate alone. -/
theorem slab_axis_off (a : Fin 3) (ha : a.val ≠ 0) :
    ((slabDims N C D R wf).operandIdx (ix3 r c f) idx a).val = (slabDims N C D R wf).offCoord (ix3 r c f) a := by
  show (slabDims N C D R wf).start (ix3 r c f) idx a + (slabDims N C D R wf).batchCoord (ix3 r c f) a
    + (slabDims N C D R wf).offCoord (ix3 r c f) a = _
  rw [GatherDims.batchCoord_eq_zero _ _ _ List.not_mem_nil]
  unfold GatherDims.start
  rw [dif_neg (show a ∉ (slabDims N C D R wf).startIndexMap from
    fun h => ha (congrArg Fin.val (List.mem_singleton.mp h)))]
  simp only [Nat.zero_add, Nat.add_zero]

/-- On the slab's first axis the operand index is the result's middle coordinate. -/
theorem slab_axis1 :
    ((slabDims N C D R wf).operandIdx (ix3 r c f) idx (1 : Fin 3)).val = c.val := by
  rw [slab_axis_off wf idx r c f 1 (by decide)]
  have h1 : (1 : Fin 3) ∈ (slabDims N C D R wf).sKept := by
    rw [GatherDims.mem_sKept]
    exact ⟨fun h => absurd (congrArg Fin.val (List.mem_singleton.mp h)) Nat.one_ne_zero, List.not_mem_nil⟩
  unfold GatherDims.offCoord
  rw [dif_pos h1]
  rfl

/-- On the slab's second axis the operand index is the result's last coordinate. -/
theorem slab_axis2 :
    ((slabDims N C D R wf).operandIdx (ix3 r c f) idx (2 : Fin 3)).val = f.val := by
  rw [slab_axis_off wf idx r c f 2 (by decide)]
  have h2 : (2 : Fin 3) ∈ (slabDims N C D R wf).sKept := by
    rw [GatherDims.mem_sKept]
    exact ⟨fun h => absurd (congrArg Fin.val (List.mem_singleton.mp h)) (Nat.succ_ne_zero 1), List.not_mem_nil⟩
  unfold GatherDims.offCoord
  rw [dif_pos h2]
  rfl

/-- The slab gather read at (r, c, f): the table at the slab number idx[r, 0], read signed and clamped into [0, N − 1],
    and the slab's entry (c, f). -/
theorem gather_slabs_apply (hN : 0 < N) (x : (⟨3, ![N, C, D]⟩ : Shape).Idx → α) :
    Host.gather (slabDims N C D R wf) x idx (ix3 r c f)
      = x (ix3 ⟨min (idx (ix2 r (0 : Fin 1))).toInt.toNat (N - 1), by omega⟩ c f) := by
  unfold Host.gather
  congr 1
  funext a
  refine Fin.ext ?_
  match a with
  | ⟨0, _⟩ => exact slab_axis0 wf idx r c f
  | ⟨1, _⟩ => exact slab_axis1 wf idx r c f
  | ⟨2, _⟩ => exact slab_axis2 wf idx r c f

end GatherSlabs

section Perceptron

/-- The plain product of an [R, I] by an [I, K] matrix, under any proof that its dimension numbers are well formed, read
    at (r, k): the sum over the contracted coordinate. -/
theorem dot_apply {R I K : Nat} (w : DotDims.WF ⟨2, ![R, I]⟩ ⟨2, ![I, K]⟩ ⟨2, ![R, K]⟩ [1] [0] [0] [1] [] [])
    (A : FVec Ideal ⟨2, ![R, I]⟩ .f32) (B : FVec Ideal ⟨2, ![I, K]⟩ .f32) (r : Fin R) (k : Fin K) :
    Host.dotGeneral (⟨[1], [0], [0], [1], [], [], w⟩ : DotDims ⟨2, ![R, I]⟩ ⟨2, ![I, K]⟩ ⟨2, ![R, K]⟩) none A B (ix2 r k)
      = ∑ i : Fin I, A (ix2 r i) * B (ix2 i k) :=
  StackMember.dotGeneral_plain_apply none A B r k

/-- x · (1 / (1 + e⁻ˣ)), the two ones written as the single-precision word of 1, is x · σ(x) entry by entry. -/
theorem act_apply {T : Shape} (hb : (⟨0, ![]⟩ : Shape).BroadcastsInDim T ![]) (h : FVec Ideal T .f32) (j : T.Idx) :
    mulf h (Host.divf (broadcastInDim T ![] hb (constant (F := Ideal) ⟨0, ![]⟩ .f32 0x3F800000#32))
      (addf (broadcastInDim T ![] hb (constant (F := Ideal) ⟨0, ![]⟩ .f32 0x3F800000#32)) (Host.exp (Host.negf h)))) j
      = Spec.silu (h j) := by
  show h j * Ideal.div (Ideal.ofBits .f32 0x3F800000#32) (Ideal.ofBits .f32 0x3F800000#32 + Ideal.exp (-(h j))) = _
  rw [Ideal.ofBits_one_f32]
  rfl

variable {R I K J : Nat}
  (w1 : DotDims.WF ⟨2, ![R, I]⟩ ⟨2, ![I, K]⟩ ⟨2, ![R, K]⟩ [1] [0] [0] [1] [] [])
  (w2 : DotDims.WF ⟨2, ![R, K]⟩ ⟨2, ![K, J]⟩ ⟨2, ![R, J]⟩ [1] [0] [0] [1] [] [])
  (hk : (⟨1, ![K]⟩ : Shape).BroadcastsInDim ⟨2, ![1, K]⟩ ![1])
  (hk' : (⟨2, ![1, K]⟩ : Shape).BroadcastsInDim ⟨2, ![R, K]⟩ ![0, 1])
  (hj : (⟨1, ![J]⟩ : Shape).BroadcastsInDim ⟨2, ![1, J]⟩ ![1])
  (hj' : (⟨2, ![1, J]⟩ : Shape).BroadcastsInDim ⟨2, ![R, J]⟩ ![0, 1])
  (hs : (⟨0, ![]⟩ : Shape).BroadcastsInDim ⟨2, ![R, K]⟩ ![])
  (x : FVec Ideal ⟨2, ![R, I]⟩ .f32) (W1 : FVec Ideal ⟨2, ![I, K]⟩ .f32) (b1 : FVec Ideal ⟨1, ![K]⟩ .f32)
  (W2 : FVec Ideal ⟨2, ![K, J]⟩ .f32) (b2 : FVec Ideal ⟨1, ![J]⟩ .f32)

/-- The hidden layer before its activation, x·W₁ + b₁, as an array. -/
abbrev hidden : FVec Ideal ⟨2, ![R, K]⟩ .f32 :=
  addf (Host.dotGeneral (⟨[1], [0], [0], [1], [], [], w1⟩ : DotDims ⟨2, ![R, I]⟩ ⟨2, ![I, K]⟩ ⟨2, ![R, K]⟩) none x W1)
    (broadcastInDim ⟨2, ![R, K]⟩ ![0, 1] hk' (broadcastInDim ⟨2, ![1, K]⟩ ![1] hk b1))

/-- Entry (r, k) of the hidden layer. -/
theorem hidden_apply (r : Fin R) (k : Fin K) :
    hidden w1 hk hk' x W1 b1 (ix2 r k) = (∑ i : Fin I, x (ix2 r i) * W1 (ix2 i k)) + b1 (ix1 k) :=
  congrArg₂ (· + ·) (dot_apply w1 x W1 r k) (bcast_row_apply hk hk' b1 r k)

/-- The two-layer perceptron as the reference writes it — product, bias row, x · (1 / (1 + e⁻ˣ)), product, bias row —
    read at (r, j) is the specification's. -/
theorem mlp_apply (r : Fin R) (j : Fin J) :
    addf (Host.dotGeneral (⟨[1], [0], [0], [1], [], [], w2⟩ : DotDims ⟨2, ![R, K]⟩ ⟨2, ![K, J]⟩ ⟨2, ![R, J]⟩) none
        (mulf (hidden w1 hk hk' x W1 b1)
          (Host.divf (broadcastInDim ⟨2, ![R, K]⟩ ![] hs (constant (F := Ideal) ⟨0, ![]⟩ .f32 0x3F800000#32))
            (addf (broadcastInDim ⟨2, ![R, K]⟩ ![] hs (constant (F := Ideal) ⟨0, ![]⟩ .f32 0x3F800000#32))
              (Host.exp (Host.negf (hidden w1 hk hk' x W1 b1)))))) W2)
      (broadcastInDim ⟨2, ![R, J]⟩ ![0, 1] hj' (broadcastInDim ⟨2, ![1, J]⟩ ![1] hj b2)) (ix2 r j)
      = Spec.mlp (Spec.cur2 x) (Spec.cur2 W1) (Spec.cur1 b1) (Spec.cur2 W2) (Spec.cur1 b2) r j := by
  refine (congrArg₂ (· + ·) (dot_apply w2 _ W2 r j) (bcast_row_apply hj hj' b2 r j)).trans ?_
  refine congrArg (· + b2 (ix1 j)) (Finset.sum_congr rfl fun k _ => ?_)
  refine congrArg (· * W2 (ix2 k j)) ?_
  exact (act_apply hs (hidden w1 hk hk' x W1 b1) (ix2 r k)).trans (congrArg Spec.silu (hidden_apply w1 hk hk' x W1 b1 r k))

end Perceptron

section Messages

/-- One H-wide part of a message: the node table's columns o … o + 127 gathered by the source column, times the same
    columns of the edge filter, read at (e, f) — the table at the clamped source row and column o + f, times the filter at
    (e, o + f). -/
theorem part_apply (o : Nat) (hx : (⟨2, ![10000, 384]⟩ : Shape).Slices ![0, o] ⟨2, ![10000, 128]⟩)
    (hf : (⟨2, ![256000, 384]⟩ : Shape).Slices ![0, o] ⟨2, ![256000, 128]⟩)
    (wf : GatherDims.WF ⟨2, ![10000, 128]⟩ ⟨2, ![256000, 1]⟩ ⟨2, ![256000, 128]⟩ [1] [0] [] [0] [] 1 ![1, 128])
    (Xa : FVec Ideal ⟨2, ![10000, 384]⟩ .f32) (Fa : FVec Ideal ⟨2, ![256000, 384]⟩ .f32)
    (idx : IVec ⟨2, ![256000, 1]⟩ 32) (e : Fin 256000) (f : Fin 128) (k : Fin 384) (hk : k.val = o + f.val) :
    mulf (Host.gather (Cert.Lib.GatherRows.rowDims 10000 128 256000 wf)
        (extractStridedSlice ⟨2, ![10000, 128]⟩ ![0, o] Xa hx) idx)
      (extractStridedSlice ⟨2, ![256000, 128]⟩ ![0, o] Fa hf) (ix2 e f)
      = Xa (ix2 (Spec.srcRow (idx (ix2 e (0 : Fin 1)))) k) * Fa (ix2 e k) :=
  congrArg₂ (· * ·)
    ((Cert.Lib.GatherRows.gather_rows_apply (by decide) wf _ idx e f).trans
      (slice2_axis1_apply o Xa hx (Spec.srcRow (idx (ix2 e (0 : Fin 1)))) f k hk))
    (slice2_axis1_apply o Fa hf e f k hk)

end Messages

variable (V0 : Valuation τ sig (Elt Ideal))

/-- The node perceptron of the argument arrays. -/
abbrev X : Fin 10000 → Fin 384 → EReal :=
  Spec.mlp (Spec.cur2 (V0 (Proc.devRef .tc main_arg0))) (Spec.cur2 (V0 (Proc.devRef .tc main_arg6))) (Spec.cur1 (V0 (Proc.devRef .tc main_arg7))) (Spec.cur2 (V0 (Proc.devRef .tc main_arg8))) (Spec.cur1 (V0 (Proc.devRef .tc main_arg9)))

/-- The edge filter of the argument arrays. -/
abbrev FL : Fin 256000 → Fin 384 → EReal :=
  Spec.filt (Spec.cur2 (V0 (Proc.devRef .tc main_arg3))) (Spec.cur2 (V0 (Proc.devRef .tc main_arg10))) (Spec.cur1 (V0 (Proc.devRef .tc main_arg11))) (Spec.cur2 (V0 (Proc.devRef .tc main_arg12))) (Spec.cur1 (V0 (Proc.devRef .tc main_arg13))) (Spec.cur1 (V0 (Proc.devRef .tc main_arg5)))

/-- The reference's node perceptron, entry by entry. -/
theorem X_eq (n : Fin 10000) (j : Fin 384) : res_main_v39 V0 (ix2 n j) = X V0 n j := by
  unfold res_main_v39 res_main_v28
  exact mlp_apply dot_S10000x128_S128x384_S10000x384_1_0_0_1_n_n_wf dot_S10000x384_S384x384_S10000x384_1_0_0_1_n_n_wf
    bcast_S384_S1x384_1 bcast_S1x384_S10000x384_0_1 bcast_S384_S1x384_1 bcast_S1x384_S10000x384_0_1 bcast_S_S10000x384
    (V0 (Proc.devRef .tc main_arg0)) (V0 (Proc.devRef .tc main_arg6)) (V0 (Proc.devRef .tc main_arg7))
    (V0 (Proc.devRef .tc main_arg8)) (V0 (Proc.devRef .tc main_arg9)) n j

/-- The reference's edge filter, entry by entry. -/
theorem filt_eq (e : Fin 256000) (j : Fin 384) : res_main_v21 V0 (ix2 e j) = FL V0 e j := by
  unfold res_main_v21 res_main_v7
  exact congrArg₂ (· * ·)
    (mlp_apply dot_S256000x20_S20x128_S256000x128_1_0_0_1_n_n_wf dot_S256000x128_S128x384_S256000x384_1_0_0_1_n_n_wf
      bcast_S128_S1x128_1 bcast_S1x128_S256000x128_0_1 bcast_S384_S1x384_1 bcast_S1x384_S256000x384_0_1 bcast_S_S256000x128
      (V0 (Proc.devRef .tc main_arg3)) (V0 (Proc.devRef .tc main_arg10)) (V0 (Proc.devRef .tc main_arg11))
      (V0 (Proc.devRef .tc main_arg12)) (V0 (Proc.devRef .tc main_arg13)) e j)
    (bcast_col_apply bcast_S256000_S256000x1_0 bcast_S256000x1_S256000x384_0_1 (V0 (Proc.devRef .tc main_arg5)) e j)

/-- The column of source-node numbers the reference's gathers read: a negative number has N = 10000 added (Python's
    wrap-around), any other is kept. -/
def srcCol : IVec S256000x1 32 :=
  broadcastInDim S256000x1 ![0] bcast_S256000_S256000x1_0 (select (cmpi .slt (res_main_v1 V0) (broadcastInDim S256000 ![] bcast_S_S256000 (constantI S_ 32 0#32))) (addi (res_main_v1 V0) (broadcastInDim S256000 ![] bcast_S_S256000 (constantI S_ 32 10000#32))) (res_main_v1 V0))

/-- The table row edge `e`'s gathers read. -/
abbrev srow (e : Fin 256000) : Fin 10000 := Spec.srcRow (srcCol V0 (ix2 e (0 : Fin 1)))

/-- The per-edge scalar messages the first segment sum adds up. -/
def updS : FVec Ideal S256000x128 .f32 :=
  mulf (Host.gather gather_S10000x128_S256000x1_S256000x128_1_0_n_n_0_1_1128 (extractStridedSlice S10000x128 ![0, 0] (res_main_v39 V0) slices_S10000x384_S10000x128_0_0) (srcCol V0)) (extractStridedSlice S256000x128 ![0, 0] (res_main_v21 V0) slices_S256000x384_S256000x128_0_0)

/-- The per-edge vector messages the second segment sum adds up. -/
def updV : FVec Ideal S256000x3x128 .f32 :=
  addf (mulf (broadcastInDim S256000x3x128 ![0, 1, 2] bcast_S256000x3x1_S256000x3x128_0_1_2 (broadcastInDim S256000x3x1 ![0, 1] bcast_S256000x3_S256000x3x1_0_1 (V0 (Proc.devRef .tc main_arg4)))) (broadcastInDim S256000x3x128 ![0, 1, 2] bcast_S256000x1x128_S256000x3x128_0_1_2 (broadcastInDim S256000x1x128 ![0, 2] bcast_S256000x128_S256000x1x128_0_2 (mulf (Host.gather gather_S10000x128_S256000x1_S256000x128_1_0_n_n_0_1_1128 (extractStridedSlice S10000x128 ![0, 128] (res_main_v39 V0) slices_S10000x384_S10000x128_0_128) (srcCol V0)) (extractStridedSlice S256000x128 ![0, 128] (res_main_v21 V0) slices_S256000x384_S256000x128_0_128))))) (mulf (Host.gather gather_S10000x3x128_S256000x1_S256000x3x128_12_0_n_n_0_1_13128 (V0 (Proc.devRef .tc main_arg1)) (srcCol V0)) (broadcastInDim S256000x3x128 ![0, 1, 2] bcast_S256000x1x128_S256000x3x128_0_1_2 (broadcastInDim S256000x1x128 ![0, 2] bcast_S256000x128_S256000x1x128_0_2 (mulf (Host.gather gather_S10000x128_S256000x1_S256000x128_1_0_n_n_0_1_1128 (extractStridedSlice S10000x128 ![0, 256] (res_main_v39 V0) slices_S10000x384_S10000x128_0_256) (srcCol V0)) (extractStridedSlice S256000x128 ![0, 256] (res_main_v21 V0) slices_S256000x384_S256000x128_0_256)))))

/-- The updated scalar features are q plus the segment sum of `updS`. -/
theorem v89_eq : res_main_v89 V0 = addf (V0 (Proc.devRef .tc main_arg0)) (Host.scatterAdd scatter_S10000x128_S256000x1_S256000x128_1_0_0_1 (broadcastInDim S10000x128 ![] bcast_S_S10000x128 (constant S_ .f32 0x00000000#32)) (broadcastInDim S256000x1 ![0] bcast_S256000_S256000x1_0 (res_main_v3 V0)) (updS V0)) := rfl

/-- The updated vector features are mu plus the segment sum of `updV`. -/
theorem v90_eq : res_main_v90 V0 = addf (V0 (Proc.devRef .tc main_arg1)) (Host.scatterAdd scatter_S10000x3x128_S256000x1_S256000x3x128_12_0_0_1 (broadcastInDim S10000x3x128 ![] bcast_S_S10000x3x128 (constant S_ .f32 0x00000000#32)) (broadcastInDim S256000x1 ![0] bcast_S256000_S256000x1_0 (res_main_v3 V0)) (updV V0)) := rfl

/-- One H-wide part of a message, from the reference's own arrays: the perceptron at the edge's source row and column
    o + f, times the filter at (e, o + f). -/
theorem part_eq (o : Nat) (hx : S10000x384.Slices ![0, o] S10000x128) (hf : S256000x384.Slices ![0, o] S256000x128)
    (e : Fin 256000) (f : Fin 128) (k : Fin 384) (hk : k.val = o + f.val) :
    mulf (Host.gather gather_S10000x128_S256000x1_S256000x128_1_0_n_n_0_1_1128
        (extractStridedSlice S10000x128 ![0, o] (res_main_v39 V0) hx) (srcCol V0))
      (extractStridedSlice S256000x128 ![0, o] (res_main_v21 V0) hf) (ix2 e f)
      = X V0 (srow V0 e) k * FL V0 e k :=
  (part_apply o hx hf gather_S10000x128_S256000x1_S256000x128_1_0_n_n_0_1_1128_wf (res_main_v39 V0) (res_main_v21 V0)
    (srcCol V0) e f k hk).trans (congrArg₂ (· * ·) (X_eq V0 (srow V0 e) k) (filt_eq V0 e k))

/-- A scalar message is the specification's, over the node row the edge's source number reads. -/
theorem updS_apply (e : Fin 256000) (f : Fin 128) :
    updS V0 (ix2 e f) = Spec.edgeS (fun e j => X V0 (srow V0 e) j) (FL V0) e f := by
  unfold updS
  exact part_eq V0 0 slices_S10000x384_S10000x128_0_0 slices_S256000x384_S256000x128_0_0 e f (Spec.sh 0 384 f) rfl

/-- A vector message is the specification's. -/
theorem updV_apply (e : Fin 256000) (k : Fin 3) (f : Fin 128) :
    updV V0 (ix3 e k f) = Spec.edgeV (fun e j => X V0 (srow V0 e) j) (fun e k f => (V0 (Proc.devRef .tc main_arg1)) (ix3 (srow V0 e) k f)) (FL V0)
      (Spec.cur2 (V0 (Proc.devRef .tc main_arg4))) e k f := by
  unfold updV
  exact congrArg₂ (· + ·)
    (congrArg₂ (· * ·)
      (bcast_last_apply bcast_S256000x3_S256000x3x1_0_1 bcast_S256000x3x1_S256000x3x128_0_1_2
        (V0 (Proc.devRef .tc main_arg4)) e k f)
      ((bcast_mid_apply bcast_S256000x128_S256000x1x128_0_2 bcast_S256000x1x128_S256000x3x128_0_1_2 _ e k f).trans
        (part_eq V0 128 slices_S10000x384_S10000x128_0_128 slices_S256000x384_S256000x128_0_128 e f (Spec.sh 128 384 f) rfl)))
    (congrArg₂ (· * ·)
      (gather_slabs_apply gather_S10000x3x128_S256000x1_S256000x3x128_12_0_n_n_0_1_13128_wf (srcCol V0) e k f (by decide)
        (V0 (Proc.devRef .tc main_arg1)))
      ((bcast_mid_apply bcast_S256000x128_S256000x1x128_0_2 bcast_S256000x1x128_S256000x3x128_0_1_2 _ e k f).trans
        (part_eq V0 256 slices_S10000x384_S10000x128_0_256 slices_S256000x384_S256000x128_0_256 e f (Spec.sh 256 384 f) rfl)))

end Cert.ReferenceIdeal.RefEdge

end
-- ==== Proof.RefMix.lean ====
/-
  The reference's mixing step: its two results, read at a coordinate, are the specification's mixing step of node n's
  updated features (the reference's arrays q + Σ and mu + Σ).
-/
import proofs.«425667_j62663572848823_3_alg».proof.Proof.Gen.ReferenceIdeal.Run
import proofs.«425667_j62663572848823_3_alg».proof.Proof.Spec
import Idealize.ShloMosaic.Lib.ValueIdx
import Idealize.ShloMosaic.PureOps.Ideal.Laws
import Idealize.ShloMosaic.Lib.IdealHost
import Idealize.ShloMosaic.Lib.Pipeline.Value

set_option maxRecDepth 16384

noncomputable section

namespace Cert.ReferenceIdeal.RefMix

open Idealize.ShloMosaic Idealize.ShloMosaic.TcCoe Idealize.ShloMosaic.ValueIdx Idealize.SL.Sem
open Cert.ReferenceIdeal Cert.ReferenceIdeal.Gen Cert.ReferenceIdeal.Value
open scoped BigOperators

namespace Read

/-! ## The projection: a [10000,3,128] array times a [128,256] matrix, contracting the last axis -/

abbrev SL3 : Shape := ⟨3, ![10000, 3, 128]⟩
abbrev SR3 : Shape := ⟨2, ![128, 256]⟩
abbrev SO3 : Shape := ⟨3, ![10000, 3, 256]⟩

section Proj
variable (wf3 : DotDims.WF SL3 SR3 SO3 [2] [0] [0, 1] [1] [] [])

/-- The dimension numbers of that product. -/
abbrev D3 : DotDims SL3 SR3 SO3 := ⟨[2], [0], [0, 1], [1], [], [], wf3⟩

/-- The left operand's index at result index i and contraction position q: its axes 0 and 1 are the result's, its axis 2
    the contraction's; the right operand's axis 0 is the contraction's and its axis 1 the result's axis 2. -/
theorem lhs3_0 (i : SO3.Idx) (q : (D3 wf3).contr.Idx) : ((D3 wf3).lhsIdx i q 0).val = (i 0).val := by
  unfold DotDims.lhsIdx
  rw [dif_neg (show ¬(0 : Fin SL3.rank) ∈ (D3 wf3).lhsBatch from List.not_mem_nil),
    dif_pos (show (0 : Fin SL3.rank) ∈ (D3 wf3).lhsNonContracting from List.mem_cons_self)]
  rfl
theorem lhs3_1 (i : SO3.Idx) (q : (D3 wf3).contr.Idx) : ((D3 wf3).lhsIdx i q 1).val = (i 1).val := by
  unfold DotDims.lhsIdx
  rw [dif_neg (show ¬(1 : Fin SL3.rank) ∈ (D3 wf3).lhsBatch from List.not_mem_nil),
    dif_pos (show (1 : Fin SL3.rank) ∈ (D3 wf3).lhsNonContracting from List.mem_cons_of_mem _ List.mem_cons_self)]
  rfl
theorem lhs3_2 (i : SO3.Idx) (q : (D3 wf3).contr.Idx) : ((D3 wf3).lhsIdx i q 2).val = (q ⟨0, Nat.one_pos⟩).val :=
  (D3 wf3).lhsIdx_val_of_single rfl i q
theorem rhs3_0 (i : SO3.Idx) (q : (D3 wf3).contr.Idx) : ((D3 wf3).rhsIdx i q 0).val = (q ⟨0, Nat.one_pos⟩).val :=
  (D3 wf3).rhsIdx_val_of_single rfl i q
theorem rhs3_1 (i : SO3.Idx) (q : (D3 wf3).contr.Idx) : ((D3 wf3).rhsIdx i q 1).val = (i 2).val := by
  unfold DotDims.rhsIdx
  rw [dif_neg (show ¬(1 : Fin SR3.rank) ∈ (D3 wf3).rhsBatch from List.not_mem_nil),
    dif_pos (show (1 : Fin SR3.rank) ∈ (D3 wf3).rhsNonContracting from List.mem_cons_self)]
  rfl

/-- Entry (n, c, o) of the product is the sum over the 128 features of row (n, c) times column o. -/
theorem dot3_apply (X : FVec Ideal SL3 .f32) (W : FVec Ideal SR3 .f32) (n : Fin 10000) (c : Fin 3) (o : Fin 256) :
    Host.dotGeneral (D3 wf3) none X W (ix3 n c o) = ∑ f : Fin 128, X (ix3 n c f) * W (ix2 f o) := by
  simp only [Host.dotGeneral]
  rw [Ideal.dotGeneral_apply, ← Equiv.sum_comp (contrEquiv1 (D3 wf3) 128 rfl rfl).symm]
  refine Finset.sum_congr rfl fun k _ => ?_
  have hk := contrEquiv1_symm_val (D3 wf3) 128 rfl rfl k
  have el : (D3 wf3).lhsIdx (ix3 n c o) ((contrEquiv1 (D3 wf3) 128 rfl rfl).symm k) = ix3 n c k :=
    funext fun a => Fin.ext (by
      match a with
      | ⟨0, _⟩ => exact lhs3_0 wf3 _ _
      | ⟨1, _⟩ => exact lhs3_1 wf3 _ _
      | ⟨2, _⟩ => exact (lhs3_2 wf3 _ _).trans hk)
  have er : (D3 wf3).rhsIdx (ix3 n c o) ((contrEquiv1 (D3 wf3) 128 rfl rfl).symm k) = ix2 k o :=
    funext fun a => Fin.ext (by
      match a with
      | ⟨0, _⟩ => exact (rhs3_0 wf3 _ _).trans hk
      | ⟨1, _⟩ => exact rhs3_1 wf3 _ _)
  rw [el, er]
end Proj

/-! ## A plain product [10000,K] × [K,N] -/

section Plain
variable {K N : Nat}
abbrev PL (K : Nat) : Shape := ⟨2, ![10000, K]⟩
abbrev PR (K N : Nat) : Shape := ⟨2, ![K, N]⟩
abbrev PO (N : Nat) : Shape := ⟨2, ![10000, N]⟩
variable (wfp : DotDims.WF (PL K) (PR K N) (PO N) [1] [0] [0] [1] [] [])
/-- The dimension numbers of a plain product. -/
abbrev DP : DotDims (PL K) (PR K N) (PO N) := ⟨[1], [0], [0], [1], [], [], wfp⟩

/-- The left operand's index at result index i and contraction position q: axis 0 is the result's row, axis 1 the
    contraction's; the right operand's axis 0 is the contraction's and its axis 1 the result's column. -/
theorem lhsP_0 (i : (PO N).Idx) (q : (DP wfp).contr.Idx) : ((DP wfp).lhsIdx i q 0).val = (i 0).val := by
  unfold DotDims.lhsIdx
  rw [dif_neg (show ¬(0 : Fin (PL K).rank) ∈ (DP wfp).lhsBatch from List.not_mem_nil),
    dif_pos (show (0 : Fin (PL K).rank) ∈ (DP wfp).lhsNonContracting from List.mem_cons_self)]
  rfl
theorem lhsP_1 (i : (PO N).Idx) (q : (DP wfp).contr.Idx) : ((DP wfp).lhsIdx i q 1).val = (q ⟨0, Nat.one_pos⟩).val :=
  (DP wfp).lhsIdx_val_of_single rfl i q
theorem rhsP_0 (i : (PO N).Idx) (q : (DP wfp).contr.Idx) : ((DP wfp).rhsIdx i q 0).val = (q ⟨0, Nat.one_pos⟩).val :=
  (DP wfp).rhsIdx_val_of_single rfl i q
theorem rhsP_1 (i : (PO N).Idx) (q : (DP wfp).contr.Idx) : ((DP wfp).rhsIdx i q 1).val = (i 1).val := by
  unfold DotDims.rhsIdx
  rw [dif_neg (show ¬(1 : Fin (PR K N).rank) ∈ (DP wfp).rhsBatch from List.not_mem_nil),
    dif_pos (show (1 : Fin (PR K N).rank) ∈ (DP wfp).rhsNonContracting from List.mem_cons_self)]
  rfl

/-- Entry (n, j) of the product is the sum over the K columns of row n times column j. -/
theorem dotP_apply (X : FVec Ideal (PL K) .f32) (W : FVec Ideal (PR K N) .f32) (n : Fin 10000) (j : Fin N) :
    Host.dotGeneral (DP wfp) none X W (ix2 n j) = ∑ k : Fin K, X (ix2 n k) * W (ix2 k j) := by
  simp only [Host.dotGeneral]
  rw [Ideal.dotGeneral_apply, ← Equiv.sum_comp (contrEquiv1 (DP wfp) K rfl rfl).symm]
  refine Finset.sum_congr rfl fun k _ => ?_
  have hk := contrEquiv1_symm_val (DP wfp) K rfl rfl k
  have el : (DP wfp).lhsIdx (ix2 n j) ((contrEquiv1 (DP wfp) K rfl rfl).symm k) = ix2 n k :=
    funext fun a => Fin.ext (by
      match a with
      | ⟨0, _⟩ => exact lhsP_0 wfp _ _
      | ⟨1, _⟩ => exact (lhsP_1 wfp _ _).trans hk)
  have er : (DP wfp).rhsIdx (ix2 n j) ((contrEquiv1 (DP wfp) K rfl rfl).symm k) = ix2 k j :=
    funext fun a => Fin.ext (by
      match a with
      | ⟨0, _⟩ => exact (rhsP_0 wfp _ _).trans hk
      | ⟨1, _⟩ => exact rhsP_1 wfp _ _)
  rw [el, er]
end Plain

/-! ## Slices along the last axis -/

/-- The 128-wide part of a row starting at column o. -/
theorem slice2_apply {M : Nat} (o : Nat) (ho : o + 128 ≤ M)
    (h : (⟨2, ![10000, M]⟩ : Shape).Slices ![0, o] ⟨2, ![10000, 128]⟩)
    (x : (⟨2, ![10000, M]⟩ : Shape).Idx → EReal) (n : Fin 10000) (f : Fin 128) :
    extractStridedSlice ⟨2, ![10000, 128]⟩ ![0, o] x h (ix2 n f) = x (ix2 n ⟨o + f.val, by omega⟩) := by
  refine extractStridedSlice_apply _ x h _ _ fun a => ?_
  match a with
  | ⟨0, _⟩ => show n.val = 0 + n.val; omega
  | ⟨1, _⟩ => rfl

/-- The same for a three-component array. -/
theorem slice3_apply (o : Nat) (ho : o + 128 ≤ 256)
    (h : (⟨3, ![10000, 3, 256]⟩ : Shape).Slices ![0, 0, o] ⟨3, ![10000, 3, 128]⟩)
    (x : (⟨3, ![10000, 3, 256]⟩ : Shape).Idx → EReal) (n : Fin 10000) (c : Fin 3) (f : Fin 128) :
    extractStridedSlice ⟨3, ![10000, 3, 128]⟩ ![0, 0, o] x h (ix3 n c f) = x (ix3 n c ⟨o + f.val, by omega⟩) := by
  refine extractStridedSlice_apply _ x h _ _ fun a => ?_
  match a with
  | ⟨0, _⟩ => show n.val = 0 + n.val; omega
  | ⟨1, _⟩ => show c.val = 0 + c.val; omega
  | ⟨2, _⟩ => rfl

/-! ## The sum over the three spatial components -/

/-- A sum over axis 1 from the initial value zero is the sum of the three components. -/
theorem sum3_apply (h' : (⟨3, ![10000, 3, 128]⟩ : Shape).ReducesTo [1] ⟨2, ![10000, 128]⟩)
    (hu : 0 < (⟨0, ![]⟩ : Shape).numel) (x : FVec Ideal ⟨3, ![10000, 3, 128]⟩ .f32) (n : Fin 10000) (f : Fin 128) :
    Host.reduceAdd x (constant (F := Ideal) ⟨0, ![]⟩ .f32 0x00000000#32) h' hu (ix2 n f)
      = x (ix3 n 0 f) + x (ix3 n 1 f) + x (ix3 n 2 f) := by
  have hR : (⟨3, ![10000, 3, 128]⟩ : Shape).Reduces [1] ⟨2, ![10000, 128]⟩ := by decide
  have e0 : Host.reduceAdd x (constant (F := Ideal) ⟨0, ![]⟩ .f32 0x00000000#32) h' hu (ix2 n f)
      = Ideal.hostReduceAdd h' x (Ideal.ofBits .f32 0x00000000#32) (ix2 n f) := rfl
  rw [e0, Ideal.hostReduceAdd_single h' hR, Ideal.ofBits_zero_f32, zero_add]
  show ∑ k : Fin 3, x (hR.lift (ix2 n f) k) = _
  have e : ∀ k : Fin 3, hR.lift (ix2 n f) k = ix3 n k f := fun k => funext fun a => Fin.ext (by
    match a with
    | ⟨0, _⟩ => rfl
    | ⟨1, _⟩ => rfl
    | ⟨2, _⟩ => rfl)
  rw [Fin.sum_univ_three, e 0, e 1, e 2]

/-! ## The concatenation of two [10000,128] arrays along the columns, and a sum over its 256 columns -/

abbrev C1 : Shape := ⟨2, ![10000, 128]⟩
abbrev C2 : Shape := ⟨2, ![10000, 256]⟩

/-- A column below 128 of [x₁, x₂] reads x₁. -/
theorem concat_left (h : Shape.Concatenates [C1, C1] C2 1) (x₁ x₂ : C1.Idx → EReal) (n : Fin 10000) (i : Fin 128) :
    concatenate C2 1 [⟨C1, x₁⟩, ⟨C1, x₂⟩] h (ix2 n ⟨0 + i.val, by omega⟩) = x₁ (ix2 n i) := by
  refine concatenate_pair_apply_left 1 x₁ x₂ h _ rfl (ix2 n i) fun b => ?_
  match b with
  | ⟨0, _⟩ => rfl
  | ⟨1, _⟩ => show i.val = 0 + i.val; omega

/-- A column from 128 on of [x₁, x₂] reads x₂, 128 columns back. -/
theorem concat_right (h : Shape.Concatenates [C1, C1] C2 1) (x₁ x₂ : C1.Idx → EReal) (n : Fin 10000) (i : Fin 128) :
    concatenate C2 1 [⟨C1, x₁⟩, ⟨C1, x₂⟩] h (ix2 n ⟨128 + i.val, by omega⟩) = x₂ (ix2 n i) := by
  refine concatenate_pair_apply_right 1 x₁ x₂ h _ rfl rfl (ix2 n i) (fun b hb => ?_) ?_
  · match b with
    | ⟨0, _⟩ => rfl
    | ⟨1, _⟩ => exact absurd rfl hb
  · show i.val + 128 = 128 + i.val; omega

/-- A sum over 256 columns is the sum over the first 128 plus the sum over the last 128. -/
theorem sum_halves (g : Fin 256 → EReal) :
    ∑ k : Fin 256, g k = (∑ i : Fin 128, g ⟨0 + i.val, by omega⟩) + ∑ i : Fin 128, g ⟨128 + i.val, by omega⟩ := by
  refine (Fin.sum_univ_add (a := 128) (b := 128) g).trans ?_
  exact congrArg₂ (· + ·)
    (Finset.sum_congr rfl fun i _ => congrArg g (Fin.ext (Nat.zero_add i.val).symm))
    (Finset.sum_congr rfl fun i _ => congrArg g (Fin.ext rfl))

/-! ## Broadcasts -/

/-- A bias row broadcast over the nodes. -/
theorem bias_apply (h1 : (⟨1, ![384]⟩ : Shape).BroadcastsInDim ⟨2, ![1, 384]⟩ ![1])
    (h2 : (⟨2, ![1, 384]⟩ : Shape).BroadcastsInDim ⟨2, ![10000, 384]⟩ ![0, 1])
    (b : (⟨1, ![384]⟩ : Shape).Idx → EReal) (n : Fin 10000) (j : Fin 384) :
    broadcastInDim ⟨2, ![10000, 384]⟩ ![0, 1] h2 (broadcastInDim ⟨2, ![1, 384]⟩ ![1] h1 b) (ix2 n j) = b (ix1 j) := by
  refine (broadcastInDim_apply _ h2 _ _ (ix2 (0 : Fin 1) j) fun a => ?_).trans
    (broadcastInDim_apply _ h1 _ _ (ix1 j) fun a => ?_)
  · match a with
    | ⟨0, _⟩ => rfl
    | ⟨1, _⟩ => rfl
  · match a with
    | ⟨0, _⟩ => rfl

/-- A splat of a float literal reads the literal's value everywhere. -/
theorem splat_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w :=
  broadcastInDim_scalar_apply h _ j

/-- A per-node row broadcast over the three spatial components. -/
theorem mid_apply (h1 : (⟨2, ![10000, 128]⟩ : Shape).BroadcastsInDim ⟨3, ![10000, 1, 128]⟩ ![0, 2])
    (h2 : (⟨3, ![10000, 1, 128]⟩ : Shape).BroadcastsInDim ⟨3, ![10000, 3, 128]⟩ ![0, 1, 2])
    (x : (⟨2, ![10000, 128]⟩ : Shape).Idx → EReal) (n : Fin 10000) (c : Fin 3) (f : Fin 128) :
    broadcastInDim ⟨3, ![10000, 3, 128]⟩ ![0, 1, 2] h2 (broadcastInDim ⟨3, ![10000, 1, 128]⟩ ![0, 2] h1 x) (ix3 n c f)
      = x (ix2 n f) := by
  refine (broadcastInDim_apply _ h2 _ _ (ix3 n (0 : Fin 1) f) fun a => ?_).trans
    (broadcastInDim_apply _ h1 _ _ (ix2 n f) fun a => ?_)
  · match a with
    | ⟨0, _⟩ => rfl
    | ⟨1, _⟩ => rfl
    | ⟨2, _⟩ => rfl
  · match a with
    | ⟨0, _⟩ => rfl
    | ⟨1, _⟩ => rfl

/-! ## The logistic function as the reference spells it -/

/-- 1 / (1 + e⁻ˣ), with the literal one splat over the array, is the logistic function at each entry. -/
theorem logistic_apply {T : Shape} (h : (⟨0, ![]⟩ : Shape).BroadcastsInDim T ![]) (x : FVec Ideal T .f32) (j : T.Idx) :
    Host.divf (broadcastInDim T ![] h (constant (F := Ideal) ⟨0, ![]⟩ .f32 0x3F800000#32))
      (addf (broadcastInDim T ![] h (constant (F := Ideal) ⟨0, ![]⟩ .f32 0x3F800000#32)) (Host.exp (Host.negf x))) j
      = Ideal.logistic (x j) := by
  show Ideal.div (broadcastInDim T ![] h (constant (F := Ideal) ⟨0, ![]⟩ .f32 0x3F800000#32) j)
      (broadcastInDim T ![] h (constant (F := Ideal) ⟨0, ![]⟩ .f32 0x3F800000#32) j + Ideal.exp (-(x j))) = _
  rw [splat_apply, Ideal.ofBits_one_f32]
  rfl

/-! ## The compound readings: norm, inner product, the mixing perceptron's two layers -/

/-- sqrt(v₀² + v₁² + v₂² + ε) of a three-component array, entry by entry. -/
theorem norm_pure (h' : (⟨3, ![10000, 3, 128]⟩ : Shape).ReducesTo [1] ⟨2, ![10000, 128]⟩)
    (hu : 0 < (⟨0, ![]⟩ : Shape).numel) (hb : (⟨0, ![]⟩ : Shape).BroadcastsInDim ⟨2, ![10000, 128]⟩ ![])
    (w : BitVec 32) (v : FVec Ideal ⟨3, ![10000, 3, 128]⟩ .f32) (n : Fin 10000) (f : Fin 128) :
    Host.sqrt (addf (Host.reduceAdd (mulf v v) (constant (F := Ideal) ⟨0, ![]⟩ .f32 0x00000000#32) h' hu)
        (broadcastInDim ⟨2, ![10000, 128]⟩ ![] hb (constant (F := Ideal) ⟨0, ![]⟩ .f32 w))) (ix2 n f)
      = Ideal.sqrt (v (ix3 n 0 f) * v (ix3 n 0 f) + v (ix3 n 1 f) * v (ix3 n 1 f) + v (ix3 n 2 f) * v (ix3 n 2 f)
          + Ideal.ofBits .f32 w) := by
  show Ideal.sqrt (Host.reduceAdd (mulf v v) (constant (F := Ideal) ⟨0, ![]⟩ .f32 0x00000000#32) h' hu (ix2 n f)
      + broadcastInDim ⟨2, ![10000, 128]⟩ ![] hb (constant (F := Ideal) ⟨0, ![]⟩ .f32 w) (ix2 n f)) = _
  rw [sum3_apply, splat_apply]
  rfl

/-- v₀w₀ + v₁w₁ + v₂w₂ of two three-component arrays, entry by entry. -/
theorem inner_pure (h' : (⟨3, ![10000, 3, 128]⟩ : Shape).ReducesTo [1] ⟨2, ![10000, 128]⟩)
    (hu : 0 < (⟨0, ![]⟩ : Shape).numel) (v w : FVec Ideal ⟨3, ![10000, 3, 128]⟩ .f32) (n : Fin 10000) (f : Fin 128) :
    Host.reduceAdd (mulf v w) (constant (F := Ideal) ⟨0, ![]⟩ .f32 0x00000000#32) h' hu (ix2 n f)
      = v (ix3 n 0 f) * w (ix3 n 0 f) + v (ix3 n 1 f) * w (ix3 n 1 f) + v (ix3 n 2 f) * w (ix3 n 2 f) := by
  rw [sum3_apply]
  rfl

/-- The first layer: [q, r]·M + b at (n, k), the product split at the two halves of M's rows. -/
theorem hid_pure (wfp : DotDims.WF (PL 256) (PR 256 384) (PO 384) [1] [0] [0] [1] [] [])
    (hc : Shape.Concatenates [C1, C1] C2 1)
    (h1 : (⟨1, ![384]⟩ : Shape).BroadcastsInDim ⟨2, ![1, 384]⟩ ![1])
    (h2 : (⟨2, ![1, 384]⟩ : Shape).BroadcastsInDim ⟨2, ![10000, 384]⟩ ![0, 1])
    (q r : FVec Ideal C1 .f32) (M : FVec Ideal (PR 256 384) .f32) (b : FVec Ideal ⟨1, ![384]⟩ .f32)
    (n : Fin 10000) (k : Fin 384) :
    addf (Host.dotGeneral (DP wfp) none (concatenate C2 1 [⟨C1, q⟩, ⟨C1, r⟩] hc) M)
        (broadcastInDim ⟨2, ![10000, 384]⟩ ![0, 1] h2 (broadcastInDim ⟨2, ![1, 384]⟩ ![1] h1 b)) (ix2 n k)
      = ((∑ i : Fin 128, q (ix2 n i) * M (ix2 (⟨0 + i.val, by omega⟩ : Fin 256) k))
          + ∑ i : Fin 128, r (ix2 n i) * M (ix2 (⟨128 + i.val, by omega⟩ : Fin 256) k)) + b (ix1 k) := by
  show Host.dotGeneral (DP wfp) none (concatenate C2 1 [⟨C1, q⟩, ⟨C1, r⟩] hc) M (ix2 n k)
      + broadcastInDim ⟨2, ![10000, 384]⟩ ![0, 1] h2 (broadcastInDim ⟨2, ![1, 384]⟩ ![1] h1 b) (ix2 n k) = _
  rw [dotP_apply, bias_apply, sum_halves]
  refine congrArg (· + b (ix1 k)) (congrArg₂ (· + ·) ?_ ?_)
  · exact Finset.sum_congr rfl fun i _ => congrArg (· * M (ix2 (⟨0 + i.val, by omega⟩ : Fin 256) k)) (concat_left hc q r n i)
  · exact Finset.sum_congr rfl fun i _ => congrArg (· * M (ix2 (⟨128 + i.val, by omega⟩ : Fin 256) k)) (concat_right hc q r n i)

/-- The second layer: (h · σ(h))·M + b at (n, j), σ the logistic function spelt 1 / (1 + e⁻ʰ). -/
theorem delta_pure (wfp : DotDims.WF (PL 384) (PR 384 384) (PO 384) [1] [0] [0] [1] [] [])
    (hs : (⟨0, ![]⟩ : Shape).BroadcastsInDim ⟨2, ![10000, 384]⟩ ![])
    (h1 : (⟨1, ![384]⟩ : Shape).BroadcastsInDim ⟨2, ![1, 384]⟩ ![1])
    (h2 : (⟨2, ![1, 384]⟩ : Shape).BroadcastsInDim ⟨2, ![10000, 384]⟩ ![0, 1])
    (h : FVec Ideal (PL 384) .f32) (M : FVec Ideal (PR 384 384) .f32) (b : FVec Ideal ⟨1, ![384]⟩ .f32)
    (n : Fin 10000) (j : Fin 384) :
    addf (Host.dotGeneral (DP wfp) none
          (mulf h (Host.divf (broadcastInDim ⟨2, ![10000, 384]⟩ ![] hs (constant (F := Ideal) ⟨0, ![]⟩ .f32 0x3F800000#32))
            (addf (broadcastInDim ⟨2, ![10000, 384]⟩ ![] hs (constant (F := Ideal) ⟨0, ![]⟩ .f32 0x3F800000#32))
              (Host.exp (Host.negf h))))) M)
        (broadcastInDim ⟨2, ![10000, 384]⟩ ![0, 1] h2 (broadcastInDim ⟨2, ![1, 384]⟩ ![1] h1 b)) (ix2 n j)
      = (∑ k : Fin 384, (h (ix2 n k) * Ideal.logistic (h (ix2 n k))) * M (ix2 k j)) + b (ix1 j) := by
  show Host.dotGeneral (DP wfp) none _ M (ix2 n j)
      + broadcastInDim ⟨2, ![10000, 384]⟩ ![0, 1] h2 (broadcastInDim ⟨2, ![1, 384]⟩ ![1] h1 b) (ix2 n j) = _
  rw [dotP_apply, bias_apply]
  refine congrArg (· + b (ix1 j)) (Finset.sum_congr rfl fun k _ => congrArg (· * M (ix2 k j)) ?_)
  show h (ix2 n k) * _ = _
  rw [logistic_apply]

/-- The scalar output q + δ[0:128] + δ[256:384] · (v·w), entry by entry. -/
theorem outQ_pure (hs0 : (⟨2, ![10000, 384]⟩ : Shape).Slices ![0, 0] ⟨2, ![10000, 128]⟩)
    (hs2 : (⟨2, ![10000, 384]⟩ : Shape).Slices ![0, 256] ⟨2, ![10000, 128]⟩)
    (h' : (⟨3, ![10000, 3, 128]⟩ : Shape).ReducesTo [1] ⟨2, ![10000, 128]⟩) (hu : 0 < (⟨0, ![]⟩ : Shape).numel)
    (q : FVec Ideal C1 .f32) (d : FVec Ideal (PL 384) .f32) (v w : FVec Ideal ⟨3, ![10000, 3, 128]⟩ .f32)
    (n : Fin 10000) (f : Fin 128) :
    addf (addf q (extractStridedSlice ⟨2, ![10000, 128]⟩ ![0, 0] d hs0))
        (mulf (extractStridedSlice ⟨2, ![10000, 128]⟩ ![0, 256] d hs2)
          (Host.reduceAdd (mulf v w) (constant (F := Ideal) ⟨0, ![]⟩ .f32 0x00000000#32) h' hu)) (ix2 n f)
      = q (ix2 n f) + d (ix2 n (⟨0 + f.val, by omega⟩ : Fin 384))
          + d (ix2 n (⟨256 + f.val, by omega⟩ : Fin 384))
            * (v (ix3 n 0 f) * w (ix3 n 0 f) + v (ix3 n 1 f) * w (ix3 n 1 f) + v (ix3 n 2 f) * w (ix3 n 2 f)) := by
  show q (ix2 n f) + extractStridedSlice ⟨2, ![10000, 128]⟩ ![0, 0] d hs0 (ix2 n f)
      + extractStridedSlice ⟨2, ![10000, 128]⟩ ![0, 256] d hs2 (ix2 n f)
        * Host.reduceAdd (mulf v w) (constant (F := Ideal) ⟨0, ![]⟩ .f32 0x00000000#32) h' hu (ix2 n f) = _
  rw [slice2_apply 0 (by decide) hs0 d n f, slice2_apply 256 (by decide) hs2 d n f, inner_pure]

/-- The vector output mu + w · δ[128:256], entry by entry. -/
theorem outMU_pure (hs1 : (⟨2, ![10000, 384]⟩ : Shape).Slices ![0, 128] ⟨2, ![10000, 128]⟩)
    (h1 : (⟨2, ![10000, 128]⟩ : Shape).BroadcastsInDim ⟨3, ![10000, 1, 128]⟩ ![0, 2])
    (h2 : (⟨3, ![10000, 1, 128]⟩ : Shape).BroadcastsInDim ⟨3, ![10000, 3, 128]⟩ ![0, 1, 2])
    (mu w : FVec Ideal ⟨3, ![10000, 3, 128]⟩ .f32) (d : FVec Ideal (PL 384) .f32)
    (n : Fin 10000) (c : Fin 3) (f : Fin 128) :
    addf mu (mulf w (broadcastInDim ⟨3, ![10000, 3, 128]⟩ ![0, 1, 2] h2
        (broadcastInDim ⟨3, ![10000, 1, 128]⟩ ![0, 2] h1 (extractStridedSlice ⟨2, ![10000, 128]⟩ ![0, 128] d hs1)))) (ix3 n c f)
      = mu (ix3 n c f) + w (ix3 n c f) * d (ix2 n (⟨128 + f.val, by omega⟩ : Fin 384)) := by
  show mu (ix3 n c f) + w (ix3 n c f) * broadcastInDim ⟨3, ![10000, 3, 128]⟩ ![0, 1, 2] h2
        (broadcastInDim ⟨3, ![10000, 1, 128]⟩ ![0, 2] h1 (extractStridedSlice ⟨2, ![10000, 128]⟩ ![0, 128] d hs1)) (ix3 n c f) = _
  rw [mid_apply h1 h2 _ n c f, slice2_apply 128 (by decide) hs1 d n f]

end Read

open Read

variable (V0 : Valuation τ sig (Elt Ideal))

/-- The ε under the square root, as the reference's literal. -/
abbrev eps : EReal := Ideal.ofBits .f32 0x322BCC77#32

/-- The reference's first result, as its run states it. -/
def resQ : FVec Ideal S10000x128 .f32 :=
  addf (addf (res_main_v89 V0) (extractStridedSlice S10000x128 ![0, 0] (res_main_v114 V0) slices_S10000x384_S10000x128_0_0)) (mulf (extractStridedSlice S10000x128 ![0, 256] (res_main_v114 V0) slices_S10000x384_S10000x128_0_256) (Host.reduceAdd (mulf (res_main_v92 V0) (res_main_v93 V0)) (constant S_ .f32 0x00000000#32) reducesTo_S10000x3x128_S10000x128_d1 h_S_))

/-- The reference's second result, as its run states it. -/
def resMU : FVec Ideal S10000x3x128 .f32 :=
  addf (res_main_v90 V0) (mulf (res_main_v93 V0) (broadcastInDim S10000x3x128 ![0, 1, 2] bcast_S10000x1x128_S10000x3x128_0_1_2 (broadcastInDim S10000x1x128 ![0, 2] bcast_S10000x128_S10000x1x128_0_2 (extractStridedSlice S10000x128 ![0, 128] (res_main_v114 V0) slices_S10000x384_S10000x128_0_128))))

/-- Node `n`'s updated scalar features in the reference. -/
abbrev q' (n : Fin 10000) : Fin 128 → EReal := fun i => res_main_v89 V0 (ix2 n i)
/-- Node `n`'s updated vector features in the reference. -/
abbrev mu' (n : Fin 10000) : Fin 3 → Fin 128 → EReal := fun k i => res_main_v90 V0 (ix3 n k i)

/-! ## The reference's intermediates, entry by entry -/

/-- W_vec, read by coordinates. -/
abbrev wVec : Fin 128 → Fin 256 → EReal := Spec.cur2 (V0 (Proc.devRef .tc main_arg14))
/-- W_mix1, read by coordinates. -/
abbrev wMix1 : Fin 256 → Fin 384 → EReal := Spec.cur2 (V0 (Proc.devRef .tc main_arg15))
/-- b_mix1, read by its coordinate. -/
abbrev bMix1 : Fin 384 → EReal := Spec.cur1 (V0 (Proc.devRef .tc main_arg16))
/-- W_mix2, read by coordinates. -/
abbrev wMix2 : Fin 384 → Fin 384 → EReal := Spec.cur2 (V0 (Proc.devRef .tc main_arg17))
/-- b_mix2, read by its coordinate. -/
abbrev bMix2 : Fin 384 → EReal := Spec.cur1 (V0 (Proc.devRef .tc main_arg18))

/-- mu'·W_vec at (n, c, o) is node n's projection. -/
theorem proj_apply (n : Fin 10000) (c : Fin 3) (o : Fin 256) :
    res_main_v91 V0 (ix3 n c o) = Spec.proj (mu' V0 n) (wVec V0) c o := by
  unfold res_main_v91
  exact dot3_apply Facts₀.dot_S10000x3x128_S128x256_S10000x3x256_2_0_01_1_n_n_wf (res_main_v90 V0)
    (V0 (Proc.devRef .tc main_arg14)) n c o

/-- Its first half. -/
theorem vv_apply (n : Fin 10000) (c : Fin 3) (f : Fin 128) :
    res_main_v92 V0 (ix3 n c f) = Spec.vv (mu' V0 n) (wVec V0) c f := by
  unfold res_main_v92
  exact (slice3_apply 0 (by decide) slices_S10000x3x256_S10000x3x128_0_0_0 (res_main_v91 V0) n c f).trans
    (proj_apply V0 n c _)

/-- Its second half. -/
theorem ww_apply (n : Fin 10000) (c : Fin 3) (f : Fin 128) :
    res_main_v93 V0 (ix3 n c f) = Spec.ww (mu' V0 n) (wVec V0) c f := by
  unfold res_main_v93
  exact (slice3_apply 128 (by decide) slices_S10000x3x256_S10000x3x128_0_0_128 (res_main_v91 V0) n c f).trans
    (proj_apply V0 n c _)

/-- The norm array at (n, f). -/
theorem norm_apply (n : Fin 10000) (f : Fin 128) :
    Host.sqrt (addf (Host.reduceAdd (mulf (res_main_v92 V0) (res_main_v92 V0)) (constant (F := Ideal) S_ .f32 0x00000000#32)
        reducesTo_S10000x3x128_S10000x128_d1 h_S_)
      (broadcastInDim S10000x128 ![] bcast_S_S10000x128 (constant (F := Ideal) S_ .f32 0x322BCC77#32))) (ix2 n f)
      = Spec.norm (mu' V0 n) (wVec V0) eps f := by
  refine (norm_pure reducesTo_S10000x3x128_S10000x128_d1 h_S_ bcast_S_S10000x128 0x322BCC77#32 (res_main_v92 V0) n f).trans ?_
  rw [vv_apply V0 n 0 f, vv_apply V0 n 1 f, vv_apply V0 n 2 f]
  rfl

/-- The inner-product array at (n, f). -/
theorem inner_apply (n : Fin 10000) (f : Fin 128) :
    Host.reduceAdd (mulf (res_main_v92 V0) (res_main_v93 V0)) (constant (F := Ideal) S_ .f32 0x00000000#32)
        reducesTo_S10000x3x128_S10000x128_d1 h_S_ (ix2 n f)
      = Spec.inner (mu' V0 n) (wVec V0) f := by
  refine (inner_pure reducesTo_S10000x3x128_S10000x128_d1 h_S_ (res_main_v92 V0) (res_main_v93 V0) n f).trans ?_
  rw [vv_apply V0 n 0 f, vv_apply V0 n 1 f, vv_apply V0 n 2 f, ww_apply V0 n 0 f, ww_apply V0 n 1 f, ww_apply V0 n 2 f]
  rfl

/-- The hidden pre-activation at (n, k). -/
theorem hid_apply (n : Fin 10000) (k : Fin 384) :
    res_main_v103 V0 (ix2 n k) = Spec.hid (q' V0 n) (mu' V0 n) (wVec V0) (wMix1 V0) (bMix1 V0) eps k := by
  unfold res_main_v103
  refine (hid_pure Facts₀.dot_S10000x256_S256x384_S10000x384_1_0_0_1_n_n_wf concatenates_S10000x128_S10000x128_S10000x256_d1
    bcast_S384_S1x384_1 bcast_S1x384_S10000x384_0_1 (res_main_v89 V0) _ (V0 (Proc.devRef .tc main_arg15))
    (V0 (Proc.devRef .tc main_arg16)) n k).trans ?_
  refine congrArg (· + _) (congrArg (_ + ·) (Finset.sum_congr rfl fun i _ => congrArg (· * _) (norm_apply V0 n i)))

/-- δ at (n, j). -/
theorem delta_apply (n : Fin 10000) (j : Fin 384) :
    res_main_v114 V0 (ix2 n j) = Spec.delta (q' V0 n) (mu' V0 n) (wVec V0) (wMix1 V0) (bMix1 V0) (wMix2 V0) (bMix2 V0) eps j := by
  unfold res_main_v114
  refine (delta_pure Facts₀.dot_S10000x384_S384x384_S10000x384_1_0_0_1_n_n_wf bcast_S_S10000x384
    bcast_S384_S1x384_1 bcast_S1x384_S10000x384_0_1 (res_main_v103 V0) (V0 (Proc.devRef .tc main_arg17))
    (V0 (Proc.devRef .tc main_arg18)) n j).trans ?_
  refine congrArg (· + _) (Finset.sum_congr rfl fun k _ => ?_)
  rw [hid_apply V0 n k]
  rfl

/-- The first result, entry by entry. -/
theorem resQ_apply (n : Fin 10000) (f : Fin 128) :
    resQ V0 (ix2 n f) = Spec.outQ (q' V0 n) (mu' V0 n) (Spec.cur2 (V0 (Proc.devRef .tc main_arg14))) (Spec.cur2 (V0 (Proc.devRef .tc main_arg15))) (Spec.cur1 (V0 (Proc.devRef .tc main_arg16)))
      (Spec.cur2 (V0 (Proc.devRef .tc main_arg17))) (Spec.cur1 (V0 (Proc.devRef .tc main_arg18))) eps f := by
  unfold resQ
  refine (outQ_pure slices_S10000x384_S10000x128_0_0 slices_S10000x384_S10000x128_0_256 reducesTo_S10000x3x128_S10000x128_d1 h_S_
    (res_main_v89 V0) (res_main_v114 V0) (res_main_v92 V0) (res_main_v93 V0) n f).trans ?_
  rw [delta_apply V0 n, delta_apply V0 n, vv_apply V0 n 0 f, vv_apply V0 n 1 f, vv_apply V0 n 2 f,
    ww_apply V0 n 0 f, ww_apply V0 n 1 f, ww_apply V0 n 2 f]
  rfl

/-- The second result, entry by entry. -/
theorem resMU_apply (n : Fin 10000) (k : Fin 3) (f : Fin 128) :
    resMU V0 (ix3 n k f) = Spec.outMU (q' V0 n) (mu' V0 n) (Spec.cur2 (V0 (Proc.devRef .tc main_arg14))) (Spec.cur2 (V0 (Proc.devRef .tc main_arg15))) (Spec.cur1 (V0 (Proc.devRef .tc main_arg16)))
      (Spec.cur2 (V0 (Proc.devRef .tc main_arg17))) (Spec.cur1 (V0 (Proc.devRef .tc main_arg18))) eps k f := by
  unfold resMU
  refine (outMU_pure slices_S10000x384_S10000x128_0_128 bcast_S10000x128_S10000x1x128_0_2 bcast_S10000x1x128_S10000x3x128_0_1_2
    (res_main_v90 V0) (res_main_v93 V0) (res_main_v114 V0) n k f).trans ?_
  rw [delta_apply V0 n, ww_apply V0 n k f]
  rfl

end Cert.ReferenceIdeal.RefMix

end
-- ==== Proof.RHost.lean ====
/-
  The reference program's two results as the one function of the argument arrays (Final.resQ, Final.resMU), the table row of
  an edge being the reference's: its source number with a negative value wrapped around by 10000, then clamped. On a
  non-negative source number the wrap-around does nothing, and the row is the clamped number itself.
-/
import proofs.«425667_j62663572848823_3_alg».proof.Proof.Gen.ReferenceIdeal.Run
import proofs.«425667_j62663572848823_3_alg».proof.Proof.Spec
import proofs.«425667_j62663572848823_3_alg».proof.Proof.Final
import proofs.«425667_j62663572848823_3_alg».proof.Proof.RefEdge
import proofs.«425667_j62663572848823_3_alg».proof.Proof.RefMix
import proofs.«425667_j62663572848823_3_alg».proof.Proof.LibScatterRows
import proofs.«425667_j62663572848823_3_alg».proof.Proof.LibIdx
import Idealize.ShloMosaic.Lib.Affine

set_option maxRecDepth 16384

noncomputable section

namespace Cert.ReferenceIdeal.RHost

open Idealize.ShloMosaic Idealize.ShloMosaic.TcCoe Idealize.ShloMosaic.ValueIdx Idealize.SL.Sem
open Cert.ReferenceIdeal Cert.ReferenceIdeal.Gen Cert.ReferenceIdeal.Value Cert.Lib.Idx

/-- The printed dimension numbers of the first segment sum are the whole-row scatter's into [10000, 128]. -/
theorem scatter2_eq : scatter_S10000x128_S256000x1_S256000x128_1_0_0_1
    = Cert.Lib.ScatterRows.rowDims2 10000 256000 128 scatter_S10000x128_S256000x1_S256000x128_1_0_0_1_wf := rfl

/-- The printed dimension numbers of the second segment sum are the whole-row scatter's into [10000, 3, 128]. -/
theorem scatter3_eq : scatter_S10000x3x128_S256000x1_S256000x3x128_12_0_0_1
    = Cert.Lib.ScatterRows.rowDims3 10000 256000 3 128 scatter_S10000x3x128_S256000x1_S256000x3x128_12_0_0_1_wf := rfl

/-- The reference's wrap-around of a row number (a negative number has 10000 added, any other is kept), stood up as a
    column and read at (e, 0): a non-negative number is kept. -/
theorem wrap_apply (v : IVec S256000 32) (e : Fin 256000) (h : 0 ≤ (v (ix1 e)).toInt) :
    broadcastInDim S256000x1 ![0] bcast_S256000_S256000x1_0 (select (cmpi .slt v (broadcastInDim S256000 ![] bcast_S_S256000 (constantI S_ 32 0#32))) (addi v (broadcastInDim S256000 ![] bcast_S_S256000 (constantI S_ 32 10000#32))) v) (ix2 e (0 : Fin 1))
      = v (ix1 e) := by
  rw [col_apply, select_apply]
  have hc : cmpi .slt v (broadcastInDim S256000 ![] bcast_S_S256000 (constantI S_ 32 0#32)) (ix1 e) = 0#1 := by
    refine eq_zero_of_ne_one fun h1 => ?_
    have h2 : IntOp.cmpi .slt (v (ix1 e)) (broadcastInDim S256000 ![] bcast_S_S256000 (constantI S_ 32 0#32) (ix1 e)) = 1#1 := h1
    rw [scalar_apply, IntOp.cmpi_slt] at h2
    have h3 : (constantI S_ 32 0#32 ix0).toInt = 0 := rfl
    omega
  rw [hc, select_zero]

variable (V0 : Valuation τ sig (Elt Ideal))

/-- The target column the two segment sums read, at (e, 0): row 0 of the edge list at e. -/
theorem tgt_apply (e : Fin 256000) (u : Fin 1) :
    broadcastInDim S256000x1 ![0] bcast_S256000_S256000x1_0 (res_main_v3 V0) (ix2 e u) = (V0 (Proc.devRef .tc main_arg2)) (ix2 (0 : Fin 2) e) := by
  unfold res_main_v3
  exact rowAsCol_apply 0 (by decide) _ _ _ _ e u

/-- The source numbers the reference's gathers start from, at e: row 1 of the edge list at e. -/
theorem src_apply (e : Fin 256000) :
    res_main_v1 V0 (ix1 e) = (V0 (Proc.devRef .tc main_arg2)) (ix2 (1 : Fin 2) e) := by
  unfold res_main_v1
  exact rowFlat_apply 1 (by decide) _ _ _ e

/-- The first segment sum read at (n, i): the initial zero plus the scalar messages of the edges landing on n. -/
theorem q'_apply (n : Fin 10000) (i : Fin 128) :
    res_main_v89 V0 (ix2 n i)
      = Final.q' (V0 (Proc.devRef .tc main_arg0)) (V0 (Proc.devRef .tc main_arg2)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (RefEdge.srow V0) n i := by
  rw [RefEdge.v89_eq]
  refine (addf_apply _ _ _).trans ?_
  rw [scatter2_eq, Cert.Lib.ScatterRows.scatterAdd_rows2_apply, scalar_apply]
  unfold Final.q' Spec.qUpd Spec.lands
  refine congrArg₂ (· + ·) rfl (congrArg₂ (· + ·) rfl ?_)
  refine Finset.sum_congr (Finset.filter_congr fun e _ => ?_) (fun e _ => RefEdge.updS_apply V0 e i)
  exact Iff.of_eq (congrArg (fun z : BitVec 32 => z.toInt = (n.val : Int)) (tgt_apply V0 e 0))

/-- The second segment sum read at (n, k, i). -/
theorem mu'_apply (n : Fin 10000) (k : Fin 3) (i : Fin 128) :
    res_main_v90 V0 (ix3 n k i)
      = Final.mu' (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (RefEdge.srow V0) n k i := by
  rw [RefEdge.v90_eq]
  refine (addf_apply _ _ _).trans ?_
  rw [scatter3_eq, Cert.Lib.ScatterRows.scatterAdd_rows3_apply, scalar_apply]
  unfold Final.mu' Spec.muUpd Spec.lands
  refine congrArg₂ (· + ·) rfl (congrArg₂ (· + ·) rfl ?_)
  refine Finset.sum_congr (Finset.filter_congr fun e _ => ?_) (fun e _ => RefEdge.updV_apply V0 e k i)
  exact Iff.of_eq (congrArg (fun z : BitVec 32 => z.toInt = (n.val : Int)) (tgt_apply V0 e 0))

/-- The reference's first result. -/
theorem resQ_apply (n : Fin 10000) (f : Fin 128) :
    RefMix.resQ V0 (ix2 n f) = Final.resQ (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (RefEdge.srow V0) n f := by
  rw [RefMix.resQ_apply, show RefMix.q' V0 n = _ from funext fun i => q'_apply V0 n i,
    show RefMix.mu' V0 n = _ from funext fun k => funext fun i => mu'_apply V0 n k i]
  rfl

/-- The reference's second result. -/
theorem resMU_apply (n : Fin 10000) (k : Fin 3) (f : Fin 128) :
    RefMix.resMU V0 (ix3 n k f) = Final.resMU (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (RefEdge.srow V0) n k f := by
  rw [RefMix.resMU_apply, show RefMix.q' V0 n = _ from funext fun i => q'_apply V0 n i,
    show RefMix.mu' V0 n = _ from funext fun k => funext fun i => mu'_apply V0 n k i]
  rfl

/-- Where every source number is non-negative, the row the reference's gathers read is the clamped source number: the
    wrap-around of negative numbers never acts. -/
theorem srow_eq (h : ∀ e : Fin 256000, 0 ≤ (V0 (Proc.devRef .tc main_arg2) (ix2 (1 : Fin 2) e)).toInt) (e : Fin 256000) :
    RefEdge.srow V0 e = Spec.srcRow (V0 (Proc.devRef .tc main_arg2) (ix2 (1 : Fin 2) e)) := by
  refine congrArg Spec.srcRow ((wrap_apply (res_main_v1 V0) e ?_).trans (src_apply V0 e))
  exact le_of_le_of_eq (h e) (congrArg (BitVec.toInt (n := 32)) (src_apply V0 e).symm)

end Cert.ReferenceIdeal.RHost

end
-- ==== Proof.PreSrc.lean ====
/-
  What the precondition says about the edge list: every source number (row 1 of edge_index), read as a signed 32-bit
  integer, is non-negative. The precondition is a conjunction of nineteen "all" tests folded by `and`; its last conjunct
  is the test `edge_index[1] ≥ 0`, a reduce by `and` of a signed compare against zero.
-/
import proofs.«425667_j62663572848823_3_alg».proof.Pre_finite_inputs
import proofs.«425667_j62663572848823_3_alg».proof.Proof.LibIdx
import Idealize.ShloMosaic.Lib.ReduceAll
import Idealize.ShloMosaic.Lib.Affine

set_option maxRecDepth 16384

noncomputable section

namespace Cert.PreSrc

open Idealize.ShloMosaic Idealize.ShloMosaic.ValueIdx Cert.Pre_finite_inputs Cert.Pre_finite_inputs.Facts

instance : Subsingleton S_.Idx := ⟨fun a b => funext fun d => d.elim0⟩

/-- Under the precondition every source number is non-negative as a signed integer. -/
theorem src_nonneg [Cert.Pre_finite_inputs.Facts] (a0 : FVec Ideal S10000x128 .f32) (a1 : FVec Ideal S10000x3x128 .f32) (a2 : IVec S2x256000 32) (a3 : FVec Ideal S256000x20 .f32) (a4 : FVec Ideal S256000x3 .f32) (a5 : FVec Ideal S256000 .f32) (a6 : FVec Ideal S128x384 .f32) (a7 : FVec Ideal S384 .f32) (a8 : FVec Ideal S384x384 .f32) (a9 : FVec Ideal S384 .f32) (a10 : FVec Ideal S20x128 .f32) (a11 : FVec Ideal S128 .f32) (a12 : FVec Ideal S128x384 .f32) (a13 : FVec Ideal S384 .f32) (a14 : FVec Ideal S128x256 .f32) (a15 : FVec Ideal S256x384 .f32) (a16 : FVec Ideal S384 .f32) (a17 : FVec Ideal S384x384 .f32) (a18 : FVec Ideal S384 .f32)
    (h : fn (F := Ideal) a0 a1 a2 a3 a4 a5 a6 a7 a8 a9 a10 a11 a12 a13 a14 a15 a16 a17 a18 = fun _ => 1#1) (e : Fin 256000) :
    0 ≤ (a2 (ix2 (1 : Fin 2) e)).toInt := by
  have h1 := congrFun h ix0
  have h2 : IntOp.andi _ (Host.reduce IntOp.andi
      (cmpi .sge (shapeCast S256000 ((extractStridedSlice S1x256000 ![1, 0] · slices_S2x256000_S1x256000_1_0) a2) shapeCasts_S1x256000_S256000)
        (broadcastInDim S256000 ![] bcast_S_S256000 (constantI S_ 32 0#32)))
      (constantI S_ 1 1#1) reducesTo_S256000_S_d0 h_S_ ix0) = 1#1 := h1
  have h3 := Host.reduce_andi_all _ _ _ _ ix0 (IntOp.andi_eq_one.mp h2).2 (ix1 e)
  have h4 : IntOp.cmpi .sge (shapeCast S256000 ((extractStridedSlice S1x256000 ![1, 0] · slices_S2x256000_S1x256000_1_0) a2) shapeCasts_S1x256000_S256000 (ix1 e))
      (broadcastInDim S256000 ![] bcast_S_S256000 (constantI S_ 32 0#32) (ix1 e)) = 1#1 := h3
  rw [Cert.Lib.Idx.rowFlat_apply 1 (by decide), Cert.Lib.Idx.scalar_apply] at h4
  have h5 : (0#32 : BitVec 32).toInt ≤ (a2 (ix2 (1 : Fin 2) e)).toInt := IntOp.cmpi_sge.mp h4
  rw [BitVec.toInt_zero] at h5
  exact h5

end Cert.PreSrc

end
-- ==== Proof.lean ====
/-
  A PaiNN message-passing block on 10000 nodes and 256000 edges. Per node, a perceptron X of the scalar features; per
  edge, a filter of the radial basis scaled by the edge's cutoff. Each edge sends to its target node a scalar message
  and a three-component vector message, built from row s(e) of X and of the vector features, s(e) the table row of the
  edge's source. A node's features are updated by the sums of the messages landing on it, and a mixing step (a
  projection of the updated vector features, its norm and inner product, a second perceptron) gives the two results.

  Both programs compute the same two functions, Final.resQ and Final.resMU, of the nineteen argument arrays and of the
  row map s: the kernel in three launches with the gathers and the segment sums between them, the reference as one
  chain of array operations. They differ only in s. The kernel clamps an edge's source number into [0, 9999]; the
  reference first adds 10000 to a negative number and then clamps. The precondition makes every source number
  non-negative, and there the two rows coincide; the results read s only edge by edge, so equal rows give equal results.
  Each frame is its program's own run; the idealization rewrote no operation.
-/
import proofs.«425667_j62663572848823_3_alg».proof.Defs
import proofs.«425667_j62663572848823_3_alg».proof.Proof.Gen.Kernel
import proofs.«425667_j62663572848823_3_alg».proof.Proof.Gen.Kernel.Skeleton
import proofs.«425667_j62663572848823_3_alg».proof.Proof.Gen.Kernel.Launch
import proofs.«425667_j62663572848823_3_alg».proof.Proof.Gen.Kernel.Points
import proofs.«425667_j62663572848823_3_alg».proof.Proof.Gen.Kernel.Frame
import proofs.«425667_j62663572848823_3_alg».proof.Proof.Gen.KernelIdeal
import proofs.«425667_j62663572848823_3_alg».proof.Proof.Gen.KernelIdeal.Skeleton
import proofs.«425667_j62663572848823_3_alg».proof.Proof.Gen.KernelIdeal.Launch
import proofs.«425667_j62663572848823_3_alg».proof.Proof.Gen.KernelIdeal.Points
import proofs.«425667_j62663572848823_3_alg».proof.Proof.Gen.KernelIdeal.Frame
import proofs.«425667_j62663572848823_3_alg».proof.Proof.Gen.ReferenceIdeal
import proofs.«425667_j62663572848823_3_alg».proof.Proof.Gen.ReferenceIdeal.Run
import proofs.«425667_j62663572848823_3_alg».proof.Proof.Gen.Pre_finite_inputs
import proofs.«425667_j62663572848823_3_alg».proof.Proof.Final
import proofs.«425667_j62663572848823_3_alg».proof.Proof.KRun
import proofs.«425667_j62663572848823_3_alg».proof.Proof.KHost
import proofs.«425667_j62663572848823_3_alg».proof.Proof.RHost
import proofs.«425667_j62663572848823_3_alg».proof.Proof.PreSrc
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-! ## The results read the row map edge by edge -/

section Rows
variable (a0 : (⟨2, ![10000, 128]⟩ : Shape).Idx → EReal)
  (a1 : (⟨3, ![10000, 3, 128]⟩ : Shape).Idx → EReal)
  (a2 : (⟨2, ![2, 256000]⟩ : Shape).Idx → BitVec 32)
  (a3 : (⟨2, ![256000, 20]⟩ : Shape).Idx → EReal)
  (a4 : (⟨2, ![256000, 3]⟩ : Shape).Idx → EReal)
  (a5 : (⟨1, ![256000]⟩ : Shape).Idx → EReal)
  (a6 : (⟨2, ![128, 384]⟩ : Shape).Idx → EReal)
  (a7 : (⟨1, ![384]⟩ : Shape).Idx → EReal)
  (a8 : (⟨2, ![384, 384]⟩ : Shape).Idx → EReal)
  (a9 : (⟨1, ![384]⟩ : Shape).Idx → EReal)
  (a10 : (⟨2, ![20, 128]⟩ : Shape).Idx → EReal)
  (a11 : (⟨1, ![128]⟩ : Shape).Idx → EReal)
  (a12 : (⟨2, ![128, 384]⟩ : Shape).Idx → EReal)
  (a13 : (⟨1, ![384]⟩ : Shape).Idx → EReal)
  (a14 : (⟨2, ![128, 256]⟩ : Shape).Idx → EReal)
  (a15 : (⟨2, ![256, 384]⟩ : Shape).Idx → EReal)
  (a16 : (⟨1, ![384]⟩ : Shape).Idx → EReal)
  (a17 : (⟨2, ![384, 384]⟩ : Shape).Idx → EReal)
  (a18 : (⟨1, ![384]⟩ : Shape).Idx → EReal)

/-- Two row maps that agree on every edge give the same first result. -/
theorem resQ_rows (s s' : Fin 256000 → Fin 10000) (h : ∀ e, s e = s' e) (n : Fin 10000) (f : Fin 128) :
    Final.resQ a0 a1 a2 a3 a4 a5 a6 a7 a8 a9 a10 a11 a12 a13 a14 a15 a16 a17 a18 s n f = Final.resQ a0 a1 a2 a3 a4 a5 a6 a7 a8 a9 a10 a11 a12 a13 a14 a15 a16 a17 a18 s' n f := by
  rw [show s = s' from funext h]

/-- Two row maps that agree on every edge give the same second result. -/
theorem resMU_rows (s s' : Fin 256000 → Fin 10000) (h : ∀ e, s e = s' e) (n : Fin 10000) (k : Fin 3) (f : Fin 128) :
    Final.resMU a0 a1 a2 a3 a4 a5 a6 a7 a8 a9 a10 a11 a12 a13 a14 a15 a16 a17 a18 s n k f = Final.resMU a0 a1 a2 a3 a4 a5 a6 a7 a8 a9 a10 a11 a12 a13 a14 a15 a16 a17 a18 s' n k f := by
  rw [show s = s' from funext h]

end Rows

/-! ## The reference's results at non-negative source numbers -/

section Reference
open Cert.ReferenceIdeal
variable (a0 : (⟨2, ![10000, 128]⟩ : Shape).Idx → EReal)
  (a1 : (⟨3, ![10000, 3, 128]⟩ : Shape).Idx → EReal)
  (a2 : (⟨2, ![2, 256000]⟩ : Shape).Idx → BitVec 32)
  (a3 : (⟨2, ![256000, 20]⟩ : Shape).Idx → EReal)
  (a4 : (⟨2, ![256000, 3]⟩ : Shape).Idx → EReal)
  (a5 : (⟨1, ![256000]⟩ : Shape).Idx → EReal)
  (a6 : (⟨2, ![128, 384]⟩ : Shape).Idx → EReal)
  (a7 : (⟨1, ![384]⟩ : Shape).Idx → EReal)
  (a8 : (⟨2, ![384, 384]⟩ : Shape).Idx → EReal)
  (a9 : (⟨1, ![384]⟩ : Shape).Idx → EReal)
  (a10 : (⟨2, ![20, 128]⟩ : Shape).Idx → EReal)
  (a11 : (⟨1, ![128]⟩ : Shape).Idx → EReal)
  (a12 : (⟨2, ![128, 384]⟩ : Shape).Idx → EReal)
  (a13 : (⟨1, ![384]⟩ : Shape).Idx → EReal)
  (a14 : (⟨2, ![128, 256]⟩ : Shape).Idx → EReal)
  (a15 : (⟨2, ![256, 384]⟩ : Shape).Idx → EReal)
  (a16 : (⟨1, ![384]⟩ : Shape).Idx → EReal)
  (a17 : (⟨2, ![384, 384]⟩ : Shape).Idx → EReal)
  (a18 : (⟨1, ![384]⟩ : Shape).Idx → EReal)

/-- The reference's first result, when its argument buffers hold the given arrays and every source number is
    non-negative: the wrapped-then-clamped row of an edge is then the clamped row. -/
theorem refQ_of (V0 : Valuation τ sig (Elt Ideal))
    (h0 : V0 (Proc.devRef .tc main_arg0) = a0) (h1 : V0 (Proc.devRef .tc main_arg1) = a1)
    (h2 : V0 (Proc.devRef .tc main_arg2) = a2) (h3 : V0 (Proc.devRef .tc main_arg3) = a3)
    (h4 : V0 (Proc.devRef .tc main_arg4) = a4) (h5 : V0 (Proc.devRef .tc main_arg5) = a5)
    (h6 : V0 (Proc.devRef .tc main_arg6) = a6) (h7 : V0 (Proc.devRef .tc main_arg7) = a7)
    (h8 : V0 (Proc.devRef .tc main_arg8) = a8) (h9 : V0 (Proc.devRef .tc main_arg9) = a9)
    (h10 : V0 (Proc.devRef .tc main_arg10) = a10) (h11 : V0 (Proc.devRef .tc main_arg11) = a11)
    (h12 : V0 (Proc.devRef .tc main_arg12) = a12) (h13 : V0 (Proc.devRef .tc main_arg13) = a13)
    (h14 : V0 (Proc.devRef .tc main_arg14) = a14) (h15 : V0 (Proc.devRef .tc main_arg15) = a15)
    (h16 : V0 (Proc.devRef .tc main_arg16) = a16) (h17 : V0 (Proc.devRef .tc main_arg17) = a17)
    (h18 : V0 (Proc.devRef .tc main_arg18) = a18)
    (hs : ∀ e : Fin 256000, 0 ≤ (a2 (ix2 (1 : Fin 2) e)).toInt) (n : Fin 10000) (f : Fin 128) :
    RefMix.resQ V0 (ix2 n f) = Final.resQ a0 a1 a2 a3 a4 a5 a6 a7 a8 a9 a10 a11 a12 a13 a14 a15 a16 a17 a18 (fun e => Spec.srcRow (a2 (ix2 (1 : Fin 2) e))) n f := by
  subst h0 h1 h2 h3 h4 h5 h6 h7 h8 h9 h10 h11 h12 h13 h14 h15 h16 h17 h18
  rw [RHost.resQ_apply]
  exact resQ_rows _ _ _ _ _ _ _ _ _ _ _ _ _ _ _ _ _ _ _ _ _ (fun e => RHost.srow_eq V0 hs e) n f

/-- The reference's second result, under the same hypotheses. -/
theorem refMU_of (V0 : Valuation τ sig (Elt Ideal))
    (h0 : V0 (Proc.devRef .tc main_arg0) = a0) (h1 : V0 (Proc.devRef .tc main_arg1) = a1)
    (h2 : V0 (Proc.devRef .tc main_arg2) = a2) (h3 : V0 (Proc.devRef .tc main_arg3) = a3)
    (h4 : V0 (Proc.devRef .tc main_arg4) = a4) (h5 : V0 (Proc.devRef .tc main_arg5) = a5)
    (h6 : V0 (Proc.devRef .tc main_arg6) = a6) (h7 : V0 (Proc.devRef .tc main_arg7) = a7)
    (h8 : V0 (Proc.devRef .tc main_arg8) = a8) (h9 : V0 (Proc.devRef .tc main_arg9) = a9)
    (h10 : V0 (Proc.devRef .tc main_arg10) = a10) (h11 : V0 (Proc.devRef .tc main_arg11) = a11)
    (h12 : V0 (Proc.devRef .tc main_arg12) = a12) (h13 : V0 (Proc.devRef .tc main_arg13) = a13)
    (h14 : V0 (Proc.devRef .tc main_arg14) = a14) (h15 : V0 (Proc.devRef .tc main_arg15) = a15)
    (h16 : V0 (Proc.devRef .tc main_arg16) = a16) (h17 : V0 (Proc.devRef .tc main_arg17) = a17)
    (h18 : V0 (Proc.devRef .tc main_arg18) = a18)
    (hs : ∀ e : Fin 256000, 0 ≤ (a2 (ix2 (1 : Fin 2) e)).toInt) (n : Fin 10000) (k : Fin 3) (f : Fin 128) :
    RefMix.resMU V0 (ix3 n k f) = Final.resMU a0 a1 a2 a3 a4 a5 a6 a7 a8 a9 a10 a11 a12 a13 a14 a15 a16 a17 a18 (fun e => Spec.srcRow (a2 (ix2 (1 : Fin 2) e))) n k f := by
  subst h0 h1 h2 h3 h4 h5 h6 h7 h8 h9 h10 h11 h12 h13 h14 h15 h16 h17 h18
  rw [RHost.resMU_apply]
  exact resMU_rows _ _ _ _ _ _ _ _ _ _ _ _ _ _ _ _ _ _ _ _ _ (fun e => RHost.srow_eq V0 hs e) n k f

end Reference

/-! ## The two results both programs end with -/

section Results
open Cert.KernelIdeal Cert.KernelIdeal.KHost

variable (m : (ℓ : Loc nD τ sig) → Buf (Elt Ideal) ℓ) (c : Dev nD)

/-- The first result on core c: Final.resQ of the launch contents of the arguments, rows clamped. -/
abbrev wQ : S10000x128.Idx → EReal := fun i =>
  Final.resQ (A m c main_arg0) (A m c main_arg1) (A m c main_arg2) (A m c main_arg3) (A m c main_arg4) (A m c main_arg5)
    (A m c main_arg6) (A m c main_arg7) (A m c main_arg8) (A m c main_arg9) (A m c main_arg10) (A m c main_arg11)
    (A m c main_arg12) (A m c main_arg13) (A m c main_arg14) (A m c main_arg15) (A m c main_arg16) (A m c main_arg17)
    (A m c main_arg18) (sK m c) (i 0) (i 1)

/-- The second result on core c. -/
abbrev wMU : S10000x3x128.Idx → EReal := fun i =>
  Final.resMU (A m c main_arg0) (A m c main_arg1) (A m c main_arg2) (A m c main_arg3) (A m c main_arg4) (A m c main_arg5)
    (A m c main_arg6) (A m c main_arg7) (A m c main_arg8) (A m c main_arg9) (A m c main_arg10) (A m c main_arg11)
    (A m c main_arg12) (A m c main_arg13) (A m c main_arg14) (A m c main_arg15) (A m c main_arg16) (A m c main_arg17)
    (A m c main_arg18) (sK m c) (i 0) (i 1) (i 2)

/-- The kernel's first result buffer at the end is wQ. -/
theorem kernelQ (ρ : Dev nD → PrngReg) : (Gen.W10 m ρ c (Proc.devRef .tc main_v22_0) : S10000x128.Idx → EReal) = wQ m c := by
  funext i
  obtain ⟨n, f, rfl⟩ : ∃ (n : Fin 10000) (f : Fin 128), i = ix2 n f := ⟨i 0, i 1, eq_ix2 i⟩
  exact resQ_apply m ρ c n f

/-- The kernel's second result buffer at the end is wMU. -/
theorem kernelMU (ρ : Dev nD → PrngReg) : (Gen.W10 m ρ c (Proc.devRef .tc main_v23) : S10000x3x128.Idx → EReal) = wMU m c := by
  funext i
  obtain ⟨n, k, f, rfl⟩ : ∃ (n : Fin 10000) (k : Fin 3) (f : Fin 128), i = ix3 n k f := ⟨i 0, i 1, i 2, eq_ix3 i⟩
  exact resMU_apply m ρ c n k f

end Results

/-! ## The claims -/

theorem frame_k : Cert.frame_Kernel := fun m ρ _ => Cert.Kernel.Gen.frame m ρ

theorem frame_ki : Cert.frame_KernelIdeal := fun m ρ _ => Cert.KernelIdeal.Gen.frame m ρ

theorem frame_r : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- At the extended reals both programs end with wQ and wMU of the kernel's arguments: the kernel by its launches' values,
    the reference by its run's term read at an index, the agreement of the arguments, and the non-negative source numbers. -/
theorem algebraic : Cert.algebraic_KernelIdeal_ReferenceIdeal := by
  intro m ρ m' ρ' hpre hagree
  refine ⟨fun c => wQ m c, fun c => wMU m c, ?_, ?_⟩
  · exact (θ_run Cert.KernelIdeal.defs _ _).mono
      (fun _ h c => ⟨(h c).1.trans (kernelQ m c ρ), (h c).2.1.trans (kernelMU m c ρ), (h c).2.2⟩)
      (Cert.KernelIdeal.KRun.run (F := Ideal) m ρ)
  · refine (θ_run Cert.ReferenceIdeal.defs _ _).mono (fun _ h c => ?_) (Cert.ReferenceIdeal.Value.run (F := Ideal) m' ρ')
    obtain ⟨h0, h1, h2, h3, h4, h5, h6, h7, h8, h9, h10, h11, h12, h13, h14, h15, h16, h17, h18⟩ := hagree c
    have hs := fun (e : Fin 256000) => Cert.PreSrc.src_nonneg _ _ _ _ _ _ _ _ _ _ _ _ _ _ _ _ _ _ _ (hpre c) e
    refine ⟨(h c).1.trans ?_, (h c).2.1.trans ?_, (h c).2.2⟩
    · funext i
      obtain ⟨n, f, rfl⟩ : ∃ (n : Fin 10000) (f : Fin 128), i = ix2 n f := ⟨i 0, i 1, eq_ix2 i⟩
      exact refQ_of _ _ _ _ _ _ _ _ _ _ _ _ _ _ _ _ _ _ _ (StableHlo.launchContents m' c) h0 h1 h2 h3 h4 h5 h6 h7 h8 h9 h10 h11 h12 h13 h14 h15 h16 h17 h18 hs n f
    · funext i
      obtain ⟨n, k, f, rfl⟩ : ∃ (n : Fin 10000) (k : Fin 3) (f : Fin 128), i = ix3 n k f := ⟨i 0, i 1, i 2, eq_ix3 i⟩
      exact refMU_of _ _ _ _ _ _ _ _ _ _ _ _ _ _ _ _ _ _ _ (StableHlo.launchContents m' c) h0 h1 h2 h3 h4 h5 h6 h7 h8 h9 h10 h11 h12 h13 h14 h15 h16 h17 h18 hs n k f

theorem claim : Cert.Claim := ⟨Cert.Kernel.Gen.facts, Cert.KernelIdeal.Gen.facts, Cert.ReferenceIdeal.Gen.facts, Cert.Pre_finite_inputs.Gen.facts,
  frame_k, frame_ki, frame_r, preserves, algebraic⟩

end Cert.Proof

end
